-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S1x128 : Shape := ⟨2, ![1, 128]⟩
abbrev S1x1 : Shape := ⟨2, ![1, 1]⟩
abbrev S5000x128 : Shape := ⟨2, ![5000, 128]⟩
abbrev S800000x128 : Shape := ⟨2, ![800000, 128]⟩
abbrev S5000x1 : Shape := ⟨2, ![5000, 1]⟩
abbrev S256x1 : Shape := ⟨2, ![256, 1]⟩
abbrev S256x128 : Shape := ⟨2, ![256, 128]⟩
abbrev S5000x256 : Shape := ⟨2, ![5000, 256]⟩
abbrev S250x1 : Shape := ⟨2, ![250, 1]⟩

abbrev nBuf : Space → Nat
  | .hbm => 163
  | .vmem => 70
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S50000x1, .i32⟩
  | 24 => ⟨S_, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S_, .f32⟩
  | 35 => ⟨S800000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .f32⟩
  | 63 => ⟨S50000, .f32⟩
  | 64 => ⟨S50000, .f32⟩
  | 65 => ⟨S50000x1, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S1x1, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x1, .f32⟩
  | 116 => ⟨S800000x128, .f32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S50000x128, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S800000x1, .f32⟩
  | 16 => ⟨S800000x128, .f32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S50000x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S256x1, .f32⟩
  | 34 => ⟨S250x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x1, .i32⟩
  | .local _ .vmem, ⟨63, _⟩ => ⟨S5000x1, .i32⟩
  | .local _ .vmem, ⟨64, _⟩ => ⟨S128x128, .f32⟩
  | .local _ .vmem, ⟨65, _⟩ => ⟨S1x128, .f32⟩
  | .local _ .vmem, ⟨66, _⟩ => ⟨S128x1, .f32⟩
  | .local _ .vmem, ⟨67, _⟩ => ⟨S1x1, .f32⟩
  | .local _ .vmem, ⟨68, _⟩ => ⟨S256x1, .f32⟩
  | .local _ .vmem, ⟨69, _⟩ => ⟨S256x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_9 : Ref sig .tc := ⟨.hbm, 78, rfl⟩
abbrev main_v48 : Ref sig .tc := ⟨.hbm, 79, rfl⟩
abbrev main_v49 : Ref sig .tc := ⟨.hbm, 80, rfl⟩
abbrev main_c_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61_0 : Ref sig .tc := ⟨.hbm, 94, rfl⟩
abbrev main_v61_1 : Ref sig .tc := ⟨.hbm, 95, rfl⟩
abbrev main_v61_2 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82_0 : Ref sig .tc := ⟨.hbm, 122, rfl⟩
abbrev main_v82_1 : Ref sig .tc := ⟨.hbm, 123, rfl⟩
abbrev main_v82_2 : Ref sig .tc := ⟨.hbm, 124, rfl⟩
abbrev main_cst_17 : Ref sig .tc := ⟨.hbm, 125, rfl⟩
abbrev main_v83 : Ref sig .tc := ⟨.hbm, 126, rfl⟩
abbrev main_v84 : Ref sig .tc := ⟨.hbm, 127, rfl⟩
abbrev main_cst_18 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_19 : Ref sig .tc := ⟨.hbm, 134, rfl⟩
abbrev main_v90 : Ref sig .tc := ⟨.hbm, 135, rfl⟩
abbrev main_v91 : Ref sig .tc := ⟨.hbm, 136, rfl⟩
abbrev main_c_20 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_21 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103_0 : Ref sig .tc := ⟨.hbm, 150, rfl⟩
abbrev main_v103_1 : Ref sig .tc := ⟨.hbm, 151, rfl⟩
abbrev main_v103_2 : Ref sig .tc := ⟨.hbm, 152, rfl⟩
abbrev main_cst_22 : Ref sig .tc := ⟨.hbm, 153, rfl⟩
abbrev main_v104 : Ref sig .tc := ⟨.hbm, 154, rfl⟩
abbrev main_v105 : Ref sig .tc := ⟨.hbm, 155, rfl⟩
abbrev main_cst_23 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg6_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg6_0 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc6_stg5_1 : Ref sig .tc := ⟨.vmem, 63, rfl⟩
abbrev cc6_stg6_0 : Ref sig .tc := ⟨.vmem, 64, rfl⟩
abbrev cc6_stg7_0 : Ref sig .tc := ⟨.vmem, 65, rfl⟩
abbrev cc6_stg8_0 : Ref sig .tc := ⟨.vmem, 66, rfl⟩
abbrev cc6_stg9_0 : Ref sig .tc := ⟨.vmem, 67, rfl⟩
abbrev cc6_stg10_0 : Ref sig .tc := ⟨.vmem, 68, rfl⟩
abbrev cc6_scratch0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem6_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem4_1 : DmaSem sig := 53
abbrev cc5_sem5_0 : DmaSem sig := 54
abbrev cc5_sem6_0 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem5_1 : DmaSem sig := 63
abbrev cc6_sem6_0 : DmaSem sig := 64
abbrev cc6_sem7_0 : DmaSem sig := 65
abbrev cc6_sem8_0 : DmaSem sig := 66
abbrev cc6_sem9_0 : DmaSem sig := 67
abbrev cc6_sem10_0 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_18 : BitVec 32 := 0#32
  let v43 : BitVec 1 := Scalar.cmpi .ne v42 c0_i32_18
  v43

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x1 .i32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S256x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  iota_S5000x256_d1_w32 : S5000x256.Iotas .tc 32 [1]
  broadcasts_S5000x1_S5000x256 : S5000x1.Broadcasts S5000x256
  natLt_1_32 : 1 < 32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  slices_S256x1_S250x1_0_0 : S256x1.Slices ![0, 0] S250x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S5000x128_S256x128_0_0_1_1_n_n_wf : DotDims.WF S5000x256 S5000x128 S256x128 [0] [0] [1] [1] [] []
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x1.size a ≤ S50000x1.size a
  hwx6_5 : ∀ i : grid6.Coords, EltTy.bits .i32 = 32 ∨ (Rect.block (s := S50000x1) S5000x1.size (cc6_transform_5 i) (hinb6_5 i)).WholeWords (EltTy.packing .i32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x1.size a ≤ S128x1.size a
  hwx6_8 : ∀ i : grid6.Coords, EltTy.bits .f32 = 32 ∨ (Rect.block (s := S128x1) S128x1.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x1.size a ≤ S1x1.size a
  hwx6_9 : ∀ i : grid6.Coords, EltTy.bits .f32 = 32 ∨ (Rect.block (s := S1x1) S1x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S256x1.size a ≤ S256x1.size a
  hwx6_10 : ∀ i : grid6.Coords, EltTy.bits .f32 = 32 ∨ (Rect.block (s := S256x1) S256x1.size (cc6_transform_10 i) (hinb6_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v61_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v82_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v89) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v42) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v103_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v103_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v103_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v43) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v44) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v4) S5000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg15) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v45) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg17) S128x1.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v46) S1x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v110) S256x1.size cc6_transform_10 reads6_10 true true 1 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev idle6 : Fin 11 → grid6.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k6_cond2 i == 1#1) | ⟨_ + 11, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S250x128 : Shape := ⟨2, ![250, 128]⟩
abbrev S250x1 : Shape := ⟨2, ![250, 1]⟩
abbrev S1x1 : Shape := ⟨2, ![1, 1]⟩

abbrev nBuf : Space → Nat
  | .hbm => 332
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S50000x128, .f32⟩
  | 24 => ⟨S_, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S_, .f32⟩
  | 35 => ⟨S800000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S_, .f32⟩
  | 5 => ⟨S800000, .f32⟩
  | 6 => ⟨S50000, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x1, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .f32⟩
  | 93 => ⟨S50000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S_, .f32⟩
  | 103 => ⟨S800000, .f32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_2 (i : Nat) : BufTy := match i % 128 with
  | 0 => ⟨S800000, .f32⟩
  | 1 => ⟨S800000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S800000x1, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S_, .f32⟩
  | 19 => ⟨S50000, .f32⟩
  | 20 => ⟨S50000, .f32⟩
  | 21 => ⟨S50000x1, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S_, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S250x128, .f32⟩
  | 63 => ⟨S50000x1, .i32⟩
  | 64 => ⟨S250x128, .f32⟩
  | 65 => ⟨S250x128, .f32⟩
  | 66 => ⟨S1x128, .f32⟩
  | 67 => ⟨S250x128, .f32⟩
  | 68 => ⟨S250x128, .f32⟩
  | 69 => ⟨S_, .f32⟩
  | 70 => ⟨S250x128, .f32⟩
  | 71 => ⟨S250x128, .f32⟩
  | 72 => ⟨S250x1, .f32⟩
  | 73 => ⟨S1x1, .f32⟩
  | 74 => ⟨S250x1, .f32⟩
  | 75 => ⟨S250x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_6 : Ref sig .tc := ⟨.hbm, 52, rfl⟩
abbrev main_v25 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_c_9 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call0_cst : Ref sig .tc := ⟨.hbm, 118, rfl⟩
abbrev main_call0_v0 : Ref sig .tc := ⟨.hbm, 119, rfl⟩
abbrev main_v80 : Ref sig .tc := ⟨.hbm, 120, rfl⟩
abbrev main_v81 : Ref sig .tc := ⟨.hbm, 121, rfl⟩
abbrev main_cst_17 : Ref sig .tc := ⟨.hbm, 122, rfl⟩
abbrev main_v82 : Ref sig .tc := ⟨.hbm, 123, rfl⟩
abbrev main_c_18 : Ref sig .tc := ⟨.hbm, 124, rfl⟩
abbrev main_v83 : Ref sig .tc := ⟨.hbm, 125, rfl⟩
abbrev main_v84 : Ref sig .tc := ⟨.hbm, 126, rfl⟩
abbrev main_c_19 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_20 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_cst_22 : Ref sig .tc := ⟨.hbm, 138, rfl⟩
abbrev main_v93 : Ref sig .tc := ⟨.hbm, 139, rfl⟩
abbrev main_v94 : Ref sig .tc := ⟨.hbm, 140, rfl⟩
abbrev main_c_23 : Ref sig .tc := ⟨.hbm, 141, rfl⟩
abbrev main_v95 : Ref sig .tc := ⟨.hbm, 142, rfl⟩
abbrev main_v96 : Ref sig .tc := ⟨.hbm, 143, rfl⟩
abbrev main_c_24 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_25 : Ref sig .tc := ⟨.hbm, 150, rfl⟩
abbrev main_v102 : Ref sig .tc := ⟨.hbm, 151, rfl⟩
abbrev main_v103 : Ref sig .tc := ⟨.hbm, 152, rfl⟩
abbrev main_c_26 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_c_27 : Ref sig .tc := ⟨.hbm, 160, rfl⟩
abbrev main_v110 : Ref sig .tc := ⟨.hbm, 161, rfl⟩
abbrev main_v111 : Ref sig .tc := ⟨.hbm, 162, rfl⟩
abbrev main_c_28 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_29 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_31 : Ref sig .tc := ⟨.hbm, 186, rfl⟩
abbrev main_v132 : Ref sig .tc := ⟨.hbm, 187, rfl⟩
abbrev main_cst_32 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_cst_33 : Ref sig .tc := ⟨.hbm, 195, rfl⟩
abbrev main_v139 : Ref sig .tc := ⟨.hbm, 196, rfl⟩
abbrev main_cst_34 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_cst_35 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_call1_cst : Ref sig .tc := ⟨.hbm, 216, rfl⟩
abbrev main_call1_v0 : Ref sig .tc := ⟨.hbm, 217, rfl⟩
abbrev main_v157 : Ref sig .tc := ⟨.hbm, 218, rfl⟩
abbrev main_v158 : Ref sig .tc := ⟨.hbm, 219, rfl⟩
abbrev main_cst_36 : Ref sig .tc := ⟨.hbm, 220, rfl⟩
abbrev main_v159 : Ref sig .tc := ⟨.hbm, 221, rfl⟩
abbrev main_c_37 : Ref sig .tc := ⟨.hbm, 222, rfl⟩
abbrev main_v160 : Ref sig .tc := ⟨.hbm, 223, rfl⟩
abbrev main_v161 : Ref sig .tc := ⟨.hbm, 224, rfl⟩
abbrev main_c_38 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_39 : Ref sig .tc := ⟨.hbm, 230, rfl⟩
abbrev main_v166 : Ref sig .tc := ⟨.hbm, 231, rfl⟩
abbrev main_v167 : Ref sig .tc := ⟨.hbm, 232, rfl⟩
abbrev main_cst_40 : Ref sig .tc := ⟨.hbm, 233, rfl⟩
abbrev main_v168 : Ref sig .tc := ⟨.hbm, 234, rfl⟩
abbrev main_v169 : Ref sig .tc := ⟨.hbm, 235, rfl⟩
abbrev main_cst_41 : Ref sig .tc := ⟨.hbm, 236, rfl⟩
abbrev main_v170 : Ref sig .tc := ⟨.hbm, 237, rfl⟩
abbrev main_v171 : Ref sig .tc := ⟨.hbm, 238, rfl⟩
abbrev main_c_42 : Ref sig .tc := ⟨.hbm, 239, rfl⟩
abbrev main_v172 : Ref sig .tc := ⟨.hbm, 240, rfl⟩
abbrev main_v173 : Ref sig .tc := ⟨.hbm, 241, rfl⟩
abbrev main_c_43 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_c_44 : Ref sig .tc := ⟨.hbm, 248, rfl⟩
abbrev main_v179 : Ref sig .tc := ⟨.hbm, 249, rfl⟩
abbrev main_v180 : Ref sig .tc := ⟨.hbm, 250, rfl⟩
abbrev main_c_45 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_c_46 : Ref sig .tc := ⟨.hbm, 258, rfl⟩
abbrev main_v187 : Ref sig .tc := ⟨.hbm, 259, rfl⟩
abbrev main_v188 : Ref sig .tc := ⟨.hbm, 260, rfl⟩
abbrev main_c_47 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_cst_48 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_cst_49 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_50 : Ref sig .tc := ⟨.hbm, 284, rfl⟩
abbrev main_v209 : Ref sig .tc := ⟨.hbm, 285, rfl⟩
abbrev main_cst_51 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_cst_52 : Ref sig .tc := ⟨.hbm, 293, rfl⟩
abbrev main_v216 : Ref sig .tc := ⟨.hbm, 294, rfl⟩
abbrev main_cst_53 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_cst_54 : Ref sig .tc := ⟨.hbm, 301, rfl⟩
abbrev main_v222 : Ref sig .tc := ⟨.hbm, 302, rfl⟩
abbrev main_v223 : Ref sig .tc := ⟨.hbm, 303, rfl⟩
abbrev main_v224 : Ref sig .tc := ⟨.hbm, 304, rfl⟩
abbrev main_v225 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_call2_cst : Ref sig .tc := ⟨.hbm, 314, rfl⟩
abbrev main_call2_v0 : Ref sig .tc := ⟨.hbm, 315, rfl⟩
abbrev main_v234 : Ref sig .tc := ⟨.hbm, 316, rfl⟩
abbrev main_cst_55 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_call3_cst : Ref sig .tc := ⟨.hbm, 325, rfl⟩
abbrev main_call3_v0 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S250x128 : S_.BroadcastsInDim S250x128 (![] : Fin 0 → Fin S250x128.rank)
  bcast_S1x128_S250x128_0_1 : S1x128.BroadcastsInDim S250x128 (![0, 1] : Fin 2 → Fin S250x128.rank)
  bcast_S1_S1x1_1 : S1.BroadcastsInDim S1x1 (![1] : Fin 1 → Fin S1x1.rank)
  bcast_S1x1_S250x1_0_1 : S1x1.BroadcastsInDim S250x1 (![0, 1] : Fin 2 → Fin S250x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S250x128_S50000x1_S50000x128_1_0_0_1_wf : ScatterDims.WF S250x128 S50000x1 S50000x128 [1] [0] [0] 1
  dot_S250x128_S128x128_S250x128_1_0_0_1_n_n_wf : DotDims.WF S250x128 S128x128 S250x128 [1] [0] [0] [1] [] []
  dot_S250x128_S128x1_S250x1_1_0_0_1_n_n_wf : DotDims.WF S250x128 S128x1 S250x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S250x128_S50000x1_S50000x128_1_0_0_1 : ScatterDims S250x128 S50000x1 S50000x128 where
  updateWindowDims := [1]
  insertedWindowDims := [0]
  scatterDimsToOperandDims := [0]
  indexVectorDim := 1
  wf := scatter_S250x128_S50000x1_S50000x128_1_0_0_1_wf
def dot_S250x128_S128x128_S250x128_1_0_0_1_n_n : DotDims S250x128 S128x128 S250x128 where
  lhsContracting := [1]
  rhsContracting := [0]
  lhsNonContracting := [0]
  rhsNonContracting := [1]
  lhsBatch := []
  rhsBatch := []
  wf := dot_S250x128_S128x128_S250x128_1_0_0_1_n_n_wf
def dot_S250x128_S128x1_S250x1_1_0_0_1_n_n : DotDims S250x128 S128x1 S250x1 where
  lhsContracting := [1]
  rhsContracting := [0]
  lhsNonContracting := [0]
  rhsNonContracting := [1]
  lhsBatch := []
  rhsBatch := []
  wf := dot_S250x128_S128x1_S250x1_1_0_0_1_n_n_wf

class Facts : Prop extends Facts₀ where

variable [Facts]
-- ==== Proof.K.R0.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of rows, its index moving with the point) holds its block at every point, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, its index constant) holds its block at every point, fetched there or
    not: where it is not fetched the index has not moved, and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product of the
    block of rows with the weight matrix, over the whole buffer. -/
def out0_2 (x0 : Vec F S5000x128 .f32) (x1 : Vec F S128x128 .f32) : Vec F S5000x128 .f32 :=
  View.canon [⟨r0_0, k0_pay1 (View.ld x0 r0_0) (View.ld x1 r0_1)⟩]

/-- The store's rectangle is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. The load of
    the output buffer before the store reads whatever is there and its value is never used. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the input blocks; the invariant the class's (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an unfetched
    window's block index has not moved), for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: "this is the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k1_pay1`, and each accumulator at its reset value (zero) plus this block's column sums: the reset store covers
    the accumulator's buffer, so the load after it reads the zero vector back whatever the buffer held. -/
theorem sound_kernel1_A (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay1 x0 x1 x2 x3)
            ∗ owns (c : Thread nD τ) arg6 fullShare (k1_pay4 x0 x1 x2 x3 k1_pay2)
            ∗ owns (c : Thread nD τ) arg7 fullShare (k1_pay5 x0 x1 x2 x3 k1_pay3)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel1_A.sl.v17 sound_kernel1_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel1_A.sl.v23 sound_kernel1_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel1_B (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay1 x0 x1 x2 x3)
            ∗ owns (c : Thread nD τ) arg6 fullShare (k1_pay4 x0 x1 x2 x3 xo5)
            ∗ owns (c : Thread nD τ) arg7 fullShare (k1_pay5 x0 x1 x2 x3 xo6)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt1_5 (c : Dev nD) : (n : ℕ) → n < cfg1.N → Vec F S1x128 .f32
  | 0, hn => k1_pay4 (iblk1 V c 0 ⟨0, hn⟩) (iblk1 V c 1 ⟨0, hn⟩) (iblk1 V c 2 ⟨0, hn⟩) (iblk1 V c 3 ⟨0, hn⟩) k1_pay2
  | n + 1, hn => k1_pay4 (iblk1 V c 0 ⟨n + 1, hn⟩) (iblk1 V c 1 ⟨n + 1, hn⟩) (iblk1 V c 2 ⟨n + 1, hn⟩) (iblk1 V c 3 ⟨n + 1, hn⟩) (outsAt1_5 c n (Nat.lt_of_succ_lt hn))

theorem outsAt1_5_zero (c : Dev nD) (hn : 0 < cfg1.N) :
    outsAt1_5 V c 0 hn = k1_pay4 (iblk1 V c 0 ⟨0, hn⟩) (iblk1 V c 1 ⟨0, hn⟩) (iblk1 V c 2 ⟨0, hn⟩) (iblk1 V c 3 ⟨0, hn⟩) k1_pay2 := rfl

theorem outsAt1_5_succ (c : Dev nD) (n : ℕ) (hn : n + 1 < cfg1.N) :
    outsAt1_5 V c (n + 1) hn = k1_pay4 (iblk1 V c 0 ⟨n + 1, hn⟩) (iblk1 V c 1 ⟨n + 1, hn⟩) (iblk1 V c 2 ⟨n + 1, hn⟩) (iblk1 V c 3 ⟨n + 1, hn⟩) (outsAt1_5 V c n (Nat.lt_of_succ_lt hn)) := rfl

/-- At the first point. -/
theorem outsAt1_5_A (c : Dev nD) (t : Fin cfg1.N) (h0 : t.val % 10 = 0) :
    outsAt1_5 V c t.val t.isLt = k1_pay4 (iblk1 V c 0 t) (iblk1 V c 1 t) (iblk1 V c 2 t) (iblk1 V c 3 t) k1_pay2 := by
  have hN : t.val < 10 := lt_of_lt_of_eq t.isLt (show cfg1.N = 10 from N_1)
  obtain ⟨n, hn⟩ := t
  cases n with
  | zero => exact rfl
  | succ n => exfalso; dsimp only at h0 hN; omega

/-- At a later point: over what the point before left. -/
theorem outsAt1_5_B (c : Dev nD) (t : Fin cfg1.N) (h0 : ¬t.val % 10 = 0) :
    outsAt1_5 V c t.val t.isLt = k1_pay4 (iblk1 V c 0 t) (iblk1 V c 1 t) (iblk1 V c 2 t) (iblk1 V c 3 t) (outsAt1_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt1_6 (c : Dev nD) : (n : ℕ) → n < cfg1.N → Vec F S1x128 .f32
  | 0, hn => k1_pay5 (iblk1 V c 0 ⟨0, hn⟩) (iblk1 V c 1 ⟨0, hn⟩) (iblk1 V c 2 ⟨0, hn⟩) (iblk1 V c 3 ⟨0, hn⟩) k1_pay3
  | n + 1, hn => k1_pay5 (iblk1 V c 0 ⟨n + 1, hn⟩) (iblk1 V c 1 ⟨n + 1, hn⟩) (iblk1 V c 2 ⟨n + 1, hn⟩) (iblk1 V c 3 ⟨n + 1, hn⟩) (outsAt1_6 c n (Nat.lt_of_succ_lt hn))

theorem outsAt1_6_zero (c : Dev nD) (hn : 0 < cfg1.N) :
    outsAt1_6 V c 0 hn = k1_pay5 (iblk1 V c 0 ⟨0, hn⟩) (iblk1 V c 1 ⟨0, hn⟩) (iblk1 V c 2 ⟨0, hn⟩) (iblk1 V c 3 ⟨0, hn⟩) k1_pay3 := rfl

theorem outsAt1_6_succ (c : Dev nD) (n : ℕ) (hn : n + 1 < cfg1.N) :
    outsAt1_6 V c (n + 1) hn = k1_pay5 (iblk1 V c 0 ⟨n + 1, hn⟩) (iblk1 V c 1 ⟨n + 1, hn⟩) (iblk1 V c 2 ⟨n + 1, hn⟩) (iblk1 V c 3 ⟨n + 1, hn⟩) (outsAt1_6 V c n (Nat.lt_of_succ_lt hn)) := rfl

/-- At the first point. -/
theorem outsAt1_6_A (c : Dev nD) (t : Fin cfg1.N) (h0 : t.val % 10 = 0) :
    outsAt1_6 V c t.val t.isLt = k1_pay5 (iblk1 V c 0 t) (iblk1 V c 1 t) (iblk1 V c 2 t) (iblk1 V c 3 t) k1_pay3 := by
  have hN : t.val < 10 := lt_of_lt_of_eq t.isLt (show cfg1.N = 10 from N_1)
  obtain ⟨n, hn⟩ := t
  cases n with
  | zero => exact rfl
  | succ n => exfalso; dsimp only at h0 hN; omega

/-- At a later point: over what the point before left. -/
theorem outsAt1_6_B (c : Dev nD) (t : Fin cfg1.N) (h0 : ¬t.val % 10 = 0) :
    outsAt1_6 V c t.val t.isLt = k1_pay5 (iblk1 V c 0 t) (iblk1 V c 1 t) (iblk1 V c 2 t) (iblk1 V c 3 t) (outsAt1_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k1_pay1` of the input blocks, each
    accumulator's at its running sum; the invariant the class's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
    | ⟨5, _⟩ => outsAt1_5 V c t.val t.isLt
    | ⟨6, _⟩ => outsAt1_6 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (iblk1 V c 0 t) (iblk1 V c 1 t) (iblk1 V c 2 t) (iblk1 V c 3 t) := by dsimp only [dat1]
theorem after1_5 (c : Dev nD) (t : Fin cfg1.N) : (dat1 V c).after 5 t = outsAt1_5 V c t.val t.isLt := by dsimp only [dat1]
theorem after1_6 (c : Dev nD) (t : Fin cfg1.N) : (dat1 V c).after 6 t = outsAt1_6 V c t.val t.isLt := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later point accumulator 5's staging buffer holds what the body left at the point before: the point is not the
    first, the buffer was not written back in between (only after the last point), the window is live and uncut. -/
theorem before1_5_B (c : Dev nD) (t : Fin cfg1.N) (h0 : ¬t.val % 10 = 0) (d) :
    (dat1 V c).before 5 t d = outsAt1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]
/-- At a later point accumulator 6's staging buffer holds what the body left at the point before: the point is not the
    first, the buffer was not written back in between (only after the last point), the window is live and uncut. -/
theorem before1_6_B (c : Dev nD) (t : Fin cfg1.N) (h0 : ¬t.val % 10 = 0) (d) :
    (dat1 V c).before 6 t d = outsAt1_6 V c (t.val - 1) (Nat.lt_of_le_of_lt (Nat.sub_le _ _) t.isLt) := by
  have hN : t.val < 10 := lt_of_lt_of_eq t.isLt (show cfg1.N = 10 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 10 = 0
  · rw [outsAt1_5_A V c t h0, outsAt1_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt1_5_B V c t h0, outsAt1_6_B V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h)) (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.R2.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of rows, its index moving with the point) holds its block at every point, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a row of per-column values, its index constant) holds its block at every point, fetched there or not, for any proof data
    whose array is the entry contents and whose body leaves the block in place: where it is not fetched the index has
    not moved, and the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a row of per-column values, its index constant) holds its block at every point, fetched there or not, for any proof data
    whose array is the entry contents and whose body leaves the block in place: where it is not fetched the index has
    not moved, and the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a row of per-column values, its index constant) holds its block at every point, fetched there or not, for any proof data
    whose array is the entry contents and whose body leaves the block in place: where it is not fetched the index has
    not moved, and the buffer still holds the same block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (a row of per-column values, its index constant) holds its block at every point, fetched there or not, for any proof data
    whose array is the entry contents and whose body leaves the block in place: where it is not fetched the index has
    not moved, and the buffer still holds the same block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the whole weight matrix, its index constant) holds its block at every point, fetched there or not, for any proof data
    whose array is the entry contents and whose body leaves the block in place: where it is not fetched the index has
    not moved, and the buffer still holds the same block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

/-! ## What the body leaves in the output window's buffer -/

/-- Window 6's staging buffer after the body, from the input windows' blocks: its one store, of the product of the
    normalised, rectified block of rows with the weight matrix, over the whole buffer. -/
def out2_6 (x0 : Vec F S5000x128 .f32) (x1 : Vec F S1x128 .f32) (x2 : Vec F S1x128 .f32) (x3 : Vec F S1x128 .f32) (x4 : Vec F S1x128 .f32) (x5 : Vec F S128x128 .f32) : Vec F S5000x128 .f32 :=
  View.canon [⟨r2_0, k2_pay1 (View.ld x0 r2_0) (View.ld x1 r2_1) (View.ld x2 r2_1) (View.ld x3 r2_1) (View.ld x4 r2_1) (View.ld x5 r2_2)⟩]

/-- The store's rectangle is the whole buffer, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_6` of the inputs'. The load of the
    output buffer before the store reads whatever is there and its value is never used. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_linear_kernel i arg1 harg1 arg2 harg2 arg3 harg3 arg4 harg4 arg5 harg5 arg6 harg6 arg7 harg7) K := by
  simp only [cc2__bn_relu_linear_kernel_eq_skeleton]; unfold cc2__bn_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays as the region finds them; after the body at point `t` each
    input's buffer at its block and the output's at `out2_6` of the input blocks; the invariant the class's (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.R3.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not (an unfetched
    window's block index has not moved), for any proof data whose array is `V`'s and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, from the grid coordinates: "this is the first point". -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k3_pay1`, and each accumulator at its reset value (zero) plus this block's column sums: the reset store covers
    the accumulator's buffer, so the load after it reads the zero vector back whatever the buffer held. -/
theorem sound_kernel3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond3_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay1 x0 x1 x2 x3)
            ∗ owns (c : Thread nD τ) arg6 fullShare (k3_pay4 x0 x1 x2 x3 k3_pay2)
            ∗ owns (c : Thread nD τ) arg7 fullShare (k3_pay5 x0 x1 x2 x3 k3_pay3)) -∗ K ⟨⟩))
      ⊢ wp frame (wpE (defs₀ (F := F)) Variants.none c none) E (cc3__combine_stats_kernel i arg1 harg1 arg2 harg2 arg3 harg3 arg4 harg4 arg5 harg5 arg6 harg6 arg7 harg7) K := by
  simp only [cc3__combine_stats_kernel_eq_skeleton]; unfold cc3__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel3_A.sl.v17 sound_kernel3_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel3_A.sl.v23 sound_kernel3_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay1 x0 x1 x2 x3)
            ∗ owns (c : Thread nD τ) arg6 fullShare (k3_pay4 x0 x1 x2 x3 xo5)
            ∗ owns (c : Thread nD τ) arg7 fullShare (k3_pay5 x0 x1 x2 x3 xo6)) -∗ K ⟨⟩))
      ⊢ wp frame (wpE (defs₀ (F := F)) Variants.none c none) E (cc3__combine_stats_kernel i arg1 harg1 arg2 harg2 arg3 harg3 arg4 harg4 arg5 harg5 arg6 harg6 arg7 harg7) K := by
  simp only [cc3__combine_stats_kernel_eq_skeleton]; unfold cc3__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt3_5 (c : Dev nD) : (n : ℕ) → n < cfg3.N → Vec F S1x128 .f32
  | 0, hn => k3_pay4 (iblk3 V c 0 ⟨0, hn⟩) (iblk3 V c 1 ⟨0, hn⟩) (iblk3 V c 2 ⟨0, hn⟩) (iblk3 V c 3 ⟨0, hn⟩) k3_pay2
  | n + 1, hn => k3_pay4 (iblk3 V c 0 ⟨n + 1, hn⟩) (iblk3 V c 1 ⟨n + 1, hn⟩) (iblk3 V c 2 ⟨n + 1, hn⟩) (iblk3 V c 3 ⟨n + 1, hn⟩) (outsAt3_5 c n (Nat.lt_of_succ_lt hn))

theorem outsAt3_5_zero (c : Dev nD) (hn : 0 < cfg3.N) :
    outsAt3_5 V c 0 hn = k3_pay4 (iblk3 V c 0 ⟨0, hn⟩) (iblk3 V c 1 ⟨0, hn⟩) (iblk3 V c 2 ⟨0, hn⟩) (iblk3 V c 3 ⟨0, hn⟩) k3_pay2 := rfl

theorem outsAt3_5_succ (c : Dev nD) (n : ℕ) (hn : n + 1 < cfg3.N) :
    outsAt3_5 V c (n + 1) hn = k3_pay4 (iblk3 V c 0 ⟨n + 1, hn⟩) (iblk3 V c 1 ⟨n + 1, hn⟩) (iblk3 V c 2 ⟨n + 1, hn⟩) (iblk3 V c 3 ⟨n + 1, hn⟩) (outsAt3_5 V c n (Nat.lt_of_succ_lt hn)) := rfl

/-- At the first point. -/
theorem outsAt3_5_A (c : Dev nD) (t : Fin cfg3.N) (h0 : t.val % 10 = 0) :
    outsAt3_5 V c t.val t.isLt = k3_pay4 (iblk3 V c 0 t) (iblk3 V c 1 t) (iblk3 V c 2 t) (iblk3 V c 3 t) k3_pay2 := by
  have hN : t.val < 10 := lt_of_lt_of_eq t.isLt (show cfg3.N = 10 from N_3)
  obtain ⟨n, hn⟩ := t
  cases n with
  | zero => exact rfl
  | succ n => exfalso; dsimp only at h0 hN; omega

/-- At a later point: over what the point before left. -/
theorem outsAt3_5_B (c : Dev nD) (t : Fin cfg3.N) (h0 : ¬t.val % 10 = 0) :
    outsAt3_5 V c t.val t.isLt = k3_pay4 (iblk3 V c 0 t) (iblk3 V c 1 t) (iblk3 V c 2 t) (iblk3 V c 3 t) (outsAt3_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt3_6 (c : Dev nD) : (n : ℕ) → n < cfg3.N → Vec F S1x128 .f32
  | 0, hn => k3_pay5 (iblk3 V c 0 ⟨0, hn⟩) (iblk3 V c 1 ⟨0, hn⟩) (iblk3 V c 2 ⟨0, hn⟩) (iblk3 V c 3 ⟨0, hn⟩) k3_pay3
  | n + 1, hn => k3_pay5 (iblk3 V c 0 ⟨n + 1, hn⟩) (iblk3 V c 1 ⟨n + 1, hn⟩) (iblk3 V c 2 ⟨n + 1, hn⟩) (iblk3 V c 3 ⟨n + 1, hn⟩) (outsAt3_6 c n (Nat.lt_of_succ_lt hn))

theorem outsAt3_6_zero (c : Dev nD) (hn : 0 < cfg3.N) :
    outsAt3_6 V c 0 hn = k3_pay5 (iblk3 V c 0 ⟨0, hn⟩) (iblk3 V c 1 ⟨0, hn⟩) (iblk3 V c 2 ⟨0, hn⟩) (iblk3 V c 3 ⟨0, hn⟩) k3_pay3 := rfl

theorem outsAt3_6_succ (c : Dev nD) (n : ℕ) (hn : n + 1 < cfg3.N) :
    outsAt3_6 V c (n + 1) hn = k3_pay5 (iblk3 V c 0 ⟨n + 1, hn⟩) (iblk3 V c 1 ⟨n + 1, hn⟩) (iblk3 V c 2 ⟨n + 1, hn⟩) (iblk3 V c 3 ⟨n + 1, hn⟩) (outsAt3_6 V c n (Nat.lt_of_succ_lt hn)) := rfl

/-- At the first point. -/
theorem outsAt3_6_A (c : Dev nD) (t : Fin cfg3.N) (h0 : t.val % 10 = 0) :
    outsAt3_6 V c t.val t.isLt = k3_pay5 (iblk3 V c 0 t) (iblk3 V c 1 t) (iblk3 V c 2 t) (iblk3 V c 3 t) k3_pay3 := by
  have hN : t.val < 10 := lt_of_lt_of_eq t.isLt (show cfg3.N = 10 from N_3)
  obtain ⟨n, hn⟩ := t
  cases n with
  | zero => exact rfl
  | succ n => exfalso; dsimp only at h0 hN; omega

/-- At a later point: over what the point before left. -/
theorem outsAt3_6_B (c : Dev nD) (t : Fin cfg3.N) (h0 : ¬t.val % 10 = 0) :
    outsAt3_6 V c t.val t.isLt = k3_pay5 (iblk3 V c 0 t) (iblk3 V c 1 t) (iblk3 V c 2 t) (iblk3 V c 3 t) (outsAt3_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k3_pay1` of the input blocks, each
    accumulator's at its running sum; the invariant the class's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
    | ⟨5, _⟩ => outsAt3_5 V c t.val t.isLt
    | ⟨6, _⟩ => outsAt3_6 V c t.val t.isLt
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay1 (iblk3 V c 0 t) (iblk3 V c 1 t) (iblk3 V c 2 t) (iblk3 V c 3 t) := by dsimp only [dat3]
theorem after3_5 (c : Dev nD) (t : Fin cfg3.N) : (dat3 V c).after 5 t = outsAt3_5 V c t.val t.isLt := by dsimp only [dat3]
theorem after3_6 (c : Dev nD) (t : Fin cfg3.N) : (dat3 V c).after 6 t = outsAt3_6 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
/-- At a later point accumulator 5's staging buffer holds what the body left at the point before: the point is not the
    first, the buffer was not written back in between (only after the last point), the window is live and uncut. -/
theorem before3_5_B (c : Dev nD) (t : Fin cfg3.N) (h0 : ¬t.val % 10 = 0) (d) :
    (dat3 V c).before 5 t d = outsAt3_5 V c (t.val - 1) (Nat.lt_of_le_of_lt (Nat.sub_le _ _) t.isLt) := by
  have hN : t.val < 10 := lt_of_lt_of_eq t.isLt (show cfg3.N = 10 from N_3)
  rw [Dat.before_out_kept _ 5 rfl t (by omega) (Bool.eq_false_iff.mpr fun h => by have := (flush3_5 _).mp h; dsimp only at this; omega)
    (fun _ => rfl) (fun _ _ => rfl)]
  dsimp only [dat3]
/-- At a later point accumulator 6's staging buffer holds what the body left at the point before: the point is not the
    first, the buffer was not written back in between (only after the last point), the window is live and uncut. -/
theorem before3_6_B (c : Dev nD) (t : Fin cfg3.N) (h0 : ¬t.val % 10 = 0) (d) :
    (dat3 V c).before 6 t d = outsAt3_6 V c (t.val - 1) (Nat.lt_of_le_of_lt (Nat.sub_le _ _) t.isLt) := by
  have hN : t.val < 10 := lt_of_lt_of_eq t.isLt (show cfg3.N = 10 from N_3)
  rw [Dat.before_out_kept _ 6 rfl t (by omega) (Bool.eq_false_iff.mpr fun h => by have := (flush3_6 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val % 10 = 0
  · rw [outsAt3_5_A V c t h0, outsAt3_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel3_A c Set.univ (grid3.coords t) _ _ _ _ _ _ _ _ _ _ _ _ _ _ ((hcond3_0 t).mpr h0) (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt3_5_B V c t h0, outsAt3_6_B V c t h0]
    simp only [before3_5_B V c t h0, before3_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel3_B c Set.univ (grid3.coords t) _ _ _ _ _ _ _ _ _ _ _ _ _ _ (fun h => h0 ((hcond3_0 t).mp h)) (iblk3 V c 0 t) (iblk3 V c 1 t) (iblk3 V c 2 t) (iblk3 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.R4.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (a block of rows, its index moving with the point) holds its block at every point, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (a row of per-column values, its index constant) holds its block at every point, fetched there or not, for any proof data
    whose array is the entry contents and whose body leaves the block in place: where it is not fetched the index has
    not moved, and the buffer still holds the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (a row of per-column values, its index constant) holds its block at every point, fetched there or not, for any proof data
    whose array is the entry contents and whose body leaves the block in place: where it is not fetched the index has
    not moved, and the buffer still holds the same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (a row of per-column values, its index constant) holds its block at every point, fetched there or not, for any proof data
    whose array is the entry contents and whose body leaves the block in place: where it is not fetched the index has
    not moved, and the buffer still holds the same block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (a row of per-column values, its index constant) holds its block at every point, fetched there or not, for any proof data
    whose array is the entry contents and whose body leaves the block in place: where it is not fetched the index has
    not moved, and the buffer still holds the same block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the whole weight matrix, its index constant) holds its block at every point, fetched there or not, for any proof data
    whose array is the entry contents and whose body leaves the block in place: where it is not fetched the index has
    not moved, and the buffer still holds the same block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S128x128 := Rect.unit (s := S128x128) ![0, 0] S128x128.size inb_S128x128_S128x128_0_0

/-! ## What the body leaves in the output window's buffer -/

/-- Window 6's staging buffer after the body, from the input windows' blocks: its one store, of the product of the
    normalised, rectified block of rows with the weight matrix, over the whole buffer. -/
def out4_6 (x0 : Vec F S5000x128 .f32) (x1 : Vec F S1x128 .f32) (x2 : Vec F S1x128 .f32) (x3 : Vec F S1x128 .f32) (x4 : Vec F S1x128 .f32) (x5 : Vec F S128x128 .f32) : Vec F S5000x128 .f32 :=
  View.canon [⟨r4_0, k4_pay1 (View.ld x0 r4_0) (View.ld x1 r4_1) (View.ld x2 r4_1) (View.ld x3 r4_1) (View.ld x4 r4_1) (View.ld x5 r4_2)⟩]

/-- The store's rectangle is the whole buffer, so it covers it. -/
theorem cover4_6 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `xW` and the output's at anything, runs to
    the continuation holding the inputs' as they were and the output's at `out4_6` of the inputs'. The load of the
    output buffer before the store reads whatever is there and its value is never used. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__bn_relu_linear_kernel i arg1 harg1 arg2 harg2 arg3 harg3 arg4 harg4 arg5 harg5 arg6 harg6 arg7 harg7) K := by
  simp only [cc4__bn_relu_linear_kernel_eq_skeleton]; unfold cc4__bn_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of the pipeline on core `c`: the arrays as the region finds them; after the body at point `t` each
    input's buffer at its block and the output's at `out4_6` of the input blocks; the invariant the class's (the scoped
    rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.K.R5.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, fetched there or not (an unfetched
    window's block index has not moved), for any proof data whose array is `V`'s and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, from the grid coordinates: "this is the first point". -/
abbrev cond5_0 (i : grid5.Coords) : Prop := (Scalar.cmpi .ne (Scalar.extui (Scalar.cmpi .eq (BitVec.ofNat 32 (i 0).val) 0#32)) 0#32) = 1#1
/-- It holds at the first point only: decided over the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k5_pay1`, and each accumulator at its reset value (zero) plus this block's column sums: the reset store covers
    the accumulator's buffer, so the load after it reads the zero vector back whatever the buffer held. -/
theorem sound_kernel5_A (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond5_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k5_pay1 x0 x1 x2 x3)
            ∗ owns (c : Thread nD τ) arg6 fullShare (k5_pay4 x0 x1 x2 x3 k5_pay2)
            ∗ owns (c : Thread nD τ) arg7 fullShare (k5_pay5 x0 x1 x2 x3 k5_pay3)) -∗ K ⟨⟩))
      ⊢ wp frame (wpE (defs₀ (F := F)) Variants.none c none) E (cc5__combine_stats_kernel i arg1 harg1 arg2 harg2 arg3 harg3 arg4 harg4 arg5 harg5 arg6 harg6 arg7 harg7) K := by
  simp only [cc5__combine_stats_kernel_eq_skeleton]; unfold cc5__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel5_A.sl.v17 sound_kernel5_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel5_A.sl.v23 sound_kernel5_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel5_B (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k5_pay1 x0 x1 x2 x3)
            ∗ owns (c : Thread nD τ) arg6 fullShare (k5_pay4 x0 x1 x2 x3 xo5)
            ∗ owns (c : Thread nD τ) arg7 fullShare (k5_pay5 x0 x1 x2 x3 xo6)) -∗ K ⟨⟩))
      ⊢ wp frame (wpE (defs₀ (F := F)) Variants.none c none) E (cc5__combine_stats_kernel i arg1 harg1 arg2 harg2 arg3 harg3 arg4 harg4 arg5 harg5 arg6 harg6 arg7 harg7) K := by
  simp only [cc5__combine_stats_kernel_eq_skeleton]; unfold cc5__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt5_5 (c : Dev nD) : (n : ℕ) → n < cfg5.N → Vec F S1x128 .f32
  | 0, hn => k5_pay4 (iblk5 V c 0 ⟨0, hn⟩) (iblk5 V c 1 ⟨0, hn⟩) (iblk5 V c 2 ⟨0, hn⟩) (iblk5 V c 3 ⟨0, hn⟩) k5_pay2
  | n + 1, hn => k5_pay4 (iblk5 V c 0 ⟨n + 1, hn⟩) (iblk5 V c 1 ⟨n + 1, hn⟩) (iblk5 V c 2 ⟨n + 1, hn⟩) (iblk5 V c 3 ⟨n + 1, hn⟩) (outsAt5_5 c n (Nat.lt_of_succ_lt hn))

theorem outsAt5_5_zero (c : Dev nD) (hn : 0 < cfg5.N) :
    outsAt5_5 V c 0 hn = k5_pay4 (iblk5 V c 0 ⟨0, hn⟩) (iblk5 V c 1 ⟨0, hn⟩) (iblk5 V c 2 ⟨0, hn⟩) (iblk5 V c 3 ⟨0, hn⟩) k5_pay2 := rfl

theorem outsAt5_5_succ (c : Dev nD) (n : ℕ) (hn : n + 1 < cfg5.N) :
    outsAt5_5 V c (n + 1) hn = k5_pay4 (iblk5 V c 0 ⟨n + 1, hn⟩) (iblk5 V c 1 ⟨n + 1, hn⟩) (iblk5 V c 2 ⟨n + 1, hn⟩) (iblk5 V c 3 ⟨n + 1, hn⟩) (outsAt5_5 V c n (Nat.lt_of_succ_lt hn)) := rfl

/-- At the first point. -/
theorem outsAt5_5_A (c : Dev nD) (t : Fin cfg5.N) (h0 : t.val % 10 = 0) :
    outsAt5_5 V c t.val t.isLt = k5_pay4 (iblk5 V c 0 t) (iblk5 V c 1 t) (iblk5 V c 2 t) (iblk5 V c 3 t) k5_pay2 := by
  have hN : t.val < 10 := lt_of_lt_of_eq t.isLt (show cfg5.N = 10 from N_5)
  obtain ⟨n, hn⟩ := t
  cases n with
  | zero => exact rfl
  | succ n => exfalso; dsimp only at h0 hN; omega

/-- At a later point: over what the point before left. -/
theorem outsAt5_5_B (c : Dev nD) (t : Fin cfg5.N) (h0 : ¬t.val % 10 = 0) :
    outsAt5_5 V c t.val t.isLt = k5_pay4 (iblk5 V c 0 t) (iblk5 V c 1 t) (iblk5 V c 2 t) (iblk5 V c 3 t) (outsAt5_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt5_6 (c : Dev nD) : (n : ℕ) → n < cfg5.N → Vec F S1x128 .f32
  | 0, hn => k5_pay5 (iblk5 V c 0 ⟨0, hn⟩) (iblk5 V c 1 ⟨0, hn⟩) (iblk5 V c 2 ⟨0, hn⟩) (iblk5 V c 3 ⟨0, hn⟩) k5_pay3
  | n + 1, hn => k5_pay5 (iblk5 V c 0 ⟨n + 1, hn⟩) (iblk5 V c 1 ⟨n + 1, hn⟩) (iblk5 V c 2 ⟨n + 1, hn⟩) (iblk5 V c 3 ⟨n + 1, hn⟩) (outsAt5_6 c n (Nat.lt_of_succ_lt hn))

theorem outsAt5_6_zero (c : Dev nD) (hn : 0 < cfg5.N) :
    outsAt5_6 V c 0 hn = k5_pay5 (iblk5 V c 0 ⟨0, hn⟩) (iblk5 V c 1 ⟨0, hn⟩) (iblk5 V c 2 ⟨0, hn⟩) (iblk5 V c 3 ⟨0, hn⟩) k5_pay3 := rfl

theorem outsAt5_6_succ (c : Dev nD) (n : ℕ) (hn : n + 1 < cfg5.N) :
    outsAt5_6 V c (n + 1) hn = k5_pay5 (iblk5 V c 0 ⟨n + 1, hn⟩) (iblk5 V c 1 ⟨n + 1, hn⟩) (iblk5 V c 2 ⟨n + 1, hn⟩) (iblk5 V c 3 ⟨n + 1, hn⟩) (outsAt5_6 V c n (Nat.lt_of_succ_lt hn)) := rfl

/-- At the first point. -/
theorem outsAt5_6_A (c : Dev nD) (t : Fin cfg5.N) (h0 : t.val % 10 = 0) :
    outsAt5_6 V c t.val t.isLt = k5_pay5 (iblk5 V c 0 t) (iblk5 V c 1 t) (iblk5 V c 2 t) (iblk5 V c 3 t) k5_pay3 := by
  have hN : t.val < 10 := lt_of_lt_of_eq t.isLt (show cfg5.N = 10 from N_5)
  obtain ⟨n, hn⟩ := t
  cases n with
  | zero => exact rfl
  | succ n => exfalso; dsimp only at h0 hN; omega

/-- At a later point: over what the point before left. -/
theorem outsAt5_6_B (c : Dev nD) (t : Fin cfg5.N) (h0 : ¬t.val % 10 = 0) :
    outsAt5_6 V c t.val t.isLt = k5_pay5 (iblk5 V c 0 t) (iblk5 V c 1 t) (iblk5 V c 2 t) (iblk5 V c 3 t) (outsAt5_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k5_pay1` of the input blocks, each
    accumulator's at its running sum; the invariant the class's; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay1 (iblk5 V c 0 t) (iblk5 V c 1 t) (iblk5 V c 2 t) (iblk5 V c 3 t)
    | ⟨5, _⟩ => outsAt5_5 V c t.val t.isLt
    | ⟨6, _⟩ => outsAt5_6 V c t.val t.isLt
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay1 (iblk5 V c 0 t) (iblk5 V c 1 t) (iblk5 V c 2 t) (iblk5 V c 3 t) := by dsimp only [dat5]
theorem after5_5 (c : Dev nD) (t : Fin cfg5.N) : (dat5 V c).after 5 t = outsAt5_5 V c t.val t.isLt := by dsimp only [dat5]
theorem after5_6 (c : Dev nD) (t : Fin cfg5.N) : (dat5 V c).after 6 t = outsAt5_6 V c t.val t.isLt := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
/-- At a later point accumulator 5's staging buffer holds what the body left at the point before: the point is not the
    first, the buffer was not written back in between (only after the last point), the window is live and uncut. -/
theorem before5_5_B (c : Dev nD) (t : Fin cfg5.N) (h0 : ¬t.val % 10 = 0) (d) :
    (dat5 V c).before 5 t d = outsAt5_5 V c (t.val - 1) (Nat.lt_of_le_of_lt (Nat.sub_le _ _) t.isLt) := by
  have hN : t.val < 10 := lt_of_lt_of_eq t.isLt (show cfg5.N = 10 from N_5)
  rw [Dat.before_out_kept _ 5 rfl t (by omega) (Bool.eq_false_iff.mpr fun h => by have := (flush5_5 _).mp h; dsimp only at this; omega)
    (fun _ => rfl) (fun _ _ => rfl)]
  dsimp only [dat5]
/-- At a later point accumulator 6's staging buffer holds what the body left at the point before: the point is not the
    first, the buffer was not written back in between (only after the last point), the window is live and uncut. -/
theorem before5_6_B (c : Dev nD) (t : Fin cfg5.N) (h0 : ¬t.val % 10 = 0) (d) :
    (dat5 V c).before 6 t d = outsAt5_6 V c (t.val - 1) (Nat.lt_of_le_of_lt (Nat.sub_le _ _) t.isLt) := by
  have hN : t.val < 10 := lt_of_lt_of_eq t.isLt (show cfg5.N = 10 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val % 10 = 0
  · rw [outsAt5_5_A V c t h0, outsAt5_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel5_A c Set.univ (grid5.coords t) _ _ _ _ _ _ _ _ _ _ _ _ _ _ ((hcond5_0 t).mpr h0) (iblk5 V c 0 t) (iblk5 V c 1 t) (iblk5 V c 2 t) (iblk5 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt5_5_B V c t h0, outsAt5_6_B V c t h0]
    simp only [before5_5_B V c t h0, before5_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel5_B c Set.univ (grid5.coords t) _ _ _ _ _ _ _ _ _ _ _ _ _ _ (fun h => h0 ((hcond5_0 t).mp h)) (iblk5 V c 0 t) (iblk5 V c 1 t) (iblk5 V c 2 t) (iblk5 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.R6.lean ====
import proofs.«430760_j5652176962022_1_alg».proof.Proof.Gen.Kernel.Launch
import proofs.«430760_j5652176962022_1_alg».proof.Proof.Gen.Kernel.Skeleton
import proofs.«430760_j5652176962022_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the reset of the pooled sums), from the grid coordinate. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 10 = 0 :=
  (by decide +kernel : ∀ t : Fin grid6.N, cond6_0 (grid6.coords t) ↔ t.val % 10 = 0)
/-- The condition of the body's second `scf.if` (the head), from the grid coordinate. -/
abbrev cond6_1 (i : grid6.Coords) : Prop := k6_cond2 i = 1#1
/-- It holds at the last point only. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## The body's accesses: every load and store is of a whole buffer -/

abbrev r6_a : Rect S5000x128 := Rect.unit (s := S5000x128) ![0, 0] S5000x128.size inb_S5000x128_S5000x128_0_0
abbrev r6_v : Rect S1x128 := Rect.unit (s := S1x128) ![0, 0] S1x128.size inb_S1x128_S1x128_0_0
abbrev r6_b : Rect S5000x1 := Rect.unit (s := S5000x1) ![0, 0] S5000x1.size inb_S5000x1_S5000x1_0_0
abbrev r6_m : Rect S128x128 := Rect.unit (s := S128x128) ![0, 0] S128x128.size inb_S128x128_S128x128_0_0
abbrev r6_k : Rect S128x1 := Rect.unit (s := S128x1) ![0, 0] S128x1.size inb_S128x1_S128x1_0_0
abbrev r6_u : Rect S1x1 := Rect.unit (s := S1x1) ![0, 0] S1x1.size inb_S1x1_S1x1_0_0
abbrev r6_o : Rect S256x1 := Rect.unit (s := S256x1) ![0, 0] S256x1.size inb_S256x1_S256x1_0_0
abbrev r6_s : Rect S256x128 := Rect.unit (s := S256x128) ![0, 0] S256x128.size inb_S256x128_S256x128_0_0

/-! ## What the body leaves in the pooled sums and in the output window's buffer -/

/-- The pooled sums after the reset at the first point: one store of zeros over the whole buffer. -/
def zero6 : Vec F S256x128 .f32 :=
  View.canon [⟨r6_s, k6_pay3 (F := F)⟩]

/-- The pooled sums after the body at a point, from the point's input blocks and the sums `xs` the accumulation starts
    from: one store over the whole buffer of `xs` plus this block's one-hot(batch)ᵀ · relu(bn(block)). -/
def sout6 (x0 : Vec F S5000x128 .f32) (x1 x2 x3 x4 : Vec F S1x128 .f32) (x5 : Vec F S5000x1 .i32) (xs : Vec F S256x128 .f32) : Vec F S256x128 .f32 :=
  View.canon [⟨r6_s, k6_pay1 (k6_pay4 (View.ld x0 r6_a) (View.ld x1 r6_v) (View.ld x2 r6_v) (View.ld x3 r6_v) (View.ld x4 r6_v) (View.ld x5 r6_b) (View.ld xs r6_s))⟩]

/-- The output window's buffer after the head at the last point, from the pooled sums `xs` and the head's weights:
    one store over the whole buffer. -/
def out6_10 (xs : Vec F S256x128 .f32) (x6 : Vec F S128x128 .f32) (x7 : Vec F S1x128 .f32) (x8 : Vec F S128x1 .f32) (x9 : Vec F S1x1 .f32) : Vec F S256x1 .f32 :=
  View.canon [⟨r6_o, k6_pay2 (View.ld xs r6_s) (View.ld x6 r6_m) (View.ld x7 r6_v) (View.ld x8 r6_k) (View.ld x9 r6_u)⟩]

/-- One store over the whole of the pooled sums' buffer covers it (the rectangle tiles the shape, by evaluation). -/
theorem cover6_s (p : Vec F S256x128 .f32) (y : S256x128.Idx) :
    ∃ pc ∈ ([⟨r6_s, p⟩] : List (View.Piece (Elt F) S256x128 .f32)), y ∈ pc.1.set :=
  View.cover_of_tiled [⟨r6_s, p⟩] S256x128.size (by rfl) y

/-- One store over the whole of the output window's buffer covers it. -/
theorem cover6_o (p : Vec F S256x1 .f32) (y : S256x1.Idx) :
    ∃ pc ∈ ([⟨r6_o, p⟩] : List (View.Piece (Elt F) S256x1 .f32)), y ∈ pc.1.set :=
  View.cover_of_tiled [⟨r6_o, p⟩] S256x1.size (by rfl) y

/-- Every index of the pooled sums' shape lies in its whole rectangle. -/
theorem mem6_s (p : Vec F S256x128 .f32) (y : S256x128.Idx) : y ∈ r6_s.set := by
  obtain ⟨pc, hm, hy⟩ := cover6_s p y
  rw [List.mem_singleton] at hm; subst hm; exact hy

/-- Under a store over the whole buffer the earlier stores do not show. -/
theorem canon6_s_head (w : Vec F S256x128 .f32) (L : List (View.Piece (Elt F) S256x128 .f32)) :
    View.canon (⟨r6_s, w⟩ :: L) = View.canon [⟨r6_s, w⟩] := by
  funext y
  obtain ⟨x, rfl⟩ : ∃ x, r6_s.emb x = y := r6_s.exists_idx_of_mem (mem6_s w y)
  rw [View.canon_cons_emb, View.canon_cons_emb]

/-- A load of the whole buffer after a store over the whole buffer reads the stored value. -/
theorem ld_canon6_s (w : Vec F S256x128 .f32) : View.ld (View.canon [⟨r6_s, w⟩]) r6_s = w := by
  funext x; exact View.canon_cons_emb r6_s w [] x

/-- The accumulation's value depends on the sums it starts from only through their value. -/
theorem sout6_congr (a0 : Vec F S5000x128 .f32) (a1 a2 a3 a4 : Vec F S1x128 .f32) (a5 : Vec F S5000x1 .i32)
    {z z' : Vec F S256x128 .f32} (h : z = z') :
    (View.canon [⟨r6_s, k6_pay1 (k6_pay4 a0 a1 a2 a3 a4 a5 z)⟩] : Vec F S256x128 .f32)
      = View.canon [⟨r6_s, k6_pay1 (k6_pay4 a0 a1 a2 a3 a4 a5 z')⟩] := by
  subst h; rfl

/-- The head's value depends on the pooled sums it reads only through their value. -/
theorem out6_congr (b6 : Vec F S128x128 .f32) (b7 : Vec F S1x128 .f32) (b8 : Vec F S128x1 .f32) (b9 : Vec F S1x1 .f32)
    {z z' : Vec F S256x128 .f32} (h : z = z') :
    (View.canon [⟨r6_o, k6_pay2 z b6 b7 b8 b9⟩] : Vec F S256x1 .f32) = View.canon [⟨r6_o, k6_pay2 z' b6 b7 b8 b9⟩] := by
  subst h; rfl

/-! ## The same contents without rectangles: every access is of a whole buffer at offset zero -/

theorem hz6 : (![0, 0] : Fin 2 → Nat) = fun _ => 0 := funext fun a => by
  match a with
  | ⟨0, _⟩ => rfl
  | ⟨1, _⟩ => rfl

/-- The reset leaves the zeros it stores. -/
theorem zero6_eq : zero6 (F := F) = k6_pay3 (F := F) := by
  unfold zero6; rw [View.canon_unit_zero hz6]

/-- The pooled sums after a point are the accumulation's value on the point's blocks and the sums it starts from. -/
theorem sout6_eq (x0 : Vec F S5000x128 .f32) (x1 x2 x3 x4 : Vec F S1x128 .f32) (x5 : Vec F S5000x1 .i32) (xs : Vec F S256x128 .f32) :
    sout6 x0 x1 x2 x3 x4 x5 xs = k6_pay1 (k6_pay4 x0 x1 x2 x3 x4 x5 xs) := by
  unfold sout6; rw [View.canon_unit_zero hz6]
  simp only [View.ld_unit_zero (S := S5000x128) hz6, View.ld_unit_zero (S := S1x128) hz6, View.ld_unit_zero (S := S5000x1) hz6,
    View.ld_unit_zero (S := S256x128) hz6]

/-- The output window's buffer after the head is the head's value on the pooled sums and its weights. -/
theorem out6_10_eq (xs : Vec F S256x128 .f32) (x6 : Vec F S128x128 .f32) (x7 : Vec F S1x128 .f32) (x8 : Vec F S128x1 .f32) (x9 : Vec F S1x1 .f32) :
    out6_10 xs x6 x7 x8 x9 = k6_pay2 xs x6 x7 x8 x9 := by
  unfold out6_10; rw [View.canon_unit_zero hz6]
  simp only [View.ld_unit_zero (S := S256x128) hz6, View.ld_unit_zero (S := S128x128) hz6, View.ld_unit_zero (S := S1x128) hz6,
    View.ld_unit_zero (S := S128x1) hz6, View.ld_unit_zero (S := S1x1) hz6]

/-! ## The body's triple, case by case of its two conditionals -/

set_option maxHeartbeats 2000000 in
/-- FIRST POINT (the reset taken, the head not): on whole staging memrefs, the six inputs the accumulation reads at
    their contents and the pooled sums at anything, the body runs to the continuation holding the inputs as they were
    and the pooled sums at this block's contribution over zeros. -/
theorem run6_A (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : cond6_0 i) (hc1 : ¬cond6_1 i)
    (x0 : Vec F S5000x128 .f32) (x1 x2 x3 x4 : Vec F S1x128 .f32) (x5 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare (sout6 x0 x1 x2 x3 x4 x5 (zero6 (F := F)))) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (View.read_writes_eq_canon _ _ _ (fun y => ⟨_, List.mem_cons_self, mem6_s (zero6 (F := F)) y⟩)).trans ?_
  rw [canon6_s_head]; unfold sout6 zero6; rw [ld_canon6_s]
  -- the load after the reset reads the zeros just stored
  exact sout6_congr _ _ _ _ _ _ (View.readCov_cons_toLoadRect (Val := Elt F) arg12.view r6_s _ [])

set_option maxHeartbeats 2000000 in
/-- A MIDDLE POINT (neither conditional taken): the pooled sums at what the point before left, `xs`; they end at
    `xs` plus this block's contribution. -/
theorem run6_B (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : ¬cond6_0 i) (hc1 : ¬cond6_1 i)
    (x0 : Vec F S5000x128 .f32) (x1 x2 x3 x4 : Vec F S1x128 .f32) (x5 : Vec F S5000x1 .i32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare (sout6 x0 x1 x2 x3 x4 x5 xs)) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  exact View.read_writes_eq_canon _ _ _ (cover6_s _)

set_option maxHeartbeats 2000000 in
/-- THE LAST POINT (the head taken, the reset not): as a middle point for the pooled sums; then the head reads them back
    with its four weight operands and stores the output window's buffer, found at anything, whole. -/
theorem run6_C (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : ¬cond6_0 i) (hc1 : cond6_1 i)
    (x0 : Vec F S5000x128 .f32) (x1 x2 x3 x4 : Vec F S1x128 .f32) (x5 : Vec F S5000x1 .i32) (x6 : Vec F S128x128 .f32) (x7 : Vec F S1x128 .f32) (x8 : Vec F S128x1 .f32) (x9 : Vec F S1x1 .f32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out6_10 (sout6 x0 x1 x2 x3 x4 x5 xs) x6 x7 x8 x9) ∗ owns (c : Thread nD τ) arg12 fullShare (sout6 x0 x1 x2 x3 x4 x5 xs)) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover6_o _)).trans ?_
    unfold out6_10 sout6; rw [ld_canon6_s]
    -- the head's load of the pooled sums reads what was just stored
    exact out6_congr _ _ _ _ (View.readCov_cons_toLoadRect (Val := Elt F) arg12.view r6_s _ [])
  iexists _; isplitr
  swap; · iexact HS
  ipureintro
  exact View.read_writes_eq_canon _ _ _ (cover6_s _)

section Region6
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not: an input that is
    not fetched at a point has the block index it had at the point before, and the body leaves every input in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The pooled sums after each point -/

/-- THE ACCUMULATION. What the pooled sums' buffer holds after the body at position `n`: at the first point this block's
    contribution over the reset's zeros, afterwards the contribution of block `n` over what point `n - 1` left. -/
def scrAt6 (c : Dev nD) : (n : ℕ) → n < cfg6.N → Vec F S256x128 .f32
  | 0, hn => sout6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zero6 (F := F))
  | n + 1, hn => sout6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (scrAt6 c n (Nat.lt_of_succ_lt hn))

theorem scrAt6_zero (c : Dev nD) (hn : 0 < cfg6.N) :
    scrAt6 V c 0 hn = sout6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zero6 (F := F)) := rfl

theorem scrAt6_succ (c : Dev nD) (n : ℕ) (hn : n + 1 < cfg6.N) :
    scrAt6 V c (n + 1) hn = sout6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (scrAt6 V c n (Nat.lt_of_succ_lt hn)) := rfl

/-- At the first point. -/
theorem scrAt6_first (c : Dev nD) (t : Fin cfg6.N) (h0 : t.val = 0) :
    scrAt6 V c t.val t.isLt = sout6 (iblk6 V c 0 t) (iblk6 V c 1 t) (iblk6 V c 2 t) (iblk6 V c 3 t) (iblk6 V c 4 t) (iblk6 V c 5 t) (zero6 (F := F)) := by
  obtain ⟨n, hn⟩ := t
  cases n with
  | zero => rfl
  | succ n => exact absurd h0 (Nat.succ_ne_zero n)

/-- At a later point: over what the point before left. -/
theorem scrAt6_pos (c : Dev nD) (t : Fin cfg6.N) (h0 : t.val ≠ 0) :
    scrAt6 V c t.val t.isLt = sout6 (iblk6 V c 0 t) (iblk6 V c 1 t) (iblk6 V c 2 t) (iblk6 V c 3 t) (iblk6 V c 4 t) (iblk6 V c 5 t) (scrAt6 V c (t.val - 1) (Nat.lt_of_le_of_lt (Nat.sub_le _ _) t.isLt)) := by
  obtain ⟨n, hn⟩ := t
  cases n with
  | zero => exact absurd rfl h0
  | succ n => rfl

/-! ## The invariant: the pooled sums carried from point to point -/

/-- The kernel's scratch operand: the pooled sums' buffer, whole. -/
abbrev scM6 : Memref sig .tc .vmem S256x128 .f32 := Memref.whole cc6_scratch0

/-- The class's invariant with the pooled sums' buffer split off the other scoped buffers, owned at some contents. -/
theorem PhiA6_eq (c : Dev nD) :
    (Pipeline.ΦA spec6 c : sProp 𝕄)
      = iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- The region invariant before position `n`: before the first point the class's (every scoped buffer that is no
    staging buffer at anything); afterwards the pooled sums at what the point before left, the other scoped buffers at
    anything, and the generator register at some state. -/
def PhiS6 (c : Dev nD) : (n : ℕ) → n ≤ cfg6.N → sProp 𝕄
  | 0, _ => Pipeline.ΦA spec6 c
  | n + 1, hn => iprop(iprop(owns (c : Thread nD τ) scM6 fullShare (scrAt6 V c n hn) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (scrAt6 V c n hn) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (scrAt6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The proof data of the pipeline on core `c`: the arrays as the region finds them; after the body at point `t` each
    input's buffer at its block, and the output's at the head over the pooled sums after `t` (read only at the last
    point: at every other point the window is idle and not written back, and what is stated there is never consulted);
    the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (scrAt6 V c t.val t.isLt) (iblk6 V c 6 t) (iblk6 V c 7 t) (iblk6 V c 8 t) (iblk6 V c 9 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) :
    (dat6 V c).after 10 t = out6_10 (scrAt6 V c t.val t.isLt) (iblk6 V c 6 t) (iblk6 V c 7 t) (iblk6 V c 8 t) (iblk6 V c 9 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x1 .i32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S128x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S128x1 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S256x1 .f32 := win6_10.stage (cfg6.slots t 10)
abbrev hs6_10 (t : Fin cfg6.N) : (ms6_10 t).IsWhole := hstage6_10 ((cfg6.slots t 10).cast nbuf6_10)

/-- The inputs are never idle. -/
theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
theorem liveAt6_5 : ∀ t : Fin cfg6.N, cfg6.idle 5 (grid6.coords t) = false := fun _ => rfl
theorem liveAt6_6 : ∀ t : Fin cfg6.N, cfg6.idle 6 (grid6.coords t) = false := fun _ => rfl
theorem liveAt6_7 : ∀ t : Fin cfg6.N, cfg6.idle 7 (grid6.coords t) = false := fun _ => rfl
theorem liveAt6_8 : ∀ t : Fin cfg6.N, cfg6.idle 8 (grid6.coords t) = false := fun _ => rfl
theorem liveAt6_9 : ∀ t : Fin cfg6.N, cfg6.idle 9 (grid6.coords t) = false := fun _ => rfl
/-- Where the head is not taken the printed configuration calls the output window idle: the body stores nothing into it, -/
theorem idleAt6_10 : ∀ t : Fin cfg6.N, ¬cond6_1 (grid6.coords t) → cfg6.idle 10 (grid6.coords t) = true := by decide +kernel
/-- and the pipeline does not write its block back there. -/
theorem noFlush6_10 : ∀ t : Fin cfg6.N, ¬cond6_1 (grid6.coords t) → (cfg6.win 10).flush t = false := by decide +kernel
/-- Where the head is taken the window is live. -/
theorem liveAt6_10 : ∀ t : Fin cfg6.N, cond6_1 (grid6.coords t) → cfg6.idle 10 (grid6.coords t) = false := by decide +kernel

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 4800000 in
/-- The body at any point. The inputs' memrefs hold their blocks; the closed forms of the two conditions say which case
    the point is in; the invariant hands the body the pooled sums at what the point before left (at anything at the first
    point) and takes them back at this point's contents; the other scoped buffers, the generator register and what the
    core owes pass through unread; where the head is not taken the output window's buffer is handed back as found. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  rw [show (dat6 V c).leavesExact 8 t = owns (c : Thread nD τ) (ms6_8 t) fullShare ((dat6 V c).after 8 t) from by
    unfold Dat.leavesExact; rw [liveAt6_8 t], after6_8]
  rw [show (dat6 V c).leavesExact 9 t = owns (c : Thread nD τ) (ms6_9 t) fullShare ((dat6 V c).after 9 t) from by
    unfold Dat.leavesExact; rw [liveAt6_9 t], after6_9]
  have hN : t.val < 10 := lt_of_lt_of_eq t.isLt (show cfg6.N = 10 from N_6)
  by_cases h0 : t.val % 10 = 0
  · have h1 : ¬t.val % 10 = 9 := by omega
    have hz : t.val = 0 := by omega
    rw [Dat.leavesExact_idle (dat6 V c) 10 t (idleAt6_10 t (fun h => h1 ((hcond6_1 t).mp h))) (noFlush6_10 t (fun h => h1 ((hcond6_1 t).mp h)))]
    rw [scrAt6_first V c t hz]
    rw [PhiS6_castSucc V c t, PhiS6_zero V c _ _ hz, PhiA6_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run6_A c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) ((hcond6_0 t).mpr h0) (fun h => h1 ((hcond6_1 t).mp h))
      (iblk6 V c 0 t) (iblk6 V c 1 t) (iblk6 V c 2 t) (iblk6 V c 3 t) (iblk6 V c 4 t) (iblk6 V c 5 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h1 : t.val % 10 = 9
    · have hz : t.val ≠ 0 := by omega
      rw [show (dat6 V c).leavesExact 10 t = owns (c : Thread nD τ) (ms6_10 t) fullShare ((dat6 V c).after 10 t) from by
        unfold Dat.leavesExact; rw [liveAt6_10 t ((hcond6_1 t).mpr h1)], after6_10]
      rw [scrAt6_pos V c t hz]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run6_C c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) (fun h => h0 ((hcond6_0 t).mp h)) ((hcond6_1 t).mpr h1)
        (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : t.val ≠ 0 := by omega
      rw [Dat.leavesExact_idle (dat6 V c) 10 t (idleAt6_10 t (fun h => h1 ((hcond6_1 t).mp h))) (noFlush6_10 t (fun h => h1 ((hcond6_1 t).mp h)))]
      rw [scrAt6_pos V c t hz]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run6_B c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) (fun h => h0 ((hcond6_0 t).mp h)) (fun h => h1 ((hcond6_1 t).mp h))
        (iblk6 V c 0 t) (iblk6 V c 1 t) (iblk6 V c 2 t) (iblk6 V c 3 t) (iblk6 V c 4 t) (iblk6 V c 5 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the pooled sums' named contents are forgotten. -/
theorem hout6 (c : Dev nD) : (dat6 V c).Φ (Fin.last cfg6.N) ⊢ (Pipeline.ΦA spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨HS, HR⟩, Hg⟩
  isplitl [HS HR]
  · isplitl [HS]
    · iexists _; iexact HS
    iexact HR
  iexact Hg

end Region6

end Cert.Kernel.Hand

end
-- ==== Proof.K.Run.lean ====
import proofs.«430760_j5652176962022_1_alg».proof.Proof.K.R0
import proofs.«430760_j5652176962022_1_alg».proof.Proof.K.R1
import proofs.«430760_j5652176962022_1_alg».proof.Proof.K.R2
import proofs.«430760_j5652176962022_1_alg».proof.Proof.K.R3
import proofs.«430760_j5652176962022_1_alg».proof.Proof.K.R4
import proofs.«430760_j5652176962022_1_alg».proof.Proof.K.R5
import proofs.«430760_j5652176962022_1_alg».proof.Proof.K.R6
import proofs.«430760_j5652176962022_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents at every boundary of @main, each region's results filled in

Between two items of @main core `c` holds every unscoped buffer whole. A host stretch takes the contents `V` to
`StableHlo.after ops V`; a region changes its output arrays only, to what its write-backs leave after the last
point. `UJ` is the contents after item `J - 1`; `TJ` the same read at the TensorCore's references. -/

/-- A valuation updated at one TensorCore reference, read at another. -/
theorem upd_ne (g : Valuation τ sig (Elt F)) (a b : Ref sig .tc) (x) (h : b ≠ a) :
    Function.update g (Proc.devRef .tc a) x (Proc.devRef .tc b) = g (Proc.devRef .tc b) :=
  Function.update_of_ne (StableHlo.devRef_ne_of_ne h) _ _

/-- Core `c`'s buffers when region 0 is entered: the launch contents after the first host stretch. -/
abbrev U1 (c : Dev nD) : Valuation τ sig (Elt F) := Gen.V1 m c
abbrev T1 : (c : Dev nD) → (b : Ref sig .tc) → Buf (Elt F) ((c : Thread nD τ).loc b) := fun c b => U1 m c b

/-! ## Region 0 -/

/-- What region 0 leaves in `main_v47`: window 2's array after the last point. -/
def o2 (c : Dev nD) : Buf (Elt F) ((c : Thread nD τ).loc main_v47) := (dat0 (T1 m) c).arrAt 2 cfg0.N
/-- Core `c`'s buffers when region 0 is left. -/
def U2 (c : Dev nD) : Valuation τ sig (Elt F) :=
  Function.update (U1 m c) main_v47 (o2 m c)
abbrev T2 : (c : Dev nD) → (b : Ref sig .tc) → Buf (Elt F) ((c : Thread nD τ).loc b) := fun c b => U2 m c b
theorem U2_out0 (c : Dev nD) : U2 m c main_v47 = o2 m c := by
  unfold U2; exact Function.update_self _ _ _
/-- Off region 0's output arrays nothing has changed. -/
theorem U2_of (c : Dev nD) (b : Ref sig .tc) (h0 : b ≠ main_v47) : U2 m c b = U1 m c b := by
  unfold U2; rw [upd_ne _ main_v47 b _ h0]
/-- Core `c`'s buffers after the host stretch that follows region 0 (region 1's entry). -/
def U3 (c : Dev nD) : Valuation τ sig (Elt F) := StableHlo.after hostOps1 (U2 m c)
abbrev T3 : (c : Dev nD) → (b : Ref sig .tc) → Buf (Elt F) ((c : Thread nD τ).loc b) := fun c b => U3 m c b

/-! ## Region 1 -/

/-- What region 1 leaves in `main_v61_0`: window 4's array after the last point. -/
def o4_0 (c : Dev nD) : Buf (Elt F) ((c : Thread nD τ).loc main_v61_0) := (dat1 (T3 m) c).arrAt 4 cfg1.N
/-- What region 1 leaves in `main_v61_1`: window 5's array after the last point. -/
def o4_1 (c : Dev nD) : Buf (Elt F) ((c : Thread nD τ).loc main_v61_1) := (dat1 (T3 m) c).arrAt 5 cfg1.N
/-- What region 1 leaves in `main_v61_2`: window 6's array after the last point. -/
def o4_2 (c : Dev nD) : Buf (Elt F) ((c : Thread nD τ).loc main_v61_2) := (dat1 (T3 m) c).arrAt 6 cfg1.N
/-- Core `c`'s buffers when region 1 is left. -/
def U4 (c : Dev nD) : Valuation τ sig (Elt F) :=
  Function.update (Function.update (Function.update (U3 m c) main_v61_0 (o4_0 m c)) main_v61_1 (o4_1 m c)) main_v61_2 (o4_2 m c)
abbrev T4 : (c : Dev nD) → (b : Ref sig .tc) → Buf (Elt F) ((c : Thread nD τ).loc b) := fun c b => U4 m c b
theorem U4_out0 (c : Dev nD) : U4 m c main_v61_0 = o4_0 m c := by
  unfold U4; rw [upd_ne _ main_v61_2 main_v61_0 _ (by decide), upd_ne _ main_v61_1 main_v61_0 _ (by decide)]; exact Function.update_self _ _ _
theorem U4_out1 (c : Dev nD) : U4 m c main_v61_1 = o4_1 m c := by
  unfold U4; rw [upd_ne _ main_v61_2 main_v61_1 _ (by decide)]; exact Function.update_self _ _ _
theorem U4_out2 (c : Dev nD) : U4 m c main_v61_2 = o4_2 m c := by
  unfold U4; exact Function.update_self _ _ _
/-- Off region 1's output arrays nothing has changed. -/
theorem U4_of (c : Dev nD) (b : Ref sig .tc) (h0 : b ≠ main_v61_0) (h1 : b ≠ main_v61_1) (h2 : b ≠ main_v61_2) : U4 m c b = U3 m c b := by
  unfold U4; rw [upd_ne _ main_v61_2 b _ h2, upd_ne _ main_v61_1 b _ h1, upd_ne _ main_v61_0 b _ h0]
/-- Core `c`'s buffers after the host stretch that follows region 1 (region 2's entry). -/
def U5 (c : Dev nD) : Valuation τ sig (Elt F) := StableHlo.after hostOps2 (U4 m c)
abbrev T5 : (c : Dev nD) → (b : Ref sig .tc) → Buf (Elt F) ((c : Thread nD τ).loc b) := fun c b => U5 m c b

/-! ## Region 2 -/

/-- What region 2 leaves in `main_v68`: window 6's array after the last point. -/
def o6 (c : Dev nD) : Buf (Elt F) ((c : Thread nD τ).loc main_v68) := (dat2 (T5 m) c).arrAt 6 cfg2.N
/-- Core `c`'s buffers when region 2 is left. -/
def U6 (c : Dev nD) : Valuation τ sig (Elt F) :=
  Function.update (U5 m c) main_v68 (o6 m c)
abbrev T6 : (c : Dev nD) → (b : Ref sig .tc) → Buf (Elt F) ((c : Thread nD τ).loc b) := fun c b => U6 m c b
theorem U6_out0 (c : Dev nD) : U6 m c main_v68 = o6 m c := by
  unfold U6; exact Function.update_self _ _ _
/-- Off region 2's output arrays nothing has changed. -/
theorem U6_of (c : Dev nD) (b : Ref sig .tc) (h0 : b ≠ main_v68) : U6 m c b = U5 m c b := by
  unfold U6; rw [upd_ne _ main_v68 b _ h0]
/-- Core `c`'s buffers after the host stretch that follows region 2 (region 3's entry). -/
def U7 (c : Dev nD) : Valuation τ sig (Elt F) := StableHlo.after hostOps3 (U6 m c)
abbrev T7 : (c : Dev nD) → (b : Ref sig .tc) → Buf (Elt F) ((c : Thread nD τ).loc b) := fun c b => U7 m c b

/-! ## Region 3 -/

/-- What region 3 leaves in `main_v82_0`: window 4's array after the last point. -/
def o8_0 (c : Dev nD) : Buf (Elt F) ((c : Thread nD τ).loc main_v82_0) := (dat3 (T7 m) c).arrAt 4 cfg3.N
/-- What region 3 leaves in `main_v82_1`: window 5's array after the last point. -/
def o8_1 (c : Dev nD) : Buf (Elt F) ((c : Thread nD τ).loc main_v82_1) := (dat3 (T7 m) c).arrAt 5 cfg3.N
/-- What region 3 leaves in `main_v82_2`: window 6's array after the last point. -/
def o8_2 (c : Dev nD) : Buf (Elt F) ((c : Thread nD τ).loc main_v82_2) := (dat3 (T7 m) c).arrAt 6 cfg3.N
/-- Core `c`'s buffers when region 3 is left. -/
def U8 (c : Dev nD) : Valuation τ sig (Elt F) :=
  Function.update (Function.update (Function.update (U7 m c) main_v82_0 (o8_0 m c)) main_v82_1 (o8_1 m c)) main_v82_2 (o8_2 m c)
abbrev T8 : (c : Dev nD) → (b : Ref sig .tc) → Buf (Elt F) ((c : Thread nD τ).loc b) := fun c b => U8 m c b
theorem U8_out0 (c : Dev nD) : U8 m c main_v82_0 = o8_0 m c := by
  unfold U8; rw [upd_ne _ main_v82_2 main_v82_0 _ (by decide), upd_ne _ main_v82_1 main_v82_0 _ (by decide)]; exact Function.update_self _ _ _
theorem U8_out1 (c : Dev nD) : U8 m c main_v82_1 = o8_1 m c := by
  unfold U8; rw [upd_ne _ main_v82_2 main_v82_1 _ (by decide)]; exact Function.update_self _ _ _
theorem U8_out2 (c : Dev nD) : U8 m c main_v82_2 = o8_2 m c := by
  unfold U8; exact Function.update_self _ _ _
/-- Off region 3's output arrays nothing has changed. -/
theorem U8_of (c : Dev nD) (b : Ref sig .tc) (h0 : b ≠ main_v82_0) (h1 : b ≠ main_v82_1) (h2 : b ≠ main_v82_2) : U8 m c b = U7 m c b := by
  unfold U8; rw [upd_ne _ main_v82_2 b _ h2, upd_ne _ main_v82_1 b _ h1, upd_ne _ main_v82_0 b _ h0]
/-- Core `c`'s buffers after the host stretch that follows region 3 (region 4's entry). -/
def U9 (c : Dev nD) : Valuation τ sig (Elt F) := StableHlo.after hostOps4 (U8 m c)
abbrev T9 : (c : Dev nD) → (b : Ref sig .tc) → Buf (Elt F) ((c : Thread nD τ).loc b) := fun c b => U9 m c b

/-! ## Region 4 -/

/-- What region 4 leaves in `main_v89`: window 6's array after the last point. -/
def o10 (c : Dev nD) : Buf (Elt F) ((c : Thread nD τ).loc main_v89) := (dat4 (T9 m) c).arrAt 6 cfg4.N
/-- Core `c`'s buffers when region 4 is left. -/
def U10 (c : Dev nD) : Valuation τ sig (Elt F) :=
  Function.update (U9 m c) main_v89 (o10 m c)
abbrev T10 : (c : Dev nD) → (b : Ref sig .tc) → Buf (Elt F) ((c : Thread nD τ).loc b) := fun c b => U10 m c b
theorem U10_out0 (c : Dev nD) : U10 m c main_v89 = o10 m c := by
  unfold U10; exact Function.update_self _ _ _
/-- Off region 4's output arrays nothing has changed. -/
theorem U10_of (c : Dev nD) (b : Ref sig .tc) (h0 : b ≠ main_v89) : U10 m c b = U9 m c b := by
  unfold U10; rw [upd_ne _ main_v89 b _ h0]
/-- Core `c`'s buffers after the host stretch that follows region 4 (region 5's entry). -/
def U11 (c : Dev nD) : Valuation τ sig (Elt F) := StableHlo.after hostOps5 (U10 m c)
abbrev T11 : (c : Dev nD) → (b : Ref sig .tc) → Buf (Elt F) ((c : Thread nD τ).loc b) := fun c b => U11 m c b

/-! ## Region 5 -/

/-- What region 5 leaves in `main_v103_0`: window 4's array after the last point. -/
def o12_0 (c : Dev nD) : Buf (Elt F) ((c : Thread nD τ).loc main_v103_0) := (dat5 (T11 m) c).arrAt 4 cfg5.N
/-- What region 5 leaves in `main_v103_1`: window 5's array after the last point. -/
def o12_1 (c : Dev nD) : Buf (Elt F) ((c : Thread nD τ).loc main_v103_1) := (dat5 (T11 m) c).arrAt 5 cfg5.N
/-- What region 5 leaves in `main_v103_2`: window 6's array after the last point. -/
def o12_2 (c : Dev nD) : Buf (Elt F) ((c : Thread nD τ).loc main_v103_2) := (dat5 (T11 m) c).arrAt 6 cfg5.N
/-- Core `c`'s buffers when region 5 is left. -/
def U12 (c : Dev nD) : Valuation τ sig (Elt F) :=
  Function.update (Function.update (Function.update (U11 m c) main_v103_0 (o12_0 m c)) main_v103_1 (o12_1 m c)) main_v103_2 (o12_2 m c)
abbrev T12 : (c : Dev nD) → (b : Ref sig .tc) → Buf (Elt F) ((c : Thread nD τ).loc b) := fun c b => U12 m c b
theorem U12_out0 (c : Dev nD) : U12 m c main_v103_0 = o12_0 m c := by
  unfold U12; rw [upd_ne _ main_v103_2 main_v103_0 _ (by decide), upd_ne _ main_v103_1 main_v103_0 _ (by decide)]; exact Function.update_self _ _ _
theorem U12_out1 (c : Dev nD) : U12 m c main_v103_1 = o12_1 m c := by
  unfold U12; rw [upd_ne _ main_v103_2 main_v103_1 _ (by decide)]; exact Function.update_self _ _ _
theorem U12_out2 (c : Dev nD) : U12 m c main_v103_2 = o12_2 m c := by
  unfold U12; exact Function.update_self _ _ _
/-- Off region 5's output arrays nothing has changed. -/
theorem U12_of (c : Dev nD) (b : Ref sig .tc) (h0 : b ≠ main_v103_0) (h1 : b ≠ main_v103_1) (h2 : b ≠ main_v103_2) : U12 m c b = U11 m c b := by
  unfold U12; rw [upd_ne _ main_v103_2 b _ h2, upd_ne _ main_v103_1 b _ h1, upd_ne _ main_v103_0 b _ h0]
/-- Core `c`'s buffers after the host stretch that follows region 5 (region 6's entry). -/
def U13 (c : Dev nD) : Valuation τ sig (Elt F) := StableHlo.after hostOps6 (U12 m c)
abbrev T13 : (c : Dev nD) → (b : Ref sig .tc) → Buf (Elt F) ((c : Thread nD τ).loc b) := fun c b => U13 m c b

/-! ## Region 6 -/

/-- What region 6 leaves in `main_v110`: window 10's array after the last point. -/
def o14 (c : Dev nD) : Buf (Elt F) ((c : Thread nD τ).loc main_v110) := (dat6 (T13 m) c).arrAt 10 cfg6.N
/-- Core `c`'s buffers when region 6 is left. -/
def U14 (c : Dev nD) : Valuation τ sig (Elt F) :=
  Function.update (U13 m c) main_v110 (o14 m c)
abbrev T14 : (c : Dev nD) → (b : Ref sig .tc) → Buf (Elt F) ((c : Thread nD τ).loc b) := fun c b => U14 m c b
theorem U14_out0 (c : Dev nD) : U14 m c main_v110 = o14 m c := by
  unfold U14; exact Function.update_self _ _ _
/-- Off region 6's output arrays nothing has changed. -/
theorem U14_of (c : Dev nD) (b : Ref sig .tc) (h0 : b ≠ main_v110) : U14 m c b = U13 m c b := by
  unfold U14; rw [upd_ne _ main_v110 b _ h0]
/-- Core `c`'s buffers after the host stretch that follows region 6 (the end of @main). -/
def U15 (c : Dev nD) : Valuation τ sig (Elt F) := StableHlo.after hostOps7 (U14 m c)
abbrev T15 : (c : Dev nD) → (b : Ref sig .tc) → Buf (Elt F) ((c : Thread nD τ).loc b) := fun c b => U15 m c b

/-! ## The regions' results as the unknowns of the generated valuations -/

/-- `outs J r c` is what core `c` holds in `r` after item `J - 1`, at the boundaries that follow a region. -/
def outs : Gen.Outs (F := F) := fun J r c =>
  match J with
  | 2 => U2 m c r
  | 4 => U4 m c r
  | 6 => U6 m c r
  | 8 => U8 m c r
  | 10 => U10 m c r
  | 12 => U12 m c r
  | 14 => U14 m c r
  | _ => U1 m c r

theorem V1_eq (c : Dev nD) : Gen.V1 m c = U1 m c := rfl
theorem V2_eq (c : Dev nD) : Gen.V2 m (outs m) c = U2 m c := by
  show Function.update (Gen.V1 m c) main_v47 (U2 m c main_v47) = U2 m c
  rw [U2_out0, V1_eq]; rfl
theorem V3_eq (c : Dev nD) : Gen.V3 m (outs m) c = U3 m c := by
  show StableHlo.after hostOps1 (Gen.V2 m (outs m) c) = U3 m c
  rw [V2_eq]; rfl
theorem V4_eq (c : Dev nD) : Gen.V4 m (outs m) c = U4 m c := by
  show Function.update (Function.update (Function.update (Gen.V3 m (outs m) c) main_v61_0 (U4 m c main_v61_0)) main_v61_1 (U4 m c main_v61_1)) main_v61_2 (U4 m c main_v61_2) = U4 m c
  rw [U4_out0, U4_out1, U4_out2, V3_eq]; rfl
theorem V5_eq (c : Dev nD) : Gen.V5 m (outs m) c = U5 m c := by
  show StableHlo.after hostOps2 (Gen.V4 m (outs m) c) = U5 m c
  rw [V4_eq]; rfl
theorem V6_eq (c : Dev nD) : Gen.V6 m (outs m) c = U6 m c := by
  show Function.update (Gen.V5 m (outs m) c) main_v68 (U6 m c main_v68) = U6 m c
  rw [U6_out0, V5_eq]; rfl
theorem V7_eq (c : Dev nD) : Gen.V7 m (outs m) c = U7 m c := by
  show StableHlo.after hostOps3 (Gen.V6 m (outs m) c) = U7 m c
  rw [V6_eq]; rfl
theorem V8_eq (c : Dev nD) : Gen.V8 m (outs m) c = U8 m c := by
  show Function.update (Function.update (Function.update (Gen.V7 m (outs m) c) main_v82_0 (U8 m c main_v82_0)) main_v82_1 (U8 m c main_v82_1)) main_v82_2 (U8 m c main_v82_2) = U8 m c
  rw [U8_out0, U8_out1, U8_out2, V7_eq]; rfl
theorem V9_eq (c : Dev nD) : Gen.V9 m (outs m) c = U9 m c := by
  show StableHlo.after hostOps4 (Gen.V8 m (outs m) c) = U9 m c
  rw [V8_eq]; rfl
theorem V10_eq (c : Dev nD) : Gen.V10 m (outs m) c = U10 m c := by
  show Function.update (Gen.V9 m (outs m) c) main_v89 (U10 m c main_v89) = U10 m c
  rw [U10_out0, V9_eq]; rfl
theorem V11_eq (c : Dev nD) : Gen.V11 m (outs m) c = U11 m c := by
  show StableHlo.after hostOps5 (Gen.V10 m (outs m) c) = U11 m c
  rw [V10_eq]; rfl
theorem V12_eq (c : Dev nD) : Gen.V12 m (outs m) c = U12 m c := by
  show Function.update (Function.update (Function.update (Gen.V11 m (outs m) c) main_v103_0 (U12 m c main_v103_0)) main_v103_1 (U12 m c main_v103_1)) main_v103_2 (U12 m c main_v103_2) = U12 m c
  rw [U12_out0, U12_out1, U12_out2, V11_eq]; rfl
theorem V13_eq (c : Dev nD) : Gen.V13 m (outs m) c = U13 m c := by
  show StableHlo.after hostOps6 (Gen.V12 m (outs m) c) = U13 m c
  rw [V12_eq]; rfl
theorem V14_eq (c : Dev nD) : Gen.V14 m (outs m) c = U14 m c := by
  show Function.update (Gen.V13 m (outs m) c) main_v110 (U14 m c main_v110) = U14 m c
  rw [U14_out0, V13_eq]; rfl
theorem V15_eq (c : Dev nD) : Gen.V15 m (outs m) c = U15 m c := by
  show StableHlo.after hostOps7 (Gen.V14 m (outs m) c) = U15 m c
  rw [V14_eq]; rfl

/-! ## At a region's exit each of its arrays holds what the pipeline leaves, every other buffer what it held at entry -/

theorem fin3_cases {P : Fin 3 → Prop} (h0 : P 0) (h1 : P 1) (h2 : P 2) : ∀ w, P w
  | 0 => h0
  | 1 => h1
  | 2 => h2
theorem fin7_cases {P : Fin 7 → Prop} (h0 : P 0) (h1 : P 1) (h2 : P 2) (h3 : P 3) (h4 : P 4) (h5 : P 5) (h6 : P 6) : ∀ w, P w
  | 0 => h0
  | 1 => h1
  | 2 => h2
  | 3 => h3
  | 4 => h4
  | 5 => h5
  | 6 => h6
theorem fin11_cases {P : Fin 11 → Prop} (h0 : P 0) (h1 : P 1) (h2 : P 2) (h3 : P 3) (h4 : P 4) (h5 : P 5) (h6 : P 6) (h7 : P 7) (h8 : P 8) (h9 : P 9) (h10 : P 10) : ∀ w, P w
  | 0 => h0
  | 1 => h1
  | 2 => h2
  | 3 => h3
  | 4 => h4
  | 5 => h5
  | 6 => h6
  | 7 => h7
  | 8 => h8
  | 9 => h9
  | 10 => h10
theorem hF0_0 (c : Dev nD) : (dat0 (T1 m) c).arrAt 0 cfg0.N = T2 m c (Pipeline.arrRef spec0 0) :=
  ((dat0 (T1 m) c).arrAt_in 0 rfl _).trans ((A_eq0 (T1 m) c 0).trans (U2_of m c _ (by decide)).symm)
theorem hF0_1 (c : Dev nD) : (dat0 (T1 m) c).arrAt 1 cfg0.N = T2 m c (Pipeline.arrRef spec0 1) :=
  ((dat0 (T1 m) c).arrAt_in 1 rfl _).trans ((A_eq0 (T1 m) c 1).trans (U2_of m c _ (by decide)).symm)
theorem hF0_2 (c : Dev nD) : (dat0 (T1 m) c).arrAt 2 cfg0.N = T2 m c (Pipeline.arrRef spec0 2) :=
  (U2_out0 m c).symm
theorem hF0 (c : Dev nD) : ∀ w : Fin cfg0.W, (dat0 (T1 m) c).arrAt w cfg0.N = T2 m c (Pipeline.arrRef spec0 w) :=
  fin3_cases (P := fun w => (dat0 (T1 m) c).arrAt w cfg0.N = T2 m c (Pipeline.arrRef spec0 w))
    (hF0_0 m c) (hF0_1 m c) (hF0_2 m c)
theorem hrest0 (c : Dev nD) : ∀ b, b ∉ Finset.univ.image (Pipeline.arrRef spec0) → T2 m c b = T1 m c b :=
  fun b hb => U2_of m c b (fun e => hb (Finset.mem_image.mpr ⟨2, Finset.mem_univ _, e.symm⟩))
theorem hF1_0 (c : Dev nD) : (dat1 (T3 m) c).arrAt 0 cfg1.N = T4 m c (Pipeline.arrRef spec1 0) :=
  ((dat1 (T3 m) c).arrAt_in 0 rfl _).trans ((A_eq1 (T3 m) c 0).trans (U4_of m c _ (by decide) (by decide) (by decide)).symm)
theorem hF1_1 (c : Dev nD) : (dat1 (T3 m) c).arrAt 1 cfg1.N = T4 m c (Pipeline.arrRef spec1 1) :=
  ((dat1 (T3 m) c).arrAt_in 1 rfl _).trans ((A_eq1 (T3 m) c 1).trans (U4_of m c _ (by decide) (by decide) (by decide)).symm)
theorem hF1_2 (c : Dev nD) : (dat1 (T3 m) c).arrAt 2 cfg1.N = T4 m c (Pipeline.arrRef spec1 2) :=
  ((dat1 (T3 m) c).arrAt_in 2 rfl _).trans ((A_eq1 (T3 m) c 2).trans (U4_of m c _ (by decide) (by decide) (by decide)).symm)
theorem hF1_3 (c : Dev nD) : (dat1 (T3 m) c).arrAt 3 cfg1.N = T4 m c (Pipeline.arrRef spec1 3) :=
  ((dat1 (T3 m) c).arrAt_in 3 rfl _).trans ((A_eq1 (T3 m) c 3).trans (U4_of m c _ (by decide) (by decide) (by decide)).symm)
theorem hF1_4 (c : Dev nD) : (dat1 (T3 m) c).arrAt 4 cfg1.N = T4 m c (Pipeline.arrRef spec1 4) :=
  (U4_out0 m c).symm
theorem hF1_5 (c : Dev nD) : (dat1 (T3 m) c).arrAt 5 cfg1.N = T4 m c (Pipeline.arrRef spec1 5) :=
  (U4_out1 m c).symm
theorem hF1_6 (c : Dev nD) : (dat1 (T3 m) c).arrAt 6 cfg1.N = T4 m c (Pipeline.arrRef spec1 6) :=
  (U4_out2 m c).symm
theorem hF1 (c : Dev nD) : ∀ w : Fin cfg1.W, (dat1 (T3 m) c).arrAt w cfg1.N = T4 m c (Pipeline.arrRef spec1 w) :=
  fin7_cases (P := fun w => (dat1 (T3 m) c).arrAt w cfg1.N = T4 m c (Pipeline.arrRef spec1 w))
    (hF1_0 m c) (hF1_1 m c) (hF1_2 m c) (hF1_3 m c) (hF1_4 m c) (hF1_5 m c) (hF1_6 m c)
theorem hrest1 (c : Dev nD) : ∀ b, b ∉ Finset.univ.image (Pipeline.arrRef spec1) → T4 m c b = T3 m c b :=
  fun b hb => U4_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF2_0 (c : Dev nD) : (dat2 (T5 m) c).arrAt 0 cfg2.N = T6 m c (Pipeline.arrRef spec2 0) :=
  ((dat2 (T5 m) c).arrAt_in 0 rfl _).trans ((A_eq2 (T5 m) c 0).trans (U6_of m c _ (by decide)).symm)
theorem hF2_1 (c : Dev nD) : (dat2 (T5 m) c).arrAt 1 cfg2.N = T6 m c (Pipeline.arrRef spec2 1) :=
  ((dat2 (T5 m) c).arrAt_in 1 rfl _).trans ((A_eq2 (T5 m) c 1).trans (U6_of m c _ (by decide)).symm)
theorem hF2_2 (c : Dev nD) : (dat2 (T5 m) c).arrAt 2 cfg2.N = T6 m c (Pipeline.arrRef spec2 2) :=
  ((dat2 (T5 m) c).arrAt_in 2 rfl _).trans ((A_eq2 (T5 m) c 2).trans (U6_of m c _ (by decide)).symm)
theorem hF2_3 (c : Dev nD) : (dat2 (T5 m) c).arrAt 3 cfg2.N = T6 m c (Pipeline.arrRef spec2 3) :=
  ((dat2 (T5 m) c).arrAt_in 3 rfl _).trans ((A_eq2 (T5 m) c 3).trans (U6_of m c _ (by decide)).symm)
theorem hF2_4 (c : Dev nD) : (dat2 (T5 m) c).arrAt 4 cfg2.N = T6 m c (Pipeline.arrRef spec2 4) :=
  ((dat2 (T5 m) c).arrAt_in 4 rfl _).trans ((A_eq2 (T5 m) c 4).trans (U6_of m c _ (by decide)).symm)
theorem hF2_5 (c : Dev nD) : (dat2 (T5 m) c).arrAt 5 cfg2.N = T6 m c (Pipeline.arrRef spec2 5) :=
  ((dat2 (T5 m) c).arrAt_in 5 rfl _).trans ((A_eq2 (T5 m) c 5).trans (U6_of m c _ (by decide)).symm)
theorem hF2_6 (c : Dev nD) : (dat2 (T5 m) c).arrAt 6 cfg2.N = T6 m c (Pipeline.arrRef spec2 6) :=
  (U6_out0 m c).symm
theorem hF2 (c : Dev nD) : ∀ w : Fin cfg2.W, (dat2 (T5 m) c).arrAt w cfg2.N = T6 m c (Pipeline.arrRef spec2 w) :=
  fin7_cases (P := fun w => (dat2 (T5 m) c).arrAt w cfg2.N = T6 m c (Pipeline.arrRef spec2 w))
    (hF2_0 m c) (hF2_1 m c) (hF2_2 m c) (hF2_3 m c) (hF2_4 m c) (hF2_5 m c) (hF2_6 m c)
theorem hrest2 (c : Dev nD) : ∀ b, b ∉ Finset.univ.image (Pipeline.arrRef spec2) → T6 m c b = T5 m c b :=
  fun b hb => U6_of m c b (fun e => hb (Finset.mem_image.mpr ⟨6, Finset.mem_univ _, e.symm⟩))
theorem hF3_0 (c : Dev nD) : (dat3 (T7 m) c).arrAt 0 cfg3.N = T8 m c (Pipeline.arrRef spec3 0) :=
  ((dat3 (T7 m) c).arrAt_in 0 rfl _).trans ((A_eq3 (T7 m) c 0).trans (U8_of m c _ (by decide) (by decide) (by decide)).symm)
theorem hF3_1 (c : Dev nD) : (dat3 (T7 m) c).arrAt 1 cfg3.N = T8 m c (Pipeline.arrRef spec3 1) :=
  ((dat3 (T7 m) c).arrAt_in 1 rfl _).trans ((A_eq3 (T7 m) c 1).trans (U8_of m c _ (by decide) (by decide) (by decide)).symm)
theorem hF3_2 (c : Dev nD) : (dat3 (T7 m) c).arrAt 2 cfg3.N = T8 m c (Pipeline.arrRef spec3 2) :=
  ((dat3 (T7 m) c).arrAt_in 2 rfl _).trans ((A_eq3 (T7 m) c 2).trans (U8_of m c _ (by decide) (by decide) (by decide)).symm)
theorem hF3_3 (c : Dev nD) : (dat3 (T7 m) c).arrAt 3 cfg3.N = T8 m c (Pipeline.arrRef spec3 3) :=
  ((dat3 (T7 m) c).arrAt_in 3 rfl _).trans ((A_eq3 (T7 m) c 3).trans (U8_of m c _ (by decide) (by decide) (by decide)).symm)
theorem hF3_4 (c : Dev nD) : (dat3 (T7 m) c).arrAt 4 cfg3.N = T8 m c (Pipeline.arrRef spec3 4) :=
  (U8_out0 m c).symm
theorem hF3_5 (c : Dev nD) : (dat3 (T7 m) c).arrAt 5 cfg3.N = T8 m c (Pipeline.arrRef spec3 5) :=
  (U8_out1 m c).symm
theorem hF3_6 (c : Dev nD) : (dat3 (T7 m) c).arrAt 6 cfg3.N = T8 m c (Pipeline.arrRef spec3 6) :=
  (U8_out2 m c).symm
theorem hF3 (c : Dev nD) : ∀ w : Fin cfg3.W, (dat3 (T7 m) c).arrAt w cfg3.N = T8 m c (Pipeline.arrRef spec3 w) :=
  fin7_cases (P := fun w => (dat3 (T7 m) c).arrAt w cfg3.N = T8 m c (Pipeline.arrRef spec3 w))
    (hF3_0 m c) (hF3_1 m c) (hF3_2 m c) (hF3_3 m c) (hF3_4 m c) (hF3_5 m c) (hF3_6 m c)
theorem hrest3 (c : Dev nD) : ∀ b, b ∉ Finset.univ.image (Pipeline.arrRef spec3) → T8 m c b = T7 m c b :=
  fun b hb => U8_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF4_0 (c : Dev nD) : (dat4 (T9 m) c).arrAt 0 cfg4.N = T10 m c (Pipeline.arrRef spec4 0) :=
  ((dat4 (T9 m) c).arrAt_in 0 rfl _).trans ((A_eq4 (T9 m) c 0).trans (U10_of m c _ (by decide)).symm)
theorem hF4_1 (c : Dev nD) : (dat4 (T9 m) c).arrAt 1 cfg4.N = T10 m c (Pipeline.arrRef spec4 1) :=
  ((dat4 (T9 m) c).arrAt_in 1 rfl _).trans ((A_eq4 (T9 m) c 1).trans (U10_of m c _ (by decide)).symm)
theorem hF4_2 (c : Dev nD) : (dat4 (T9 m) c).arrAt 2 cfg4.N = T10 m c (Pipeline.arrRef spec4 2) :=
  ((dat4 (T9 m) c).arrAt_in 2 rfl _).trans ((A_eq4 (T9 m) c 2).trans (U10_of m c _ (by decide)).symm)
theorem hF4_3 (c : Dev nD) : (dat4 (T9 m) c).arrAt 3 cfg4.N = T10 m c (Pipeline.arrRef spec4 3) :=
  ((dat4 (T9 m) c).arrAt_in 3 rfl _).trans ((A_eq4 (T9 m) c 3).trans (U10_of m c _ (by decide)).symm)
theorem hF4_4 (c : Dev nD) : (dat4 (T9 m) c).arrAt 4 cfg4.N = T10 m c (Pipeline.arrRef spec4 4) :=
  ((dat4 (T9 m) c).arrAt_in 4 rfl _).trans ((A_eq4 (T9 m) c 4).trans (U10_of m c _ (by decide)).symm)
theorem hF4_5 (c : Dev nD) : (dat4 (T9 m) c).arrAt 5 cfg4.N = T10 m c (Pipeline.arrRef spec4 5) :=
  ((dat4 (T9 m) c).arrAt_in 5 rfl _).trans ((A_eq4 (T9 m) c 5).trans (U10_of m c _ (by decide)).symm)
theorem hF4_6 (c : Dev nD) : (dat4 (T9 m) c).arrAt 6 cfg4.N = T10 m c (Pipeline.arrRef spec4 6) :=
  (U10_out0 m c).symm
theorem hF4 (c : Dev nD) : ∀ w : Fin cfg4.W, (dat4 (T9 m) c).arrAt w cfg4.N = T10 m c (Pipeline.arrRef spec4 w) :=
  fin7_cases (P := fun w => (dat4 (T9 m) c).arrAt w cfg4.N = T10 m c (Pipeline.arrRef spec4 w))
    (hF4_0 m c) (hF4_1 m c) (hF4_2 m c) (hF4_3 m c) (hF4_4 m c) (hF4_5 m c) (hF4_6 m c)
theorem hrest4 (c : Dev nD) : ∀ b, b ∉ Finset.univ.image (Pipeline.arrRef spec4) → T10 m c b = T9 m c b :=
  fun b hb => U10_of m c b (fun e => hb (Finset.mem_image.mpr ⟨6, Finset.mem_univ _, e.symm⟩))
theorem hF5_0 (c : Dev nD) : (dat5 (T11 m) c).arrAt 0 cfg5.N = T12 m c (Pipeline.arrRef spec5 0) :=
  ((dat5 (T11 m) c).arrAt_in 0 rfl _).trans ((A_eq5 (T11 m) c 0).trans (U12_of m c _ (by decide) (by decide) (by decide)).symm)
theorem hF5_1 (c : Dev nD) : (dat5 (T11 m) c).arrAt 1 cfg5.N = T12 m c (Pipeline.arrRef spec5 1) :=
  ((dat5 (T11 m) c).arrAt_in 1 rfl _).trans ((A_eq5 (T11 m) c 1).trans (U12_of m c _ (by decide) (by decide) (by decide)).symm)
theorem hF5_2 (c : Dev nD) : (dat5 (T11 m) c).arrAt 2 cfg5.N = T12 m c (Pipeline.arrRef spec5 2) :=
  ((dat5 (T11 m) c).arrAt_in 2 rfl _).trans ((A_eq5 (T11 m) c 2).trans (U12_of m c _ (by decide) (by decide) (by decide)).symm)
theorem hF5_3 (c : Dev nD) : (dat5 (T11 m) c).arrAt 3 cfg5.N = T12 m c (Pipeline.arrRef spec5 3) :=
  ((dat5 (T11 m) c).arrAt_in 3 rfl _).trans ((A_eq5 (T11 m) c 3).trans (U12_of m c _ (by decide) (by decide) (by decide)).symm)
theorem hF5_4 (c : Dev nD) : (dat5 (T11 m) c).arrAt 4 cfg5.N = T12 m c (Pipeline.arrRef spec5 4) :=
  (U12_out0 m c).symm
theorem hF5_5 (c : Dev nD) : (dat5 (T11 m) c).arrAt 5 cfg5.N = T12 m c (Pipeline.arrRef spec5 5) :=
  (U12_out1 m c).symm
theorem hF5_6 (c : Dev nD) : (dat5 (T11 m) c).arrAt 6 cfg5.N = T12 m c (Pipeline.arrRef spec5 6) :=
  (U12_out2 m c).symm
theorem hF5 (c : Dev nD) : ∀ w : Fin cfg5.W, (dat5 (T11 m) c).arrAt w cfg5.N = T12 m c (Pipeline.arrRef spec5 w) :=
  fin7_cases (P := fun w => (dat5 (T11 m) c).arrAt w cfg5.N = T12 m c (Pipeline.arrRef spec5 w))
    (hF5_0 m c) (hF5_1 m c) (hF5_2 m c) (hF5_3 m c) (hF5_4 m c) (hF5_5 m c) (hF5_6 m c)
theorem hrest5 (c : Dev nD) : ∀ b, b ∉ Finset.univ.image (Pipeline.arrRef spec5) → T12 m c b = T11 m c b :=
  fun b hb => U12_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF6_0 (c : Dev nD) : (dat6 (T13 m) c).arrAt 0 cfg6.N = T14 m c (Pipeline.arrRef spec6 0) :=
  ((dat6 (T13 m) c).arrAt_in 0 rfl _).trans ((A_eq6 (T13 m) c 0).trans (U14_of m c _ (by decide)).symm)
theorem hF6_1 (c : Dev nD) : (dat6 (T13 m) c).arrAt 1 cfg6.N = T14 m c (Pipeline.arrRef spec6 1) :=
  ((dat6 (T13 m) c).arrAt_in 1 rfl _).trans ((A_eq6 (T13 m) c 1).trans (U14_of m c _ (by decide)).symm)
theorem hF6_2 (c : Dev nD) : (dat6 (T13 m) c).arrAt 2 cfg6.N = T14 m c (Pipeline.arrRef spec6 2) :=
  ((dat6 (T13 m) c).arrAt_in 2 rfl _).trans ((A_eq6 (T13 m) c 2).trans (U14_of m c _ (by decide)).symm)
theorem hF6_3 (c : Dev nD) : (dat6 (T13 m) c).arrAt 3 cfg6.N = T14 m c (Pipeline.arrRef spec6 3) :=
  ((dat6 (T13 m) c).arrAt_in 3 rfl _).trans ((A_eq6 (T13 m) c 3).trans (U14_of m c _ (by decide)).symm)
theorem hF6_4 (c : Dev nD) : (dat6 (T13 m) c).arrAt 4 cfg6.N = T14 m c (Pipeline.arrRef spec6 4) :=
  ((dat6 (T13 m) c).arrAt_in 4 rfl _).trans ((A_eq6 (T13 m) c 4).trans (U14_of m c _ (by decide)).symm)
theorem hF6_5 (c : Dev nD) : (dat6 (T13 m) c).arrAt 5 cfg6.N = T14 m c (Pipeline.arrRef spec6 5) :=
  ((dat6 (T13 m) c).arrAt_in 5 rfl _).trans ((A_eq6 (T13 m) c 5).trans (U14_of m c _ (by decide)).symm)
theorem hF6_6 (c : Dev nD) : (dat6 (T13 m) c).arrAt 6 cfg6.N = T14 m c (Pipeline.arrRef spec6 6) :=
  ((dat6 (T13 m) c).arrAt_in 6 rfl _).trans ((A_eq6 (T13 m) c 6).trans (U14_of m c _ (by decide)).symm)
theorem hF6_7 (c : Dev nD) : (dat6 (T13 m) c).arrAt 7 cfg6.N = T14 m c (Pipeline.arrRef spec6 7) :=
  ((dat6 (T13 m) c).arrAt_in 7 rfl _).trans ((A_eq6 (T13 m) c 7).trans (U14_of m c _ (by decide)).symm)
theorem hF6_8 (c : Dev nD) : (dat6 (T13 m) c).arrAt 8 cfg6.N = T14 m c (Pipeline.arrRef spec6 8) :=
  ((dat6 (T13 m) c).arrAt_in 8 rfl _).trans ((A_eq6 (T13 m) c 8).trans (U14_of m c _ (by decide)).symm)
theorem hF6_9 (c : Dev nD) : (dat6 (T13 m) c).arrAt 9 cfg6.N = T14 m c (Pipeline.arrRef spec6 9) :=
  ((dat6 (T13 m) c).arrAt_in 9 rfl _).trans ((A_eq6 (T13 m) c 9).trans (U14_of m c _ (by decide)).symm)
theorem hF6_10 (c : Dev nD) : (dat6 (T13 m) c).arrAt 10 cfg6.N = T14 m c (Pipeline.arrRef spec6 10) :=
  (U14_out0 m c).symm
theorem hF6 (c : Dev nD) : ∀ w : Fin cfg6.W, (dat6 (T13 m) c).arrAt w cfg6.N = T14 m c (Pipeline.arrRef spec6 w) :=
  fin11_cases (P := fun w => (dat6 (T13 m) c).arrAt w cfg6.N = T14 m c (Pipeline.arrRef spec6 w))
    (hF6_0 m c) (hF6_1 m c) (hF6_2 m c) (hF6_3 m c) (hF6_4 m c) (hF6_5 m c) (hF6_6 m c) (hF6_7 m c) (hF6_8 m c) (hF6_9 m c) (hF6_10 m c)
theorem hrest6 (c : Dev nD) : ∀ b, b ∉ Finset.univ.image (Pipeline.arrRef spec6) → T14 m c b = T13 m c b :=
  fun b hb => U14_of m c b (fun e => hb (Finset.mem_image.mpr ⟨10, Finset.mem_univ _, e.symm⟩))

/-! # The proof data family and the thread state -/

/-- Every pipeline's proof data, each at its region's entry contents. -/
def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c

/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The unscoped buffers held at equal contents. -/
theorem held_congr (c : Dev nD) {V V' : Valuation τ sig (Elt F)} (h : V = V') (P : sProp 𝕄) :
    iprop(StableHlo.held (c : Thread nD τ) (Pipeline.ucRefs τ sig) V ∗ P) ⊢ iprop(StableHlo.held (c : Thread nD τ) (Pipeline.ucRefs τ sig) V' ∗ P) := by
  subst h; exact .rfl

/-! # The regions as segments

Each region is entered from every unscoped buffer at the contents the stretch before it leaves and left at those
contents with its output arrays replaced: its arrays are split out of the unscoped buffers at entry and put back at the
exit contents; the generator register goes into the region's invariant and comes back; nothing is owed; the kernels
have no semaphore of their own. -/

set_option backward.isDefEq.respectTransparency.types false in
/-- Region 0 over the thread state: entered at `U1`, left at `U2`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun w => A_eq0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `U3`, left at `U4`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun w => A_eq1 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `U5`, left at `U6`. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun w => A_eq2 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered at `U7`, left at `U8`. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (T7 m c) fun w => A_eq3 (T7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered at `U9`, left at `U10`. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (T9 m c) fun w => A_eq4 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered at `U11`, left at `U12`. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (T11 m c) fun w => A_eq5 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered at `U13`, left at `U14`. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (T13 m c) fun w => A_eq6 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (T13 m) c)
    unfold Pipeline.ΦA
    iintro ⟨Hp, -, Hr⟩
    isplitl [Hr]; · iexact Hr
    iexact Hp
  hout c := by
    rw [Pipeline.ownSems0_none]
    refine BIBase.Entails.trans (hout6 (T13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

-- the launch theorem's implicit arguments are found by unifying its conclusion with this one, which takes unfolding
-- plain definitions in a metavariable's type
set_option backward.isDefEq.respectTransparency.types false in
/-- Every weakly fair execution of @main from memory `m` with zero counters terminates, and in every final memory each
    core's unscoped buffers hold the last boundary's contents `U15`: the host stretches and the seven regions in @main's
    order, each entered from what the item before it leaves; the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = U15 m c b) := by
  refine Pipeline.θ_run_regions_kit_dev (pcfgs (F := F)) Gen.adm (pdats m) () cellOf_inj emb₁ defs₀ Variants.none L lv m ρ main
    (Gen.segs m (outs m) Variants.none L lv (fun _ c => R c) () (pdats m) (reg0 m) (reg1 m) (reg2 m) (reg3 m) (reg4 m) (reg5 m) (reg6 m))
    (fun c Q => by
      rewrite [main_chain c, Pipeline.Seg.run_eq_chain,
        show (Gen.segs m (outs m) Variants.none L lv (fun _ c => R c) () (pdats m) (reg0 m) (reg1 m) (reg2 m) (reg3 m) (reg4 m) (reg5 m) (reg6 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (U15 m c))
    (hch := fun c => ⟨.rfl,
      held_congr c (V1_eq m c) _,
      held_congr c (V2_eq m c).symm _,
      held_congr c (V3_eq m c) _,
      held_congr c (V4_eq m c).symm _,
      held_congr c (V5_eq m c) _,
      held_congr c (V6_eq m c).symm _,
      held_congr c (V7_eq m c) _,
      held_congr c (V8_eq m c).symm _,
      held_congr c (V9_eq m c) _,
      held_congr c (V10_eq m c).symm _,
      held_congr c (V11_eq m c) _,
      held_congr c (V12_eq m c).symm _,
      held_congr c (V13_eq m c) _,
      held_congr c (V14_eq m c).symm _,
      (held_congr c (V15_eq m c) _).trans (sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m c b)
    (hfin := fun c s' => by
      iintro ⟨Hh, HSI⟩
      unfold StableHlo.held
      imodintro
      iapply (pointsTo_read_all (Pipeline.ucRefs τ sig) (fun b => (((c : Thread nD τ)).1, b)) (U15 m c) s')
      isplitl [Hh] <;> iassumption)
    (hQ := fun _ h => h)

/-- The frame: every argument array ends holding its launch contents — no host stretch writes an argument and no
    region may change one, so the last boundary's contents at an argument walk back to the launch memory. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans ((congrFun (V15_eq m c).symm _).trans (Gen.V15_main_arg0 m (outs m) c)),
     (h c _ (mem_uc main_arg1 (by decide))).trans ((congrFun (V15_eq m c).symm _).trans (Gen.V15_main_arg1 m (outs m) c)),
     (h c _ (mem_uc main_arg2 (by decide))).trans ((congrFun (V15_eq m c).symm _).trans (Gen.V15_main_arg2 m (outs m) c)),
     (h c _ (mem_uc main_arg3 (by decide))).trans ((congrFun (V15_eq m c).symm _).trans (Gen.V15_main_arg3 m (outs m) c)),
     (h c _ (mem_uc main_arg4 (by decide))).trans ((congrFun (V15_eq m c).symm _).trans (Gen.V15_main_arg4 m (outs m) c)),
     (h c _ (mem_uc main_arg5 (by decide))).trans ((congrFun (V15_eq m c).symm _).trans (Gen.V15_main_arg5 m (outs m) c)),
     (h c _ (mem_uc main_arg6 (by decide))).trans ((congrFun (V15_eq m c).symm _).trans (Gen.V15_main_arg6 m (outs m) c)),
     (h c _ (mem_uc main_arg7 (by decide))).trans ((congrFun (V15_eq m c).symm _).trans (Gen.V15_main_arg7 m (outs m) c)),
     (h c _ (mem_uc main_arg8 (by decide))).trans ((congrFun (V15_eq m c).symm _).trans (Gen.V15_main_arg8 m (outs m) c)),
     (h c _ (mem_uc main_arg9 (by decide))).trans ((congrFun (V15_eq m c).symm _).trans (Gen.V15_main_arg9 m (outs m) c)),
     (h c _ (mem_uc main_arg10 (by decide))).trans ((congrFun (V15_eq m c).symm _).trans (Gen.V15_main_arg10 m (outs m) c)),
     (h c _ (mem_uc main_arg11 (by decide))).trans ((congrFun (V15_eq m c).symm _).trans (Gen.V15_main_arg11 m (outs m) c)),
     (h c _ (mem_uc main_arg12 (by decide))).trans ((congrFun (V15_eq m c).symm _).trans (Gen.V15_main_arg12 m (outs m) c)),
     (h c _ (mem_uc main_arg13 (by decide))).trans ((congrFun (V15_eq m c).symm _).trans (Gen.V15_main_arg13 m (outs m) c)),
     (h c _ (mem_uc main_arg14 (by decide))).trans ((congrFun (V15_eq m c).symm _).trans (Gen.V15_main_arg14 m (outs m) c)),
     (h c _ (mem_uc main_arg15 (by decide))).trans ((congrFun (V15_eq m c).symm _).trans (Gen.V15_main_arg15 m (outs m) c)),
     (h c _ (mem_uc main_arg16 (by decide))).trans ((congrFun (V15_eq m c).symm _).trans (Gen.V15_main_arg16 m (outs m) c)),
     (h c _ (mem_uc main_arg17 (by decide))).trans ((congrFun (V15_eq m c).symm _).trans (Gen.V15_main_arg17 m (outs m) c)),
     (h c _ (mem_uc main_arg18 (by decide))).trans ((congrFun (V15_eq m c).symm _).trans (Gen.V15_main_arg18 m (outs m) c))⟩) (run_all m ρ)

/-- The result beside the frame: the returned array ends at the last boundary's contents. -/
theorem result (ρ : Dev nD → PrngReg) : θ_run defs (onTc (τ := τ) (main (F := F))) ⟨m, fun _ => 0, ρ⟩ (fun r => ∀ c : Dev nD,
      r.2.mem ((c.tc : Thread nD τ).loc main_v111) = U15 m c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v111 (by decide)),
     (h c _ (mem_uc main_arg0 (by decide))).trans ((congrFun (V15_eq m c).symm _).trans (Gen.V15_main_arg0 m (outs m) c)),
     (h c _ (mem_uc main_arg1 (by decide))).trans ((congrFun (V15_eq m c).symm _).trans (Gen.V15_main_arg1 m (outs m) c)),
     (h c _ (mem_uc main_arg2 (by decide))).trans ((congrFun (V15_eq m c).symm _).trans (Gen.V15_main_arg2 m (outs m) c)),
     (h c _ (mem_uc main_arg3 (by decide))).trans ((congrFun (V15_eq m c).symm _).trans (Gen.V15_main_arg3 m (outs m) c)),
     (h c _ (mem_uc main_arg4 (by decide))).trans ((congrFun (V15_eq m c).symm _).trans (Gen.V15_main_arg4 m (outs m) c)),
     (h c _ (mem_uc main_arg5 (by decide))).trans ((congrFun (V15_eq m c).symm _).trans (Gen.V15_main_arg5 m (outs m) c)),
     (h c _ (mem_uc main_arg6 (by decide))).trans ((congrFun (V15_eq m c).symm _).trans (Gen.V15_main_arg6 m (outs m) c)),
     (h c _ (mem_uc main_arg7 (by decide))).trans ((congrFun (V15_eq m c).symm _).trans (Gen.V15_main_arg7 m (outs m) c)),
     (h c _ (mem_uc main_arg8 (by decide))).trans ((congrFun (V15_eq m c).symm _).trans (Gen.V15_main_arg8 m (outs m) c)),
     (h c _ (mem_uc main_arg9 (by decide))).trans ((congrFun (V15_eq m c).symm _).trans (Gen.V15_main_arg9 m (outs m) c)),
     (h c _ (mem_uc main_arg10 (by decide))).trans ((congrFun (V15_eq m c).symm _).trans (Gen.V15_main_arg10 m (outs m) c)),
     (h c _ (mem_uc main_arg11 (by decide))).trans ((congrFun (V15_eq m c).symm _).trans (Gen.V15_main_arg11 m (outs m) c)),
     (h c _ (mem_uc main_arg12 (by decide))).trans ((congrFun (V15_eq m c).symm _).trans (Gen.V15_main_arg12 m (outs m) c)),
     (h c _ (mem_uc main_arg13 (by decide))).trans ((congrFun (V15_eq m c).symm _).trans (Gen.V15_main_arg13 m (outs m) c)),
     (h c _ (mem_uc main_arg14 (by decide))).trans ((congrFun (V15_eq m c).symm _).trans (Gen.V15_main_arg14 m (outs m) c)),
     (h c _ (mem_uc main_arg15 (by decide))).trans ((congrFun (V15_eq m c).symm _).trans (Gen.V15_main_arg15 m (outs m) c)),
     (h c _ (mem_uc main_arg16 (by decide))).trans ((congrFun (V15_eq m c).symm _).trans (Gen.V15_main_arg16 m (outs m) c)),
     (h c _ (mem_uc main_arg17 (by decide))).trans ((congrFun (V15_eq m c).symm _).trans (Gen.V15_main_arg17 m (outs m) c)),
     (h c _ (mem_uc main_arg18 (by decide))).trans ((congrFun (V15_eq m c).symm _).trans (Gen.V15_main_arg18 m (outs m) c))⟩) (run_all m ρ)

end Cert.Kernel.Hand

end
-- ==== Proof.KI.R0.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a block of rows, its index moving with the point) holds its block at every point, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, its index constant) holds its block at every point, fetched there or
    not: where it is not fetched the index has not moved, and the buffer still holds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product of the
    block of rows with the weight matrix, over the whole buffer. -/
def out0_2 (x0 : Vec F S5000x128 .f32) (x1 : Vec F S128x128 .f32) : Vec F S5000x128 .f32 :=
  View.canon [⟨r0_0, k0_pay1 (View.ld x0 r0_0) (View.ld x1 r0_1)⟩]

/-- The store's rectangle is the whole buffer, so it covers it. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. The load of
    the output buffer before the store reads whatever is there and its value is never used. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the input blocks; the invariant the class's (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (an unfetched
    window's block index has not moved), for any proof data whose array is `V`'s and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: "this is the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k1_pay1`, and each accumulator at its reset value (zero) plus this block's column sums: the reset store covers
    the accumulator's buffer, so the load after it reads the zero vector back whatever the buffer held. -/
theorem sound_kernel1_A (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond1_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay1 x0 x1 x2 x3)
            ∗ owns (c : Thread nD τ) arg6 fullShare (k1_pay4 x0 x1 x2 x3 k1_pay2)
            ∗ owns (c : Thread nD τ) arg7 fullShare (k1_pay5 x0 x1 x2 x3 k1_pay3)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel1_A.sl.v17 sound_kernel1_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel1_A.sl.v23 sound_kernel1_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel1_B (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond1_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k1_pay1 x0 x1 x2 x3)
            ∗ owns (c : Thread nD τ) arg6 fullShare (k1_pay4 x0 x1 x2 x3 xo5)
            ∗ owns (c : Thread nD τ) arg7 fullShare (k1_pay5 x0 x1 x2 x3 xo6)) -∗ K ⟨⟩))
      ⊢ wp frame (wpE (defs₀ (F := F)) Variants.none c none) E (cc1__combine_stats_kernel i arg1 harg1 arg2 harg2 arg3 harg3 arg4 harg4 arg5 harg5 arg6 harg6 arg7 harg7) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt1_5 (c : Dev nD) : (n : ℕ) → n < cfg1.N → Vec F S1x128 .f32
  | 0, hn => k1_pay4 (iblk1 V c 0 ⟨0, hn⟩) (iblk1 V c 1 ⟨0, hn⟩) (iblk1 V c 2 ⟨0, hn⟩) (iblk1 V c 3 ⟨0, hn⟩) k1_pay2
  | n + 1, hn => k1_pay4 (iblk1 V c 0 ⟨n + 1, hn⟩) (iblk1 V c 1 ⟨n + 1, hn⟩) (iblk1 V c 2 ⟨n + 1, hn⟩) (iblk1 V c 3 ⟨n + 1, hn⟩) (outsAt1_5 c n (Nat.lt_of_succ_lt hn))

theorem outsAt1_5_zero (c : Dev nD) (hn : 0 < cfg1.N) :
    outsAt1_5 V c 0 hn = k1_pay4 (iblk1 V c 0 ⟨0, hn⟩) (iblk1 V c 1 ⟨0, hn⟩) (iblk1 V c 2 ⟨0, hn⟩) (iblk1 V c 3 ⟨0, hn⟩) k1_pay2 := rfl

theorem outsAt1_5_succ (c : Dev nD) (n : ℕ) (hn : n + 1 < cfg1.N) :
    outsAt1_5 V c (n + 1) hn = k1_pay4 (iblk1 V c 0 ⟨n + 1, hn⟩) (iblk1 V c 1 ⟨n + 1, hn⟩) (iblk1 V c 2 ⟨n + 1, hn⟩) (iblk1 V c 3 ⟨n + 1, hn⟩) (outsAt1_5 V c n (Nat.lt_of_succ_lt hn)) := rfl

/-- At the first point. -/
theorem outsAt1_5_A (c : Dev nD) (t : Fin cfg1.N) (h0 : t.val % 10 = 0) :
    outsAt1_5 V c t.val t.isLt = k1_pay4 (iblk1 V c 0 t) (iblk1 V c 1 t) (iblk1 V c 2 t) (iblk1 V c 3 t) k1_pay2 := by
  have hN : t.val < 10 := lt_of_lt_of_eq t.isLt (show cfg1.N = 10 from N_1)
  obtain ⟨n, hn⟩ := t
  cases n with
  | zero => exact rfl
  | succ n => exfalso; dsimp only at h0 hN; omega

/-- At a later point: over what the point before left. -/
theorem outsAt1_5_B (c : Dev nD) (t : Fin cfg1.N) (h0 : ¬t.val % 10 = 0) :
    outsAt1_5 V c t.val t.isLt = k1_pay4 (iblk1 V c 0 t) (iblk1 V c 1 t) (iblk1 V c 2 t) (iblk1 V c 3 t) (outsAt1_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt1_6 (c : Dev nD) : (n : ℕ) → n < cfg1.N → Vec F S1x128 .f32
  | 0, hn => k1_pay5 (iblk1 V c 0 ⟨0, hn⟩) (iblk1 V c 1 ⟨0, hn⟩) (iblk1 V c 2 ⟨0, hn⟩) (iblk1 V c 3 ⟨0, hn⟩) k1_pay3
  | n + 1, hn => k1_pay5 (iblk1 V c 0 ⟨n + 1, hn⟩) (iblk1 V c 1 ⟨n + 1, hn⟩) (iblk1 V c 2 ⟨n + 1, hn⟩) (iblk1 V c 3 ⟨n + 1, hn⟩) (outsAt1_6 c n (Nat.lt_of_succ_lt hn))

theorem outsAt1_6_zero (c : Dev nD) (hn : 0 < cfg1.N) :
    outsAt1_6 V c 0 hn = k1_pay5 (iblk1 V c 0 ⟨0, hn⟩) (iblk1 V c 1 ⟨0, hn⟩) (iblk1 V c 2 ⟨0, hn⟩) (iblk1 V c 3 ⟨0, hn⟩) k1_pay3 := rfl

theorem outsAt1_6_succ (c : Dev nD) (n : ℕ) (hn : n + 1 < cfg1.N) :
    outsAt1_6 V c (n + 1) hn = k1_pay5 (iblk1 V c 0 ⟨n + 1, hn⟩) (iblk1 V c 1 ⟨n + 1, hn⟩) (iblk1 V c 2 ⟨n + 1, hn⟩) (iblk1 V c 3 ⟨n + 1, hn⟩) (outsAt1_6 V c n (Nat.lt_of_succ_lt hn)) := rfl

/-- At the first point. -/
theorem outsAt1_6_A (c : Dev nD) (t : Fin cfg1.N) (h0 : t.val % 10 = 0) :
    outsAt1_6 V c t.val t.isLt = k1_pay5 (iblk1 V c 0 t) (iblk1 V c 1 t) (iblk1 V c 2 t) (iblk1 V c 3 t) k1_pay3 := by
  have hN : t.val < 10 := lt_of_lt_of_eq t.isLt (show cfg1.N = 10 from N_1)
  obtain ⟨n, hn⟩ := t
  cases n with
  | zero => exact rfl
  | succ n => exfalso; dsimp only at h0 hN; omega

/-- At a later point: over what the point before left. -/
theorem outsAt1_6_B (c : Dev nD) (t : Fin cfg1.N) (h0 : ¬t.val % 10 = 0) :
    outsAt1_6 V c t.val t.isLt = k1_pay5 (iblk1 V c 0 t) (iblk1 V c 1 t) (iblk1 V c 2 t) (iblk1 V c 3 t) (outsAt1_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k1_pay1` of the input blocks, each
    accumulator's at its running sum; the invariant the class's; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
    | ⟨5, _⟩ => outsAt1_5 V c t.val t.isLt
    | ⟨6, _⟩ => outsAt1_6 V c t.val t.isLt
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (iblk1 V c 0 t) (iblk1 V c 1 t) (iblk1 V c 2 t) (iblk1 V c 3 t) := by dsimp only [dat1]
theorem after1_5 (c : Dev nD) (t : Fin cfg1.N) : (dat1 V c).after 5 t = outsAt1_5 V c t.val t.isLt := by dsimp only [dat1]
theorem after1_6 (c : Dev nD) (t : Fin cfg1.N) : (dat1 V c).after 6 t = outsAt1_6 V c t.val t.isLt := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a later point accumulator 5's staging buffer holds what the body left at the point before: the point is not the
    first, the buffer was not written back in between (only after the last point), the window is live and uncut. -/
theorem before1_5_B (c : Dev nD) (t : Fin cfg1.N) (h0 : ¬t.val % 10 = 0) (d) :
    (dat1 V c).before 5 t d = outsAt1_5 V c (t.val - 1) (Nat.lt_of_le_of_lt (Nat.sub_le _ _) t.isLt) := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]
/-- At a later point accumulator 6's staging buffer holds what the body left at the point before: the point is not the
    first, the buffer was not written back in between (only after the last point), the window is live and uncut. -/
theorem before1_6_B (c : Dev nD) (t : Fin cfg1.N) (h0 : ¬t.val % 10 = 0) (d) :
    (dat1 V c).before 6 t d = outsAt1_6 V c (t.val - 1) (Nat.lt_of_le_of_lt (Nat.sub_le _ _) t.isLt) := by
  have hN : t.val < 10 := lt_of_lt_of_eq t.isLt (show cfg1.N = 10 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  by_cases h0 : t.val % 10 = 0
  · rw [outsAt1_5_A V c t h0, outsAt1_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ ((hcond1_0 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt1_5_B V c t h0, outsAt1_6_B V c t h0]
    simp only [before1_5_B V c t h0, before1_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ (grid1.coords t) _ _ _ _ _ _ _ _ _ _ _ _ _ _ (fun h => h0 ((hcond1_0 t).mp h)) (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R2.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a block of rows, its index moving with the point) holds its block at every point, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (a row of per-column values, its index constant) holds its block at every point, fetched there or not, for any proof data
    whose array is the entry contents and whose body leaves the block in place: where it is not fetched the index has
    not moved, and the buffer still holds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (a row of per-column values, its index constant) holds its block at every point, fetched there or not, for any proof data
    whose array is the entry contents and whose body leaves the block in place: where it is not fetched the index has
    not moved, and the buffer still holds the same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (a row of per-column values, its index constant) holds its block at every point, fetched there or not, for any proof data
    whose array is the entry contents and whose body leaves the block in place: where it is not fetched the index has
    not moved, and the buffer still holds the same block. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (a row of per-column values, its index constant) holds its block at every point, fetched there or not, for any proof data
    whose array is the entry contents and whose body leaves the block in place: where it is not fetched the index has
    not moved, and the buffer still holds the same block. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the whole weight matrix, its index constant) holds its block at every point, fetched there or not, for any proof data
    whose array is the entry contents and whose body leaves the block in place: where it is not fetched the index has
    not moved, and the buffer still holds the same block. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0

/-! ## What the body leaves in the output window's buffer -/

/-- Window 6's staging buffer after the body, from the input windows' blocks: its one store, of the product of the
    normalised, rectified block of rows with the weight matrix, over the whole buffer. -/
def out2_6 (x0 : Vec F S5000x128 .f32) (x1 : Vec F S1x128 .f32) (x2 : Vec F S1x128 .f32) (x3 : Vec F S1x128 .f32) (x4 : Vec F S1x128 .f32) (x5 : Vec F S128x128 .f32) : Vec F S5000x128 .f32 :=
  View.canon [⟨r2_0, k2_pay1 (View.ld x0 r2_0) (View.ld x1 r2_1) (View.ld x2 r2_1) (View.ld x3 r2_1) (View.ld x4 r2_1) (View.ld x5 r2_2)⟩]

/-- The store's rectangle is the whole buffer, so it covers it. -/
theorem cover2_6 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the inputs' at read contents `xW` and the output's at anything, runs to
    the continuation holding the inputs' as they were and the output's at `out2_6` of the inputs'. The load of the
    output buffer before the store reads whatever is there and its value is never used. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__bn_relu_linear_kernel i arg1 harg1 arg2 harg2 arg3 harg3 arg4 harg4 arg5 harg5 arg6 harg6 arg7 harg7) K := by
  simp only [cc2__bn_relu_linear_kernel_eq_skeleton]; unfold cc2__bn_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The proof data of the pipeline on core `c`: the arrays as the region finds them; after the body at point `t` each
    input's buffer at its block and the output's at `out2_6` of the input blocks; the invariant the class's (the scoped
    rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.R3.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not (an unfetched
    window's block index has not moved), for any proof data whose array is `V`'s and whose body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, from the grid coordinates: "this is the first point". -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k3_pay1`, and each accumulator at its reset value (zero) plus this block's column sums: the reset store covers
    the accumulator's buffer, so the load after it reads the zero vector back whatever the buffer held. -/
theorem sound_kernel3_A (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond3_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay1 x0 x1 x2 x3)
            ∗ owns (c : Thread nD τ) arg6 fullShare (k3_pay4 x0 x1 x2 x3 k3_pay2)
            ∗ owns (c : Thread nD τ) arg7 fullShare (k3_pay5 x0 x1 x2 x3 k3_pay3)) -∗ K ⟨⟩))
      ⊢ wp frame (wpE (defs₀ (F := F)) Variants.none c none) E (cc3__combine_stats_kernel i arg1 harg1 arg2 harg2 arg3 harg3 arg4 harg4 arg5 harg5 arg6 harg6 arg7 harg7) K := by
  simp only [cc3__combine_stats_kernel_eq_skeleton]; unfold cc3__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel3_A.sl.v17 sound_kernel3_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel3_A.sl.v23 sound_kernel3_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel3_B (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond3_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay1 x0 x1 x2 x3)
            ∗ owns (c : Thread nD τ) arg6 fullShare (k3_pay4 x0 x1 x2 x3 xo5)
            ∗ owns (c : Thread nD τ) arg7 fullShare (k3_pay5 x0 x1 x2 x3 xo6)) -∗ K ⟨⟩))
      ⊢ wp frame (wpE (defs₀ (F := F)) Variants.none c none) E (cc3__combine_stats_kernel i arg1 harg1 arg2 harg2 arg3 harg3 arg4 harg4 arg5 harg5 arg6 harg6 arg7 harg7) K := by
  simp only [cc3__combine_stats_kernel_eq_skeleton]; unfold cc3__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt3_5 (c : Dev nD) : (n : ℕ) → n < cfg3.N → Vec F S1x128 .f32
  | 0, hn => k3_pay4 (iblk3 V c 0 ⟨0, hn⟩) (iblk3 V c 1 ⟨0, hn⟩) (iblk3 V c 2 ⟨0, hn⟩) (iblk3 V c 3 ⟨0, hn⟩) k3_pay2
  | n + 1, hn => k3_pay4 (iblk3 V c 0 ⟨n + 1, hn⟩) (iblk3 V c 1 ⟨n + 1, hn⟩) (iblk3 V c 2 ⟨n + 1, hn⟩) (iblk3 V c 3 ⟨n + 1, hn⟩) (outsAt3_5 c n (Nat.lt_of_succ_lt hn))

theorem outsAt3_5_zero (c : Dev nD) (hn : 0 < cfg3.N) :
    outsAt3_5 V c 0 hn = k3_pay4 (iblk3 V c 0 ⟨0, hn⟩) (iblk3 V c 1 ⟨0, hn⟩) (iblk3 V c 2 ⟨0, hn⟩) (iblk3 V c 3 ⟨0, hn⟩) k3_pay2 := rfl

theorem outsAt3_5_succ (c : Dev nD) (n : ℕ) (hn : n + 1 < cfg3.N) :
    outsAt3_5 V c (n + 1) hn = k3_pay4 (iblk3 V c 0 ⟨n + 1, hn⟩) (iblk3 V c 1 ⟨n + 1, hn⟩) (iblk3 V c 2 ⟨n + 1, hn⟩) (iblk3 V c 3 ⟨n + 1, hn⟩) (outsAt3_5 V c n (Nat.lt_of_succ_lt hn)) := rfl

/-- At the first point. -/
theorem outsAt3_5_A (c : Dev nD) (t : Fin cfg3.N) (h0 : t.val % 10 = 0) :
    outsAt3_5 V c t.val t.isLt = k3_pay4 (iblk3 V c 0 t) (iblk3 V c 1 t) (iblk3 V c 2 t) (iblk3 V c 3 t) k3_pay2 := by
  have hN : t.val < 10 := lt_of_lt_of_eq t.isLt (show cfg3.N = 10 from N_3)
  obtain ⟨n, hn⟩ := t
  cases n with
  | zero => exact rfl
  | succ n => exfalso; dsimp only at h0 hN; omega

/-- At a later point: over what the point before left. -/
theorem outsAt3_5_B (c : Dev nD) (t : Fin cfg3.N) (h0 : ¬t.val % 10 = 0) :
    outsAt3_5 V c t.val t.isLt = k3_pay4 (iblk3 V c 0 t) (iblk3 V c 1 t) (iblk3 V c 2 t) (iblk3 V c 3 t) (outsAt3_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt3_6 (c : Dev nD) : (n : ℕ) → n < cfg3.N → Vec F S1x128 .f32
  | 0, hn => k3_pay5 (iblk3 V c 0 ⟨0, hn⟩) (iblk3 V c 1 ⟨0, hn⟩) (iblk3 V c 2 ⟨0, hn⟩) (iblk3 V c 3 ⟨0, hn⟩) k3_pay3
  | n + 1, hn => k3_pay5 (iblk3 V c 0 ⟨n + 1, hn⟩) (iblk3 V c 1 ⟨n + 1, hn⟩) (iblk3 V c 2 ⟨n + 1, hn⟩) (iblk3 V c 3 ⟨n + 1, hn⟩) (outsAt3_6 c n (Nat.lt_of_succ_lt hn))

theorem outsAt3_6_zero (c : Dev nD) (hn : 0 < cfg3.N) :
    outsAt3_6 V c 0 hn = k3_pay5 (iblk3 V c 0 ⟨0, hn⟩) (iblk3 V c 1 ⟨0, hn⟩) (iblk3 V c 2 ⟨0, hn⟩) (iblk3 V c 3 ⟨0, hn⟩) k3_pay3 := rfl

theorem outsAt3_6_succ (c : Dev nD) (n : ℕ) (hn : n + 1 < cfg3.N) :
    outsAt3_6 V c (n + 1) hn = k3_pay5 (iblk3 V c 0 ⟨n + 1, hn⟩) (iblk3 V c 1 ⟨n + 1, hn⟩) (iblk3 V c 2 ⟨n + 1, hn⟩) (iblk3 V c 3 ⟨n + 1, hn⟩) (outsAt3_6 V c n (Nat.lt_of_succ_lt hn)) := rfl

/-- At the first point. -/
theorem outsAt3_6_A (c : Dev nD) (t : Fin cfg3.N) (h0 : t.val % 10 = 0) :
    outsAt3_6 V c t.val t.isLt = k3_pay5 (iblk3 V c 0 t) (iblk3 V c 1 t) (iblk3 V c 2 t) (iblk3 V c 3 t) k3_pay3 := by
  have hN : t.val < 10 := lt_of_lt_of_eq t.isLt (show cfg3.N = 10 from N_3)
  obtain ⟨n, hn⟩ := t
  cases n with
  | zero => exact rfl
  | succ n => exfalso; dsimp only at h0 hN; omega

/-- At a later point: over what the point before left. -/
theorem outsAt3_6_B (c : Dev nD) (t : Fin cfg3.N) (h0 : ¬t.val % 10 = 0) :
    outsAt3_6 V c t.val t.isLt = k3_pay5 (iblk3 V c 0 t) (iblk3 V c 1 t) (iblk3 V c 2 t) (iblk3 V c 3 t) (outsAt3_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k3_pay1` of the input blocks, each
    accumulator's at its running sum; the invariant the class's; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
    | ⟨5, _⟩ => outsAt3_5 V c t.val t.isLt
    | ⟨6, _⟩ => outsAt3_6 V c t.val t.isLt
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = k3_pay1 (iblk3 V c 0 t) (iblk3 V c 1 t) (iblk3 V c 2 t) (iblk3 V c 3 t) := by dsimp only [dat3]
theorem after3_5 (c : Dev nD) (t : Fin cfg3.N) : (dat3 V c).after 5 t = outsAt3_5 V c t.val t.isLt := by dsimp only [dat3]
theorem after3_6 (c : Dev nD) (t : Fin cfg3.N) : (dat3 V c).after 6 t = outsAt3_6 V c t.val t.isLt := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
/-- At a later point accumulator 5's staging buffer holds what the body left at the point before: the point is not the
    first, the buffer was not written back in between (only after the last point), the window is live and uncut. -/
theorem before3_5_B (c : Dev nD) (t : Fin cfg3.N) (h0 : ¬t.val % 10 = 0) (d) :
    (dat3 V c).before 5 t d = outsAt3_5 V c (t.val - 1) (Nat.lt_of_le_of_lt (Nat.sub_le _ _) t.isLt) := by
  have hN : t.val < 10 := lt_of_lt_of_eq t.isLt (show cfg3.N = 10 from N_3)
  rw [Dat.before_out_kept _ 5 rfl t (by omega) (Bool.eq_false_iff.mpr fun h => by have := (flush3_5 _).mp h; dsimp only at this; omega)
    (fun _ => rfl) (fun _ _ => rfl)]
  dsimp only [dat3]
/-- At a later point accumulator 6's staging buffer holds what the body left at the point before: the point is not the
    first, the buffer was not written back in between (only after the last point), the window is live and uncut. -/
theorem before3_6_B (c : Dev nD) (t : Fin cfg3.N) (h0 : ¬t.val % 10 = 0) (d) :
    (dat3 V c).before 6 t d = outsAt3_6 V c (t.val - 1) (Nat.lt_of_le_of_lt (Nat.sub_le _ _) t.isLt) := by
  have hN : t.val < 10 := lt_of_lt_of_eq t.isLt (show cfg3.N = 10 from N_3)
  rw [Dat.before_out_kept _ 6 rfl t (by omega) (Bool.eq_false_iff.mpr fun h => by have := (flush3_6 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  by_cases h0 : t.val % 10 = 0
  · rw [outsAt3_5_A V c t h0, outsAt3_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel3_A c Set.univ (grid3.coords t) _ _ _ _ _ _ _ _ _ _ _ _ _ _ ((hcond3_0 t).mpr h0) (iblk3 V c 0 t) (iblk3 V c 1 t) (iblk3 V c 2 t) (iblk3 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt3_5_B V c t h0, outsAt3_6_B V c t h0]
    simp only [before3_5_B V c t h0, before3_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel3_B c Set.univ (grid3.coords t) _ _ _ _ _ _ _ _ _ _ _ _ _ _ (fun h => h0 ((hcond3_0 t).mp h)) (iblk3 V c 0 t) (iblk3 V c 1 t) (iblk3 V c 2 t) (iblk3 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.R4.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (a block of rows, its index moving with the point) holds its block at every point, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (a row of per-column values, its index constant) holds its block at every point, fetched there or not, for any proof data
    whose array is the entry contents and whose body leaves the block in place: where it is not fetched the index has
    not moved, and the buffer still holds the same block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (a row of per-column values, its index constant) holds its block at every point, fetched there or not, for any proof data
    whose array is the entry contents and whose body leaves the block in place: where it is not fetched the index has
    not moved, and the buffer still holds the same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (a row of per-column values, its index constant) holds its block at every point, fetched there or not, for any proof data
    whose array is the entry contents and whose body leaves the block in place: where it is not fetched the index has
    not moved, and the buffer still holds the same block. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (a row of per-column values, its index constant) holds its block at every point, fetched there or not, for any proof data
    whose array is the entry contents and whose body leaves the block in place: where it is not fetched the index has
    not moved, and the buffer still holds the same block. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the whole weight matrix, its index constant) holds its block at every point, fetched there or not, for any proof data
    whose array is the entry contents and whose body leaves the block in place: where it is not fetched the index has
    not moved, and the buffer still holds the same block. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0
abbrev r4_2 : Rect S128x128 := Rect.unit (s := S128x128) ![0, 0] S128x128.size inb_S128x128_S128x128_0_0

/-! ## What the body leaves in the output window's buffer -/

/-- Window 6's staging buffer after the body, from the input windows' blocks: its one store, of the product of the
    normalised, rectified block of rows with the weight matrix, over the whole buffer. -/
def out4_6 (x0 : Vec F S5000x128 .f32) (x1 : Vec F S1x128 .f32) (x2 : Vec F S1x128 .f32) (x3 : Vec F S1x128 .f32) (x4 : Vec F S1x128 .f32) (x5 : Vec F S128x128 .f32) : Vec F S5000x128 .f32 :=
  View.canon [⟨r4_0, k4_pay1 (View.ld x0 r4_0) (View.ld x1 r4_1) (View.ld x2 r4_1) (View.ld x3 r4_1) (View.ld x4 r4_1) (View.ld x5 r4_2)⟩]

/-- The store's rectangle is the whole buffer, so it covers it. -/
theorem cover4_6 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel body on whole staging memrefs, the inputs' at read contents `xW` and the output's at anything, runs to
    the continuation holding the inputs' as they were and the output's at `out4_6` of the inputs'. The load of the
    output buffer before the store reads whatever is there and its value is never used. -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S5000x128 .f32) (harg7 : arg7.IsWhole)
    (x0 : Vec F S5000x128 .f32) (x1 : Vec F S1x128 .f32) (x2 : Vec F S1x128 .f32) (x3 : Vec F S1x128 .f32) (x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__bn_relu_linear_kernel i arg1 harg1 arg2 harg2 arg3 harg3 arg4 harg4 arg5 harg5 arg6 harg6 arg7 harg7) K := by
  simp only [cc4__bn_relu_linear_kernel_eq_skeleton]; unfold cc4__bn_relu_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The proof data of the pipeline on core `c`: the arrays as the region finds them; after the body at point `t` each
    input's buffer at its block and the output's at `out4_6` of the input blocks; the invariant the class's (the scoped
    rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KI.R5.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

/-! # The region's kernel at the entry contents `V`: the body's two cases, the running sums point by point, the proof data -/

/-- The two-element offset vector of zeros is the constant zero function. -/
private theorem hz2 : (![0, 0] : Fin 2 → Nat) = fun _ => 0 := funext fun a => by fin_cases a <;> rfl

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Each input window's current staging buffer holds its block at every point, fetched there or not (an unfetched
    window's block index has not moved), for any proof data whose array is `V`'s and whose body leaves the block in place. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, from the grid coordinates: "this is the first point". -/
abbrev cond5_0 (i : grid5.Coords) : Prop := (Scalar.cmpi .ne (Scalar.extui (Scalar.cmpi .eq (BitVec.ofNat 32 (i 0).val) 0#32)) 0#32) = 1#1
/-- It holds at the first point only: decided over the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The body's triple, case by case -/

set_option maxHeartbeats 1000000 in
/-- AT THE FIRST POINT (the conditional taken). On whole staging memrefs, the inputs' at contents `x0 … x3` and the
    outputs' at anything, the body runs to the continuation holding the inputs' as they were, the combined block
    `k5_pay1`, and each accumulator at its reset value (zero) plus this block's column sums: the reset store covers
    the accumulator's buffer, so the load after it reads the zero vector back whatever the buffer held. -/
theorem sound_kernel5_A (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : cond5_0 i)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k5_pay1 x0 x1 x2 x3)
            ∗ owns (c : Thread nD τ) arg6 fullShare (k5_pay4 x0 x1 x2 x3 k5_pay2)
            ∗ owns (c : Thread nD τ) arg7 fullShare (k5_pay5 x0 x1 x2 x3 k5_pay3)) -∗ K ⟨⟩))
      ⊢ wp frame (wpE (defs₀ (F := F)) Variants.none c none) E (cc5__combine_stats_kernel i arg1 harg1 arg2 harg2 arg3 harg3 arg4 harg4 arg5 harg5 arg6 harg6 arg7 harg7) K := by
  simp only [cc5__combine_stats_kernel_eq_skeleton]; unfold cc5__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel5_A.sl.v17 sound_kernel5_A.sl.H5_1
    rw [View.readCov_unit_zero (S := S1x128) _ hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    unfold sound_kernel5_A.sl.v23 sound_kernel5_A.sl.H6_1
    rw [View.readCov_unit_zero (S := S1x128) _ hz2]
    simp only [View.readAt_eq_ld, View.ld_unit_zero (S := S5000x128) hz2, View.ld_unit_zero (S := S5000x1) hz2, View.ld_unit_zero (S := S1x128) hz2]

set_option maxHeartbeats 1000000 in
/-- AT A LATER POINT (the conditional not taken). The accumulators' memrefs at their running contents `xo5`, `xo6`:
    the body loads each, adds this block's column sums (of squares) and stores it back. -/
theorem sound_kernel5_B (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole) (arg6 : Memref sig .tc .vmem S1x128 .f32) (harg6 : arg6.IsWhole) (arg7 : Memref sig .tc .vmem S1x128 .f32) (harg7 : arg7.IsWhole) (hc0 : ¬cond5_0 i)
    (x0 : Vec F S5000x128 .f32) (x1 : Vec F S5000x128 .f32) (x2 : Vec F S5000x1 .f32) (x3 : Vec F S1x128 .f32) (xo5 : Vec F S1x128 .f32) (xo6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xo5 ∗ owns (c : Thread nD τ) arg7 fullShare xo6
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k5_pay1 x0 x1 x2 x3)
            ∗ owns (c : Thread nD τ) arg6 fullShare (k5_pay4 x0 x1 x2 x3 xo5)
            ∗ owns (c : Thread nD τ) arg7 fullShare (k5_pay5 x0 x1 x2 x3 xo6)) -∗ K ⟨⟩))
      ⊢ wp frame (wpE (defs₀ (F := F)) Variants.none c none) E (cc5__combine_stats_kernel i arg1 harg1 arg2 harg2 arg3 harg3 arg4 harg4 arg5 harg5 arg6 harg6 arg7 harg7) K := by
  simp only [cc5__combine_stats_kernel_eq_skeleton]; unfold cc5__combine_stats_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S5000x128_S5000x128_0_0 y⟩), View.canon_cons_unit_zero (S := S5000x128) hz2]
    simp only [View.readAt_eq_ld, View.ld_unit_zero (S := S5000x128) hz2, View.ld_unit_zero (S := S5000x1) hz2, View.ld_unit_zero (S := S1x128) hz2]
  isplitl [H5]
  · iexists _; isplitr
    swap; · iexact H5
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]
  · iexists _; isplitr
    swap; · iexact H6
    ipureintro
    rw [View.read_writes_eq_canon _ _ _ (fun y => ⟨_, List.mem_cons_self, View.mem_set_unit_zero hz2 inb_S1x128_S1x128_0_0 y⟩), View.canon_cons_unit_zero (S := S1x128) hz2]
    simp only [View.readAt_eq_ld, View.ld_unit_zero (S := S5000x128) hz2, View.ld_unit_zero (S := S5000x1) hz2, View.ld_unit_zero (S := S1x128) hz2]

/-! ## What the accumulators hold after each point -/

/-- What the body leaves in window 5's one staging buffer after the point at position `n`: at the first point the
    column sums of that point's block added to the zero vector the reset stored; at a later point added to what the
    point before left (the buffer is not written back in between). -/
def outsAt5_5 (c : Dev nD) : (n : ℕ) → n < cfg5.N → Vec F S1x128 .f32
  | 0, hn => k5_pay4 (iblk5 V c 0 ⟨0, hn⟩) (iblk5 V c 1 ⟨0, hn⟩) (iblk5 V c 2 ⟨0, hn⟩) (iblk5 V c 3 ⟨0, hn⟩) k5_pay2
  | n + 1, hn => k5_pay4 (iblk5 V c 0 ⟨n + 1, hn⟩) (iblk5 V c 1 ⟨n + 1, hn⟩) (iblk5 V c 2 ⟨n + 1, hn⟩) (iblk5 V c 3 ⟨n + 1, hn⟩) (outsAt5_5 c n (Nat.lt_of_succ_lt hn))

theorem outsAt5_5_zero (c : Dev nD) (hn : 0 < cfg5.N) :
    outsAt5_5 V c 0 hn = k5_pay4 (iblk5 V c 0 ⟨0, hn⟩) (iblk5 V c 1 ⟨0, hn⟩) (iblk5 V c 2 ⟨0, hn⟩) (iblk5 V c 3 ⟨0, hn⟩) k5_pay2 := rfl

theorem outsAt5_5_succ (c : Dev nD) (n : ℕ) (hn : n + 1 < cfg5.N) :
    outsAt5_5 V c (n + 1) hn = k5_pay4 (iblk5 V c 0 ⟨n + 1, hn⟩) (iblk5 V c 1 ⟨n + 1, hn⟩) (iblk5 V c 2 ⟨n + 1, hn⟩) (iblk5 V c 3 ⟨n + 1, hn⟩) (outsAt5_5 V c n (Nat.lt_of_succ_lt hn)) := rfl

/-- At the first point. -/
theorem outsAt5_5_A (c : Dev nD) (t : Fin cfg5.N) (h0 : t.val % 10 = 0) :
    outsAt5_5 V c t.val t.isLt = k5_pay4 (iblk5 V c 0 t) (iblk5 V c 1 t) (iblk5 V c 2 t) (iblk5 V c 3 t) k5_pay2 := by
  have hN : t.val < 10 := lt_of_lt_of_eq t.isLt (show cfg5.N = 10 from N_5)
  obtain ⟨n, hn⟩ := t
  cases n with
  | zero => exact rfl
  | succ n => exfalso; dsimp only at h0 hN; omega

/-- At a later point: over what the point before left. -/
theorem outsAt5_5_B (c : Dev nD) (t : Fin cfg5.N) (h0 : ¬t.val % 10 = 0) :
    outsAt5_5 V c t.val t.isLt = k5_pay4 (iblk5 V c 0 t) (iblk5 V c 1 t) (iblk5 V c 2 t) (iblk5 V c 3 t) (outsAt5_5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-- What the body leaves in window 6's one staging buffer after the point at position `n`: at the first point the
    column sums of squares of that point's block added to the zero vector the reset stored; at a later point added to what the
    point before left (the buffer is not written back in between). -/
def outsAt5_6 (c : Dev nD) : (n : ℕ) → n < cfg5.N → Vec F S1x128 .f32
  | 0, hn => k5_pay5 (iblk5 V c 0 ⟨0, hn⟩) (iblk5 V c 1 ⟨0, hn⟩) (iblk5 V c 2 ⟨0, hn⟩) (iblk5 V c 3 ⟨0, hn⟩) k5_pay3
  | n + 1, hn => k5_pay5 (iblk5 V c 0 ⟨n + 1, hn⟩) (iblk5 V c 1 ⟨n + 1, hn⟩) (iblk5 V c 2 ⟨n + 1, hn⟩) (iblk5 V c 3 ⟨n + 1, hn⟩) (outsAt5_6 c n (Nat.lt_of_succ_lt hn))

theorem outsAt5_6_zero (c : Dev nD) (hn : 0 < cfg5.N) :
    outsAt5_6 V c 0 hn = k5_pay5 (iblk5 V c 0 ⟨0, hn⟩) (iblk5 V c 1 ⟨0, hn⟩) (iblk5 V c 2 ⟨0, hn⟩) (iblk5 V c 3 ⟨0, hn⟩) k5_pay3 := rfl

theorem outsAt5_6_succ (c : Dev nD) (n : ℕ) (hn : n + 1 < cfg5.N) :
    outsAt5_6 V c (n + 1) hn = k5_pay5 (iblk5 V c 0 ⟨n + 1, hn⟩) (iblk5 V c 1 ⟨n + 1, hn⟩) (iblk5 V c 2 ⟨n + 1, hn⟩) (iblk5 V c 3 ⟨n + 1, hn⟩) (outsAt5_6 V c n (Nat.lt_of_succ_lt hn)) := rfl

/-- At the first point. -/
theorem outsAt5_6_A (c : Dev nD) (t : Fin cfg5.N) (h0 : t.val % 10 = 0) :
    outsAt5_6 V c t.val t.isLt = k5_pay5 (iblk5 V c 0 t) (iblk5 V c 1 t) (iblk5 V c 2 t) (iblk5 V c 3 t) k5_pay3 := by
  have hN : t.val < 10 := lt_of_lt_of_eq t.isLt (show cfg5.N = 10 from N_5)
  obtain ⟨n, hn⟩ := t
  cases n with
  | zero => exact rfl
  | succ n => exfalso; dsimp only at h0 hN; omega

/-- At a later point: over what the point before left. -/
theorem outsAt5_6_B (c : Dev nD) (t : Fin cfg5.N) (h0 : ¬t.val % 10 = 0) :
    outsAt5_6 V c t.val t.isLt = k5_pay5 (iblk5 V c 0 t) (iblk5 V c 1 t) (iblk5 V c 2 t) (iblk5 V c 3 t) (outsAt5_6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact rfl

/-! ## The pipeline's proof data -/

/-- The proof data of the region's pipeline on core `c`: the arrays as the region finds them (`V`); after the body at
    point `t` each input's buffer at its block, the combined block's at `k5_pay1` of the input blocks, each
    accumulator's at its running sum; the invariant the class's; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay1 (iblk5 V c 0 t) (iblk5 V c 1 t) (iblk5 V c 2 t) (iblk5 V c 3 t)
    | ⟨5, _⟩ => outsAt5_5 V c t.val t.isLt
    | ⟨6, _⟩ => outsAt5_6 V c t.val t.isLt
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay1 (iblk5 V c 0 t) (iblk5 V c 1 t) (iblk5 V c 2 t) (iblk5 V c 3 t) := by dsimp only [dat5]
theorem after5_5 (c : Dev nD) (t : Fin cfg5.N) : (dat5 V c).after 5 t = outsAt5_5 V c t.val t.isLt := by dsimp only [dat5]
theorem after5_6 (c : Dev nD) (t : Fin cfg5.N) : (dat5 V c).after 6 t = outsAt5_6 V c t.val t.isLt := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
/-- At a later point accumulator 5's staging buffer holds what the body left at the point before: the point is not the
    first, the buffer was not written back in between (only after the last point), the window is live and uncut. -/
theorem before5_5_B (c : Dev nD) (t : Fin cfg5.N) (h0 : ¬t.val % 10 = 0) (d) :
    (dat5 V c).before 5 t d = outsAt5_5 V c (t.val - 1) (Nat.lt_of_le_of_lt (Nat.sub_le _ _) t.isLt) := by
  have hN : t.val < 10 := lt_of_lt_of_eq t.isLt (show cfg5.N = 10 from N_5)
  rw [Dat.before_out_kept _ 5 rfl t (by omega) (Bool.eq_false_iff.mpr fun h => by have := (flush5_5 _).mp h; dsimp only at this; omega)
    (fun _ => rfl) (fun _ _ => rfl)]
  dsimp only [dat5]
/-- At a later point accumulator 6's staging buffer holds what the body left at the point before: the point is not the
    first, the buffer was not written back in between (only after the last point), the window is live and uncut. -/
theorem before5_6_B (c : Dev nD) (t : Fin cfg5.N) (h0 : ¬t.val % 10 = 0) (d) :
    (dat5 V c).before 6 t d = outsAt5_6 V c (t.val - 1) (Nat.lt_of_le_of_lt (Nat.sub_le _ _) t.isLt) := by
  have hN : t.val < 10 := lt_of_lt_of_eq t.isLt (show cfg5.N = 10 from N_5)
  rw [Dat.before_out_kept _ 6 rfl t (by omega) (Bool.eq_false_iff.mpr fun h => by have := (flush5_6 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

set_option maxHeartbeats 800000 in
/-- The body at any point: the inputs' memrefs hold their blocks; the closed form of the condition says which case the
    point is in; at a later point each accumulator's memref holds what the point before left; so the case's triple
    applies; the invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  by_cases h0 : t.val % 10 = 0
  · rw [outsAt5_5_A V c t h0, outsAt5_6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel5_A c Set.univ (grid5.coords t) _ _ _ _ _ _ _ _ _ _ _ _ _ _ ((hcond5_0 t).mpr h0) (iblk5 V c 0 t) (iblk5 V c 1 t) (iblk5 V c 2 t) (iblk5 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outsAt5_5_B V c t h0, outsAt5_6_B V c t h0]
    simp only [before5_5_B V c t h0, before5_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel5_B c Set.univ (grid5.coords t) _ _ _ _ _ _ _ _ _ _ _ _ _ _ (fun h => h0 ((hcond5_0 t).mp h)) (iblk5 V c 0 t) (iblk5 V c 1 t) (iblk5 V c 2 t) (iblk5 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.R6.lean ====
import proofs.«430760_j5652176962022_1_alg».proof.Proof.Gen.KernelIdeal.Launch
import proofs.«430760_j5652176962022_1_alg».proof.Proof.Gen.KernelIdeal.Skeleton
import proofs.«430760_j5652176962022_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first `scf.if` (the reset of the pooled sums), from the grid coordinate. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val % 10 = 0 :=
  (by decide +kernel : ∀ t : Fin grid6.N, cond6_0 (grid6.coords t) ↔ t.val % 10 = 0)
/-- The condition of the body's second `scf.if` (the head), from the grid coordinate. -/
abbrev cond6_1 (i : grid6.Coords) : Prop := k6_cond2 i = 1#1
/-- It holds at the last point only. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## The body's accesses: every load and store is of a whole buffer -/

abbrev r6_a : Rect S5000x128 := Rect.unit (s := S5000x128) ![0, 0] S5000x128.size inb_S5000x128_S5000x128_0_0
abbrev r6_v : Rect S1x128 := Rect.unit (s := S1x128) ![0, 0] S1x128.size inb_S1x128_S1x128_0_0
abbrev r6_b : Rect S5000x1 := Rect.unit (s := S5000x1) ![0, 0] S5000x1.size inb_S5000x1_S5000x1_0_0
abbrev r6_m : Rect S128x128 := Rect.unit (s := S128x128) ![0, 0] S128x128.size inb_S128x128_S128x128_0_0
abbrev r6_k : Rect S128x1 := Rect.unit (s := S128x1) ![0, 0] S128x1.size inb_S128x1_S128x1_0_0
abbrev r6_u : Rect S1x1 := Rect.unit (s := S1x1) ![0, 0] S1x1.size inb_S1x1_S1x1_0_0
abbrev r6_o : Rect S256x1 := Rect.unit (s := S256x1) ![0, 0] S256x1.size inb_S256x1_S256x1_0_0
abbrev r6_s : Rect S256x128 := Rect.unit (s := S256x128) ![0, 0] S256x128.size inb_S256x128_S256x128_0_0

/-! ## What the body leaves in the pooled sums and in the output window's buffer -/

/-- The pooled sums after the reset at the first point: one store of zeros over the whole buffer. -/
def zero6 : Vec F S256x128 .f32 :=
  View.canon [⟨r6_s, k6_pay3 (F := F)⟩]

/-- The pooled sums after the body at a point, from the point's input blocks and the sums `xs` the accumulation starts
    from: one store over the whole buffer of `xs` plus this block's one-hot(batch)ᵀ · relu(bn(block)). -/
def sout6 (x0 : Vec F S5000x128 .f32) (x1 x2 x3 x4 : Vec F S1x128 .f32) (x5 : Vec F S5000x1 .i32) (xs : Vec F S256x128 .f32) : Vec F S256x128 .f32 :=
  View.canon [⟨r6_s, k6_pay1 (k6_pay4 (View.ld x0 r6_a) (View.ld x1 r6_v) (View.ld x2 r6_v) (View.ld x3 r6_v) (View.ld x4 r6_v) (View.ld x5 r6_b) (View.ld xs r6_s))⟩]

/-- The output window's buffer after the head at the last point, from the pooled sums `xs` and the head's weights:
    one store over the whole buffer. -/
def out6_10 (xs : Vec F S256x128 .f32) (x6 : Vec F S128x128 .f32) (x7 : Vec F S1x128 .f32) (x8 : Vec F S128x1 .f32) (x9 : Vec F S1x1 .f32) : Vec F S256x1 .f32 :=
  View.canon [⟨r6_o, k6_pay2 (View.ld xs r6_s) (View.ld x6 r6_m) (View.ld x7 r6_v) (View.ld x8 r6_k) (View.ld x9 r6_u)⟩]

/-- One store over the whole of the pooled sums' buffer covers it (the rectangle tiles the shape, by evaluation). -/
theorem cover6_s (p : Vec F S256x128 .f32) (y : S256x128.Idx) :
    ∃ pc ∈ ([⟨r6_s, p⟩] : List (View.Piece (Elt F) S256x128 .f32)), y ∈ pc.1.set :=
  View.cover_of_tiled [⟨r6_s, p⟩] S256x128.size (by rfl) y

/-- One store over the whole of the output window's buffer covers it. -/
theorem cover6_o (p : Vec F S256x1 .f32) (y : S256x1.Idx) :
    ∃ pc ∈ ([⟨r6_o, p⟩] : List (View.Piece (Elt F) S256x1 .f32)), y ∈ pc.1.set :=
  View.cover_of_tiled [⟨r6_o, p⟩] S256x1.size (by rfl) y

/-- Every index of the pooled sums' shape lies in its whole rectangle. -/
theorem mem6_s (p : Vec F S256x128 .f32) (y : S256x128.Idx) : y ∈ r6_s.set := by
  obtain ⟨pc, hm, hy⟩ := cover6_s p y
  rw [List.mem_singleton] at hm; subst hm; exact hy

/-- Under a store over the whole buffer the earlier stores do not show. -/
theorem canon6_s_head (w : Vec F S256x128 .f32) (L : List (View.Piece (Elt F) S256x128 .f32)) :
    View.canon (⟨r6_s, w⟩ :: L) = View.canon [⟨r6_s, w⟩] := by
  funext y
  obtain ⟨x, rfl⟩ : ∃ x, r6_s.emb x = y := r6_s.exists_idx_of_mem (mem6_s w y)
  rw [View.canon_cons_emb, View.canon_cons_emb]

/-- A load of the whole buffer after a store over the whole buffer reads the stored value. -/
theorem ld_canon6_s (w : Vec F S256x128 .f32) : View.ld (View.canon [⟨r6_s, w⟩]) r6_s = w := by
  funext x; exact View.canon_cons_emb r6_s w [] x

/-- The accumulation's value depends on the sums it starts from only through their value. -/
theorem sout6_congr (a0 : Vec F S5000x128 .f32) (a1 a2 a3 a4 : Vec F S1x128 .f32) (a5 : Vec F S5000x1 .i32)
    {z z' : Vec F S256x128 .f32} (h : z = z') :
    (View.canon [⟨r6_s, k6_pay1 (k6_pay4 a0 a1 a2 a3 a4 a5 z)⟩] : Vec F S256x128 .f32)
      = View.canon [⟨r6_s, k6_pay1 (k6_pay4 a0 a1 a2 a3 a4 a5 z')⟩] := by
  subst h; rfl

/-- The head's value depends on the pooled sums it reads only through their value. -/
theorem out6_congr (b6 : Vec F S128x128 .f32) (b7 : Vec F S1x128 .f32) (b8 : Vec F S128x1 .f32) (b9 : Vec F S1x1 .f32)
    {z z' : Vec F S256x128 .f32} (h : z = z') :
    (View.canon [⟨r6_o, k6_pay2 z b6 b7 b8 b9⟩] : Vec F S256x1 .f32) = View.canon [⟨r6_o, k6_pay2 z' b6 b7 b8 b9⟩] := by
  subst h; rfl

/-! ## The same contents without rectangles: every access is of a whole buffer at offset zero -/

theorem hz6 : (![0, 0] : Fin 2 → Nat) = fun _ => 0 := funext fun a => by
  match a with
  | ⟨0, _⟩ => rfl
  | ⟨1, _⟩ => rfl

/-- The reset leaves the zeros it stores. -/
theorem zero6_eq : zero6 (F := F) = k6_pay3 (F := F) := by
  unfold zero6; rw [View.canon_unit_zero hz6]

/-- The pooled sums after a point are the accumulation's value on the point's blocks and the sums it starts from. -/
theorem sout6_eq (x0 : Vec F S5000x128 .f32) (x1 x2 x3 x4 : Vec F S1x128 .f32) (x5 : Vec F S5000x1 .i32) (xs : Vec F S256x128 .f32) :
    sout6 x0 x1 x2 x3 x4 x5 xs = k6_pay1 (k6_pay4 x0 x1 x2 x3 x4 x5 xs) := by
  unfold sout6; rw [View.canon_unit_zero hz6]
  simp only [View.ld_unit_zero (S := S5000x128) hz6, View.ld_unit_zero (S := S1x128) hz6, View.ld_unit_zero (S := S5000x1) hz6,
    View.ld_unit_zero (S := S256x128) hz6]

/-- The output window's buffer after the head is the head's value on the pooled sums and its weights. -/
theorem out6_10_eq (xs : Vec F S256x128 .f32) (x6 : Vec F S128x128 .f32) (x7 : Vec F S1x128 .f32) (x8 : Vec F S128x1 .f32) (x9 : Vec F S1x1 .f32) :
    out6_10 xs x6 x7 x8 x9 = k6_pay2 xs x6 x7 x8 x9 := by
  unfold out6_10; rw [View.canon_unit_zero hz6]
  simp only [View.ld_unit_zero (S := S256x128) hz6, View.ld_unit_zero (S := S128x128) hz6, View.ld_unit_zero (S := S1x128) hz6,
    View.ld_unit_zero (S := S128x1) hz6, View.ld_unit_zero (S := S1x1) hz6]

/-! ## The body's triple, case by case of its two conditionals -/

set_option maxHeartbeats 2000000 in
/-- FIRST POINT (the reset taken, the head not): on whole staging memrefs, the six inputs the accumulation reads at
    their contents and the pooled sums at anything, the body runs to the continuation holding the inputs as they were
    and the pooled sums at this block's contribution over zeros. -/
theorem run6_A (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : cond6_0 i) (hc1 : ¬cond6_1 i)
    (x0 : Vec F S5000x128 .f32) (x1 x2 x3 x4 : Vec F S1x128 .f32) (x5 : Vec F S5000x1 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare (sout6 x0 x1 x2 x3 x4 x5 (zero6 (F := F)))) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  refine (View.read_writes_eq_canon _ _ _ (fun y => ⟨_, List.mem_cons_self, mem6_s (zero6 (F := F)) y⟩)).trans ?_
  rw [canon6_s_head]; unfold sout6 zero6; rw [ld_canon6_s]
  -- the load after the reset reads the zeros just stored
  exact sout6_congr _ _ _ _ _ _ (View.readCov_cons_toLoadRect (Val := Elt F) arg12.view r6_s _ [])

set_option maxHeartbeats 2000000 in
/-- A MIDDLE POINT (neither conditional taken): the pooled sums at what the point before left, `xs`; they end at
    `xs` plus this block's contribution. -/
theorem run6_B (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : ¬cond6_0 i) (hc1 : ¬cond6_1 i)
    (x0 : Vec F S5000x128 .f32) (x1 x2 x3 x4 : Vec F S1x128 .f32) (x5 : Vec F S5000x1 .i32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg12 fullShare (sout6 x0 x1 x2 x3 x4 x5 xs)) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  exact View.read_writes_eq_canon _ _ _ (cover6_s _)

set_option maxHeartbeats 2000000 in
/-- THE LAST POINT (the head taken, the reset not): as a middle point for the pooled sums; then the head reads them back
    with its four weight operands and stores the output window's buffer, found at anything, whole. -/
theorem run6_C (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x1 .f32) (harg9 : arg9.IsWhole) (arg10 : Memref sig .tc .vmem S1x1 .f32) (harg10 : arg10.IsWhole) (arg11 : Memref sig .tc .vmem S256x1 .f32) (harg11 : arg11.IsWhole) (arg12 : Memref sig .tc .vmem S256x128 .f32) (harg12 : arg12.IsWhole) (hc0 : ¬cond6_0 i) (hc1 : cond6_1 i)
    (x0 : Vec F S5000x128 .f32) (x1 x2 x3 x4 : Vec F S1x128 .f32) (x5 : Vec F S5000x1 .i32) (x6 : Vec F S128x128 .f32) (x7 : Vec F S1x128 .f32) (x8 : Vec F S128x1 .f32) (x9 : Vec F S1x1 .f32) (xs : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out6_10 (sout6 x0 x1 x2 x3 x4 x5 xs) x6 x7 x8 x9) ∗ owns (c : Thread nD τ) arg12 fullShare (sout6 x0 x1 x2 x3 x4 x5 xs)) -∗ K ⟨⟩))
      ⊢ wp frame (wpE (defs₀ (F := F)) Variants.none c none) E (cc6__pool_mlp_kernel i arg1 harg1 arg2 harg2 arg3 harg3 arg4 harg4 arg5 harg5 arg6 harg6 arg7 harg7 arg8 harg8 arg9 harg9 arg10 harg10 arg11 harg11 arg12 harg12) K := by
  simp only [cc6__pool_mlp_kernel_eq_skeleton]; unfold cc6__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  subst hf0; subst hf1; subst hf2; subst hf3; subst hf4; subst hf5; subst hf6; subst hf7; subst hf8; subst hf9; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover6_o _)).trans ?_
    unfold out6_10 sout6; rw [ld_canon6_s]
    -- the head's load of the pooled sums reads what was just stored
    exact out6_congr _ _ _ _ (View.readCov_cons_toLoadRect (Val := Elt F) arg12.view r6_s _ [])
  iexists _; isplitr
  swap; · iexact HS
  ipureintro
  exact View.read_writes_eq_canon _ _ _ (cover6_s _)

section Region6
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! Each input window's current staging buffer holds its block at every point, fetched there or not: an input that is
    not fetched at a point has the block index it had at the point before, and the body leaves every input in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The pooled sums after each point -/

/-- THE ACCUMULATION. What the pooled sums' buffer holds after the body at position `n`: at the first point this block's
    contribution over the reset's zeros, afterwards the contribution of block `n` over what point `n - 1` left. -/
def scrAt6 (c : Dev nD) : (n : ℕ) → n < cfg6.N → Vec F S256x128 .f32
  | 0, hn => sout6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zero6 (F := F))
  | n + 1, hn => sout6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (scrAt6 c n (Nat.lt_of_succ_lt hn))

theorem scrAt6_zero (c : Dev nD) (hn : 0 < cfg6.N) :
    scrAt6 V c 0 hn = sout6 (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩) (zero6 (F := F)) := rfl

theorem scrAt6_succ (c : Dev nD) (n : ℕ) (hn : n + 1 < cfg6.N) :
    scrAt6 V c (n + 1) hn = sout6 (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (scrAt6 V c n (Nat.lt_of_succ_lt hn)) := rfl

/-- At the first point. -/
theorem scrAt6_first (c : Dev nD) (t : Fin cfg6.N) (h0 : t.val = 0) :
    scrAt6 V c t.val t.isLt = sout6 (iblk6 V c 0 t) (iblk6 V c 1 t) (iblk6 V c 2 t) (iblk6 V c 3 t) (iblk6 V c 4 t) (iblk6 V c 5 t) (zero6 (F := F)) := by
  obtain ⟨n, hn⟩ := t
  cases n with
  | zero => rfl
  | succ n => exact absurd h0 (Nat.succ_ne_zero n)

/-- At a later point: over what the point before left. -/
theorem scrAt6_pos (c : Dev nD) (t : Fin cfg6.N) (h0 : t.val ≠ 0) :
    scrAt6 V c t.val t.isLt = sout6 (iblk6 V c 0 t) (iblk6 V c 1 t) (iblk6 V c 2 t) (iblk6 V c 3 t) (iblk6 V c 4 t) (iblk6 V c 5 t) (scrAt6 V c (t.val - 1) (Nat.lt_of_le_of_lt (Nat.sub_le _ _) t.isLt)) := by
  obtain ⟨n, hn⟩ := t
  cases n with
  | zero => exact absurd rfl h0
  | succ n => rfl

/-! ## The invariant: the pooled sums carried from point to point -/

/-- The kernel's scratch operand: the pooled sums' buffer, whole. -/
abbrev scM6 : Memref sig .tc .vmem S256x128 .f32 := Memref.whole cc6_scratch0

/-- The class's invariant with the pooled sums' buffer split off the other scoped buffers, owned at some contents. -/
theorem PhiA6_eq (c : Dev nD) :
    (Pipeline.ΦA spec6 c : sProp 𝕄)
      = iprop(iprop(iprop((∃ d, owns (c : Thread nD τ) scM6 fullShare d)) ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6, owns_whole]; try rfl

/-- The region invariant before position `n`: before the first point the class's (every scoped buffer that is no
    staging buffer at anything); afterwards the pooled sums at what the point before left, the other scoped buffers at
    anything, and the generator register at some state. -/
def PhiS6 (c : Dev nD) : (n : ℕ) → n ≤ cfg6.N → sProp 𝕄
  | 0, _ => Pipeline.ΦA spec6 c
  | n + 1, hn => iprop(iprop(owns (c : Thread nD τ) scM6 fullShare (scrAt6 V c n hn) ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6 fullShare (scrAt6 V c n hn) ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6 fullShare (scrAt6 V c (n - 1) (by omega)) ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The proof data of the pipeline on core `c`: the arrays as the region finds them; after the body at point `t` each
    input's buffer at its block, and the output's at the head over the pooled sums after `t` (read only at the last
    point: at every other point the window is idle and not written back, and what is stated there is never consulted);
    the invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (scrAt6 V c t.val t.isLt) (iblk6 V c 6 t) (iblk6 V c 7 t) (iblk6 V c 8 t) (iblk6 V c 9 t)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) :
    (dat6 V c).after 10 t = out6_10 (scrAt6 V c t.val t.isLt) (iblk6 V c 6 t) (iblk6 V c 7 t) (iblk6 V c 8 t) (iblk6 V c 9 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x1 .i32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S128x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S128x1 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x1 .f32 := win6_9.stage (cfg6.slots t 9)
abbrev hs6_9 (t : Fin cfg6.N) : (ms6_9 t).IsWhole := hstage6_9 ((cfg6.slots t 9).cast nbuf6_9)
abbrev ms6_10 (t : Fin cfg6.N) : Memref sig .tc .vmem S256x1 .f32 := win6_10.stage (cfg6.slots t 10)
abbrev hs6_10 (t : Fin cfg6.N) : (ms6_10 t).IsWhole := hstage6_10 ((cfg6.slots t 10).cast nbuf6_10)

/-- The inputs are never idle. -/
theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
theorem liveAt6_5 : ∀ t : Fin cfg6.N, cfg6.idle 5 (grid6.coords t) = false := fun _ => rfl
theorem liveAt6_6 : ∀ t : Fin cfg6.N, cfg6.idle 6 (grid6.coords t) = false := fun _ => rfl
theorem liveAt6_7 : ∀ t : Fin cfg6.N, cfg6.idle 7 (grid6.coords t) = false := fun _ => rfl
theorem liveAt6_8 : ∀ t : Fin cfg6.N, cfg6.idle 8 (grid6.coords t) = false := fun _ => rfl
theorem liveAt6_9 : ∀ t : Fin cfg6.N, cfg6.idle 9 (grid6.coords t) = false := fun _ => rfl
/-- Where the head is not taken the printed configuration calls the output window idle: the body stores nothing into it, -/
theorem idleAt6_10 : ∀ t : Fin cfg6.N, ¬cond6_1 (grid6.coords t) → cfg6.idle 10 (grid6.coords t) = true := by decide +kernel
/-- and the pipeline does not write its block back there. -/
theorem noFlush6_10 : ∀ t : Fin cfg6.N, ¬cond6_1 (grid6.coords t) → (cfg6.win 10).flush t = false := by decide +kernel
/-- Where the head is taken the window is live. -/
theorem liveAt6_10 : ∀ t : Fin cfg6.N, cond6_1 (grid6.coords t) → cfg6.idle 10 (grid6.coords t) = false := by decide +kernel

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d))
    ∗ (∃ d, owns (c : Thread nD τ) (ms6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t
    ∗ (dat6 V c).leavesExact 10 t)

set_option maxHeartbeats 4800000 in
/-- The body at any point. The inputs' memrefs hold their blocks; the closed forms of the two conditions say which case
    the point is in; the invariant hands the body the pooled sums at what the point before left (at anything at the first
    point) and takes them back at this point's contents; the other scoped buffers, the generator register and what the
    core owes pass through unread; where the head is not taken the output window's buffer is handed back as found. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  rw [show (dat6 V c).leavesExact 4 t = owns (c : Thread nD τ) (ms6_4 t) fullShare ((dat6 V c).after 4 t) from by
    unfold Dat.leavesExact; rw [liveAt6_4 t], after6_4]
  rw [show (dat6 V c).leavesExact 5 t = owns (c : Thread nD τ) (ms6_5 t) fullShare ((dat6 V c).after 5 t) from by
    unfold Dat.leavesExact; rw [liveAt6_5 t], after6_5]
  rw [show (dat6 V c).leavesExact 6 t = owns (c : Thread nD τ) (ms6_6 t) fullShare ((dat6 V c).after 6 t) from by
    unfold Dat.leavesExact; rw [liveAt6_6 t], after6_6]
  rw [show (dat6 V c).leavesExact 7 t = owns (c : Thread nD τ) (ms6_7 t) fullShare ((dat6 V c).after 7 t) from by
    unfold Dat.leavesExact; rw [liveAt6_7 t], after6_7]
  rw [show (dat6 V c).leavesExact 8 t = owns (c : Thread nD τ) (ms6_8 t) fullShare ((dat6 V c).after 8 t) from by
    unfold Dat.leavesExact; rw [liveAt6_8 t], after6_8]
  rw [show (dat6 V c).leavesExact 9 t = owns (c : Thread nD τ) (ms6_9 t) fullShare ((dat6 V c).after 9 t) from by
    unfold Dat.leavesExact; rw [liveAt6_9 t], after6_9]
  have hN : t.val < 10 := lt_of_lt_of_eq t.isLt (show cfg6.N = 10 from N_6)
  by_cases h0 : t.val % 10 = 0
  · have h1 : ¬t.val % 10 = 9 := by omega
    have hz : t.val = 0 := by omega
    rw [Dat.leavesExact_idle (dat6 V c) 10 t (idleAt6_10 t (fun h => h1 ((hcond6_1 t).mp h))) (noFlush6_10 t (fun h => h1 ((hcond6_1 t).mp h)))]
    rw [scrAt6_first V c t hz]
    rw [PhiS6_castSucc V c t, PhiS6_zero V c _ _ hz, PhiA6_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run6_A c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) ((hcond6_0 t).mpr h0) (fun h => h1 ((hcond6_1 t).mp h))
      (iblk6 V c 0 t) (iblk6 V c 1 t) (iblk6 V c 2 t) (iblk6 V c 3 t) (iblk6 V c 4 t) (iblk6 V c 5 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h1 : t.val % 10 = 9
    · have hz : t.val ≠ 0 := by omega
      rw [show (dat6 V c).leavesExact 10 t = owns (c : Thread nD τ) (ms6_10 t) fullShare ((dat6 V c).after 10 t) from by
        unfold Dat.leavesExact; rw [liveAt6_10 t ((hcond6_1 t).mpr h1)], after6_10]
      rw [scrAt6_pos V c t hz]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run6_C c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) (fun h => h0 ((hcond6_0 t).mp h)) ((hcond6_1 t).mpr h1)
        (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS]; · iexact HS
      iintro ⟨H0, H1, H2, H3, H4, H5, H6, H7, H8, H9, H10, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hz : t.val ≠ 0 := by omega
      rw [Dat.leavesExact_idle (dat6 V c) 10 t (idleAt6_10 t (fun h => h1 ((hcond6_1 t).mp h))) (noFlush6_10 t (fun h => h1 ((hcond6_1 t).mp h)))]
      rw [scrAt6_pos V c t hz]
      rw [PhiS6_castSucc V c t, PhiS6_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run6_B c Set.univ (grid6.coords t) _ (hs6_0 t) _ (hs6_1 t) _ (hs6_2 t) _ (hs6_3 t) _ (hs6_4 t) _ (hs6_5 t) _ (hs6_6 t) _ (hs6_7 t) _ (hs6_8 t) _ (hs6_9 t) _ (hs6_10 t) _ (Memref.isWhole_whole _) (fun h => h0 ((hcond6_0 t).mp h)) (fun h => h1 ((hcond6_1 t).mp h))
        (iblk6 V c 0 t) (iblk6 V c 1 t) (iblk6 V c 2 t) (iblk6 V c 3 t) (iblk6 V c 4 t) (iblk6 V c 5 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : (Pipeline.ΦA spec6 c : sProp 𝕄) ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the class's back: the pooled sums' named contents are forgotten. -/
theorem hout6 (c : Dev nD) : (dat6 V c).Φ (Fin.last cfg6.N) ⊢ (Pipeline.ΦA spec6 c : sProp 𝕄) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨HS, HR⟩, Hg⟩
  isplitl [HS HR]
  · isplitl [HS]
    · iexists _; iexact HS
    iexact HR
  iexact Hg

end Region6

end Cert.KernelIdeal.Hand

end
-- ==== Proof.KI.Run.lean ====
import proofs.«430760_j5652176962022_1_alg».proof.Proof.KI.R0
import proofs.«430760_j5652176962022_1_alg».proof.Proof.KI.R1
import proofs.«430760_j5652176962022_1_alg».proof.Proof.KI.R2
import proofs.«430760_j5652176962022_1_alg».proof.Proof.KI.R3
import proofs.«430760_j5652176962022_1_alg».proof.Proof.KI.R4
import proofs.«430760_j5652176962022_1_alg».proof.Proof.KI.R5
import proofs.«430760_j5652176962022_1_alg».proof.Proof.KI.R6
import proofs.«430760_j5652176962022_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffers' contents at every boundary of @main, each region's results filled in

Between two items of @main core `c` holds every unscoped buffer whole. A host stretch takes the contents `V` to
`StableHlo.after ops V`; a region changes its output arrays only, to what its write-backs leave after the last
point. `UJ` is the contents after item `J - 1`; `TJ` the same read at the TensorCore's references. -/

/-- A valuation updated at one TensorCore reference, read at another. -/
theorem upd_ne (g : Valuation τ sig (Elt F)) (a b : Ref sig .tc) (x) (h : b ≠ a) :
    Function.update g (Proc.devRef .tc a) x (Proc.devRef .tc b) = g (Proc.devRef .tc b) :=
  Function.update_of_ne (StableHlo.devRef_ne_of_ne h) _ _

/-- Core `c`'s buffers when region 0 is entered: the launch contents after the first host stretch. -/
abbrev U1 (c : Dev nD) : Valuation τ sig (Elt F) := Gen.V1 m c
abbrev T1 : (c : Dev nD) → (b : Ref sig .tc) → Buf (Elt F) ((c : Thread nD τ).loc b) := fun c b => U1 m c b

/-! ## Region 0 -/

/-- What region 0 leaves in `main_v47`: window 2's array after the last point. -/
def o2 (c : Dev nD) : Buf (Elt F) ((c : Thread nD τ).loc main_v47) := (dat0 (T1 m) c).arrAt 2 cfg0.N
/-- Core `c`'s buffers when region 0 is left. -/
def U2 (c : Dev nD) : Valuation τ sig (Elt F) :=
  Function.update (U1 m c) main_v47 (o2 m c)
abbrev T2 : (c : Dev nD) → (b : Ref sig .tc) → Buf (Elt F) ((c : Thread nD τ).loc b) := fun c b => U2 m c b
theorem U2_out0 (c : Dev nD) : U2 m c main_v47 = o2 m c := by
  unfold U2; exact Function.update_self _ _ _
/-- Off region 0's output arrays nothing has changed. -/
theorem U2_of (c : Dev nD) (b : Ref sig .tc) (h0 : b ≠ main_v47) : U2 m c b = U1 m c b := by
  unfold U2; rw [upd_ne _ main_v47 b _ h0]
/-- Core `c`'s buffers after the host stretch that follows region 0 (region 1's entry). -/
def U3 (c : Dev nD) : Valuation τ sig (Elt F) := StableHlo.after hostOps1 (U2 m c)
abbrev T3 : (c : Dev nD) → (b : Ref sig .tc) → Buf (Elt F) ((c : Thread nD τ).loc b) := fun c b => U3 m c b

/-! ## Region 1 -/

/-- What region 1 leaves in `main_v61_0`: window 4's array after the last point. -/
def o4_0 (c : Dev nD) : Buf (Elt F) ((c : Thread nD τ).loc main_v61_0) := (dat1 (T3 m) c).arrAt 4 cfg1.N
/-- What region 1 leaves in `main_v61_1`: window 5's array after the last point. -/
def o4_1 (c : Dev nD) : Buf (Elt F) ((c : Thread nD τ).loc main_v61_1) := (dat1 (T3 m) c).arrAt 5 cfg1.N
/-- What region 1 leaves in `main_v61_2`: window 6's array after the last point. -/
def o4_2 (c : Dev nD) : Buf (Elt F) ((c : Thread nD τ).loc main_v61_2) := (dat1 (T3 m) c).arrAt 6 cfg1.N
/-- Core `c`'s buffers when region 1 is left. -/
def U4 (c : Dev nD) : Valuation τ sig (Elt F) :=
  Function.update (Function.update (Function.update (U3 m c) main_v61_0 (o4_0 m c)) main_v61_1 (o4_1 m c)) main_v61_2 (o4_2 m c)
abbrev T4 : (c : Dev nD) → (b : Ref sig .tc) → Buf (Elt F) ((c : Thread nD τ).loc b) := fun c b => U4 m c b
theorem U4_out0 (c : Dev nD) : U4 m c main_v61_0 = o4_0 m c := by
  unfold U4; rw [upd_ne _ main_v61_2 main_v61_0 _ (by decide), upd_ne _ main_v61_1 main_v61_0 _ (by decide)]; exact Function.update_self _ _ _
theorem U4_out1 (c : Dev nD) : U4 m c main_v61_1 = o4_1 m c := by
  unfold U4; rw [upd_ne _ main_v61_2 main_v61_1 _ (by decide)]; exact Function.update_self _ _ _
theorem U4_out2 (c : Dev nD) : U4 m c main_v61_2 = o4_2 m c := by
  unfold U4; exact Function.update_self _ _ _
/-- Off region 1's output arrays nothing has changed. -/
theorem U4_of (c : Dev nD) (b : Ref sig .tc) (h0 : b ≠ main_v61_0) (h1 : b ≠ main_v61_1) (h2 : b ≠ main_v61_2) : U4 m c b = U3 m c b := by
  unfold U4; rw [upd_ne _ main_v61_2 b _ h2, upd_ne _ main_v61_1 b _ h1, upd_ne _ main_v61_0 b _ h0]
/-- Core `c`'s buffers after the host stretch that follows region 1 (region 2's entry). -/
def U5 (c : Dev nD) : Valuation τ sig (Elt F) := StableHlo.after hostOps2 (U4 m c)
abbrev T5 : (c : Dev nD) → (b : Ref sig .tc) → Buf (Elt F) ((c : Thread nD τ).loc b) := fun c b => U5 m c b

/-! ## Region 2 -/

/-- What region 2 leaves in `main_v68`: window 6's array after the last point. -/
def o6 (c : Dev nD) : Buf (Elt F) ((c : Thread nD τ).loc main_v68) := (dat2 (T5 m) c).arrAt 6 cfg2.N
/-- Core `c`'s buffers when region 2 is left. -/
def U6 (c : Dev nD) : Valuation τ sig (Elt F) :=
  Function.update (U5 m c) main_v68 (o6 m c)
abbrev T6 : (c : Dev nD) → (b : Ref sig .tc) → Buf (Elt F) ((c : Thread nD τ).loc b) := fun c b => U6 m c b
theorem U6_out0 (c : Dev nD) : U6 m c main_v68 = o6 m c := by
  unfold U6; exact Function.update_self _ _ _
/-- Off region 2's output arrays nothing has changed. -/
theorem U6_of (c : Dev nD) (b : Ref sig .tc) (h0 : b ≠ main_v68) : U6 m c b = U5 m c b := by
  unfold U6; rw [upd_ne _ main_v68 b _ h0]
/-- Core `c`'s buffers after the host stretch that follows region 2 (region 3's entry). -/
def U7 (c : Dev nD) : Valuation τ sig (Elt F) := StableHlo.after hostOps3 (U6 m c)
abbrev T7 : (c : Dev nD) → (b : Ref sig .tc) → Buf (Elt F) ((c : Thread nD τ).loc b) := fun c b => U7 m c b

/-! ## Region 3 -/

/-- What region 3 leaves in `main_v82_0`: window 4's array after the last point. -/
def o8_0 (c : Dev nD) : Buf (Elt F) ((c : Thread nD τ).loc main_v82_0) := (dat3 (T7 m) c).arrAt 4 cfg3.N
/-- What region 3 leaves in `main_v82_1`: window 5's array after the last point. -/
def o8_1 (c : Dev nD) : Buf (Elt F) ((c : Thread nD τ).loc main_v82_1) := (dat3 (T7 m) c).arrAt 5 cfg3.N
/-- What region 3 leaves in `main_v82_2`: window 6's array after the last point. -/
def o8_2 (c : Dev nD) : Buf (Elt F) ((c : Thread nD τ).loc main_v82_2) := (dat3 (T7 m) c).arrAt 6 cfg3.N
/-- Core `c`'s buffers when region 3 is left. -/
def U8 (c : Dev nD) : Valuation τ sig (Elt F) :=
  Function.update (Function.update (Function.update (U7 m c) main_v82_0 (o8_0 m c)) main_v82_1 (o8_1 m c)) main_v82_2 (o8_2 m c)
abbrev T8 : (c : Dev nD) → (b : Ref sig .tc) → Buf (Elt F) ((c : Thread nD τ).loc b) := fun c b => U8 m c b
theorem U8_out0 (c : Dev nD) : U8 m c main_v82_0 = o8_0 m c := by
  unfold U8; rw [upd_ne _ main_v82_2 main_v82_0 _ (by decide), upd_ne _ main_v82_1 main_v82_0 _ (by decide)]; exact Function.update_self _ _ _
theorem U8_out1 (c : Dev nD) : U8 m c main_v82_1 = o8_1 m c := by
  unfold U8; rw [upd_ne _ main_v82_2 main_v82_1 _ (by decide)]; exact Function.update_self _ _ _
theorem U8_out2 (c : Dev nD) : U8 m c main_v82_2 = o8_2 m c := by
  unfold U8; exact Function.update_self _ _ _
/-- Off region 3's output arrays nothing has changed. -/
theorem U8_of (c : Dev nD) (b : Ref sig .tc) (h0 : b ≠ main_v82_0) (h1 : b ≠ main_v82_1) (h2 : b ≠ main_v82_2) : U8 m c b = U7 m c b := by
  unfold U8; rw [upd_ne _ main_v82_2 b _ h2, upd_ne _ main_v82_1 b _ h1, upd_ne _ main_v82_0 b _ h0]
/-- Core `c`'s buffers after the host stretch that follows region 3 (region 4's entry). -/
def U9 (c : Dev nD) : Valuation τ sig (Elt F) := StableHlo.after hostOps4 (U8 m c)
abbrev T9 : (c : Dev nD) → (b : Ref sig .tc) → Buf (Elt F) ((c : Thread nD τ).loc b) := fun c b => U9 m c b

/-! ## Region 4 -/

/-- What region 4 leaves in `main_v89`: window 6's array after the last point. -/
def o10 (c : Dev nD) : Buf (Elt F) ((c : Thread nD τ).loc main_v89) := (dat4 (T9 m) c).arrAt 6 cfg4.N
/-- Core `c`'s buffers when region 4 is left. -/
def U10 (c : Dev nD) : Valuation τ sig (Elt F) :=
  Function.update (U9 m c) main_v89 (o10 m c)
abbrev T10 : (c : Dev nD) → (b : Ref sig .tc) → Buf (Elt F) ((c : Thread nD τ).loc b) := fun c b => U10 m c b
theorem U10_out0 (c : Dev nD) : U10 m c main_v89 = o10 m c := by
  unfold U10; exact Function.update_self _ _ _
/-- Off region 4's output arrays nothing has changed. -/
theorem U10_of (c : Dev nD) (b : Ref sig .tc) (h0 : b ≠ main_v89) : U10 m c b = U9 m c b := by
  unfold U10; rw [upd_ne _ main_v89 b _ h0]
/-- Core `c`'s buffers after the host stretch that follows region 4 (region 5's entry). -/
def U11 (c : Dev nD) : Valuation τ sig (Elt F) := StableHlo.after hostOps5 (U10 m c)
abbrev T11 : (c : Dev nD) → (b : Ref sig .tc) → Buf (Elt F) ((c : Thread nD τ).loc b) := fun c b => U11 m c b

/-! ## Region 5 -/

/-- What region 5 leaves in `main_v103_0`: window 4's array after the last point. -/
def o12_0 (c : Dev nD) : Buf (Elt F) ((c : Thread nD τ).loc main_v103_0) := (dat5 (T11 m) c).arrAt 4 cfg5.N
/-- What region 5 leaves in `main_v103_1`: window 5's array after the last point. -/
def o12_1 (c : Dev nD) : Buf (Elt F) ((c : Thread nD τ).loc main_v103_1) := (dat5 (T11 m) c).arrAt 5 cfg5.N
/-- What region 5 leaves in `main_v103_2`: window 6's array after the last point. -/
def o12_2 (c : Dev nD) : Buf (Elt F) ((c : Thread nD τ).loc main_v103_2) := (dat5 (T11 m) c).arrAt 6 cfg5.N
/-- Core `c`'s buffers when region 5 is left. -/
def U12 (c : Dev nD) : Valuation τ sig (Elt F) :=
  Function.update (Function.update (Function.update (U11 m c) main_v103_0 (o12_0 m c)) main_v103_1 (o12_1 m c)) main_v103_2 (o12_2 m c)
abbrev T12 : (c : Dev nD) → (b : Ref sig .tc) → Buf (Elt F) ((c : Thread nD τ).loc b) := fun c b => U12 m c b
theorem U12_out0 (c : Dev nD) : U12 m c main_v103_0 = o12_0 m c := by
  unfold U12; rw [upd_ne _ main_v103_2 main_v103_0 _ (by decide), upd_ne _ main_v103_1 main_v103_0 _ (by decide)]; exact Function.update_self _ _ _
theorem U12_out1 (c : Dev nD) : U12 m c main_v103_1 = o12_1 m c := by
  unfold U12; rw [upd_ne _ main_v103_2 main_v103_1 _ (by decide)]; exact Function.update_self _ _ _
theorem U12_out2 (c : Dev nD) : U12 m c main_v103_2 = o12_2 m c := by
  unfold U12; exact Function.update_self _ _ _
/-- Off region 5's output arrays nothing has changed. -/
theorem U12_of (c : Dev nD) (b : Ref sig .tc) (h0 : b ≠ main_v103_0) (h1 : b ≠ main_v103_1) (h2 : b ≠ main_v103_2) : U12 m c b = U11 m c b := by
  unfold U12; rw [upd_ne _ main_v103_2 b _ h2, upd_ne _ main_v103_1 b _ h1, upd_ne _ main_v103_0 b _ h0]
/-- Core `c`'s buffers after the host stretch that follows region 5 (region 6's entry). -/
def U13 (c : Dev nD) : Valuation τ sig (Elt F) := StableHlo.after hostOps6 (U12 m c)
abbrev T13 : (c : Dev nD) → (b : Ref sig .tc) → Buf (Elt F) ((c : Thread nD τ).loc b) := fun c b => U13 m c b

/-! ## Region 6 -/

/-- What region 6 leaves in `main_v110`: window 10's array after the last point. -/
def o14 (c : Dev nD) : Buf (Elt F) ((c : Thread nD τ).loc main_v110) := (dat6 (T13 m) c).arrAt 10 cfg6.N
/-- Core `c`'s buffers when region 6 is left. -/
def U14 (c : Dev nD) : Valuation τ sig (Elt F) :=
  Function.update (U13 m c) main_v110 (o14 m c)
abbrev T14 : (c : Dev nD) → (b : Ref sig .tc) → Buf (Elt F) ((c : Thread nD τ).loc b) := fun c b => U14 m c b
theorem U14_out0 (c : Dev nD) : U14 m c main_v110 = o14 m c := by
  unfold U14; exact Function.update_self _ _ _
/-- Off region 6's output arrays nothing has changed. -/
theorem U14_of (c : Dev nD) (b : Ref sig .tc) (h0 : b ≠ main_v110) : U14 m c b = U13 m c b := by
  unfold U14; rw [upd_ne _ main_v110 b _ h0]
/-- Core `c`'s buffers after the host stretch that follows region 6 (the end of @main). -/
def U15 (c : Dev nD) : Valuation τ sig (Elt F) := StableHlo.after hostOps7 (U14 m c)
abbrev T15 : (c : Dev nD) → (b : Ref sig .tc) → Buf (Elt F) ((c : Thread nD τ).loc b) := fun c b => U15 m c b

/-! ## The regions' results as the unknowns of the generated valuations -/

/-- `outs J r c` is what core `c` holds in `r` after item `J - 1`, at the boundaries that follow a region. -/
def outs : Gen.Outs (F := F) := fun J r c =>
  match J with
  | 2 => U2 m c r
  | 4 => U4 m c r
  | 6 => U6 m c r
  | 8 => U8 m c r
  | 10 => U10 m c r
  | 12 => U12 m c r
  | 14 => U14 m c r
  | _ => U1 m c r

theorem V1_eq (c : Dev nD) : Gen.V1 m c = U1 m c := rfl
theorem V2_eq (c : Dev nD) : Gen.V2 m (outs m) c = U2 m c := by
  show Function.update (Gen.V1 m c) main_v47 (U2 m c main_v47) = U2 m c
  rw [U2_out0, V1_eq]; rfl
theorem V3_eq (c : Dev nD) : Gen.V3 m (outs m) c = U3 m c := by
  show StableHlo.after hostOps1 (Gen.V2 m (outs m) c) = U3 m c
  rw [V2_eq]; rfl
theorem V4_eq (c : Dev nD) : Gen.V4 m (outs m) c = U4 m c := by
  show Function.update (Function.update (Function.update (Gen.V3 m (outs m) c) main_v61_0 (U4 m c main_v61_0)) main_v61_1 (U4 m c main_v61_1)) main_v61_2 (U4 m c main_v61_2) = U4 m c
  rw [U4_out0, U4_out1, U4_out2, V3_eq]; rfl
theorem V5_eq (c : Dev nD) : Gen.V5 m (outs m) c = U5 m c := by
  show StableHlo.after hostOps2 (Gen.V4 m (outs m) c) = U5 m c
  rw [V4_eq]; rfl
theorem V6_eq (c : Dev nD) : Gen.V6 m (outs m) c = U6 m c := by
  show Function.update (Gen.V5 m (outs m) c) main_v68 (U6 m c main_v68) = U6 m c
  rw [U6_out0, V5_eq]; rfl
theorem V7_eq (c : Dev nD) : Gen.V7 m (outs m) c = U7 m c := by
  show StableHlo.after hostOps3 (Gen.V6 m (outs m) c) = U7 m c
  rw [V6_eq]; rfl
theorem V8_eq (c : Dev nD) : Gen.V8 m (outs m) c = U8 m c := by
  show Function.update (Function.update (Function.update (Gen.V7 m (outs m) c) main_v82_0 (U8 m c main_v82_0)) main_v82_1 (U8 m c main_v82_1)) main_v82_2 (U8 m c main_v82_2) = U8 m c
  rw [U8_out0, U8_out1, U8_out2, V7_eq]; rfl
theorem V9_eq (c : Dev nD) : Gen.V9 m (outs m) c = U9 m c := by
  show StableHlo.after hostOps4 (Gen.V8 m (outs m) c) = U9 m c
  rw [V8_eq]; rfl
theorem V10_eq (c : Dev nD) : Gen.V10 m (outs m) c = U10 m c := by
  show Function.update (Gen.V9 m (outs m) c) main_v89 (U10 m c main_v89) = U10 m c
  rw [U10_out0, V9_eq]; rfl
theorem V11_eq (c : Dev nD) : Gen.V11 m (outs m) c = U11 m c := by
  show StableHlo.after hostOps5 (Gen.V10 m (outs m) c) = U11 m c
  rw [V10_eq]; rfl
theorem V12_eq (c : Dev nD) : Gen.V12 m (outs m) c = U12 m c := by
  show Function.update (Function.update (Function.update (Gen.V11 m (outs m) c) main_v103_0 (U12 m c main_v103_0)) main_v103_1 (U12 m c main_v103_1)) main_v103_2 (U12 m c main_v103_2) = U12 m c
  rw [U12_out0, U12_out1, U12_out2, V11_eq]; rfl
theorem V13_eq (c : Dev nD) : Gen.V13 m (outs m) c = U13 m c := by
  show StableHlo.after hostOps6 (Gen.V12 m (outs m) c) = U13 m c
  rw [V12_eq]; rfl
theorem V14_eq (c : Dev nD) : Gen.V14 m (outs m) c = U14 m c := by
  show Function.update (Gen.V13 m (outs m) c) main_v110 (U14 m c main_v110) = U14 m c
  rw [U14_out0, V13_eq]; rfl
theorem V15_eq (c : Dev nD) : Gen.V15 m (outs m) c = U15 m c := by
  show StableHlo.after hostOps7 (Gen.V14 m (outs m) c) = U15 m c
  rw [V14_eq]; rfl

/-! ## At a region's exit each of its arrays holds what the pipeline leaves, every other buffer what it held at entry -/

theorem fin3_cases {P : Fin 3 → Prop} (h0 : P 0) (h1 : P 1) (h2 : P 2) : ∀ w, P w
  | 0 => h0
  | 1 => h1
  | 2 => h2
theorem fin7_cases {P : Fin 7 → Prop} (h0 : P 0) (h1 : P 1) (h2 : P 2) (h3 : P 3) (h4 : P 4) (h5 : P 5) (h6 : P 6) : ∀ w, P w
  | 0 => h0
  | 1 => h1
  | 2 => h2
  | 3 => h3
  | 4 => h4
  | 5 => h5
  | 6 => h6
theorem fin11_cases {P : Fin 11 → Prop} (h0 : P 0) (h1 : P 1) (h2 : P 2) (h3 : P 3) (h4 : P 4) (h5 : P 5) (h6 : P 6) (h7 : P 7) (h8 : P 8) (h9 : P 9) (h10 : P 10) : ∀ w, P w
  | 0 => h0
  | 1 => h1
  | 2 => h2
  | 3 => h3
  | 4 => h4
  | 5 => h5
  | 6 => h6
  | 7 => h7
  | 8 => h8
  | 9 => h9
  | 10 => h10
theorem hF0_0 (c : Dev nD) : (dat0 (T1 m) c).arrAt 0 cfg0.N = T2 m c (Pipeline.arrRef spec0 0) :=
  ((dat0 (T1 m) c).arrAt_in 0 rfl _).trans ((A_eq0 (T1 m) c 0).trans (U2_of m c _ (by decide)).symm)
theorem hF0_1 (c : Dev nD) : (dat0 (T1 m) c).arrAt 1 cfg0.N = T2 m c (Pipeline.arrRef spec0 1) :=
  ((dat0 (T1 m) c).arrAt_in 1 rfl _).trans ((A_eq0 (T1 m) c 1).trans (U2_of m c _ (by decide)).symm)
theorem hF0_2 (c : Dev nD) : (dat0 (T1 m) c).arrAt 2 cfg0.N = T2 m c (Pipeline.arrRef spec0 2) :=
  (U2_out0 m c).symm
theorem hF0 (c : Dev nD) : ∀ w : Fin cfg0.W, (dat0 (T1 m) c).arrAt w cfg0.N = T2 m c (Pipeline.arrRef spec0 w) :=
  fin3_cases (P := fun w => (dat0 (T1 m) c).arrAt w cfg0.N = T2 m c (Pipeline.arrRef spec0 w))
    (hF0_0 m c) (hF0_1 m c) (hF0_2 m c)
theorem hrest0 (c : Dev nD) : ∀ b, b ∉ Finset.univ.image (Pipeline.arrRef spec0) → T2 m c b = T1 m c b :=
  fun b hb => U2_of m c b (fun e => hb (Finset.mem_image.mpr ⟨2, Finset.mem_univ _, e.symm⟩))
theorem hF1_0 (c : Dev nD) : (dat1 (T3 m) c).arrAt 0 cfg1.N = T4 m c (Pipeline.arrRef spec1 0) :=
  ((dat1 (T3 m) c).arrAt_in 0 rfl _).trans ((A_eq1 (T3 m) c 0).trans (U4_of m c _ (by decide) (by decide) (by decide)).symm)
theorem hF1_1 (c : Dev nD) : (dat1 (T3 m) c).arrAt 1 cfg1.N = T4 m c (Pipeline.arrRef spec1 1) :=
  ((dat1 (T3 m) c).arrAt_in 1 rfl _).trans ((A_eq1 (T3 m) c 1).trans (U4_of m c _ (by decide) (by decide) (by decide)).symm)
theorem hF1_2 (c : Dev nD) : (dat1 (T3 m) c).arrAt 2 cfg1.N = T4 m c (Pipeline.arrRef spec1 2) :=
  ((dat1 (T3 m) c).arrAt_in 2 rfl _).trans ((A_eq1 (T3 m) c 2).trans (U4_of m c _ (by decide) (by decide) (by decide)).symm)
theorem hF1_3 (c : Dev nD) : (dat1 (T3 m) c).arrAt 3 cfg1.N = T4 m c (Pipeline.arrRef spec1 3) :=
  ((dat1 (T3 m) c).arrAt_in 3 rfl _).trans ((A_eq1 (T3 m) c 3).trans (U4_of m c _ (by decide) (by decide) (by decide)).symm)
theorem hF1_4 (c : Dev nD) : (dat1 (T3 m) c).arrAt 4 cfg1.N = T4 m c (Pipeline.arrRef spec1 4) :=
  (U4_out0 m c).symm
theorem hF1_5 (c : Dev nD) : (dat1 (T3 m) c).arrAt 5 cfg1.N = T4 m c (Pipeline.arrRef spec1 5) :=
  (U4_out1 m c).symm
theorem hF1_6 (c : Dev nD) : (dat1 (T3 m) c).arrAt 6 cfg1.N = T4 m c (Pipeline.arrRef spec1 6) :=
  (U4_out2 m c).symm
theorem hF1 (c : Dev nD) : ∀ w : Fin cfg1.W, (dat1 (T3 m) c).arrAt w cfg1.N = T4 m c (Pipeline.arrRef spec1 w) :=
  fin7_cases (P := fun w => (dat1 (T3 m) c).arrAt w cfg1.N = T4 m c (Pipeline.arrRef spec1 w))
    (hF1_0 m c) (hF1_1 m c) (hF1_2 m c) (hF1_3 m c) (hF1_4 m c) (hF1_5 m c) (hF1_6 m c)
theorem hrest1 (c : Dev nD) : ∀ b, b ∉ Finset.univ.image (Pipeline.arrRef spec1) → T4 m c b = T3 m c b :=
  fun b hb => U4_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF2_0 (c : Dev nD) : (dat2 (T5 m) c).arrAt 0 cfg2.N = T6 m c (Pipeline.arrRef spec2 0) :=
  ((dat2 (T5 m) c).arrAt_in 0 rfl _).trans ((A_eq2 (T5 m) c 0).trans (U6_of m c _ (by decide)).symm)
theorem hF2_1 (c : Dev nD) : (dat2 (T5 m) c).arrAt 1 cfg2.N = T6 m c (Pipeline.arrRef spec2 1) :=
  ((dat2 (T5 m) c).arrAt_in 1 rfl _).trans ((A_eq2 (T5 m) c 1).trans (U6_of m c _ (by decide)).symm)
theorem hF2_2 (c : Dev nD) : (dat2 (T5 m) c).arrAt 2 cfg2.N = T6 m c (Pipeline.arrRef spec2 2) :=
  ((dat2 (T5 m) c).arrAt_in 2 rfl _).trans ((A_eq2 (T5 m) c 2).trans (U6_of m c _ (by decide)).symm)
theorem hF2_3 (c : Dev nD) : (dat2 (T5 m) c).arrAt 3 cfg2.N = T6 m c (Pipeline.arrRef spec2 3) :=
  ((dat2 (T5 m) c).arrAt_in 3 rfl _).trans ((A_eq2 (T5 m) c 3).trans (U6_of m c _ (by decide)).symm)
theorem hF2_4 (c : Dev nD) : (dat2 (T5 m) c).arrAt 4 cfg2.N = T6 m c (Pipeline.arrRef spec2 4) :=
  ((dat2 (T5 m) c).arrAt_in 4 rfl _).trans ((A_eq2 (T5 m) c 4).trans (U6_of m c _ (by decide)).symm)
theorem hF2_5 (c : Dev nD) : (dat2 (T5 m) c).arrAt 5 cfg2.N = T6 m c (Pipeline.arrRef spec2 5) :=
  ((dat2 (T5 m) c).arrAt_in 5 rfl _).trans ((A_eq2 (T5 m) c 5).trans (U6_of m c _ (by decide)).symm)
theorem hF2_6 (c : Dev nD) : (dat2 (T5 m) c).arrAt 6 cfg2.N = T6 m c (Pipeline.arrRef spec2 6) :=
  (U6_out0 m c).symm
theorem hF2 (c : Dev nD) : ∀ w : Fin cfg2.W, (dat2 (T5 m) c).arrAt w cfg2.N = T6 m c (Pipeline.arrRef spec2 w) :=
  fin7_cases (P := fun w => (dat2 (T5 m) c).arrAt w cfg2.N = T6 m c (Pipeline.arrRef spec2 w))
    (hF2_0 m c) (hF2_1 m c) (hF2_2 m c) (hF2_3 m c) (hF2_4 m c) (hF2_5 m c) (hF2_6 m c)
theorem hrest2 (c : Dev nD) : ∀ b, b ∉ Finset.univ.image (Pipeline.arrRef spec2) → T6 m c b = T5 m c b :=
  fun b hb => U6_of m c b (fun e => hb (Finset.mem_image.mpr ⟨6, Finset.mem_univ _, e.symm⟩))
theorem hF3_0 (c : Dev nD) : (dat3 (T7 m) c).arrAt 0 cfg3.N = T8 m c (Pipeline.arrRef spec3 0) :=
  ((dat3 (T7 m) c).arrAt_in 0 rfl _).trans ((A_eq3 (T7 m) c 0).trans (U8_of m c _ (by decide) (by decide) (by decide)).symm)
theorem hF3_1 (c : Dev nD) : (dat3 (T7 m) c).arrAt 1 cfg3.N = T8 m c (Pipeline.arrRef spec3 1) :=
  ((dat3 (T7 m) c).arrAt_in 1 rfl _).trans ((A_eq3 (T7 m) c 1).trans (U8_of m c _ (by decide) (by decide) (by decide)).symm)
theorem hF3_2 (c : Dev nD) : (dat3 (T7 m) c).arrAt 2 cfg3.N = T8 m c (Pipeline.arrRef spec3 2) :=
  ((dat3 (T7 m) c).arrAt_in 2 rfl _).trans ((A_eq3 (T7 m) c 2).trans (U8_of m c _ (by decide) (by decide) (by decide)).symm)
theorem hF3_3 (c : Dev nD) : (dat3 (T7 m) c).arrAt 3 cfg3.N = T8 m c (Pipeline.arrRef spec3 3) :=
  ((dat3 (T7 m) c).arrAt_in 3 rfl _).trans ((A_eq3 (T7 m) c 3).trans (U8_of m c _ (by decide) (by decide) (by decide)).symm)
theorem hF3_4 (c : Dev nD) : (dat3 (T7 m) c).arrAt 4 cfg3.N = T8 m c (Pipeline.arrRef spec3 4) :=
  (U8_out0 m c).symm
theorem hF3_5 (c : Dev nD) : (dat3 (T7 m) c).arrAt 5 cfg3.N = T8 m c (Pipeline.arrRef spec3 5) :=
  (U8_out1 m c).symm
theorem hF3_6 (c : Dev nD) : (dat3 (T7 m) c).arrAt 6 cfg3.N = T8 m c (Pipeline.arrRef spec3 6) :=
  (U8_out2 m c).symm
theorem hF3 (c : Dev nD) : ∀ w : Fin cfg3.W, (dat3 (T7 m) c).arrAt w cfg3.N = T8 m c (Pipeline.arrRef spec3 w) :=
  fin7_cases (P := fun w => (dat3 (T7 m) c).arrAt w cfg3.N = T8 m c (Pipeline.arrRef spec3 w))
    (hF3_0 m c) (hF3_1 m c) (hF3_2 m c) (hF3_3 m c) (hF3_4 m c) (hF3_5 m c) (hF3_6 m c)
theorem hrest3 (c : Dev nD) : ∀ b, b ∉ Finset.univ.image (Pipeline.arrRef spec3) → T8 m c b = T7 m c b :=
  fun b hb => U8_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF4_0 (c : Dev nD) : (dat4 (T9 m) c).arrAt 0 cfg4.N = T10 m c (Pipeline.arrRef spec4 0) :=
  ((dat4 (T9 m) c).arrAt_in 0 rfl _).trans ((A_eq4 (T9 m) c 0).trans (U10_of m c _ (by decide)).symm)
theorem hF4_1 (c : Dev nD) : (dat4 (T9 m) c).arrAt 1 cfg4.N = T10 m c (Pipeline.arrRef spec4 1) :=
  ((dat4 (T9 m) c).arrAt_in 1 rfl _).trans ((A_eq4 (T9 m) c 1).trans (U10_of m c _ (by decide)).symm)
theorem hF4_2 (c : Dev nD) : (dat4 (T9 m) c).arrAt 2 cfg4.N = T10 m c (Pipeline.arrRef spec4 2) :=
  ((dat4 (T9 m) c).arrAt_in 2 rfl _).trans ((A_eq4 (T9 m) c 2).trans (U10_of m c _ (by decide)).symm)
theorem hF4_3 (c : Dev nD) : (dat4 (T9 m) c).arrAt 3 cfg4.N = T10 m c (Pipeline.arrRef spec4 3) :=
  ((dat4 (T9 m) c).arrAt_in 3 rfl _).trans ((A_eq4 (T9 m) c 3).trans (U10_of m c _ (by decide)).symm)
theorem hF4_4 (c : Dev nD) : (dat4 (T9 m) c).arrAt 4 cfg4.N = T10 m c (Pipeline.arrRef spec4 4) :=
  ((dat4 (T9 m) c).arrAt_in 4 rfl _).trans ((A_eq4 (T9 m) c 4).trans (U10_of m c _ (by decide)).symm)
theorem hF4_5 (c : Dev nD) : (dat4 (T9 m) c).arrAt 5 cfg4.N = T10 m c (Pipeline.arrRef spec4 5) :=
  ((dat4 (T9 m) c).arrAt_in 5 rfl _).trans ((A_eq4 (T9 m) c 5).trans (U10_of m c _ (by decide)).symm)
theorem hF4_6 (c : Dev nD) : (dat4 (T9 m) c).arrAt 6 cfg4.N = T10 m c (Pipeline.arrRef spec4 6) :=
  (U10_out0 m c).symm
theorem hF4 (c : Dev nD) : ∀ w : Fin cfg4.W, (dat4 (T9 m) c).arrAt w cfg4.N = T10 m c (Pipeline.arrRef spec4 w) :=
  fin7_cases (P := fun w => (dat4 (T9 m) c).arrAt w cfg4.N = T10 m c (Pipeline.arrRef spec4 w))
    (hF4_0 m c) (hF4_1 m c) (hF4_2 m c) (hF4_3 m c) (hF4_4 m c) (hF4_5 m c) (hF4_6 m c)
theorem hrest4 (c : Dev nD) : ∀ b, b ∉ Finset.univ.image (Pipeline.arrRef spec4) → T10 m c b = T9 m c b :=
  fun b hb => U10_of m c b (fun e => hb (Finset.mem_image.mpr ⟨6, Finset.mem_univ _, e.symm⟩))
theorem hF5_0 (c : Dev nD) : (dat5 (T11 m) c).arrAt 0 cfg5.N = T12 m c (Pipeline.arrRef spec5 0) :=
  ((dat5 (T11 m) c).arrAt_in 0 rfl _).trans ((A_eq5 (T11 m) c 0).trans (U12_of m c _ (by decide) (by decide) (by decide)).symm)
theorem hF5_1 (c : Dev nD) : (dat5 (T11 m) c).arrAt 1 cfg5.N = T12 m c (Pipeline.arrRef spec5 1) :=
  ((dat5 (T11 m) c).arrAt_in 1 rfl _).trans ((A_eq5 (T11 m) c 1).trans (U12_of m c _ (by decide) (by decide) (by decide)).symm)
theorem hF5_2 (c : Dev nD) : (dat5 (T11 m) c).arrAt 2 cfg5.N = T12 m c (Pipeline.arrRef spec5 2) :=
  ((dat5 (T11 m) c).arrAt_in 2 rfl _).trans ((A_eq5 (T11 m) c 2).trans (U12_of m c _ (by decide) (by decide) (by decide)).symm)
theorem hF5_3 (c : Dev nD) : (dat5 (T11 m) c).arrAt 3 cfg5.N = T12 m c (Pipeline.arrRef spec5 3) :=
  ((dat5 (T11 m) c).arrAt_in 3 rfl _).trans ((A_eq5 (T11 m) c 3).trans (U12_of m c _ (by decide) (by decide) (by decide)).symm)
theorem hF5_4 (c : Dev nD) : (dat5 (T11 m) c).arrAt 4 cfg5.N = T12 m c (Pipeline.arrRef spec5 4) :=
  (U12_out0 m c).symm
theorem hF5_5 (c : Dev nD) : (dat5 (T11 m) c).arrAt 5 cfg5.N = T12 m c (Pipeline.arrRef spec5 5) :=
  (U12_out1 m c).symm
theorem hF5_6 (c : Dev nD) : (dat5 (T11 m) c).arrAt 6 cfg5.N = T12 m c (Pipeline.arrRef spec5 6) :=
  (U12_out2 m c).symm
theorem hF5 (c : Dev nD) : ∀ w : Fin cfg5.W, (dat5 (T11 m) c).arrAt w cfg5.N = T12 m c (Pipeline.arrRef spec5 w) :=
  fin7_cases (P := fun w => (dat5 (T11 m) c).arrAt w cfg5.N = T12 m c (Pipeline.arrRef spec5 w))
    (hF5_0 m c) (hF5_1 m c) (hF5_2 m c) (hF5_3 m c) (hF5_4 m c) (hF5_5 m c) (hF5_6 m c)
theorem hrest5 (c : Dev nD) : ∀ b, b ∉ Finset.univ.image (Pipeline.arrRef spec5) → T12 m c b = T11 m c b :=
  fun b hb => U12_of m c b (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))
theorem hF6_0 (c : Dev nD) : (dat6 (T13 m) c).arrAt 0 cfg6.N = T14 m c (Pipeline.arrRef spec6 0) :=
  ((dat6 (T13 m) c).arrAt_in 0 rfl _).trans ((A_eq6 (T13 m) c 0).trans (U14_of m c _ (by decide)).symm)
theorem hF6_1 (c : Dev nD) : (dat6 (T13 m) c).arrAt 1 cfg6.N = T14 m c (Pipeline.arrRef spec6 1) :=
  ((dat6 (T13 m) c).arrAt_in 1 rfl _).trans ((A_eq6 (T13 m) c 1).trans (U14_of m c _ (by decide)).symm)
theorem hF6_2 (c : Dev nD) : (dat6 (T13 m) c).arrAt 2 cfg6.N = T14 m c (Pipeline.arrRef spec6 2) :=
  ((dat6 (T13 m) c).arrAt_in 2 rfl _).trans ((A_eq6 (T13 m) c 2).trans (U14_of m c _ (by decide)).symm)
theorem hF6_3 (c : Dev nD) : (dat6 (T13 m) c).arrAt 3 cfg6.N = T14 m c (Pipeline.arrRef spec6 3) :=
  ((dat6 (T13 m) c).arrAt_in 3 rfl _).trans ((A_eq6 (T13 m) c 3).trans (U14_of m c _ (by decide)).symm)
theorem hF6_4 (c : Dev nD) : (dat6 (T13 m) c).arrAt 4 cfg6.N = T14 m c (Pipeline.arrRef spec6 4) :=
  ((dat6 (T13 m) c).arrAt_in 4 rfl _).trans ((A_eq6 (T13 m) c 4).trans (U14_of m c _ (by decide)).symm)
theorem hF6_5 (c : Dev nD) : (dat6 (T13 m) c).arrAt 5 cfg6.N = T14 m c (Pipeline.arrRef spec6 5) :=
  ((dat6 (T13 m) c).arrAt_in 5 rfl _).trans ((A_eq6 (T13 m) c 5).trans (U14_of m c _ (by decide)).symm)
theorem hF6_6 (c : Dev nD) : (dat6 (T13 m) c).arrAt 6 cfg6.N = T14 m c (Pipeline.arrRef spec6 6) :=
  ((dat6 (T13 m) c).arrAt_in 6 rfl _).trans ((A_eq6 (T13 m) c 6).trans (U14_of m c _ (by decide)).symm)
theorem hF6_7 (c : Dev nD) : (dat6 (T13 m) c).arrAt 7 cfg6.N = T14 m c (Pipeline.arrRef spec6 7) :=
  ((dat6 (T13 m) c).arrAt_in 7 rfl _).trans ((A_eq6 (T13 m) c 7).trans (U14_of m c _ (by decide)).symm)
theorem hF6_8 (c : Dev nD) : (dat6 (T13 m) c).arrAt 8 cfg6.N = T14 m c (Pipeline.arrRef spec6 8) :=
  ((dat6 (T13 m) c).arrAt_in 8 rfl _).trans ((A_eq6 (T13 m) c 8).trans (U14_of m c _ (by decide)).symm)
theorem hF6_9 (c : Dev nD) : (dat6 (T13 m) c).arrAt 9 cfg6.N = T14 m c (Pipeline.arrRef spec6 9) :=
  ((dat6 (T13 m) c).arrAt_in 9 rfl _).trans ((A_eq6 (T13 m) c 9).trans (U14_of m c _ (by decide)).symm)
theorem hF6_10 (c : Dev nD) : (dat6 (T13 m) c).arrAt 10 cfg6.N = T14 m c (Pipeline.arrRef spec6 10) :=
  (U14_out0 m c).symm
theorem hF6 (c : Dev nD) : ∀ w : Fin cfg6.W, (dat6 (T13 m) c).arrAt w cfg6.N = T14 m c (Pipeline.arrRef spec6 w) :=
  fin11_cases (P := fun w => (dat6 (T13 m) c).arrAt w cfg6.N = T14 m c (Pipeline.arrRef spec6 w))
    (hF6_0 m c) (hF6_1 m c) (hF6_2 m c) (hF6_3 m c) (hF6_4 m c) (hF6_5 m c) (hF6_6 m c) (hF6_7 m c) (hF6_8 m c) (hF6_9 m c) (hF6_10 m c)
theorem hrest6 (c : Dev nD) : ∀ b, b ∉ Finset.univ.image (Pipeline.arrRef spec6) → T14 m c b = T13 m c b :=
  fun b hb => U14_of m c b (fun e => hb (Finset.mem_image.mpr ⟨10, Finset.mem_univ _, e.symm⟩))

/-! # The proof data family and the thread state -/

/-- Every pipeline's proof data, each at its region's entry contents. -/
def pdats : (p : Fin 7) → (c : Dev nD) → Dat τ (Elt F) Unit ℕ (UR sig nD τ) ℕ (cfgs p) c
  | ⟨0, _⟩ => fun c => dat0 (T1 m) c
  | ⟨1, _⟩ => fun c => dat1 (T3 m) c
  | ⟨2, _⟩ => fun c => dat2 (T5 m) c
  | ⟨3, _⟩ => fun c => dat3 (T7 m) c
  | ⟨4, _⟩ => fun c => dat4 (T9 m) c
  | ⟨5, _⟩ => fun c => dat5 (T11 m) c
  | ⟨6, _⟩ => fun c => dat6 (T13 m) c

/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The unscoped buffers held at equal contents. -/
theorem held_congr (c : Dev nD) {V V' : Valuation τ sig (Elt F)} (h : V = V') (P : sProp 𝕄) :
    iprop(StableHlo.held (c : Thread nD τ) (Pipeline.ucRefs τ sig) V ∗ P) ⊢ iprop(StableHlo.held (c : Thread nD τ) (Pipeline.ucRefs τ sig) V' ∗ P) := by
  subst h; exact .rfl

/-! # The regions as segments

Each region is entered from every unscoped buffer at the contents the stretch before it leaves and left at those
contents with its output arrays replaced: its arrays are split out of the unscoped buffers at entry and put back at the
exit contents; the generator register goes into the region's invariant and comes back; nothing is owed; the kernels
have no semaphore of their own. -/

set_option backward.isDefEq.respectTransparency.types false in
/-- Region 0 over the thread state: entered at `U1`, left at `U2`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (T1 m c) fun w => A_eq0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at `U3`, left at `U4`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (T3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (T3 m c) fun w => A_eq1 (T3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered at `U5`, left at `U6`. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (T5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (T5 m c) fun w => A_eq2 (T5 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered at `U7`, left at `U8`. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (T7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (T7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (T7 m c) fun w => A_eq3 (T7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (T7 m c) (T8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered at `U9`, left at `U10`. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (T9 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (T9 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (T9 m c) fun w => A_eq4 (T9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (T9 m c) (T10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered at `U11`, left at `U12`. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (T11 m) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (T11 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (T11 m c) fun w => A_eq5 (T11 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (T11 m c) (T12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered at `U13`, left at `U14`. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (T13 m) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec6 c (T13 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (T13 m c) fun w => A_eq6 (T13 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (T13 m) c)
    unfold Pipeline.ΦA
    iintro ⟨Hp, -, Hr⟩
    isplitl [Hr]; · iexact Hr
    iexact Hp
  hout c := by
    rw [Pipeline.ownSems0_none]
    refine BIBase.Entails.trans (hout6 (T13 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (T13 m c) (T14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The run -/

-- the launch theorem's implicit arguments are found by unifying its conclusion with this one, which takes unfolding
-- plain definitions in a metavariable's type
set_option backward.isDefEq.respectTransparency.types false in
/-- Every weakly fair execution of @main from memory `m` with zero counters terminates, and in every final memory each
    core's unscoped buffers hold the last boundary's contents `U15`: the host stretches and the seven regions in @main's
    order, each entered from what the item before it leaves; the last thread state read against the final state. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = U15 m c b) := by
  refine Pipeline.θ_run_regions_kit_dev (pcfgs (F := F)) Gen.adm (pdats m) () cellOf_inj emb₁ defs₀ Variants.none L lv m ρ main
    (Gen.segs m (outs m) Variants.none L lv (fun _ c => R c) () (pdats m) (reg0 m) (reg1 m) (reg2 m) (reg3 m) (reg4 m) (reg5 m) (reg6 m))
    (fun c Q => by
      rewrite [main_chain c, Pipeline.Seg.run_eq_chain,
        show (Gen.segs m (outs m) Variants.none L lv (fun _ c => R c) () (pdats m) (reg0 m) (reg1 m) (reg2 m) (reg3 m) (reg4 m) (reg5 m) (reg6 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (U15 m c))
    (hch := fun c => ⟨.rfl,
      held_congr c (V1_eq m c) _,
      held_congr c (V2_eq m c).symm _,
      held_congr c (V3_eq m c) _,
      held_congr c (V4_eq m c).symm _,
      held_congr c (V5_eq m c) _,
      held_congr c (V6_eq m c).symm _,
      held_congr c (V7_eq m c) _,
      held_congr c (V8_eq m c).symm _,
      held_congr c (V9_eq m c) _,
      held_congr c (V10_eq m c).symm _,
      held_congr c (V11_eq m c) _,
      held_congr c (V12_eq m c).symm _,
      held_congr c (V13_eq m c) _,
      held_congr c (V14_eq m c).symm _,
      (held_congr c (V15_eq m c) _).trans (sep_mono .rfl (by iintro ⟨-, H⟩; iexact H))⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U15 m c b)
    (hfin := fun c s' => by
      iintro ⟨Hh, HSI⟩
      unfold StableHlo.held
      imodintro
      iapply (pointsTo_read_all (Pipeline.ucRefs τ sig) (fun b => (((c : Thread nD τ)).1, b)) (U15 m c) s')
      isplitl [Hh] <;> iassumption)
    (hQ := fun _ h => h)

/-- The frame: every argument array ends holding its launch contents — no host stretch writes an argument and no
    region may change one, so the last boundary's contents at an argument walk back to the launch memory. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans ((congrFun (V15_eq m c).symm _).trans (Gen.V15_main_arg0 m (outs m) c)),
     (h c _ (mem_uc main_arg1 (by decide))).trans ((congrFun (V15_eq m c).symm _).trans (Gen.V15_main_arg1 m (outs m) c)),
     (h c _ (mem_uc main_arg2 (by decide))).trans ((congrFun (V15_eq m c).symm _).trans (Gen.V15_main_arg2 m (outs m) c)),
     (h c _ (mem_uc main_arg3 (by decide))).trans ((congrFun (V15_eq m c).symm _).trans (Gen.V15_main_arg3 m (outs m) c)),
     (h c _ (mem_uc main_arg4 (by decide))).trans ((congrFun (V15_eq m c).symm _).trans (Gen.V15_main_arg4 m (outs m) c)),
     (h c _ (mem_uc main_arg5 (by decide))).trans ((congrFun (V15_eq m c).symm _).trans (Gen.V15_main_arg5 m (outs m) c)),
     (h c _ (mem_uc main_arg6 (by decide))).trans ((congrFun (V15_eq m c).symm _).trans (Gen.V15_main_arg6 m (outs m) c)),
     (h c _ (mem_uc main_arg7 (by decide))).trans ((congrFun (V15_eq m c).symm _).trans (Gen.V15_main_arg7 m (outs m) c)),
     (h c _ (mem_uc main_arg8 (by decide))).trans ((congrFun (V15_eq m c).symm _).trans (Gen.V15_main_arg8 m (outs m) c)),
     (h c _ (mem_uc main_arg9 (by decide))).trans ((congrFun (V15_eq m c).symm _).trans (Gen.V15_main_arg9 m (outs m) c)),
     (h c _ (mem_uc main_arg10 (by decide))).trans ((congrFun (V15_eq m c).symm _).trans (Gen.V15_main_arg10 m (outs m) c)),
     (h c _ (mem_uc main_arg11 (by decide))).trans ((congrFun (V15_eq m c).symm _).trans (Gen.V15_main_arg11 m (outs m) c)),
     (h c _ (mem_uc main_arg12 (by decide))).trans ((congrFun (V15_eq m c).symm _).trans (Gen.V15_main_arg12 m (outs m) c)),
     (h c _ (mem_uc main_arg13 (by decide))).trans ((congrFun (V15_eq m c).symm _).trans (Gen.V15_main_arg13 m (outs m) c)),
     (h c _ (mem_uc main_arg14 (by decide))).trans ((congrFun (V15_eq m c).symm _).trans (Gen.V15_main_arg14 m (outs m) c)),
     (h c _ (mem_uc main_arg15 (by decide))).trans ((congrFun (V15_eq m c).symm _).trans (Gen.V15_main_arg15 m (outs m) c)),
     (h c _ (mem_uc main_arg16 (by decide))).trans ((congrFun (V15_eq m c).symm _).trans (Gen.V15_main_arg16 m (outs m) c)),
     (h c _ (mem_uc main_arg17 (by decide))).trans ((congrFun (V15_eq m c).symm _).trans (Gen.V15_main_arg17 m (outs m) c)),
     (h c _ (mem_uc main_arg18 (by decide))).trans ((congrFun (V15_eq m c).symm _).trans (Gen.V15_main_arg18 m (outs m) c))⟩) (run_all m ρ)

/-- The result beside the frame: the returned array ends at the last boundary's contents. -/
theorem result (ρ : Dev nD → PrngReg) : θ_run defs (onTc (τ := τ) (main (F := F))) ⟨m, fun _ => 0, ρ⟩ (fun r => ∀ c : Dev nD,
      r.2.mem ((c.tc : Thread nD τ).loc main_v111) = U15 m c main_v111
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v111 (by decide)),
     (h c _ (mem_uc main_arg0 (by decide))).trans ((congrFun (V15_eq m c).symm _).trans (Gen.V15_main_arg0 m (outs m) c)),
     (h c _ (mem_uc main_arg1 (by decide))).trans ((congrFun (V15_eq m c).symm _).trans (Gen.V15_main_arg1 m (outs m) c)),
     (h c _ (mem_uc main_arg2 (by decide))).trans ((congrFun (V15_eq m c).symm _).trans (Gen.V15_main_arg2 m (outs m) c)),
     (h c _ (mem_uc main_arg3 (by decide))).trans ((congrFun (V15_eq m c).symm _).trans (Gen.V15_main_arg3 m (outs m) c)),
     (h c _ (mem_uc main_arg4 (by decide))).trans ((congrFun (V15_eq m c).symm _).trans (Gen.V15_main_arg4 m (outs m) c)),
     (h c _ (mem_uc main_arg5 (by decide))).trans ((congrFun (V15_eq m c).symm _).trans (Gen.V15_main_arg5 m (outs m) c)),
     (h c _ (mem_uc main_arg6 (by decide))).trans ((congrFun (V15_eq m c).symm _).trans (Gen.V15_main_arg6 m (outs m) c)),
     (h c _ (mem_uc main_arg7 (by decide))).trans ((congrFun (V15_eq m c).symm _).trans (Gen.V15_main_arg7 m (outs m) c)),
     (h c _ (mem_uc main_arg8 (by decide))).trans ((congrFun (V15_eq m c).symm _).trans (Gen.V15_main_arg8 m (outs m) c)),
     (h c _ (mem_uc main_arg9 (by decide))).trans ((congrFun (V15_eq m c).symm _).trans (Gen.V15_main_arg9 m (outs m) c)),
     (h c _ (mem_uc main_arg10 (by decide))).trans ((congrFun (V15_eq m c).symm _).trans (Gen.V15_main_arg10 m (outs m) c)),
     (h c _ (mem_uc main_arg11 (by decide))).trans ((congrFun (V15_eq m c).symm _).trans (Gen.V15_main_arg11 m (outs m) c)),
     (h c _ (mem_uc main_arg12 (by decide))).trans ((congrFun (V15_eq m c).symm _).trans (Gen.V15_main_arg12 m (outs m) c)),
     (h c _ (mem_uc main_arg13 (by decide))).trans ((congrFun (V15_eq m c).symm _).trans (Gen.V15_main_arg13 m (outs m) c)),
     (h c _ (mem_uc main_arg14 (by decide))).trans ((congrFun (V15_eq m c).symm _).trans (Gen.V15_main_arg14 m (outs m) c)),
     (h c _ (mem_uc main_arg15 (by decide))).trans ((congrFun (V15_eq m c).symm _).trans (Gen.V15_main_arg15 m (outs m) c)),
     (h c _ (mem_uc main_arg16 (by decide))).trans ((congrFun (V15_eq m c).symm _).trans (Gen.V15_main_arg16 m (outs m) c)),
     (h c _ (mem_uc main_arg17 (by decide))).trans ((congrFun (V15_eq m c).symm _).trans (Gen.V15_main_arg17 m (outs m) c)),
     (h c _ (mem_uc main_arg18 (by decide))).trans ((congrFun (V15_eq m c).symm _).trans (Gen.V15_main_arg18 m (outs m) c))⟩) (run_all m ρ)

end Cert.KernelIdeal.Hand

end
-- ==== Proof.RefOps.lean ====
import proofs.«430760_j5652176962022_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 3 of @main, in order. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Operations 4 to 68 of @main, in order. -/
abbrev ops1 : List (HloOp τ sig (Elt F)) :=
  [ binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    nullary main_cst_3 (constant S_ .f32 0xBF000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (Host.powf : (⟨S50000, .f32⟩ : BufTy).Contents (Elt F) → (⟨S50000, .f32⟩ : BufTy).Contents (Elt F) → (⟨S50000, .f32⟩ : BufTy).Contents (Elt F)),
    nullary main_c_4 (constantI S_ 32 0#32),
    unary main_c_4 main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_6 (constantI S_ 32 0#32),
    unary main_c_6 main_v25 (broadcastInDim S800000 ![] bcast_S_S800000 : (⟨S_, .i32⟩ : BufTy).Contents (Elt F) → (⟨S800000, .i32⟩ : BufTy).Contents (Elt F)),
    binary main_v3 main_v25 main_v26 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v27 (broadcastInDim S800000 ![] bcast_S_S800000 : (⟨S_, .i32⟩ : BufTy).Contents (Elt F) → (⟨S800000, .i32⟩ : BufTy).Contents (Elt F)),
    binary main_v3 main_v27 main_v28 (addi : (⟨S800000, .i32⟩ : BufTy).Contents (Elt F) → (⟨S800000, .i32⟩ : BufTy).Contents (Elt F) → (⟨S800000, .i32⟩ : BufTy).Contents (Elt F)),
    ternary main_v26 main_v28 main_v3 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v29 main_v30 (broadcastInDim S800000x1 ![0] bcast_S800000_S800000x1_0 : (⟨S800000, .i32⟩ : BufTy).Contents (Elt F) → (⟨S800000x1, .i32⟩ : BufTy).Contents (Elt F)),
    binary main_v17 main_v30 main_v31 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v24 main_v31 main_v32 (mulf : (⟨S800000, .f32⟩ : BufTy).Contents (Elt F) → (⟨S800000, .f32⟩ : BufTy).Contents (Elt F) → (⟨S800000, .f32⟩ : BufTy).Contents (Elt F)),
    nullary main_c_8 (constantI S_ 32 0#32),
    unary main_c_8 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v32 main_v40 (broadcastInDim S800000x1 ![0] bcast_S800000_S800000x1_0 : (⟨S800000, .f32⟩ : BufTy).Contents (Elt F) → (⟨S800000x1, .f32⟩ : BufTy).Contents (Elt F)),
    unary main_v40 main_v41 (broadcastInDim S800000x128 ![0, 1] bcast_S800000x1_S800000x128_0_1 : (⟨S800000x1, .f32⟩ : BufTy).Contents (Elt F) → (⟨S800000x128, .f32⟩ : BufTy).Contents (Elt F)),
    binary main_v39 main_v41 main_v42 (mulf : (⟨S800000x128, .f32⟩ : BufTy).Contents (Elt F) → (⟨S800000x128, .f32⟩ : BufTy).Contents (Elt F) → (⟨S800000x128, .f32⟩ : BufTy).Contents (Elt F)),
    nullary main_cst_10 (constant S_ .f32 0x00000000#32),
    unary main_cst_10 main_v43 (broadcastInDim S50000x128 ![] bcast_S_S50000x128 : (⟨S_, .f32⟩ : BufTy).Contents (Elt F) → (⟨S50000x128, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x3F800000#32),
    unary main_cst_11 main_v46 (broadcastInDim S50000 ![] bcast_S_S50000 : (⟨S_, .f32⟩ : BufTy).Contents (Elt F) → (⟨S50000, .f32⟩ : BufTy).Contents (Elt F)),
    binary main_v46 main_v15 main_v47 (Host.divf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x128 ![0, 1] bcast_S50000x1_S50000x128_0_1 : (⟨S50000x1, .f32⟩ : BufTy).Contents (Elt F) → (⟨S50000x128, .f32⟩ : BufTy).Contents (Elt F)),
    binary main_v4 main_v49 main_v50 (mulf : (⟨S50000x128, .f32⟩ : BufTy).Contents (Elt F) → (⟨S50000x128, .f32⟩ : BufTy).Contents (Elt F) → (⟨S50000x128, .f32⟩ : BufTy).Contents (Elt F)),
    binary main_v45 main_v50 main_v51 (addf : (⟨S50000x128, .f32⟩ : BufTy).Contents (Elt F) → (⟨S50000x128, .f32⟩ : BufTy).Contents (Elt F) → (⟨S50000x128, .f32⟩ : BufTy).Contents (Elt F)),
    unary main_arg4 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)) ]

/-- Operations 69 to 101 of @main, in order. -/
abbrev ops2 : List (HloOp τ sig (Elt F)) :=
  [ nullary main_cst_12 (constant S_ .f32 0x00000000#32),
    binary main_v54 main_cst_12 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_13 (constant S_ .f32 0x47435000#32),
    unary main_cst_13 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v57 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v54 main_v59 main_v60 (subf : (⟨S50000x128, .f32⟩ : BufTy).Contents (Elt F) → (⟨S50000x128, .f32⟩ : BufTy).Contents (Elt F) → (⟨S50000x128, .f32⟩ : BufTy).Contents (Elt F)),
    binary main_v60 main_v60 main_v61 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    binary main_v61 main_cst_14 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_15 (constant S_ .f32 0x47435000#32),
    unary main_cst_15 main_v63 (broadcastInDim S128 ![] bcast_S_S128 : (⟨S_, .f32⟩ : BufTy).Contents (Elt F) → (⟨S128, .f32⟩ : BufTy).Contents (Elt F)),
    binary main_v62 main_v63 main_v64 (Host.divf : (⟨S128, .f32⟩ : BufTy).Contents (Elt F) → (⟨S128, .f32⟩ : BufTy).Contents (Elt F) → (⟨S128, .f32⟩ : BufTy).Contents (Elt F)),
    unary main_v57 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v54 main_v66 main_v67 (subf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3727C5AC#32),
    unary main_cst_16 main_v68 (broadcastInDim S128 ![] bcast_S_S128 : (⟨S_, .f32⟩ : BufTy).Contents (Elt F) → (⟨S128, .f32⟩ : BufTy).Contents (Elt F)),
    binary main_v64 main_v68 main_v69 (addf : (⟨S128, .f32⟩ : BufTy).Contents (Elt F) → (⟨S128, .f32⟩ : BufTy).Contents (Elt F) → (⟨S128, .f32⟩ : BufTy).Contents (Elt F)),
    unary main_v69 main_v70 (Host.rsqrt : (⟨S128, .f32⟩ : BufTy).Contents (Elt F) → (⟨S128, .f32⟩ : BufTy).Contents (Elt F)),
    unary main_v70 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v67 main_v72 main_v73 (mulf : (⟨S50000x128, .f32⟩ : BufTy).Contents (Elt F) → (⟨S50000x128, .f32⟩ : BufTy).Contents (Elt F) → (⟨S50000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (mulf : (⟨S50000x128, .f32⟩ : BufTy).Contents (Elt F) → (⟨S50000x128, .f32⟩ : BufTy).Contents (Elt F) → (⟨S50000x128, .f32⟩ : BufTy).Contents (Elt F)),
    unary main_arg6 main_v77 (broadcastInDim S1x128 ![1] bcast_S128_S1x128_1 : (⟨S128, .f32⟩ : BufTy).Contents (Elt F) → (⟨S1x128, .f32⟩ : BufTy).Contents (Elt F)),
    unary main_v77 main_v78 (broadcastInDim S50000x128 ![0, 1] bcast_S1x128_S50000x128_0_1 : (⟨S1x128, .f32⟩ : BufTy).Contents (Elt F) → (⟨S50000x128, .f32⟩ : BufTy).Contents (Elt F)),
    binary main_v76 main_v78 main_v79 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v79) (TRef.of (T := ⟨S50000x128, .f32⟩) main_call0_v0) (TRef.of (T := ⟨S50000x128, .f32⟩) main_v80) maximumf ]

/-- Operations 102 to 166 of @main, in order. -/
abbrev ops3 : List (HloOp τ sig (Elt F)) :=
  [ binary main_v80 main_arg7 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_17 (constant S_ .f32 0x00000000#32),
    unary main_cst_17 main_v82 (broadcastInDim S50000 ![] bcast_S_S50000 : (⟨S_, .f32⟩ : BufTy).Contents (Elt F) → (⟨S50000, .f32⟩ : BufTy).Contents (Elt F)),
    nullary main_c_18 (constantI S_ 32 0#32),
    unary main_c_18 main_v83 (broadcastInDim S800000 ![] bcast_S_S800000 : (⟨S_, .i32⟩ : BufTy).Contents (Elt F) → (⟨S800000, .i32⟩ : BufTy).Contents (Elt F)),
    binary main_v3 main_v83 main_v84 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v85 (broadcastInDim S800000 ![] bcast_S_S800000 : (⟨S_, .i32⟩ : BufTy).Contents (Elt F) → (⟨S800000, .i32⟩ : BufTy).Contents (Elt F)),
    binary main_v3 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_v3 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    nullary main_cst_20 (constant S_ .f32 0x3F800000#32),
    unary main_cst_20 main_v89 (broadcastInDim S800000 ![] bcast_S_S800000 : (⟨S_, .f32⟩ : BufTy).Contents (Elt F) → (⟨S800000, .f32⟩ : BufTy).Contents (Elt F)),
    ternary main_v82 main_v88 main_v89 main_v90 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_21 (constant S_ .f32 0x3F800000#32),
    unary main_cst_21 main_v91 (broadcastInDim S50000 ![] bcast_S_S50000 : (⟨S_, .f32⟩ : BufTy).Contents (Elt F) → (⟨S50000, .f32⟩ : BufTy).Contents (Elt F)),
    binary main_v90 main_v91 main_v92 (addf : (⟨S50000, .f32⟩ : BufTy).Contents (Elt F) → (⟨S50000, .f32⟩ : BufTy).Contents (Elt F) → (⟨S50000, .f32⟩ : BufTy).Contents (Elt F)),
    nullary main_cst_22 (constant S_ .f32 0xBF000000#32),
    unary main_cst_22 main_v93 (broadcastInDim S50000 ![] bcast_S_S50000 : (⟨S_, .f32⟩ : BufTy).Contents (Elt F) → (⟨S50000, .f32⟩ : BufTy).Contents (Elt F)),
    binary main_v92 main_v93 main_v94 (Host.powf : (⟨S50000, .f32⟩ : BufTy).Contents (Elt F) → (⟨S50000, .f32⟩ : BufTy).Contents (Elt F) → (⟨S50000, .f32⟩ : BufTy).Contents (Elt F)),
    nullary main_c_23 (constantI S_ 32 0#32),
    unary main_c_23 main_v95 (broadcastInDim S800000 ![] bcast_S_S800000 : (⟨S_, .i32⟩ : BufTy).Contents (Elt F) → (⟨S800000, .i32⟩ : BufTy).Contents (Elt F)),
    binary main_v1 main_v95 main_v96 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v97 (broadcastInDim S800000 ![] bcast_S_S800000 : (⟨S_, .i32⟩ : BufTy).Contents (Elt F) → (⟨S800000, .i32⟩ : BufTy).Contents (Elt F)),
    binary main_v1 main_v97 main_v98 (addi : (⟨S800000, .i32⟩ : BufTy).Contents (Elt F) → (⟨S800000, .i32⟩ : BufTy).Contents (Elt F) → (⟨S800000, .i32⟩ : BufTy).Contents (Elt F)),
    ternary main_v96 main_v98 main_v1 main_v99 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v99 main_v100 (broadcastInDim S800000x1 ![0] bcast_S800000_S800000x1_0 : (⟨S800000, .i32⟩ : BufTy).Contents (Elt F) → (⟨S800000x1, .i32⟩ : BufTy).Contents (Elt F)),
    binary main_v94 main_v100 main_v101 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_25 (constantI S_ 32 0#32),
    unary main_c_25 main_v102 (broadcastInDim S800000 ![] bcast_S_S800000 : (⟨S_, .i32⟩ : BufTy).Contents (Elt F) → (⟨S800000, .i32⟩ : BufTy).Contents (Elt F)),
    binary main_v3 main_v102 main_v103 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v104 (broadcastInDim S800000 ![] bcast_S_S800000 : (⟨S_, .i32⟩ : BufTy).Contents (Elt F) → (⟨S800000, .i32⟩ : BufTy).Contents (Elt F)),
    binary main_v3 main_v104 main_v105 (addi : (⟨S800000, .i32⟩ : BufTy).Contents (Elt F) → (⟨S800000, .i32⟩ : BufTy).Contents (Elt F) → (⟨S800000, .i32⟩ : BufTy).Contents (Elt F)),
    ternary main_v103 main_v105 main_v3 main_v106 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v106 main_v107 (broadcastInDim S800000x1 ![0] bcast_S800000_S800000x1_0 : (⟨S800000, .i32⟩ : BufTy).Contents (Elt F) → (⟨S800000x1, .i32⟩ : BufTy).Contents (Elt F)),
    binary main_v94 main_v107 main_v108 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v101 main_v108 main_v109 (mulf : (⟨S800000, .f32⟩ : BufTy).Contents (Elt F) → (⟨S800000, .f32⟩ : BufTy).Contents (Elt F) → (⟨S800000, .f32⟩ : BufTy).Contents (Elt F)),
    nullary main_c_27 (constantI S_ 32 0#32),
    unary main_c_27 main_v110 (broadcastInDim S800000 ![] bcast_S_S800000 : (⟨S_, .i32⟩ : BufTy).Contents (Elt F) → (⟨S800000, .i32⟩ : BufTy).Contents (Elt F)),
    binary main_v1 main_v110 main_v111 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v112 (broadcastInDim S800000 ![] bcast_S_S800000 : (⟨S_, .i32⟩ : BufTy).Contents (Elt F) → (⟨S800000, .i32⟩ : BufTy).Contents (Elt F)),
    binary main_v1 main_v112 main_v113 (addi : (⟨S800000, .i32⟩ : BufTy).Contents (Elt F) → (⟨S800000, .i32⟩ : BufTy).Contents (Elt F) → (⟨S800000, .i32⟩ : BufTy).Contents (Elt F)),
    ternary main_v111 main_v113 main_v1 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v114 main_v115 (broadcastInDim S800000x1 ![0] bcast_S800000_S800000x1_0 : (⟨S800000, .i32⟩ : BufTy).Contents (Elt F) → (⟨S800000x1, .i32⟩ : BufTy).Contents (Elt F)),
    binary main_v81 main_v115 main_v116 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v109 main_v117 (broadcastInDim S800000x1 ![0] bcast_S800000_S800000x1_0 : (⟨S800000, .f32⟩ : BufTy).Contents (Elt F) → (⟨S800000x1, .f32⟩ : BufTy).Contents (Elt F)),
    unary main_v117 main_v118 (broadcastInDim S800000x128 ![0, 1] bcast_S800000x1_S800000x128_0_1 : (⟨S800000x1, .f32⟩ : BufTy).Contents (Elt F) → (⟨S800000x128, .f32⟩ : BufTy).Contents (Elt F)),
    binary main_v116 main_v118 main_v119 (mulf : (⟨S800000x128, .f32⟩ : BufTy).Contents (Elt F) → (⟨S800000x128, .f32⟩ : BufTy).Contents (Elt F) → (⟨S800000x128, .f32⟩ : BufTy).Contents (Elt F)),
    nullary main_cst_29 (constant S_ .f32 0x00000000#32),
    unary main_cst_29 main_v120 (broadcastInDim S50000x128 ![] bcast_S_S50000x128 : (⟨S_, .f32⟩ : BufTy).Contents (Elt F) → (⟨S50000x128, .f32⟩ : BufTy).Contents (Elt F)),
    unary main_v3 main_v121 (broadcastInDim S800000x1 ![0] bcast_S800000_S800000x1_0 : (⟨S800000, .i32⟩ : BufTy).Contents (Elt F) → (⟨S800000x1, .i32⟩ : BufTy).Contents (Elt F)),
    ternary main_v120 main_v121 main_v119 main_v122 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_30 (constant S_ .f32 0x3F800000#32),
    unary main_cst_30 main_v123 (broadcastInDim S50000 ![] bcast_S_S50000 : (⟨S_, .f32⟩ : BufTy).Contents (Elt F) → (⟨S50000, .f32⟩ : BufTy).Contents (Elt F)),
    binary main_v123 main_v92 main_v124 (Host.divf : (⟨S50000, .f32⟩ : BufTy).Contents (Elt F) → (⟨S50000, .f32⟩ : BufTy).Contents (Elt F) → (⟨S50000, .f32⟩ : BufTy).Contents (Elt F)),
    unary main_v124 main_v125 (broadcastInDim S50000x1 ![0] bcast_S50000_S50000x1_0 : (⟨S50000, .f32⟩ : BufTy).Contents (Elt F) → (⟨S50000x1, .f32⟩ : BufTy).Contents (Elt F)),
    unary main_v125 main_v126 (broadcastInDim S50000x128 ![0, 1] bcast_S50000x1_S50000x128_0_1 : (⟨S50000x1, .f32⟩ : BufTy).Contents (Elt F) → (⟨S50000x128, .f32⟩ : BufTy).Contents (Elt F)),
    binary main_v81 main_v126 main_v127 (mulf : (⟨S50000x128, .f32⟩ : BufTy).Contents (Elt F) → (⟨S50000x128, .f32⟩ : BufTy).Contents (Elt F) → (⟨S50000x128, .f32⟩ : BufTy).Contents (Elt F)),
    binary main_v122 main_v127 main_v128 (addf : (⟨S50000x128, .f32⟩ : BufTy).Contents (Elt F) → (⟨S50000x128, .f32⟩ : BufTy).Contents (Elt F) → (⟨S50000x128, .f32⟩ : BufTy).Contents (Elt F)),
    unary main_arg8 main_v129 (broadcastInDim S1x128 ![1] bcast_S128_S1x128_1 : (⟨S128, .f32⟩ : BufTy).Contents (Elt F) → (⟨S1x128, .f32⟩ : BufTy).Contents (Elt F)),
    unary main_v129 main_v130 (broadcastInDim S50000x128 ![0, 1] bcast_S1x128_S50000x128_0_1 : (⟨S1x128, .f32⟩ : BufTy).Contents (Elt F) → (⟨S50000x128, .f32⟩ : BufTy).Contents (Elt F)),
    binary main_v128 main_v130 main_v131 (addf : (⟨S50000x128, .f32⟩ : BufTy).Contents (Elt F) → (⟨S50000x128, .f32⟩ : BufTy).Contents (Elt F) → (⟨S50000x128, .f32⟩ : BufTy).Contents (Elt F)) ]

/-- Operations 167 to 199 of @main, in order. -/
abbrev ops4 : List (HloOp τ sig (Elt F)) :=
  [ nullary main_cst_31 (constant S_ .f32 0x00000000#32),
    binary main_v131 main_cst_31 main_v132 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_32 (constant S_ .f32 0x47435000#32),
    unary main_cst_32 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S50000x128 ![0, 1] bcast_S1x128_S50000x128_0_1 : (⟨S1x128, .f32⟩ : BufTy).Contents (Elt F) → (⟨S50000x128, .f32⟩ : BufTy).Contents (Elt F)),
    binary main_v131 main_v136 main_v137 (subf : (⟨S50000x128, .f32⟩ : BufTy).Contents (Elt F) → (⟨S50000x128, .f32⟩ : BufTy).Contents (Elt F) → (⟨S50000x128, .f32⟩ : BufTy).Contents (Elt F)),
    binary main_v137 main_v137 main_v138 (mulf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x00000000#32),
    binary main_v138 main_cst_33 main_v139 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_34 (constant S_ .f32 0x47435000#32),
    unary main_cst_34 main_v140 (broadcastInDim S128 ![] bcast_S_S128 : (⟨S_, .f32⟩ : BufTy).Contents (Elt F) → (⟨S128, .f32⟩ : BufTy).Contents (Elt F)),
    binary main_v139 main_v140 main_v141 (Host.divf : (⟨S128, .f32⟩ : BufTy).Contents (Elt F) → (⟨S128, .f32⟩ : BufTy).Contents (Elt F) → (⟨S128, .f32⟩ : BufTy).Contents (Elt F)),
    unary main_v134 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v131 main_v143 main_v144 (subf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3727C5AC#32),
    unary main_cst_35 main_v145 (broadcastInDim S128 ![] bcast_S_S128 : (⟨S_, .f32⟩ : BufTy).Contents (Elt F) → (⟨S128, .f32⟩ : BufTy).Contents (Elt F)),
    binary main_v141 main_v145 main_v146 (addf : (⟨S128, .f32⟩ : BufTy).Contents (Elt F) → (⟨S128, .f32⟩ : BufTy).Contents (Elt F) → (⟨S128, .f32⟩ : BufTy).Contents (Elt F)),
    unary main_v146 main_v147 (Host.rsqrt : (⟨S128, .f32⟩ : BufTy).Contents (Elt F) → (⟨S128, .f32⟩ : BufTy).Contents (Elt F)),
    unary main_v147 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v144 main_v149 main_v150 (mulf : (⟨S50000x128, .f32⟩ : BufTy).Contents (Elt F) → (⟨S50000x128, .f32⟩ : BufTy).Contents (Elt F) → (⟨S50000x128, .f32⟩ : BufTy).Contents (Elt F)),
    unary main_arg9 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v150 main_v152 main_v153 (mulf : (⟨S50000x128, .f32⟩ : BufTy).Contents (Elt F) → (⟨S50000x128, .f32⟩ : BufTy).Contents (Elt F) → (⟨S50000x128, .f32⟩ : BufTy).Contents (Elt F)),
    unary main_arg10 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v153 main_v155 main_v156 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v156) (TRef.of (T := ⟨S50000x128, .f32⟩) main_call1_v0) (TRef.of (T := ⟨S50000x128, .f32⟩) main_v157) maximumf ]

/-- Operations 200 to 264 of @main, in order. -/
abbrev ops5 : List (HloOp τ sig (Elt F)) :=
  [ binary main_v157 main_arg11 main_v158 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_36 (constant S_ .f32 0x00000000#32),
    unary main_cst_36 main_v159 (broadcastInDim S50000 ![] bcast_S_S50000 : (⟨S_, .f32⟩ : BufTy).Contents (Elt F) → (⟨S50000, .f32⟩ : BufTy).Contents (Elt F)),
    nullary main_c_37 (constantI S_ 32 0#32),
    unary main_c_37 main_v160 (broadcastInDim S800000 ![] bcast_S_S800000 : (⟨S_, .i32⟩ : BufTy).Contents (Elt F) → (⟨S800000, .i32⟩ : BufTy).Contents (Elt F)),
    binary main_v3 main_v160 main_v161 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v162 (broadcastInDim S800000 ![] bcast_S_S800000 : (⟨S_, .i32⟩ : BufTy).Contents (Elt F) → (⟨S800000, .i32⟩ : BufTy).Contents (Elt F)),
    binary main_v3 main_v162 main_v163 (addi : (⟨S800000, .i32⟩ : BufTy).Contents (Elt F) → (⟨S800000, .i32⟩ : BufTy).Contents (Elt F) → (⟨S800000, .i32⟩ : BufTy).Contents (Elt F)),
    ternary main_v161 main_v163 main_v3 main_v164 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v164 main_v165 (broadcastInDim S800000x1 ![0] bcast_S800000_S800000x1_0 : (⟨S800000, .i32⟩ : BufTy).Contents (Elt F) → (⟨S800000x1, .i32⟩ : BufTy).Contents (Elt F)),
    nullary main_cst_39 (constant S_ .f32 0x3F800000#32),
    unary main_cst_39 main_v166 (broadcastInDim S800000 ![] bcast_S_S800000 : (⟨S_, .f32⟩ : BufTy).Contents (Elt F) → (⟨S800000, .f32⟩ : BufTy).Contents (Elt F)),
    ternary main_v159 main_v165 main_v166 main_v167 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_40 (constant S_ .f32 0x3F800000#32),
    unary main_cst_40 main_v168 (broadcastInDim S50000 ![] bcast_S_S50000 : (⟨S_, .f32⟩ : BufTy).Contents (Elt F) → (⟨S50000, .f32⟩ : BufTy).Contents (Elt F)),
    binary main_v167 main_v168 main_v169 (addf : (⟨S50000, .f32⟩ : BufTy).Contents (Elt F) → (⟨S50000, .f32⟩ : BufTy).Contents (Elt F) → (⟨S50000, .f32⟩ : BufTy).Contents (Elt F)),
    nullary main_cst_41 (constant S_ .f32 0xBF000000#32),
    unary main_cst_41 main_v170 (broadcastInDim S50000 ![] bcast_S_S50000 : (⟨S_, .f32⟩ : BufTy).Contents (Elt F) → (⟨S50000, .f32⟩ : BufTy).Contents (Elt F)),
    binary main_v169 main_v170 main_v171 (Host.powf : (⟨S50000, .f32⟩ : BufTy).Contents (Elt F) → (⟨S50000, .f32⟩ : BufTy).Contents (Elt F) → (⟨S50000, .f32⟩ : BufTy).Contents (Elt F)),
    nullary main_c_42 (constantI S_ 32 0#32),
    unary main_c_42 main_v172 (broadcastInDim S800000 ![] bcast_S_S800000 : (⟨S_, .i32⟩ : BufTy).Contents (Elt F) → (⟨S800000, .i32⟩ : BufTy).Contents (Elt F)),
    binary main_v1 main_v172 main_v173 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v174 (broadcastInDim S800000 ![] bcast_S_S800000 : (⟨S_, .i32⟩ : BufTy).Contents (Elt F) → (⟨S800000, .i32⟩ : BufTy).Contents (Elt F)),
    binary main_v1 main_v174 main_v175 (addi : (⟨S800000, .i32⟩ : BufTy).Contents (Elt F) → (⟨S800000, .i32⟩ : BufTy).Contents (Elt F) → (⟨S800000, .i32⟩ : BufTy).Contents (Elt F)),
    ternary main_v173 main_v175 main_v1 main_v176 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v176 main_v177 (broadcastInDim S800000x1 ![0] bcast_S800000_S800000x1_0 : (⟨S800000, .i32⟩ : BufTy).Contents (Elt F) → (⟨S800000x1, .i32⟩ : BufTy).Contents (Elt F)),
    binary main_v171 main_v177 main_v178 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_44 (constantI S_ 32 0#32),
    unary main_c_44 main_v179 (broadcastInDim S800000 ![] bcast_S_S800000 : (⟨S_, .i32⟩ : BufTy).Contents (Elt F) → (⟨S800000, .i32⟩ : BufTy).Contents (Elt F)),
    binary main_v3 main_v179 main_v180 (cmpi .slt : (⟨S800000, .i32⟩ : BufTy).Contents (Elt F) → (⟨S800000, .i32⟩ : BufTy).Contents (Elt F) → (⟨S800000, .i1⟩ : BufTy).Contents (Elt F)),
    nullary main_c_45 (constantI S_ 32 50000#32),
    unary main_c_45 main_v181 (broadcastInDim S800000 ![] bcast_S_S800000 : (⟨S_, .i32⟩ : BufTy).Contents (Elt F) → (⟨S800000, .i32⟩ : BufTy).Contents (Elt F)),
    binary main_v3 main_v181 main_v182 (addi : (⟨S800000, .i32⟩ : BufTy).Contents (Elt F) → (⟨S800000, .i32⟩ : BufTy).Contents (Elt F) → (⟨S800000, .i32⟩ : BufTy).Contents (Elt F)),
    ternary main_v180 main_v182 main_v3 main_v183 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v183 main_v184 (broadcastInDim S800000x1 ![0] bcast_S800000_S800000x1_0 : (⟨S800000, .i32⟩ : BufTy).Contents (Elt F) → (⟨S800000x1, .i32⟩ : BufTy).Contents (Elt F)),
    binary main_v171 main_v184 main_v185 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v178 main_v185 main_v186 (mulf : (⟨S800000, .f32⟩ : BufTy).Contents (Elt F) → (⟨S800000, .f32⟩ : BufTy).Contents (Elt F) → (⟨S800000, .f32⟩ : BufTy).Contents (Elt F)),
    nullary main_c_46 (constantI S_ 32 0#32),
    unary main_c_46 main_v187 (broadcastInDim S800000 ![] bcast_S_S800000 : (⟨S_, .i32⟩ : BufTy).Contents (Elt F) → (⟨S800000, .i32⟩ : BufTy).Contents (Elt F)),
    binary main_v1 main_v187 main_v188 (cmpi .slt : (⟨S800000, .i32⟩ : BufTy).Contents (Elt F) → (⟨S800000, .i32⟩ : BufTy).Contents (Elt F) → (⟨S800000, .i1⟩ : BufTy).Contents (Elt F)),
    nullary main_c_47 (constantI S_ 32 50000#32),
    unary main_c_47 main_v189 (broadcastInDim S800000 ![] bcast_S_S800000 : (⟨S_, .i32⟩ : BufTy).Contents (Elt F) → (⟨S800000, .i32⟩ : BufTy).Contents (Elt F)),
    binary main_v1 main_v189 main_v190 (addi : (⟨S800000, .i32⟩ : BufTy).Contents (Elt F) → (⟨S800000, .i32⟩ : BufTy).Contents (Elt F) → (⟨S800000, .i32⟩ : BufTy).Contents (Elt F)),
    ternary main_v188 main_v190 main_v1 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v191 main_v192 (broadcastInDim S800000x1 ![0] bcast_S800000_S800000x1_0 : (⟨S800000, .i32⟩ : BufTy).Contents (Elt F) → (⟨S800000x1, .i32⟩ : BufTy).Contents (Elt F)),
    binary main_v158 main_v192 main_v193 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v186 main_v194 (broadcastInDim S800000x1 ![0] bcast_S800000_S800000x1_0 : (⟨S800000, .f32⟩ : BufTy).Contents (Elt F) → (⟨S800000x1, .f32⟩ : BufTy).Contents (Elt F)),
    unary main_v194 main_v195 (broadcastInDim S800000x128 ![0, 1] bcast_S800000x1_S800000x128_0_1 : (⟨S800000x1, .f32⟩ : BufTy).Contents (Elt F) → (⟨S800000x128, .f32⟩ : BufTy).Contents (Elt F)),
    binary main_v193 main_v195 main_v196 (mulf : (⟨S800000x128, .f32⟩ : BufTy).Contents (Elt F) → (⟨S800000x128, .f32⟩ : BufTy).Contents (Elt F) → (⟨S800000x128, .f32⟩ : BufTy).Contents (Elt F)),
    nullary main_cst_48 (constant S_ .f32 0x00000000#32),
    unary main_cst_48 main_v197 (broadcastInDim S50000x128 ![] bcast_S_S50000x128 : (⟨S_, .f32⟩ : BufTy).Contents (Elt F) → (⟨S50000x128, .f32⟩ : BufTy).Contents (Elt F)),
    unary main_v3 main_v198 (broadcastInDim S800000x1 ![0] bcast_S800000_S800000x1_0 : (⟨S800000, .i32⟩ : BufTy).Contents (Elt F) → (⟨S800000x1, .i32⟩ : BufTy).Contents (Elt F)),
    ternary main_v197 main_v198 main_v196 main_v199 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_49 (constant S_ .f32 0x3F800000#32),
    unary main_cst_49 main_v200 (broadcastInDim S50000 ![] bcast_S_S50000 : (⟨S_, .f32⟩ : BufTy).Contents (Elt F) → (⟨S50000, .f32⟩ : BufTy).Contents (Elt F)),
    binary main_v200 main_v169 main_v201 (Host.divf : (⟨S50000, .f32⟩ : BufTy).Contents (Elt F) → (⟨S50000, .f32⟩ : BufTy).Contents (Elt F) → (⟨S50000, .f32⟩ : BufTy).Contents (Elt F)),
    unary main_v201 main_v202 (broadcastInDim S50000x1 ![0] bcast_S50000_S50000x1_0 : (⟨S50000, .f32⟩ : BufTy).Contents (Elt F) → (⟨S50000x1, .f32⟩ : BufTy).Contents (Elt F)),
    unary main_v202 main_v203 (broadcastInDim S50000x128 ![0, 1] bcast_S50000x1_S50000x128_0_1 : (⟨S50000x1, .f32⟩ : BufTy).Contents (Elt F) → (⟨S50000x128, .f32⟩ : BufTy).Contents (Elt F)),
    binary main_v158 main_v203 main_v204 (mulf : (⟨S50000x128, .f32⟩ : BufTy).Contents (Elt F) → (⟨S50000x128, .f32⟩ : BufTy).Contents (Elt F) → (⟨S50000x128, .f32⟩ : BufTy).Contents (Elt F)),
    binary main_v199 main_v204 main_v205 (addf : (⟨S50000x128, .f32⟩ : BufTy).Contents (Elt F) → (⟨S50000x128, .f32⟩ : BufTy).Contents (Elt F) → (⟨S50000x128, .f32⟩ : BufTy).Contents (Elt F)),
    unary main_arg12 main_v206 (broadcastInDim S1x128 ![1] bcast_S128_S1x128_1 : (⟨S128, .f32⟩ : BufTy).Contents (Elt F) → (⟨S1x128, .f32⟩ : BufTy).Contents (Elt F)),
    unary main_v206 main_v207 (broadcastInDim S50000x128 ![0, 1] bcast_S1x128_S50000x128_0_1 : (⟨S1x128, .f32⟩ : BufTy).Contents (Elt F) → (⟨S50000x128, .f32⟩ : BufTy).Contents (Elt F)),
    binary main_v205 main_v207 main_v208 (addf : (⟨S50000x128, .f32⟩ : BufTy).Contents (Elt F) → (⟨S50000x128, .f32⟩ : BufTy).Contents (Elt F) → (⟨S50000x128, .f32⟩ : BufTy).Contents (Elt F)) ]

/-- Operations 265 to 297 of @main, in order. -/
abbrev ops6 : List (HloOp τ sig (Elt F)) :=
  [ nullary main_cst_50 (constant S_ .f32 0x00000000#32),
    binary main_v208 main_cst_50 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_51 (constant S_ .f32 0x47435000#32),
    unary main_cst_51 main_v210 (broadcastInDim S128 ![] bcast_S_S128 : (⟨S_, .f32⟩ : BufTy).Contents (Elt F) → (⟨S128, .f32⟩ : BufTy).Contents (Elt F)),
    binary main_v209 main_v210 main_v211 (Host.divf : (⟨S128, .f32⟩ : BufTy).Contents (Elt F) → (⟨S128, .f32⟩ : BufTy).Contents (Elt F) → (⟨S128, .f32⟩ : BufTy).Contents (Elt F)),
    unary main_v211 main_v212 (broadcastInDim S1x128 ![1] bcast_S128_S1x128_1 : (⟨S128, .f32⟩ : BufTy).Contents (Elt F) → (⟨S1x128, .f32⟩ : BufTy).Contents (Elt F)),
    unary main_v212 main_v213 (broadcastInDim S50000x128 ![0, 1] bcast_S1x128_S50000x128_0_1 : (⟨S1x128, .f32⟩ : BufTy).Contents (Elt F) → (⟨S50000x128, .f32⟩ : BufTy).Contents (Elt F)),
    binary main_v208 main_v213 main_v214 (subf : (⟨S50000x128, .f32⟩ : BufTy).Contents (Elt F) → (⟨S50000x128, .f32⟩ : BufTy).Contents (Elt F) → (⟨S50000x128, .f32⟩ : BufTy).Contents (Elt F)),
    binary main_v214 main_v214 main_v215 (mulf : (⟨S50000x128, .f32⟩ : BufTy).Contents (Elt F) → (⟨S50000x128, .f32⟩ : BufTy).Contents (Elt F) → (⟨S50000x128, .f32⟩ : BufTy).Contents (Elt F)),
    nullary main_cst_52 (constant S_ .f32 0x00000000#32),
    binary main_v215 main_cst_52 main_v216 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_53 (constant S_ .f32 0x47435000#32),
    unary main_cst_53 main_v217 (broadcastInDim S128 ![] bcast_S_S128 : (⟨S_, .f32⟩ : BufTy).Contents (Elt F) → (⟨S128, .f32⟩ : BufTy).Contents (Elt F)),
    binary main_v216 main_v217 main_v218 (Host.divf : (⟨S128, .f32⟩ : BufTy).Contents (Elt F) → (⟨S128, .f32⟩ : BufTy).Contents (Elt F) → (⟨S128, .f32⟩ : BufTy).Contents (Elt F)),
    unary main_v211 main_v219 (broadcastInDim S1x128 ![1] bcast_S128_S1x128_1 : (⟨S128, .f32⟩ : BufTy).Contents (Elt F) → (⟨S1x128, .f32⟩ : BufTy).Contents (Elt F)),
    unary main_v219 main_v220 (broadcastInDim S50000x128 ![0, 1] bcast_S1x128_S50000x128_0_1 : (⟨S1x128, .f32⟩ : BufTy).Contents (Elt F) → (⟨S50000x128, .f32⟩ : BufTy).Contents (Elt F)),
    binary main_v208 main_v220 main_v221 (subf : (⟨S50000x128, .f32⟩ : BufTy).Contents (Elt F) → (⟨S50000x128, .f32⟩ : BufTy).Contents (Elt F) → (⟨S50000x128, .f32⟩ : BufTy).Contents (Elt F)),
    nullary main_cst_54 (constant S_ .f32 0x3727C5AC#32),
    unary main_cst_54 main_v222 (broadcastInDim S128 ![] bcast_S_S128 : (⟨S_, .f32⟩ : BufTy).Contents (Elt F) → (⟨S128, .f32⟩ : BufTy).Contents (Elt F)),
    binary main_v218 main_v222 main_v223 (addf : (⟨S128, .f32⟩ : BufTy).Contents (Elt F) → (⟨S128, .f32⟩ : BufTy).Contents (Elt F) → (⟨S128, .f32⟩ : BufTy).Contents (Elt F)),
    unary main_v223 main_v224 (Host.rsqrt : (⟨S128, .f32⟩ : BufTy).Contents (Elt F) → (⟨S128, .f32⟩ : BufTy).Contents (Elt F)),
    unary main_v224 main_v225 (broadcastInDim S1x128 ![1] bcast_S128_S1x128_1 : (⟨S128, .f32⟩ : BufTy).Contents (Elt F) → (⟨S1x128, .f32⟩ : BufTy).Contents (Elt F)),
    unary main_v225 main_v226 (broadcastInDim S50000x128 ![0, 1] bcast_S1x128_S50000x128_0_1 : (⟨S1x128, .f32⟩ : BufTy).Contents (Elt F) → (⟨S50000x128, .f32⟩ : BufTy).Contents (Elt F)),
    binary main_v221 main_v226 main_v227 (mulf : (⟨S50000x128, .f32⟩ : BufTy).Contents (Elt F) → (⟨S50000x128, .f32⟩ : BufTy).Contents (Elt F) → (⟨S50000x128, .f32⟩ : BufTy).Contents (Elt F)),
    unary main_arg13 main_v228 (broadcastInDim S1x128 ![1] bcast_S128_S1x128_1 : (⟨S128, .f32⟩ : BufTy).Contents (Elt F) → (⟨S1x128, .f32⟩ : BufTy).Contents (Elt F)),
    unary main_v228 main_v229 (broadcastInDim S50000x128 ![0, 1] bcast_S1x128_S50000x128_0_1 : (⟨S1x128, .f32⟩ : BufTy).Contents (Elt F) → (⟨S50000x128, .f32⟩ : BufTy).Contents (Elt F)),
    binary main_v227 main_v229 main_v230 (mulf : (⟨S50000x128, .f32⟩ : BufTy).Contents (Elt F) → (⟨S50000x128, .f32⟩ : BufTy).Contents (Elt F) → (⟨S50000x128, .f32⟩ : BufTy).Contents (Elt F)),
    unary main_arg14 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v230 main_v232 main_v233 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v233) (TRef.of (T := ⟨S50000x128, .f32⟩) main_call2_v0) (TRef.of (T := ⟨S50000x128, .f32⟩) main_v234) maximumf ]

/-- Operations 298 to 312 of @main, in order. -/
abbrev ops7 : List (HloOp τ sig (Elt F)) :=
  [ nullary main_cst_55 (constant S_ .f32 0x00000000#32),
    unary main_cst_55 main_v235 (broadcastInDim S250x128 ![] bcast_S_S250x128 : (⟨S_, .f32⟩ : BufTy).Contents (Elt F) → (⟨S250x128, .f32⟩ : BufTy).Contents (Elt F)),
    unary main_arg2 main_v236 (broadcastInDim S50000x1 ![0] bcast_S50000_S50000x1_0 : (⟨S50000, .i32⟩ : BufTy).Contents (Elt F) → (⟨S50000x1, .i32⟩ : BufTy).Contents (Elt F)),
    ternary main_v235 main_v236 main_v234 main_v237 ((fun x i u => Host.scatterAdd scatter_S250x128_S50000x1_S50000x128_1_0_0_1 x i u) : (⟨S250x128, .f32⟩ : BufTy).Contents (Elt F) → (⟨S50000x1, .i32⟩ : BufTy).Contents (Elt F) → (⟨S50000x128, .f32⟩ : BufTy).Contents (Elt F) → (⟨S250x128, .f32⟩ : BufTy).Contents (Elt F)),
    binary main_v237 main_arg15 main_v238 ((fun l r => Host.dotGeneral dot_S250x128_S128x128_S250x128_1_0_0_1_n_n none l r) : (⟨S250x128, .f32⟩ : BufTy).Contents (Elt F) → (⟨S128x128, .f32⟩ : BufTy).Contents (Elt F) → (⟨S250x128, .f32⟩ : BufTy).Contents (Elt F)),
    unary main_arg16 main_v239 (broadcastInDim S1x128 ![1] bcast_S128_S1x128_1 : (⟨S128, .f32⟩ : BufTy).Contents (Elt F) → (⟨S1x128, .f32⟩ : BufTy).Contents (Elt F)),
    unary main_v239 main_v240 (broadcastInDim S250x128 ![0, 1] bcast_S1x128_S250x128_0_1 : (⟨S1x128, .f32⟩ : BufTy).Contents (Elt F) → (⟨S250x128, .f32⟩ : BufTy).Contents (Elt F)),
    binary main_v238 main_v240 main_v241 (addf : (⟨S250x128, .f32⟩ : BufTy).Contents (Elt F) → (⟨S250x128, .f32⟩ : BufTy).Contents (Elt F) → (⟨S250x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S250x128, .f32⟩) main_call3_v0) (broadcastInDim S250x128 ![] bcast_S_S250x128),
    TRef.binary (TRef.of (T := ⟨S250x128, .f32⟩) main_v241) (TRef.of (T := ⟨S250x128, .f32⟩) main_call3_v0) (TRef.of (T := ⟨S250x128, .f32⟩) main_v242) maximumf,
    binary main_v242 main_arg17 main_v243 ((fun l r => Host.dotGeneral dot_S250x128_S128x1_S250x1_1_0_0_1_n_n none l r) : (⟨S250x128, .f32⟩ : BufTy).Contents (Elt F) → (⟨S128x1, .f32⟩ : BufTy).Contents (Elt F) → (⟨S250x1, .f32⟩ : BufTy).Contents (Elt F)),
    unary main_arg18 main_v244 (broadcastInDim S1x1 ![1] bcast_S1_S1x1_1 : (⟨S1, .f32⟩ : BufTy).Contents (Elt F) → (⟨S1x1, .f32⟩ : BufTy).Contents (Elt F)),
    unary main_v244 main_v245 (broadcastInDim S250x1 ![0, 1] bcast_S1x1_S250x1_0_1 : (⟨S1x1, .f32⟩ : BufTy).Contents (Elt F) → (⟨S250x1, .f32⟩ : BufTy).Contents (Elt F)),
    binary main_v243 main_v245 main_v246 (addf : (⟨S250x1, .f32⟩ : BufTy).Contents (Elt F) → (⟨S250x1, .f32⟩ : BufTy).Contents (Elt F) → (⟨S250x1, .f32⟩ : BufTy).Contents (Elt F)) ]

end Cert.ReferenceIdeal.RefRun

end
-- ==== Proof.LibAfter.lean ====
/-
  Two small general facts about the contents after a list of host operations. The contents after two lists in a row are
  the second list's contents from the first's. And each operation leaves, at its own result buffer, its function of its
  operands' contents, and at every other buffer what was there — which holds equally for a buffer read inside the operand
  list of a concatenation.
-/
import Idealize.ShloMosaic.Lib.StableHlo.Run

namespace Cert.LibAfter

open Idealize.ShloMosaic Idealize.ShloMosaic.StableHlo

/-- The contents after two lists of operations run one after the other. -/
theorem after_append {τ : Topo} {sig : RefSig} {Val : EltTy → Type}
    (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfter

/-- Each operation's result at its own buffer is its function of the operands' contents; at any other buffer the contents
    are unchanged. Applied operation by operation until no fold is left. -/
macro "after_results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.quaternary_result] | rw [Idealize.ShloMosaic.StableHlo.reshape_result]
      | rw [Idealize.ShloMosaic.StableHlo.nary_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  The reference program's run, read as one fold. Its 313 host operations, cut into eight consecutive lists, are the
  program itself; every operation touches only the TensorCore's buffers and determines what it writes; so every fair
  execution ends with each buffer at the fold of the operations' results over the launch contents. The fold over the
  whole list is the folds over the eight lists in a row, and no operation writes one of the nineteen argument buffers
  (every result buffer's index is at least 19), so the arguments end as they began.
-/
import proofs.«430760_j5652176962022_1_alg».proof.Proof.RefOps
import proofs.«430760_j5652176962022_1_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 313 operations of @main, in order: the eight lists one after the other. -/
abbrev opsAll : List (HloOp τ sig (Elt F)) :=
  ops0 ++ (ops1 ++ (ops2 ++ (ops3 ++ (ops4 ++ (ops5 ++ (ops6 ++ ops7))))))

set_option maxRecDepth 8192 in
set_option maxHeartbeats 4000000 in
/-- The program is the straight line of its operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches only the TensorCore's buffers -/

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem ops3_sub : (ops3 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem ops5_sub : (ops5 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

set_option maxRecDepth 8192 in
theorem ops6_sub : (ops6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem ops7_sub : (ops7 : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsAll_sub : (opsAll : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub, List.forall_append.2 ⟨ops4_sub, List.forall_append.2 ⟨ops5_sub, List.forall_append.2 ⟨ops6_sub, ops7_sub⟩⟩⟩⟩⟩⟩⟩

/-! ## Every operation determines what it writes -/

set_option maxRecDepth 8192 in
theorem ops0_fresh : (ops0 : List (HloOp τ sig (Elt F))).Forall fun op => op.fresh = ∅ :=
  ⟨rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl⟩

theorem opsAll_fresh : ∀ op ∈ (opsAll : List (HloOp τ sig (Elt F))), op.fresh = ∅ :=
  List.forall_iff_forall_mem.mp (List.forall_append.2 ⟨ops0_fresh, List.forall_append.2 ⟨ops1_fresh, List.forall_append.2 ⟨ops2_fresh, List.forall_append.2 ⟨ops3_fresh, List.forall_append.2 ⟨ops4_fresh, List.forall_append.2 ⟨ops5_fresh, List.forall_append.2 ⟨ops6_fresh, ops7_fresh⟩⟩⟩⟩⟩⟩⟩)

/-! ## The run -/

/-- Every weakly fair execution of the reference program terminates with each TensorCore buffer at the fold of the
    operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq (fun _ => opsAll_sub) m ρ
    (fun _ => opsAll_fresh)

/-- The fold over the whole list is the folds over the eight lists in a row. -/
theorem after_all (V : Valuation τ sig (Elt F)) :
    after opsAll V
      = after ops7 (after ops6 (after ops5 (after ops4 (after ops3 (after ops2 (after ops1 (after ops0 V))))))) := by
  show after (ops0 ++ (ops1 ++ (ops2 ++ (ops3 ++ (ops4 ++ (ops5 ++ (ops6 ++ ops7))))))) V = _
  rw [Cert.LibAfter.after_append, Cert.LibAfter.after_append, Cert.LibAfter.after_append, Cert.LibAfter.after_append,
    Cert.LibAfter.after_append, Cert.LibAfter.after_append, Cert.LibAfter.after_append]

/-! ## No operation writes an argument -/

/-- A one-buffer set of writes whose buffer's index is at least 19 holds only such buffers. -/
theorem hi_singleton (y : Ref sig .tc) (hy : 19 ≤ y.idx.val) :
    ∀ b ∈ ({Proc.devRef .tc y} : Finset (DevRef τ sig)), ∃ y' : Ref sig .tc, 19 ≤ y'.idx.val ∧ b = Proc.devRef .tc y' :=
  fun _ hb => ⟨y, hy, Finset.mem_singleton.1 hb⟩

/-- A buffer of index below 19 is written by no operation of a list whose operations write only buffers of index at
    least 19: it keeps its contents. -/
theorem after_of_hi (ops : List (HloOp τ sig (Elt F))) (V : Valuation τ sig (Elt F))
    (hW : ops.Forall fun op => ∀ b ∈ op.writes, ∃ y' : Ref sig .tc, 19 ≤ y'.idx.val ∧ b = Proc.devRef .tc y')
    (r : Ref sig .tc) (hr : r.idx.val < 19) : after ops V (Proc.devRef .tc r) = V (Proc.devRef .tc r) :=
  after_of_forall_not_mem ops V fun op hop hb => by
    obtain ⟨y, hy, he⟩ := List.forall_iff_forall_mem.mp hW op hop _ hb
    have : r = y := Proc.devRef_injective _ he
    subst this
    omega

set_option maxRecDepth 8192 in
theorem ops0_hi : (ops0 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide)⟩

set_option maxRecDepth 8192 in
theorem ops1_hi : (ops1 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops2_hi : (ops2 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops3_hi : (ops3 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops4_hi : (ops4 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops5_hi : (ops5 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops6_hi : (ops6 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

set_option maxRecDepth 8192 in
theorem ops7_hi : (ops7 : List (HloOp τ sig (Elt F))).Forall fun op =>
    ∀ b ∈ op.writes, ∃ y' : Ref sig .tc, 19 ≤ y'.idx.val ∧ b = Proc.devRef .tc y' :=
  ⟨hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide), hi_singleton _ (by decide)⟩

theorem opsAll_hi : (opsAll : List (HloOp τ sig (Elt F))).Forall fun op =>
    ∀ b ∈ op.writes, ∃ y' : Ref sig .tc, 19 ≤ y'.idx.val ∧ b = Proc.devRef .tc y' :=
  List.forall_append.2 ⟨ops0_hi, List.forall_append.2 ⟨ops1_hi, List.forall_append.2 ⟨ops2_hi, List.forall_append.2 ⟨ops3_hi, List.forall_append.2 ⟨ops4_hi, List.forall_append.2 ⟨ops5_hi, List.forall_append.2 ⟨ops6_hi, ops7_hi⟩⟩⟩⟩⟩⟩⟩

/-- An argument buffer (index below 19) holds after the whole program what it held before. -/
theorem after_all_arg (V : Valuation τ sig (Elt F)) (r : Ref sig .tc) (hr : r.idx.val < 19) :
    after opsAll V (Proc.devRef .tc r) = V (Proc.devRef .tc r) :=
  after_of_hi opsAll V opsAll_hi r hr

theorem after_all_main_arg0 (V : Valuation τ sig (Elt F)) :
    after opsAll V (Proc.devRef .tc main_arg0) = V (Proc.devRef .tc main_arg0) :=
  after_all_arg V main_arg0 (by decide)

theorem after_all_main_arg1 (V : Valuation τ sig (Elt F)) :
    after opsAll V (Proc.devRef .tc main_arg1) = V (Proc.devRef .tc main_arg1) :=
  after_all_arg V main_arg1 (by decide)

theorem after_all_main_arg2 (V : Valuation τ sig (Elt F)) :
    after opsAll V (Proc.devRef .tc main_arg2) = V (Proc.devRef .tc main_arg2) :=
  after_all_arg V main_arg2 (by decide)

theorem after_all_main_arg3 (V : Valuation τ sig (Elt F)) :
    after opsAll V (Proc.devRef .tc main_arg3) = V (Proc.devRef .tc main_arg3) :=
  after_all_arg V main_arg3 (by decide)

theorem after_all_main_arg4 (V : Valuation τ sig (Elt F)) :
    after opsAll V (Proc.devRef .tc main_arg4) = V (Proc.devRef .tc main_arg4) :=
  after_all_arg V main_arg4 (by decide)

theorem after_all_main_arg5 (V : Valuation τ sig (Elt F)) :
    after opsAll V (Proc.devRef .tc main_arg5) = V (Proc.devRef .tc main_arg5) :=
  after_all_arg V main_arg5 (by decide)

theorem after_all_main_arg6 (V : Valuation τ sig (Elt F)) :
    after opsAll V (Proc.devRef .tc main_arg6) = V (Proc.devRef .tc main_arg6) :=
  after_all_arg V main_arg6 (by decide)

theorem after_all_main_arg7 (V : Valuation τ sig (Elt F)) :
    after opsAll V (Proc.devRef .tc main_arg7) = V (Proc.devRef .tc main_arg7) :=
  after_all_arg V main_arg7 (by decide)

theorem after_all_main_arg8 (V : Valuation τ sig (Elt F)) :
    after opsAll V (Proc.devRef .tc main_arg8) = V (Proc.devRef .tc main_arg8) :=
  after_all_arg V main_arg8 (by decide)

theorem after_all_main_arg9 (V : Valuation τ sig (Elt F)) :
    after opsAll V (Proc.devRef .tc main_arg9) = V (Proc.devRef .tc main_arg9) :=
  after_all_arg V main_arg9 (by decide)

theorem after_all_main_arg10 (V : Valuation τ sig (Elt F)) :
    after opsAll V (Proc.devRef .tc main_arg10) = V (Proc.devRef .tc main_arg10) :=
  after_all_arg V main_arg10 (by decide)

theorem after_all_main_arg11 (V : Valuation τ sig (Elt F)) :
    after opsAll V (Proc.devRef .tc main_arg11) = V (Proc.devRef .tc main_arg11) :=
  after_all_arg V main_arg11 (by decide)

theorem after_all_main_arg12 (V : Valuation τ sig (Elt F)) :
    after opsAll V (Proc.devRef .tc main_arg12) = V (Proc.devRef .tc main_arg12) :=
  after_all_arg V main_arg12 (by decide)

theorem after_all_main_arg13 (V : Valuation τ sig (Elt F)) :
    after opsAll V (Proc.devRef .tc main_arg13) = V (Proc.devRef .tc main_arg13) :=
  after_all_arg V main_arg13 (by decide)

theorem after_all_main_arg14 (V : Valuation τ sig (Elt F)) :
    after opsAll V (Proc.devRef .tc main_arg14) = V (Proc.devRef .tc main_arg14) :=
  after_all_arg V main_arg14 (by decide)

theorem after_all_main_arg15 (V : Valuation τ sig (Elt F)) :
    after opsAll V (Proc.devRef .tc main_arg15) = V (Proc.devRef .tc main_arg15) :=
  after_all_arg V main_arg15 (by decide)

theorem after_all_main_arg16 (V : Valuation τ sig (Elt F)) :
    after opsAll V (Proc.devRef .tc main_arg16) = V (Proc.devRef .tc main_arg16) :=
  after_all_arg V main_arg16 (by decide)

theorem after_all_main_arg17 (V : Valuation τ sig (Elt F)) :
    after opsAll V (Proc.devRef .tc main_arg17) = V (Proc.devRef .tc main_arg17) :=
  after_all_arg V main_arg17 (by decide)

theorem after_all_main_arg18 (V : Valuation τ sig (Elt F)) :
    after opsAll V (Proc.devRef .tc main_arg18) = V (Proc.devRef .tc main_arg18) :=
  after_all_arg V main_arg18 (by decide)

end Cert.ReferenceIdeal.RefRun

end
-- ==== Proof.RefStage.lean ====
/-
  The reference program's host operations, chunk by chunk: what each chunk of the operation list leaves at the few
  buffers later chunks read, in the words of the stage functions (each buffer's value as a function of the arguments of
  @main it depends on), for any contents the chunk starts from; that a chunk leaves every buffer it does not write as
  it was; and, composed, the final result buffer after all eight chunks as the last stage function of the arguments.
-/
import proofs.«430760_j5652176962022_1_alg».proof.Proof.RefOps
import proofs.«430760_j5652176962022_1_alg».proof.Proof.RefRead
import proofs.«430760_j5652176962022_1_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The references chunk 0's operations write. -/
abbrev ops0_W : List (Ref sig .tc) := [main_v0, main_v1, main_v2, main_v3]
theorem ops0_writes : (ops0 : List (HloOp τ sig (Elt F))).Forall fun op => op.writes ⊆ (ops0_W.map (Proc.devRef (τ := τ) .tc)).toFinset := by
  simp only [ops0, List.Forall, nullary_writes, unary_writes, binary_writes, ternary_writes, quaternary_writes, reshape_writes, Finset.singleton_subset_iff, List.mem_toFinset]
  repeat' apply And.intro
  all_goals exact List.mem_map_of_mem (by decide)
/-- Chunk 0 leaves a buffer it does not write as it was. -/
theorem keep0 (W : Valuation τ sig (Elt F)) (r : Ref sig .tc) (h : r ∉ (ops0_W : List (Ref sig .tc))) :
    after (ops0 (F := F)) W r = W r :=
  after_of_writes_sub ops0 W ops0_writes h

/-- The references chunk 1's operations write. -/
abbrev ops1_W : List (Ref sig .tc) := [main_v4, main_cst, main_v5, main_c, main_v6, main_v7, main_c_0, main_v8, main_v9, main_v10, main_v11, main_cst_1, main_v12, main_v13, main_cst_2, main_v14, main_v15, main_cst_3, main_v16, main_v17, main_c_4, main_v18, main_v19, main_c_5, main_v20, main_v21, main_v22, main_v23, main_v24, main_c_6, main_v25, main_v26, main_c_7, main_v27, main_v28, main_v29, main_v30, main_v31, main_v32, main_c_8, main_v33, main_v34, main_c_9, main_v35, main_v36, main_v37, main_v38, main_v39, main_v40, main_v41, main_v42, main_cst_10, main_v43, main_v44, main_v45, main_cst_11, main_v46, main_v47, main_v48, main_v49, main_v50, main_v51, main_v52, main_v53, main_v54]
theorem ops1_writes : (ops1 : List (HloOp τ sig (Elt F))).Forall fun op => op.writes ⊆ (ops1_W.map (Proc.devRef (τ := τ) .tc)).toFinset := by
  simp only [ops1, List.Forall, nullary_writes, unary_writes, binary_writes, ternary_writes, quaternary_writes, reshape_writes, Finset.singleton_subset_iff, List.mem_toFinset]
  repeat' apply And.intro
  all_goals exact List.mem_map_of_mem (by decide)
/-- Chunk 1 leaves a buffer it does not write as it was. -/
theorem keep1 (W : Valuation τ sig (Elt F)) (r : Ref sig .tc) (h : r ∉ (ops1_W : List (Ref sig .tc))) :
    after (ops1 (F := F)) W r = W r :=
  after_of_writes_sub ops1 W ops1_writes h

/-- The references chunk 2's operations write. -/
abbrev ops2_W : List (Ref sig .tc) := [main_cst_12, main_v55, main_cst_13, main_v56, main_v57, main_v58, main_v59, main_v60, main_v61, main_cst_14, main_v62, main_cst_15, main_v63, main_v64, main_v65, main_v66, main_v67, main_cst_16, main_v68, main_v69, main_v70, main_v71, main_v72, main_v73, main_v74, main_v75, main_v76, main_v77, main_v78, main_v79, main_call0_cst, main_call0_v0, main_v80]
theorem ops2_writes : (ops2 : List (HloOp τ sig (Elt F))).Forall fun op => op.writes ⊆ (ops2_W.map (Proc.devRef (τ := τ) .tc)).toFinset := by
  simp only [ops2, List.Forall, nullary_writes, unary_writes, binary_writes, ternary_writes, quaternary_writes, reshape_writes, Finset.singleton_subset_iff, List.mem_toFinset]
  repeat' apply And.intro
  all_goals exact List.mem_map_of_mem (by decide)
/-- Chunk 2 leaves a buffer it does not write as it was. -/
theorem keep2 (W : Valuation τ sig (Elt F)) (r : Ref sig .tc) (h : r ∉ (ops2_W : List (Ref sig .tc))) :
    after (ops2 (F := F)) W r = W r :=
  after_of_writes_sub ops2 W ops2_writes h

/-- The references chunk 3's operations write. -/
abbrev ops3_W : List (Ref sig .tc) := [main_v81, main_cst_17, main_v82, main_c_18, main_v83, main_v84, main_c_19, main_v85, main_v86, main_v87, main_v88, main_cst_20, main_v89, main_v90, main_cst_21, main_v91, main_v92, main_cst_22, main_v93, main_v94, main_c_23, main_v95, main_v96, main_c_24, main_v97, main_v98, main_v99, main_v100, main_v101, main_c_25, main_v102, main_v103, main_c_26, main_v104, main_v105, main_v106, main_v107, main_v108, main_v109, main_c_27, main_v110, main_v111, main_c_28, main_v112, main_v113, main_v114, main_v115, main_v116, main_v117, main_v118, main_v119, main_cst_29, main_v120, main_v121, main_v122, main_cst_30, main_v123, main_v124, main_v125, main_v126, main_v127, main_v128, main_v129, main_v130, main_v131]
theorem ops3_writes : (ops3 : List (HloOp τ sig (Elt F))).Forall fun op => op.writes ⊆ (ops3_W.map (Proc.devRef (τ := τ) .tc)).toFinset := by
  simp only [ops3, List.Forall, nullary_writes, unary_writes, binary_writes, ternary_writes, quaternary_writes, reshape_writes, Finset.singleton_subset_iff, List.mem_toFinset]
  repeat' apply And.intro
  all_goals exact List.mem_map_of_mem (by decide)
/-- Chunk 3 leaves a buffer it does not write as it was. -/
theorem keep3 (W : Valuation τ sig (Elt F)) (r : Ref sig .tc) (h : r ∉ (ops3_W : List (Ref sig .tc))) :
    after (ops3 (F := F)) W r = W r :=
  after_of_writes_sub ops3 W ops3_writes h

/-- The references chunk 4's operations write. -/
abbrev ops4_W : List (Ref sig .tc) := [main_cst_31, main_v132, main_cst_32, main_v133, main_v134, main_v135, main_v136, main_v137, main_v138, main_cst_33, main_v139, main_cst_34, main_v140, main_v141, main_v142, main_v143, main_v144, main_cst_35, main_v145, main_v146, main_v147, main_v148, main_v149, main_v150, main_v151, main_v152, main_v153, main_v154, main_v155, main_v156, main_call1_cst, main_call1_v0, main_v157]
theorem ops4_writes : (ops4 : List (HloOp τ sig (Elt F))).Forall fun op => op.writes ⊆ (ops4_W.map (Proc.devRef (τ := τ) .tc)).toFinset := by
  simp only [ops4, List.Forall, nullary_writes, unary_writes, binary_writes, ternary_writes, quaternary_writes, reshape_writes, Finset.singleton_subset_iff, List.mem_toFinset]
  repeat' apply And.intro
  all_goals exact List.mem_map_of_mem (by decide)
/-- Chunk 4 leaves a buffer it does not write as it was. -/
theorem keep4 (W : Valuation τ sig (Elt F)) (r : Ref sig .tc) (h : r ∉ (ops4_W : List (Ref sig .tc))) :
    after (ops4 (F := F)) W r = W r :=
  after_of_writes_sub ops4 W ops4_writes h

/-- The references chunk 5's operations write. -/
abbrev ops5_W : List (Ref sig .tc) := [main_v158, main_cst_36, main_v159, main_c_37, main_v160, main_v161, main_c_38, main_v162, main_v163, main_v164, main_v165, main_cst_39, main_v166, main_v167, main_cst_40, main_v168, main_v169, main_cst_41, main_v170, main_v171, main_c_42, main_v172, main_v173, main_c_43, main_v174, main_v175, main_v176, main_v177, main_v178, main_c_44, main_v179, main_v180, main_c_45, main_v181, main_v182, main_v183, main_v184, main_v185, main_v186, main_c_46, main_v187, main_v188, main_c_47, main_v189, main_v190, main_v191, main_v192, main_v193, main_v194, main_v195, main_v196, main_cst_48, main_v197, main_v198, main_v199, main_cst_49, main_v200, main_v201, main_v202, main_v203, main_v204, main_v205, main_v206, main_v207, main_v208]
theorem ops5_writes : (ops5 : List (HloOp τ sig (Elt F))).Forall fun op => op.writes ⊆ (ops5_W.map (Proc.devRef (τ := τ) .tc)).toFinset := by
  simp only [ops5, List.Forall, nullary_writes, unary_writes, binary_writes, ternary_writes, quaternary_writes, reshape_writes, Finset.singleton_subset_iff, List.mem_toFinset]
  repeat' apply And.intro
  all_goals exact List.mem_map_of_mem (by decide)
/-- Chunk 5 leaves a buffer it does not write as it was. -/
theorem keep5 (W : Valuation τ sig (Elt F)) (r : Ref sig .tc) (h : r ∉ (ops5_W : List (Ref sig .tc))) :
    after (ops5 (F := F)) W r = W r :=
  after_of_writes_sub ops5 W ops5_writes h

/-- The references chunk 6's operations write. -/
abbrev ops6_W : List (Ref sig .tc) := [main_cst_50, main_v209, main_cst_51, main_v210, main_v211, main_v212, main_v213, main_v214, main_v215, main_cst_52, main_v216, main_cst_53, main_v217, main_v218, main_v219, main_v220, main_v221, main_cst_54, main_v222, main_v223, main_v224, main_v225, main_v226, main_v227, main_v228, main_v229, main_v230, main_v231, main_v232, main_v233, main_call2_cst, main_call2_v0, main_v234]
theorem ops6_writes : (ops6 : List (HloOp τ sig (Elt F))).Forall fun op => op.writes ⊆ (ops6_W.map (Proc.devRef (τ := τ) .tc)).toFinset := by
  simp only [ops6, List.Forall, nullary_writes, unary_writes, binary_writes, ternary_writes, quaternary_writes, reshape_writes, Finset.singleton_subset_iff, List.mem_toFinset]
  repeat' apply And.intro
  all_goals exact List.mem_map_of_mem (by decide)
/-- Chunk 6 leaves a buffer it does not write as it was. -/
theorem keep6 (W : Valuation τ sig (Elt F)) (r : Ref sig .tc) (h : r ∉ (ops6_W : List (Ref sig .tc))) :
    after (ops6 (F := F)) W r = W r :=
  after_of_writes_sub ops6 W ops6_writes h

/-- The references chunk 7's operations write. -/
abbrev ops7_W : List (Ref sig .tc) := [main_cst_55, main_v235, main_v236, main_v237, main_v238, main_v239, main_v240, main_v241, main_call3_cst, main_call3_v0, main_v242, main_v243, main_v244, main_v245, main_v246]
theorem ops7_writes : (ops7 : List (HloOp τ sig (Elt F))).Forall fun op => op.writes ⊆ (ops7_W.map (Proc.devRef (τ := τ) .tc)).toFinset := by
  simp only [ops7, List.Forall, nullary_writes, unary_writes, binary_writes, ternary_writes, quaternary_writes, reshape_writes, Finset.singleton_subset_iff, List.mem_toFinset]
  repeat' apply And.intro
  all_goals exact List.mem_map_of_mem (by decide)
/-- Chunk 7 leaves a buffer it does not write as it was. -/
theorem keep7 (W : Valuation τ sig (Elt F)) (r : Ref sig .tc) (h : r ∉ (ops7_W : List (Ref sig .tc))) :
    after (ops7 (F := F)) W r = W r :=
  after_of_writes_sub ops7 W ops7_writes h

/-! ### What each chunk leaves at the buffers later chunks read -/

/-- Chunk 0 leaves the two rows of the edge list, each as its stage function of the edge argument. -/
theorem st0 (W : Valuation τ sig (Elt F)) :
    after (ops0 (F := F)) W main_v1 = val_main_v1 (F := F) (W main_arg1)
    ∧ after (ops0 (F := F)) W main_v3 = val_main_v3 (F := F) (W main_arg1) := by
  constructor <;> (dsimp only [ops0]; after_results_simp; rfl)

set_option maxHeartbeats 3200000 in
/-- Chunk 1 (the first convolution) leaves its combined result as the stage function of the features, the edges, the weights and the bias, when it starts from the edge rows and those arguments. -/
theorem st1 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F))
    (ha0 : W main_arg0 = x0)
    (h1 : W main_v1 = val_main_v1 (F := F) x1) (h3 : W main_v3 = val_main_v3 (F := F) x1)
    (ha : W main_arg3 = x3) (hb : W main_arg4 = x4) :
    after (ops1 (F := F)) W main_v54 = val_main_v54 (F := F) x0 x1 x3 x4 := by
  dsimp only [ops1]
  after_results_simp
  rw [ha0, h1, h3, ha, hb]
  rfl

set_option maxHeartbeats 1600000 in
/-- Chunk 2 (normalisation and clamp) takes the first convolution's result to the first layer's output. -/
theorem st2 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F))
    (hin : W main_v54 = val_main_v54 (F := F) x0 x1 x3 x4) (ha : W main_arg5 = x5) (hb : W main_arg6 = x6) :
    after (ops2 (F := F)) W main_v80 = val_main_v80 (F := F) x0 x1 x3 x4 x5 x6 := by
  dsimp only [ops2]
  after_results_simp
  rw [hin, ha, hb]
  rfl

set_option maxHeartbeats 3200000 in
/-- Chunk 3 (the second convolution) takes the first layer's output and the edge rows to its combined result. -/
theorem st3 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (hin : W main_v80 = val_main_v80 (F := F) x0 x1 x3 x4 x5 x6)
    (h1 : W main_v1 = val_main_v1 (F := F) x1) (h3 : W main_v3 = val_main_v3 (F := F) x1)
    (ha : W main_arg7 = x7) (hb : W main_arg8 = x8) :
    after (ops3 (F := F)) W main_v131 = val_main_v131 (F := F) x0 x1 x3 x4 x5 x6 x7 x8 := by
  dsimp only [ops3]
  after_results_simp
  rw [hin, h1, h3, ha, hb]
  rfl

set_option maxHeartbeats 1600000 in
/-- Chunk 4 takes the second convolution's result to the second layer's output. -/
theorem st4 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F))
    (hin : W main_v131 = val_main_v131 (F := F) x0 x1 x3 x4 x5 x6 x7 x8) (ha : W main_arg9 = x9) (hb : W main_arg10 = x10) :
    after (ops4 (F := F)) W main_v157 = val_main_v157 (F := F) x0 x1 x3 x4 x5 x6 x7 x8 x9 x10 := by
  dsimp only [ops4]
  after_results_simp
  rw [hin, ha, hb]
  rfl

set_option maxHeartbeats 3200000 in
/-- Chunk 5 (the third convolution) takes the second layer's output and the edge rows to its combined result. -/
theorem st5 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))
    (hin : W main_v157 = val_main_v157 (F := F) x0 x1 x3 x4 x5 x6 x7 x8 x9 x10)
    (h1 : W main_v1 = val_main_v1 (F := F) x1) (h3 : W main_v3 = val_main_v3 (F := F) x1)
    (ha : W main_arg11 = x11) (hb : W main_arg12 = x12) :
    after (ops5 (F := F)) W main_v208 = val_main_v208 (F := F) x0 x1 x3 x4 x5 x6 x7 x8 x9 x10 x11 x12 := by
  dsimp only [ops5]
  after_results_simp
  rw [hin, h1, h3, ha, hb]
  rfl

set_option maxHeartbeats 1600000 in
/-- Chunk 6 takes the third convolution's result to the third layer's output. -/
theorem st6 (W : Valuation τ sig (Elt F)) (x0 : (⟨S50000x128, .f32⟩ : BufTy).Contents (Elt F)) (x1 : (⟨S2x800000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F))
    (hin : W main_v208 = val_main_v208 (F := F) x0 x1 x3 x4 x5 x6 x7 x8 x9 x10 x11 x12) (ha : W main_arg13 = x13) (hb : W main_arg14 = x14) :
    after (ops6 (F := F)) W main_v234 = val_main_v234 (F := F) x0 x1 x3 x4 x5 x6 x7 x8 x9 x10 x11 x12 x13 x14 := by
  dsimp only [ops6]
  after_results_simp
  rw [hin, ha, hb]
  rfl

set_option maxHeartbeats 1600000 in
/-- Chunk 7 (pooling by graph and the two-layer head) takes the third layer's output to the program's result. -/
theorem st7 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) (x17 : (⟨S128x1, .f32⟩ : BufTy).Contents (Elt F)) (x18 : (⟨S1, .f32⟩ : BufTy).Contents (Elt F))
    (hin : W main_v234 = val_main_v234 (F := F) x0 x1 x3 x4 x5 x6 x7 x8 x9 x10 x11 x12 x13 x14) (h2 : W main_arg2 = x2)
    (h15 : W main_arg15 = x15) (h16 : W main_arg16 = x16) (h17 : W main_arg17 = x17) (h18 : W main_arg18 = x18) :
    after (ops7 (F := F)) W main_v246 = val_main_v246 (F := F) x0 x1 x2 x3 x4 x5 x6 x7 x8 x9 x10 x11 x12 x13 x14 x15 x16 x17 x18 := by
  dsimp only [ops7]
  after_results_simp
  rw [hin, h2, h15, h16, h17, h18]
  rfl

/-! ### The chunks in a row -/

/-- The contents after the first k chunks, from contents `V`. -/
abbrev aft1 (V : Valuation τ sig (Elt F)) : Valuation τ sig (Elt F) := after (ops0 (F := F)) V
abbrev aft2 (V : Valuation τ sig (Elt F)) : Valuation τ sig (Elt F) := after (ops1 (F := F)) (aft1 V)
abbrev aft3 (V : Valuation τ sig (Elt F)) : Valuation τ sig (Elt F) := after (ops2 (F := F)) (aft2 V)
abbrev aft4 (V : Valuation τ sig (Elt F)) : Valuation τ sig (Elt F) := after (ops3 (F := F)) (aft3 V)
abbrev aft5 (V : Valuation τ sig (Elt F)) : Valuation τ sig (Elt F) := after (ops4 (F := F)) (aft4 V)
abbrev aft6 (V : Valuation τ sig (Elt F)) : Valuation τ sig (Elt F) := after (ops5 (F := F)) (aft5 V)
abbrev aft7 (V : Valuation τ sig (Elt F)) : Valuation τ sig (Elt F) := after (ops6 (F := F)) (aft6 V)
abbrev aft8 (V : Valuation τ sig (Elt F)) : Valuation τ sig (Elt F) := after (ops7 (F := F)) (aft7 V)

/-- A buffer none of the first k chunks writes holds after them what it held before (so every argument of @main does). -/
theorem aft1_of (V : Valuation τ sig (Elt F)) (r : Ref sig .tc) (h0 : r ∉ (ops0_W : List (Ref sig .tc))) : aft1 V r = V r :=
  keep0 V r h0
theorem aft2_of (V : Valuation τ sig (Elt F)) (r : Ref sig .tc) (h0 : r ∉ (ops0_W : List (Ref sig .tc)))
    (h1 : r ∉ (ops1_W : List (Ref sig .tc))) : aft2 V r = V r :=
  (keep1 _ r h1).trans (aft1_of V r h0)
theorem aft3_of (V : Valuation τ sig (Elt F)) (r : Ref sig .tc) (h0 : r ∉ (ops0_W : List (Ref sig .tc)))
    (h1 : r ∉ (ops1_W : List (Ref sig .tc))) (h2 : r ∉ (ops2_W : List (Ref sig .tc))) : aft3 V r = V r :=
  (keep2 _ r h2).trans (aft2_of V r h0 h1)
theorem aft4_of (V : Valuation τ sig (Elt F)) (r : Ref sig .tc) (h0 : r ∉ (ops0_W : List (Ref sig .tc)))
    (h1 : r ∉ (ops1_W : List (Ref sig .tc))) (h2 : r ∉ (ops2_W : List (Ref sig .tc)))
    (h3 : r ∉ (ops3_W : List (Ref sig .tc))) : aft4 V r = V r :=
  (keep3 _ r h3).trans (aft3_of V r h0 h1 h2)
theorem aft5_of (V : Valuation τ sig (Elt F)) (r : Ref sig .tc) (h0 : r ∉ (ops0_W : List (Ref sig .tc)))
    (h1 : r ∉ (ops1_W : List (Ref sig .tc))) (h2 : r ∉ (ops2_W : List (Ref sig .tc)))
    (h3 : r ∉ (ops3_W : List (Ref sig .tc))) (h4 : r ∉ (ops4_W : List (Ref sig .tc))) : aft5 V r = V r :=
  (keep4 _ r h4).trans (aft4_of V r h0 h1 h2 h3)
theorem aft6_of (V : Valuation τ sig (Elt F)) (r : Ref sig .tc) (h0 : r ∉ (ops0_W : List (Ref sig .tc)))
    (h1 : r ∉ (ops1_W : List (Ref sig .tc))) (h2 : r ∉ (ops2_W : List (Ref sig .tc)))
    (h3 : r ∉ (ops3_W : List (Ref sig .tc))) (h4 : r ∉ (ops4_W : List (Ref sig .tc)))
    (h5 : r ∉ (ops5_W : List (Ref sig .tc))) : aft6 V r = V r :=
  (keep5 _ r h5).trans (aft5_of V r h0 h1 h2 h3 h4)
theorem aft7_of (V : Valuation τ sig (Elt F)) (r : Ref sig .tc) (h0 : r ∉ (ops0_W : List (Ref sig .tc)))
    (h1 : r ∉ (ops1_W : List (Ref sig .tc))) (h2 : r ∉ (ops2_W : List (Ref sig .tc)))
    (h3 : r ∉ (ops3_W : List (Ref sig .tc))) (h4 : r ∉ (ops4_W : List (Ref sig .tc)))
    (h5 : r ∉ (ops5_W : List (Ref sig .tc))) (h6 : r ∉ (ops6_W : List (Ref sig .tc))) : aft7 V r = V r :=
  (keep6 _ r h6).trans (aft6_of V r h0 h1 h2 h3 h4 h5)

/-- The two rows of the edge list after the first chunk, and still there when the second and third convolutions start. -/
theorem at1_v1 (V : Valuation τ sig (Elt F)) : aft1 V main_v1 = val_main_v1 (F := F) (V main_arg1) := (st0 V).1
theorem at1_v3 (V : Valuation τ sig (Elt F)) : aft1 V main_v3 = val_main_v3 (F := F) (V main_arg1) := (st0 V).2
theorem at3_v1 (V : Valuation τ sig (Elt F)) : aft3 V main_v1 = val_main_v1 (F := F) (V main_arg1) :=
  (keep2 _ main_v1 (by decide)).trans ((keep1 _ main_v1 (by decide)).trans (at1_v1 V))
theorem at3_v3 (V : Valuation τ sig (Elt F)) : aft3 V main_v3 = val_main_v3 (F := F) (V main_arg1) :=
  (keep2 _ main_v3 (by decide)).trans ((keep1 _ main_v3 (by decide)).trans (at1_v3 V))
theorem at5_v1 (V : Valuation τ sig (Elt F)) : aft5 V main_v1 = val_main_v1 (F := F) (V main_arg1) :=
  (keep4 _ main_v1 (by decide)).trans ((keep3 _ main_v1 (by decide)).trans (at3_v1 V))
theorem at5_v3 (V : Valuation τ sig (Elt F)) : aft5 V main_v3 = val_main_v3 (F := F) (V main_arg1) :=
  (keep4 _ main_v3 (by decide)).trans ((keep3 _ main_v3 (by decide)).trans (at3_v3 V))

/-- Each layer's result after its chunk, as its stage function of the arguments @main was entered with. -/
theorem at2_v54 (V : Valuation τ sig (Elt F)) :
    aft2 V main_v54 = val_main_v54 (F := F) (V main_arg0) (V main_arg1) (V main_arg3) (V main_arg4) :=
  st1 (aft1 V) _ _ _ _ (aft1_of V main_arg0 (by decide)) (at1_v1 V) (at1_v3 V) (aft1_of V main_arg3 (by decide)) (aft1_of V main_arg4 (by decide))
theorem at3_v80 (V : Valuation τ sig (Elt F)) :
    aft3 V main_v80 = val_main_v80 (F := F) (V main_arg0) (V main_arg1) (V main_arg3) (V main_arg4) (V main_arg5) (V main_arg6) :=
  st2 (aft2 V) _ _ _ _ _ _ (at2_v54 V) (aft2_of V main_arg5 (by decide) (by decide)) (aft2_of V main_arg6 (by decide) (by decide))
theorem at4_v131 (V : Valuation τ sig (Elt F)) :
    aft4 V main_v131 = val_main_v131 (F := F) (V main_arg0) (V main_arg1) (V main_arg3) (V main_arg4) (V main_arg5) (V main_arg6) (V main_arg7) (V main_arg8) :=
  st3 (aft3 V) _ _ _ _ _ _ _ _ (at3_v80 V) (at3_v1 V) (at3_v3 V)
    (aft3_of V main_arg7 (by decide) (by decide) (by decide)) (aft3_of V main_arg8 (by decide) (by decide) (by decide))
theorem at5_v157 (V : Valuation τ sig (Elt F)) :
    aft5 V main_v157 = val_main_v157 (F := F) (V main_arg0) (V main_arg1) (V main_arg3) (V main_arg4) (V main_arg5) (V main_arg6) (V main_arg7) (V main_arg8) (V main_arg9) (V main_arg10) :=
  st4 (aft4 V) _ _ _ _ _ _ _ _ _ _ (at4_v131 V)
    (aft4_of V main_arg9 (by decide) (by decide) (by decide) (by decide)) (aft4_of V main_arg10 (by decide) (by decide) (by decide) (by decide))
theorem at6_v208 (V : Valuation τ sig (Elt F)) :
    aft6 V main_v208 = val_main_v208 (F := F) (V main_arg0) (V main_arg1) (V main_arg3) (V main_arg4) (V main_arg5) (V main_arg6) (V main_arg7) (V main_arg8) (V main_arg9) (V main_arg10) (V main_arg11) (V main_arg12) :=
  st5 (aft5 V) _ _ _ _ _ _ _ _ _ _ _ _ (at5_v157 V) (at5_v1 V) (at5_v3 V)
    (aft5_of V main_arg11 (by decide) (by decide) (by decide) (by decide) (by decide)) (aft5_of V main_arg12 (by decide) (by decide) (by decide) (by decide) (by decide))
theorem at7_v234 (V : Valuation τ sig (Elt F)) :
    aft7 V main_v234 = val_main_v234 (F := F) (V main_arg0) (V main_arg1) (V main_arg3) (V main_arg4) (V main_arg5) (V main_arg6) (V main_arg7) (V main_arg8) (V main_arg9) (V main_arg10) (V main_arg11) (V main_arg12) (V main_arg13) (V main_arg14) :=
  st6 (aft6 V) _ _ _ _ _ _ _ _ _ _ _ _ _ _ (at6_v208 V)
    (aft6_of V main_arg13 (by decide) (by decide) (by decide) (by decide) (by decide) (by decide)) (aft6_of V main_arg14 (by decide) (by decide) (by decide) (by decide) (by decide) (by decide))

/-- After all eight chunks the result buffer holds the last stage function of the nineteen arguments. -/
theorem after_all_v246 (V : Valuation τ sig (Elt F)) :
    after (ops7 (F := F)) (after (ops6 (F := F)) (after (ops5 (F := F)) (after (ops4 (F := F)) (after (ops3 (F := F))
      (after (ops2 (F := F)) (after (ops1 (F := F)) (after (ops0 (F := F)) V))))))) (Proc.devRef .tc main_v246)
      = val_main_v246 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) :=
  st7 (aft7 V) _ _ _ _ _ _ _ _ _ _ _ _ _ _ _ _ _ _ _ (at7_v234 V)
    (aft7_of V main_arg2 (by decide) (by decide) (by decide) (by decide) (by decide) (by decide) (by decide))
    (aft7_of V main_arg15 (by decide) (by decide) (by decide) (by decide) (by decide) (by decide) (by decide))
    (aft7_of V main_arg16 (by decide) (by decide) (by decide) (by decide) (by decide) (by decide) (by decide))
    (aft7_of V main_arg17 (by decide) (by decide) (by decide) (by decide) (by decide) (by decide) (by decide))
    (aft7_of V main_arg18 (by decide) (by decide) (by decide) (by decide) (by decide) (by decide) (by decide))

/-- The arguments of @main are written by no chunk. -/
theorem after_all_of (V : Valuation τ sig (Elt F)) (r : Ref sig .tc) (h0 : r ∉ (ops0_W : List (Ref sig .tc)))
    (h1 : r ∉ (ops1_W : List (Ref sig .tc))) (h2 : r ∉ (ops2_W : List (Ref sig .tc)))
    (h3 : r ∉ (ops3_W : List (Ref sig .tc))) (h4 : r ∉ (ops4_W : List (Ref sig .tc)))
    (h5 : r ∉ (ops5_W : List (Ref sig .tc))) (h6 : r ∉ (ops6_W : List (Ref sig .tc)))
    (h7 : r ∉ (ops7_W : List (Ref sig .tc))) : aft8 V r = V r :=
  (keep7 _ r h7).trans (aft7_of V r h0 h1 h2 h3 h4 h5 h6)

end Cert.ReferenceIdeal.RefRun

end
-- ==== Proof.RefRunV.lean ====
/-
  The reference program's run, as the claim states it. Every fair execution terminates; the nineteen argument buffers
  end as they began (no operation writes one); and the result buffer ends at the fold of the 313 operations over the
  launch contents, which is the staged reading of the result as a function of the nineteen arguments.
-/
import proofs.«430760_j5652176962022_1_alg».proof.Proof.RefRun
import proofs.«430760_j5652176962022_1_alg».proof.Proof.RefStage

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference program terminates on every fair execution and leaves its nineteen arguments unchanged. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_arg0).trans (after_all_main_arg0 _),
      (h c main_arg1).trans (after_all_main_arg1 _),
      (h c main_arg2).trans (after_all_main_arg2 _),
      (h c main_arg3).trans (after_all_main_arg3 _),
      (h c main_arg4).trans (after_all_main_arg4 _),
      (h c main_arg5).trans (after_all_main_arg5 _),
      (h c main_arg6).trans (after_all_main_arg6 _),
      (h c main_arg7).trans (after_all_main_arg7 _),
      (h c main_arg8).trans (after_all_main_arg8 _),
      (h c main_arg9).trans (after_all_main_arg9 _),
      (h c main_arg10).trans (after_all_main_arg10 _),
      (h c main_arg11).trans (after_all_main_arg11 _),
      (h c main_arg12).trans (after_all_main_arg12 _),
      (h c main_arg13).trans (after_all_main_arg13 _),
      (h c main_arg14).trans (after_all_main_arg14 _),
      (h c main_arg15).trans (after_all_main_arg15 _),
      (h c main_arg16).trans (after_all_main_arg16 _),
      (h c main_arg17).trans (after_all_main_arg17 _),
      (h c main_arg18).trans (after_all_main_arg18 _)⟩)
    (run_after (F := Ideal) m ρ)

/-- The reference program terminates on every fair execution with its result buffer at the staged reading of the
    nineteen arguments, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v246)
        = Cert.ReferenceIdeal.ReadP.val_main_v246 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_v246).trans
        ((congrFun (after_all (F := Ideal) (launchContents m c)) (Proc.devRef .tc main_v246)).trans
          (after_all_v246 (F := Ideal) (launchContents m c))),
      (h c main_arg0).trans (after_all_main_arg0 _),
      (h c main_arg1).trans (after_all_main_arg1 _),
      (h c main_arg2).trans (after_all_main_arg2 _),
      (h c main_arg3).trans (after_all_main_arg3 _),
      (h c main_arg4).trans (after_all_main_arg4 _),
      (h c main_arg5).trans (after_all_main_arg5 _),
      (h c main_arg6).trans (after_all_main_arg6 _),
      (h c main_arg7).trans (after_all_main_arg7 _),
      (h c main_arg8).trans (after_all_main_arg8 _),
      (h c main_arg9).trans (after_all_main_arg9 _),
      (h c main_arg10).trans (after_all_main_arg10 _),
      (h c main_arg11).trans (after_all_main_arg11 _),
      (h c main_arg12).trans (after_all_main_arg12 _),
      (h c main_arg13).trans (after_all_main_arg13 _),
      (h c main_arg14).trans (after_all_main_arg14 _),
      (h c main_arg15).trans (after_all_main_arg15 _),
      (h c main_arg16).trans (after_all_main_arg16 _),
      (h c main_arg17).trans (after_all_main_arg17 _),
      (h c main_arg18).trans (after_all_main_arg18 _)⟩)
    (run_after (F := Ideal) m ρ)

end Cert.ReferenceIdeal.RefRun

end
-- ==== Proof.KI.Mm.lean ====
import proofs.«430760_j5652176962022_1_alg».proof.Proof.Gen.KernelIdeal
import Idealize.ShloMosaic.Lib.ValueIdx
import Idealize.ShloMosaic.PureOps.Ideal.Laws

/-!
  The product of a block of 5000 rows with a 128 × 128 matrix on the matrix unit, into a zero accumulator, read at
  one entry over the extended reals: entry (p, q) is the sum over k of the left operand at (p, k) times the right
  operand at (k, q). The contraction index of the dimension numbers is a one-axis index, identified with its one
  coordinate.
-/

noncomputable section

namespace Cert.KernelIdeal.HandV

open Cert.KernelIdeal Cert.KernelIdeal.Gen
open Idealize.ShloMosaic Idealize.ShloMosaic.ValueIdx

/-- The left operand is read at the result's row … -/
theorem mm_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction coordinate as its column; -/
theorem mm_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction coordinate as its row … -/
theorem mm_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the result's column. -/
theorem mm_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator at entry (p, q): the sum over k of a (p, k) · b (k, q). -/
theorem matmul_blk_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_lhs_0 _ _
    | ⟨1, _⟩ => exact (mm_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_rhs_0 _ _).trans hk
    | ⟨1, _⟩ => exact mm_rhs_1 _ _)
  rw [el, er]

end Cert.KernelIdeal.HandV

end
-- ==== Proof.Spec.lean ====
/-
  The mathematics both programs compute, as plain functions on matrices of extended reals (rows and columns are
  `Fin` coordinates; no program, shape or buffer is mentioned). One graph-convolution layer is
    h = a · W,   c = agg h + h · dinv + b   (`comb`; `agg` and `dinv` are whatever the shared host chain makes of h and the edges),
  batch normalisation takes the column mean `colMean c` and a column variance, which the two programs spell differently:
    `varMoments c` = (Σ c²)/N − mean²      (the kernel: two running sums)
    `varCentred c` = (Σ (c − mean)²)/N     (the reference: centred squares)
  equal whenever every entry of `c` is a real number. `bnRelu` normalises, scales, shifts and clamps at zero; `pool` adds
  the rows of each graph (a row counts for graph `g` when its batch word is `g`); `mlp` is the two-layer head, row by row.
-/
import Idealize.ShloMosaic.PureOps.Ideal
import Idealize.ShloMosaic.Lib.ValueIdx

noncomputable section

namespace Cert.Spec

open Idealize.ShloMosaic

/-- A matrix of extended reals by row and column. -/
abbrev Mat (a b : Nat) : Type := Fin a → Fin b → EReal

/-- The node count as the float both programs divide by (the word of 50000.0). -/
def nF : EReal := Ideal.ofBits .f32 0x47435000#32
/-- The batch-norm epsilon both programs add (the word of 9.99999974e-6). -/
def epsF : EReal := Ideal.ofBits .f32 0x3727C5AC#32

/-- Every entry is a real number. -/
def IsReal {a b : Nat} (m : Mat a b) : Prop := ∀ r j, ∃ x : ℝ, m r j = (x : EReal)
/-- Every entry of a row vector is a real number. -/
def IsRealV {b : Nat} (v : Fin b → EReal) : Prop := ∀ j, ∃ x : ℝ, v j = (x : EReal)

/-- The dense layer: `a · W`. -/
def lin {n : Nat} (a : Mat n 128) (W : Mat 128 128) : Mat n 128 := fun r j => ∑ k : Fin 128, a r k * W k j

/-- The convolution's combine: aggregated messages, the self loop weighted by the inverse degree, the bias. -/
def comb (h agg : Mat 50000 128) (dinv : Fin 50000 → EReal) (b : Fin 128 → EReal) : Mat 50000 128 :=
  fun r j => agg r j + h r j * dinv r + b j

/-- Column sums and column sums of squares over all 50000 rows. -/
def colSum (c : Mat 50000 128) (j : Fin 128) : EReal := ∑ r : Fin 50000, c r j
def colSumSq (c : Mat 50000 128) (j : Fin 128) : EReal := ∑ r : Fin 50000, c r j * c r j

/-- The column mean: the sum over the node count. -/
def colMean (c : Mat 50000 128) (j : Fin 128) : EReal := Ideal.div (colSum c j) nF
/-- The variance from the two moments (the kernel's spelling). -/
def varMoments (c : Mat 50000 128) (j : Fin 128) : EReal := Ideal.div (colSumSq c j) nF - colMean c j * colMean c j
/-- The variance from centred squares (the reference's spelling). -/
def varCentred (c : Mat 50000 128) (j : Fin 128) : EReal :=
  Ideal.div (∑ r : Fin 50000, (c r j - colMean c j) * (c r j - colMean c j)) nF

/-- Batch normalisation with given statistics, then the clamp at zero. -/
def bnRelu (c : Mat 50000 128) (mean var g be : Fin 128 → EReal) : Mat 50000 128 :=
  fun r j => max ((c r j - mean j) * Ideal.rsqrt (var j + epsF) * g j + be j) 0

/-- Sum pooling by graph: row `r` counts for graph `g` when its batch word is `g`. -/
def pool {G : Nat} (a : Mat 50000 128) (batch : Fin 50000 → BitVec 32) : Mat G 128 :=
  fun g j => ∑ r : Fin 50000, if batch r = BitVec.ofNat 32 g.val then a r j else 0

/-- The two-layer head on one pooled row. -/
def mlp {G : Nat} (p : Mat G 128) (W1 : Mat 128 128) (b1 : Fin 128 → EReal) (W2 : Fin 128 → EReal) (b2 : EReal) (g : Fin G) : EReal :=
  (∑ k : Fin 128, max ((∑ j : Fin 128, p g j * W1 j k) + b1 k) 0 * W2 k) + b2

end Cert.Spec

end
-- ==== Proof.KI.V0.lean ====
import proofs.«430760_j5652176962022_1_alg».proof.Proof.KI.R0
import proofs.«430760_j5652176962022_1_alg».proof.Proof.KI.Mm
import proofs.«430760_j5652176962022_1_alg».proof.Proof.Spec
import Idealize.ShloMosaic.Lib.Pipeline.Value

/-!
  What the first dense layer's output array holds after its ten grid points, entry by entry: row r, column j of
  the product of the node features with the weight matrix. Each grid point writes back one block of 5000 rows; the
  body's store is the block product on the matrix unit, which over the extended reals is the plain sum over the
  128 columns of the features; the ten blocks tile the 50000 rows.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region0
variable (V : (c : Dev nD) → (b : Ref sig .tc) → Buf (Elt Ideal) ((c : Thread nD τ).loc b))

theorem zero_off0 : (![0, 0] : Fin 2 → Nat) = fun _ => 0 := funext fun a => by fin_cases a <;> rfl

/-- The body's payload at entry (p, q) of the block: the narrowing of the operands is the identity on extended
    reals, and the product into the zero accumulator is the sum over the contracted column. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact matmul_blk_apply _ _ p q

/-- The array the output window ends holding: the product of the features with the weights, entry by entry. -/
abbrev G0 (c : Dev nD) : S50000x128.Idx → Elt Ideal .f32 := fun i =>
  Cert.Spec.lin (fun r k => V c (Pipeline.arrRef spec0 0) (ix2 r k)) (fun k j => V c (Pipeline.arrRef spec0 1) (ix2 k j)) (i 0) (i 1)

/-- The printed index maps, decided over the grid: the feature block and the output block are block `t` of the rows,
    the weight matrix is its one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block of rows is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of `G0`. -/
theorem flushed0_2_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x128) zero_off0]
  obtain ⟨e0, e1, e2, e3, e4, e5⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = G0 V c (((cfg0.win 2).blk t).view.emb (ix2 p q))
  rw [pay0_apply]
  show _ = ∑ k : Fin 128, _
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have a0 : iblk0 V c 0 t (ix2 p k) = V c (Pipeline.arrRef spec0 0) (ix2 ((((cfg0.win 2).blk t).view.emb (ix2 p q)) 0) k) :=
    congrArg (V c (Pipeline.arrRef spec0 0)) h0
  have a1 : iblk0 V c 1 t (ix2 k q) = V c (Pipeline.arrRef spec0 1) (ix2 k ((((cfg0.win 2).blk t).view.emb (ix2 p q)) 1)) :=
    congrArg (V c (Pipeline.arrRef spec0 1)) h1
  rw [a0, a1]

/-- An index of the array is in point `t`'s block iff each coordinate is in the block's range on its axis. -/
theorem mem_blk0_2 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v47).slice (win0_2.rect t)).set ↔ _
  rw [View.set_slice_whole, Rect.mem_set_unit]
  exact Iff.rfl

/-- Every entry of the array is in some point's block: row r is in block r / 5000. -/
theorem cover0_2_arr (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the ten points is `G0`. -/
theorem final0_2 (c : Dev nD) : (dat0 V c).arrAt 2 cfg0.N = G0 V c :=
  (dat0 V c).arrAt_eq_of_cover 2 (G0 V c) (fun t _ => flushed0_2_eq V c t) cover0_2_arr

/-- Entry (r, j) of the output array after the region: row r of the features times column j of the weights. -/
theorem arrAt0_2 (c : Dev nD) (r : Fin 50000) (j : Fin 128) :
    (dat0 (F := Ideal) V c).arrAt 2 cfg0.N (ix2 r j)
      = Cert.Spec.lin (fun r k => V c (Pipeline.arrRef spec0 0) (ix2 r k)) (fun k j => V c (Pipeline.arrRef spec0 1) (ix2 k j)) r j := by
  rw [final0_2]

end Region0

end Cert.KernelIdeal.HandV

end
-- ==== Proof.Alg.lean ====
/-
  The algebra both value arguments rest on, over matrices of extended reals and with no program in sight:
  the two float words the programs divide by and add denote the real 50000 and a positive real; a sum over
  50000 rows is ten sums over 5000 rows; where every entry is a real number the variance from the two moments
  equals the variance from centred squares, and every intermediate matrix of the network has real entries
  (on the extended reals distributivity and cancellation fail at the infinities, which is why these facts
  carry the hypothesis that the entries are real).
-/
import proofs.«430760_j5652176962022_1_alg».proof.Proof.Spec
import Idealize.ShloMosaic.PureOps.Ideal
import Mathlib.Algebra.BigOperators.Fin
import Mathlib.Algebra.BigOperators.Ring.Finset
import Mathlib.Algebra.Order.BigOperators.Group.Finset
import Mathlib.Logic.Equiv.Fin.Basic
import Mathlib.Data.EReal.Operations
import Mathlib.Tactic.Ring
import Mathlib.Tactic.NormNum
import Mathlib.Tactic.Linarith

noncomputable section

namespace Cert.Spec

open Idealize.ShloMosaic

/-- The word of 50000.0 denotes the real 50000. -/
theorem nF_eq : nF = ((50000 : ℝ) : EReal) := by
  unfold nF
  simp [Ideal.ofBits, Ideal.ieee, -EReal.coe_mul]; norm_num

/-- The epsilon word denotes a positive real. -/
theorem epsF_pos : ∃ e : ℝ, 0 < e ∧ epsF = (e : EReal) := by
  unfold epsF
  simp [Ideal.ofBits, Ideal.ieee, -EReal.coe_mul]

/-- A sum over 50000 rows is the sum over 10 blocks of the sums over each block's 5000 rows,
    in any additive commutative monoid. -/
theorem sum_blocks_gen {M : Type*} [AddCommMonoid M] (f : Fin 50000 → M) :
    ∑ r : Fin 50000, f r = ∑ t : Fin 10, ∑ q : Fin 5000, f ⟨t.val * 5000 + q.val, by omega⟩ := by
  calc ∑ r : Fin 50000, f r = ∑ p : Fin 10 × Fin 5000, f (finProdFinEquiv p) :=
        (Equiv.sum_comp (finProdFinEquiv (m := 10) (n := 5000)) f).symm
    _ = ∑ t : Fin 10, ∑ q : Fin 5000, f (finProdFinEquiv (t, q)) := Fintype.sum_prod_type _
    _ = _ := by
        refine Finset.sum_congr rfl fun t _ => Finset.sum_congr rfl fun q _ => ?_
        congr 1
        ext
        simp only [finProdFinEquiv_apply_val]
        omega

/-- The same over the extended reals. -/
theorem sum_blocks (f : Fin 50000 → EReal) :
    ∑ r : Fin 50000, f r = ∑ t : Fin 10, ∑ q : Fin 5000, f ⟨t.val * 5000 + q.val, by omega⟩ :=
  sum_blocks_gen f

/-! ### Real entries: the coercion leaves sums, and realness is closed under the operations used -/

/-- The coercion of a finite real sum is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A single extended real that is a real number. -/
def Re (x : EReal) : Prop := ∃ r : ℝ, x = (r : EReal)

theorem re_coe (r : ℝ) : Re (r : EReal) := ⟨r, rfl⟩
theorem re_zero : Re (0 : EReal) := ⟨0, rfl⟩
theorem re_add {x y : EReal} (hx : Re x) (hy : Re y) : Re (x + y) := by
  obtain ⟨a, rfl⟩ := hx; obtain ⟨b, rfl⟩ := hy; exact ⟨a + b, (EReal.coe_add a b).symm⟩
theorem re_sub {x y : EReal} (hx : Re x) (hy : Re y) : Re (x - y) := by
  obtain ⟨a, rfl⟩ := hx; obtain ⟨b, rfl⟩ := hy; exact ⟨a - b, (EReal.coe_sub a b).symm⟩
theorem re_mul {x y : EReal} (hx : Re x) (hy : Re y) : Re (x * y) := by
  obtain ⟨a, rfl⟩ := hx; obtain ⟨b, rfl⟩ := hy; exact ⟨a * b, (EReal.coe_mul a b).symm⟩
theorem re_max {x y : EReal} (hx : Re x) (hy : Re y) : Re (max x y) := by
  obtain ⟨a, rfl⟩ := hx; obtain ⟨b, rfl⟩ := hy
  exact ⟨max a b, (EReal.coe_strictMono.monotone.map_max (a := a) (b := b)).symm⟩
theorem re_sum {ι : Type*} (s : Finset ι) (f : ι → EReal) (h : ∀ i ∈ s, Re (f i)) : Re (∑ i ∈ s, f i) := by
  classical
  induction s using Finset.induction_on with
  | empty => simpa using re_zero
  | insert a s ha ih =>
    rw [Finset.sum_insert ha]
    exact re_add (h a (Finset.mem_insert_self a s)) (ih fun i hi => h i (Finset.mem_insert_of_mem hi))
/-- Dividing a real by the node count gives a real. -/
theorem re_div_nF {x : EReal} (hx : Re x) : Re (Ideal.div x nF) := by
  rw [nF_eq, Ideal.div_coe (by norm_num : (50000 : ℝ) ≠ 0)]
  exact re_mul hx (re_coe _)
/-- The reciprocal square root of a positive real is a real. -/
theorem re_rsqrt_pos {r : ℝ} (hr : 0 < r) : Re (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

theorem isReal_lin {n : Nat} (a : Mat n 128) (W : Mat 128 128) (ha : IsReal a) (hW : IsReal W) :
    IsReal (lin a W) := fun r j =>
  re_sum _ _ fun k _ => re_mul (ha r k) (hW k j)

theorem isReal_comb (h agg : Mat 50000 128) (dinv : Fin 50000 → EReal) (b : Fin 128 → EReal)
    (hh : IsReal h) (ha : IsReal agg) (hd : IsRealV dinv) (hb : IsRealV b) : IsReal (comb h agg dinv b) :=
  fun r j => re_add (re_add (ha r j) (re_mul (hh r j) (hd r))) (hb j)

theorem isRealV_colSum (c : Mat 50000 128) (hc : IsReal c) : IsRealV (colSum c) := fun j =>
  re_sum _ _ fun r _ => hc r j

theorem isRealV_colSumSq (c : Mat 50000 128) (hc : IsReal c) : IsRealV (colSumSq c) := fun j =>
  re_sum _ _ fun r _ => re_mul (hc r j) (hc r j)

theorem isRealV_colMean (c : Mat 50000 128) (hc : IsReal c) : IsRealV (colMean c) := fun j =>
  re_div_nF (isRealV_colSum c hc j)

theorem isRealV_varCentred (c : Mat 50000 128) (hc : IsReal c) : IsRealV (varCentred c) := fun j =>
  re_div_nF (re_sum _ _ fun r _ =>
    re_mul (re_sub (hc r j) (isRealV_colMean c hc j)) (re_sub (hc r j) (isRealV_colMean c hc j)))

theorem isRealV_varMoments (c : Mat 50000 128) (hc : IsReal c) : IsRealV (varMoments c) := fun j =>
  re_sub (re_div_nF (isRealV_colSumSq c hc j)) (re_mul (isRealV_colMean c hc j) (isRealV_colMean c hc j))

theorem isReal_pool {G : Nat} (a : Mat 50000 128) (batch : Fin 50000 → BitVec 32) (ha : IsReal a) :
    IsReal (pool (G := G) a batch) := fun g j =>
  re_sum _ _ fun r _ => by
    show Re (if batch r = BitVec.ofNat 32 g.val then a r j else 0)
    split_ifs
    exacts [ha r j, re_zero]

/-- The head of real data is real. -/
theorem re_mlp {G : Nat} (p : Mat G 128) (W1 : Mat 128 128) (b1 W2 : Fin 128 → EReal) (b2 : EReal) (g : Fin G)
    (hp : ∀ j, Re (p g j)) (hW1 : IsReal W1) (hb1 : IsRealV b1) (hW2 : IsRealV W2) (hb2 : Re b2) :
    Re (mlp p W1 b1 W2 b2 g) :=
  re_add (re_sum _ _ fun k _ =>
    re_mul (re_max (re_add (re_sum _ _ fun j _ => re_mul (hp j) (hW1 j k)) (hb1 k)) re_zero) (hW2 k)) hb2

/-- With a nonnegative real variance the normalised, scaled, shifted and clamped entries are real: the variance
    plus the positive epsilon is a positive real, whose reciprocal square root is a real. -/
theorem isReal_bnRelu (c : Mat 50000 128) (mean var g be : Fin 128 → EReal) (hc : IsReal c) (hm : IsRealV mean)
    (hv : ∀ j, ∃ v : ℝ, 0 ≤ v ∧ var j = (v : EReal)) (hg : IsRealV g) (hbe : IsRealV be) :
    IsReal (bnRelu c mean var g be) := fun r j => by
  obtain ⟨v, hv0, hvj⟩ := hv j
  obtain ⟨e, he0, hee⟩ := epsF_pos
  have hrs : Re (Ideal.rsqrt (var j + epsF)) := by
    rw [hvj, hee, ← EReal.coe_add]; exact re_rsqrt_pos (by linarith)
  exact re_max (re_add (re_mul (re_mul (re_sub (hc r j) (hm j)) hrs) (hg j)) (hbe j)) re_zero

/-! ### The two spellings of the variance -/

theorem colMean_coe (c : Mat 50000 128) (j : Fin 128) (x : Fin 50000 → ℝ) (hx : ∀ r, c r j = (x r : EReal)) :
    colMean c j = (((∑ r, x r) * (1 / 50000) : ℝ) : EReal) := by
  unfold colMean colSum
  simp_rw [hx]
  rw [← coe_sum_real, nF_eq, Ideal.div_coe (by norm_num : (50000 : ℝ) ≠ 0), ← EReal.coe_mul]

theorem varCentred_coe (c : Mat 50000 128) (j : Fin 128) (x : Fin 50000 → ℝ) (hx : ∀ r, c r j = (x r : EReal)) :
    varCentred c j = (((∑ r, (x r - (∑ r, x r) * (1 / 50000)) * (x r - (∑ r, x r) * (1 / 50000)))
      * (1 / 50000) : ℝ) : EReal) := by
  unfold varCentred
  rw [colMean_coe c j x hx]
  simp_rw [hx, ← EReal.coe_sub, ← EReal.coe_mul]
  rw [← coe_sum_real, nF_eq, Ideal.div_coe (by norm_num : (50000 : ℝ) ≠ 0), ← EReal.coe_mul]

theorem varMoments_coe (c : Mat 50000 128) (j : Fin 128) (x : Fin 50000 → ℝ) (hx : ∀ r, c r j = (x r : EReal)) :
    varMoments c j = (((∑ r, x r * x r) * (1 / 50000)
      - ((∑ r, x r) * (1 / 50000)) * ((∑ r, x r) * (1 / 50000)) : ℝ) : EReal) := by
  unfold varMoments colSumSq
  rw [colMean_coe c j x hx]
  simp_rw [hx, ← EReal.coe_mul]
  rw [← coe_sum_real, nF_eq, Ideal.div_coe (by norm_num : (50000 : ℝ) ≠ 0), ← EReal.coe_mul, ← EReal.coe_sub]

/-- Over the reals, with m the mean of 50000 numbers: (Σ x²)/N − m² = (Σ (x − m)²)/N. -/
theorem var_real (x : Fin 50000 → ℝ) :
    (∑ r, x r * x r) * (1 / 50000) - ((∑ r, x r) * (1 / 50000)) * ((∑ r, x r) * (1 / 50000))
      = (∑ r, (x r - (∑ r, x r) * (1 / 50000)) * (x r - (∑ r, x r) * (1 / 50000))) * (1 / 50000) := by
  have h : ∀ r, (x r - (∑ r, x r) * (1 / 50000)) * (x r - (∑ r, x r) * (1 / 50000))
      = x r * x r - 2 * ((∑ r, x r) * (1 / 50000)) * x r
        + ((∑ r, x r) * (1 / 50000)) * ((∑ r, x r) * (1 / 50000)) := fun r => by ring
  simp_rw [h]
  rw [Finset.sum_add_distrib, Finset.sum_sub_distrib, ← Finset.mul_sum, Finset.sum_const, Finset.card_univ,
    Fintype.card_fin, nsmul_eq_mul]
  push_cast
  ring

theorem varMoments_eq_varCentred (c : Mat 50000 128) (hc : IsReal c) : varMoments c = varCentred c := by
  funext j
  choose x hx using fun r => hc r j
  rw [varMoments_coe c j x hx, varCentred_coe c j x hx, var_real]

theorem varCentred_nonneg (c : Mat 50000 128) (hc : IsReal c) (j : Fin 128) :
    ∃ v : ℝ, 0 ≤ v ∧ varCentred c j = (v : EReal) := by
  choose x hx using fun r => hc r j
  refine ⟨_, ?_, varCentred_coe c j x hx⟩
  exact mul_nonneg (Finset.sum_nonneg fun r _ => mul_self_nonneg _) (by norm_num)

theorem varMoments_nonneg (c : Mat 50000 128) (hc : IsReal c) (j : Fin 128) :
    ∃ v : ℝ, 0 ≤ v ∧ varMoments c j = (v : EReal) := by
  rw [varMoments_eq_varCentred c hc]; exact varCentred_nonneg c hc j

/-! ### What the pooled rows and the head depend on -/

/-- A pooled row depends on the graph's number only, not on how many graphs the matrix has rows for. -/
theorem pool_val {G G' : Nat} (a : Mat 50000 128) (batch : Fin 50000 → BitVec 32) (g : Fin G) (g' : Fin G')
    (h : g.val = g'.val) (j : Fin 128) : pool (G := G) a batch g j = pool (G := G') a batch g' j := by
  simp only [pool, h]

/-- The head at a row depends on that row of the pooled matrix only. -/
theorem mlp_congr {G G' : Nat} (p : Mat G 128) (p' : Mat G' 128) (W1 : Mat 128 128) (b1 W2 : Fin 128 → EReal)
    (b2 : EReal) (g : Fin G) (g' : Fin G') (h : ∀ j, p g j = p' g' j) :
    mlp p W1 b1 W2 b2 g = mlp p' W1 b1 W2 b2 g' := by
  simp only [mlp, h]

end Cert.Spec

end
-- ==== Proof.KI.V1.lean ====
import proofs.«430760_j5652176962022_1_alg».proof.Proof.KI.R1
import proofs.«430760_j5652176962022_1_alg».proof.Proof.Spec
import proofs.«430760_j5652176962022_1_alg».proof.Proof.Alg
import Idealize.ShloMosaic.Lib.Pipeline.Value
import Idealize.ShloMosaic.Lib.ValueIdx
import Idealize.ShloMosaic.PureOps.Ideal.Laws
import Mathlib.Algebra.BigOperators.Intervals

/-!
  What the combine-and-statistics region's three output arrays hold after its ten grid points, entry by entry, for
  any contents the region finds: the combined matrix c = agg + h · dinv + b row by row (each point writes back its
  block of 5000 rows), and its column sums and column sums of squares (two accumulators carried across the points:
  zeroed at the first point, each point adding its block's column sums, written back after the last; ten sums over
  5000 rows are the sum over the 50000 rows).
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region1
variable (V : (c : Dev nD) → (b : Ref sig .tc) → Buf (Elt Ideal) ((c : Thread nD τ).loc b))

/-! ## The body's payloads at an entry -/

/-- The combined block at entry (p, q): the aggregated message plus the feature weighted by the row's inverse degree
    plus the column's bias. -/
theorem k1_pay1_apply (x0 x1 : Vec Ideal S5000x128 .f32) (x2 : Vec Ideal S5000x1 .f32) (x3 : Vec Ideal S1x128 .f32)
    (p : Fin 5000) (q : Fin 128) :
    k1_pay1 (F := Ideal) x0 x1 x2 x3 (ix2 p q) = x1 (ix2 p q) + x0 (ix2 p q) * x2 (ix2 p 0) + x3 (ix2 0 q) := by
  unfold k1_pay1
  simp only [shapeCast_self]
  have e2 : broadcastTo S5000x128 x2 broadcasts_S5000x1_S5000x128 (ix2 p q) = x2 (ix2 p 0) :=
    broadcastTo_apply x2 _ (ix2 p q) (ix2 p 0) fun a => by
      match a with
      | ⟨0, _⟩ => rfl
      | ⟨1, _⟩ => rfl
  have e3 : broadcastTo S5000x128 x3 broadcasts_S1x128_S5000x128 (ix2 p q) = x3 (ix2 0 q) :=
    broadcastTo_apply x3 _ (ix2 p q) (ix2 0 q) fun a => by
      match a with
      | ⟨0, _⟩ => rfl
      | ⟨1, _⟩ => rfl
  show x1 (ix2 p q) + x0 (ix2 p q) * broadcastTo S5000x128 x2 broadcasts_S5000x1_S5000x128 (ix2 p q)
      + broadcastTo S5000x128 x3 broadcasts_S1x128_S5000x128 (ix2 p q) = _
  rw [e2, e3]

/-- The reset values are zero. -/
theorem k1_pay2_apply (q : Fin 128) : k1_pay2 (F := Ideal) (ix2 0 q) = 0 := by
  unfold k1_pay2
  show Ideal.ofBits .f32 0x00000000#32 = 0
  exact Ideal.ofBits_zero_f32

theorem k1_pay3_apply (q : Fin 128) : k1_pay3 (F := Ideal) (ix2 0 q) = 0 := by
  unfold k1_pay3
  show Ideal.ofBits .f32 0x00000000#32 = 0
  exact Ideal.ofBits_zero_f32

/-- A block's column sums laid out as one row: at column q the sum over the block's 5000 rows. -/
private theorem colsum_blk_apply (src : FVec Ideal S5000x128 .f32) (q : Fin 128) :
    shapeCast S1x128 (multiReduction (F := Ideal) .add [0] S128 src 0x00000000#32 reduces_S5000x128_S128 (.inl rfl) rfl)
        shapeCasts_S128_S1x128 (ix2 0 q)
      = ∑ p : Fin 5000, src (ix2 p q) := by
  refine (shapeCast_addUnit_apply ![128] _ shapeCasts_S128_S1x128 (ix2 0 q)).trans ?_
  refine (Ideal.multiReduction_add_single src 0x00000000#32 reduces_S5000x128_S128 (.inl rfl) rfl _).trans ?_
  refine Finset.sum_congr rfl fun p _ => congrArg src ?_
  funext a; apply Fin.ext
  match a with
  | ⟨0, _⟩ => rfl
  | ⟨1, _⟩ => rfl

/-- The running column sum after a point: what it was plus the block's column sum. -/
theorem k1_pay4_apply (x0 x1 : Vec Ideal S5000x128 .f32) (x2 : Vec Ideal S5000x1 .f32) (x3 : Vec Ideal S1x128 .f32)
    (acc : Vec Ideal S1x128 .f32) (q : Fin 128) :
    k1_pay4 (F := Ideal) x0 x1 x2 x3 acc (ix2 0 q)
      = acc (ix2 0 q) + ∑ p : Fin 5000, k1_pay1 (F := Ideal) x0 x1 x2 x3 (ix2 p q) := by
  unfold k1_pay4
  simp only [shapeCast_self]
  show acc (ix2 0 q) + shapeCast S1x128 (multiReduction (F := Ideal) .add [0] S128 (k1_pay1 (F := Ideal) x0 x1 x2 x3) 0x00000000#32 reduces_S5000x128_S128 (.inl rfl) rfl)
        shapeCasts_S128_S1x128 (ix2 0 q) = _
  rw [colsum_blk_apply]

/-- The running column sum of squares after a point. -/
theorem k1_pay5_apply (x0 x1 : Vec Ideal S5000x128 .f32) (x2 : Vec Ideal S5000x1 .f32) (x3 : Vec Ideal S1x128 .f32)
    (acc : Vec Ideal S1x128 .f32) (q : Fin 128) :
    k1_pay5 (F := Ideal) x0 x1 x2 x3 acc (ix2 0 q)
      = acc (ix2 0 q) + ∑ p : Fin 5000, k1_pay1 (F := Ideal) x0 x1 x2 x3 (ix2 p q) * k1_pay1 (F := Ideal) x0 x1 x2 x3 (ix2 p q) := by
  unfold k1_pay5
  simp only [shapeCast_self]
  show acc (ix2 0 q) + shapeCast S1x128 (multiReduction (F := Ideal) .add [0] S128 (mulf (k1_pay1 (F := Ideal) x0 x1 x2 x3) (k1_pay1 (F := Ideal) x0 x1 x2 x3)) 0x00000000#32 reduces_S5000x128_S128 (.inl rfl) rfl)
        shapeCasts_S128_S1x128 (ix2 0 q) = _
  rw [colsum_blk_apply]
  first | done | rfl

/-! ## The input blocks, read where the arrays hold them -/

/-- The printed index maps, decided over the grid: the row-blocked windows are at block `t` of the rows, the bias and
    the two accumulators at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The grid has ten points. -/
theorem tlt1 (t : Fin cfg1.N) : t.val < 10 := lt_of_lt_of_eq t.isLt (show cfg1.N = 10 from N_1)

/-- Row p of block t is row 5000 t + p of the matrix. -/
def rowOf1 (t : Fin cfg1.N) (p : Fin 5000) : Fin 50000 := ⟨t.val * 5000 + p.val, by have := tlt1 t; have := p.isLt; omega⟩

/-- The input windows' blocks at a point, at their literal types. -/
abbrev xb1_0 (c : Dev nD) (t : Fin cfg1.N) : Vec Ideal S5000x128 .f32 := iblk1 V c 0 t
abbrev xb1_1 (c : Dev nD) (t : Fin cfg1.N) : Vec Ideal S5000x128 .f32 := iblk1 V c 1 t
abbrev xb1_2 (c : Dev nD) (t : Fin cfg1.N) : Vec Ideal S5000x1 .f32 := iblk1 V c 2 t
abbrev xb1_3 (c : Dev nD) (t : Fin cfg1.N) : Vec Ideal S1x128 .f32 := iblk1 V c 3 t

theorem xb1_0_apply (c : Dev nD) (t : Fin cfg1.N) (p : Fin 5000) (q : Fin 128) :
    xb1_0 V c t (ix2 p q) = V c (Pipeline.arrRef spec1 0) (ix2 (rowOf1 t p) q) := by
  obtain ⟨e00, e01, e10, e11, e20, e21, e30, e31, e40, e41, e50, e51, e60, e61⟩ := idx_facts1 t
  have h : ((cfg1.win 0).blk t).view.emb (ix2 p q) = ix2 (rowOf1 t p) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  exact congrArg (V c (Pipeline.arrRef spec1 0)) h

theorem xb1_1_apply (c : Dev nD) (t : Fin cfg1.N) (p : Fin 5000) (q : Fin 128) :
    xb1_1 V c t (ix2 p q) = V c (Pipeline.arrRef spec1 1) (ix2 (rowOf1 t p) q) := by
  obtain ⟨e00, e01, e10, e11, e20, e21, e30, e31, e40, e41, e50, e51, e60, e61⟩ := idx_facts1 t
  have h : ((cfg1.win 1).blk t).view.emb (ix2 p q) = ix2 (rowOf1 t p) q := by
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  exact congrArg (V c (Pipeline.arrRef spec1 1)) h

theorem xb1_2_apply (c : Dev nD) (t : Fin cfg1.N) (p : Fin 5000) :
    xb1_2 V c t (ix2 p 0) = V c (Pipeline.arrRef spec1 2) (ix2 (rowOf1 t p) 0) := by
  obtain ⟨e00, e01, e10, e11, e20, e21, e30, e31, e40, e41, e50, e51, e60, e61⟩ := idx_facts1 t
  have h : ((cfg1.win 2).blk t).view.emb (ix2 p 0) = ix2 (rowOf1 t p) 0 := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  exact congrArg (V c (Pipeline.arrRef spec1 2)) h

theorem xb1_3_apply (c : Dev nD) (t : Fin cfg1.N) (q : Fin 128) :
    xb1_3 V c t (ix2 0 q) = V c (Pipeline.arrRef spec1 3) (ix2 0 q) := by
  obtain ⟨e00, e01, e10, e11, e20, e21, e30, e31, e40, e41, e50, e51, e60, e61⟩ := idx_facts1 t
  have h : ((cfg1.win 3).blk t).view.emb (ix2 0 q) = ix2 0 q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  exact congrArg (V c (Pipeline.arrRef spec1 3)) h

/-! ## The combined matrix -/

/-- The combined matrix of the arrays the region finds. -/
abbrev Cmb1 (c : Dev nD) : Cert.Spec.Mat 50000 128 :=
  Cert.Spec.comb (fun r j => V c (Pipeline.arrRef spec1 0) (ix2 r j)) (fun r j => V c (Pipeline.arrRef spec1 1) (ix2 r j)) (fun r => V c (Pipeline.arrRef spec1 2) (ix2 r 0)) (fun j => V c (Pipeline.arrRef spec1 3) (ix2 0 j))

/-- The body's combined block at point `t`, entry (p, q), is the combined matrix at row 5000 t + p. -/
theorem blk1_pay (c : Dev nD) (t : Fin cfg1.N) (p : Fin 5000) (q : Fin 128) :
    k1_pay1 (F := Ideal) (xb1_0 V c t) (xb1_1 V c t) (xb1_2 V c t) (xb1_3 V c t) (ix2 p q) = Cmb1 V c (rowOf1 t p) q := by
  refine (k1_pay1_apply (xb1_0 V c t) (xb1_1 V c t) (xb1_2 V c t) (xb1_3 V c t) p q).trans ?_
  rw [xb1_0_apply V c t p q, xb1_1_apply V c t p q, xb1_2_apply V c t p, xb1_3_apply V c t q]
  first | done | rfl

/-- The combined matrix by a natural-number row (zero past the last row), so that partial sums over the blocks
    can be written over a range of naturals. -/
def Cn1 (c : Dev nD) (r : ℕ) (q : Fin 128) : EReal := if h : r < 50000 then Cmb1 V c ⟨r, h⟩ q else 0

theorem Cn1_of_lt (c : Dev nD) {r : ℕ} (h : r < 50000) (q : Fin 128) : Cn1 V c r q = Cmb1 V c ⟨r, h⟩ q := dif_pos h

theorem blk1_pay_n (c : Dev nD) (t : Fin cfg1.N) (p : Fin 5000) (q : Fin 128) :
    k1_pay1 (F := Ideal) (xb1_0 V c t) (xb1_1 V c t) (xb1_2 V c t) (xb1_3 V c t) (ix2 p q) = Cn1 V c (t.val * 5000 + p.val) q :=
  (blk1_pay V c t p q).trans (Cn1_of_lt V c (rowOf1 t p).isLt q).symm

/-! ## Output window 4: the combined matrix, block by block -/

/-- The array the window ends holding. -/
abbrev G1_4 (c : Dev nD) : S50000x128.Idx → Elt Ideal .f32 := fun i => Cmb1 V c (i 0) (i 1)

/-- What point `t` writes back is block `t` of it. -/
theorem flushed1_4_eq (c : Dev nD) (t : Fin cfg1.N) :
    (dat1 V c).flushed 4 t = ((cfg1.win 4).blk t).view.read (Elt Ideal) (G1_4 V c) := by
  show (cfg1.win 4).cut (grid1.coords t) ((dat1 V c).after 4 t) = _
  rw [after1_4]
  obtain ⟨e00, e01, e10, e11, e20, e21, e30, e31, e40, e41, e50, e51, e60, e61⟩ := idx_facts1 t
  funext j
  obtain ⟨p, q, rfl⟩ : ∃ (p : Fin 5000) (q : Fin 128), j = ix2 p q := ⟨j 0, j 1, eq_ix2 j⟩
  show k1_pay1 (F := Ideal) (xb1_0 V c t) (xb1_1 V c t) (xb1_2 V c t) (xb1_3 V c t) (ix2 p q) = G1_4 V c (((cfg1.win 4).blk t).view.emb (ix2 p q))
  have hemb : ((cfg1.win 4).blk t).view.emb (ix2 p q) = ix2 (rowOf1 t p) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [hemb]
  exact blk1_pay V c t p q

/-- An index of the array is in point `t`'s block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole (Pipeline.arrRef spec1 4)).slice (win1_4.rect t)).set ↔ _
  rw [View.set_slice_whole, Rect.mem_set_unit]
  exact Iff.rfl

/-- Every block of rows is some point's. -/
theorem idx_onto1_4 : ∀ q0 : Fin 10, ∃ t : Fin cfg1.N, win1_4.index t = ![q0.val, 0] :=
  (by decide +kernel : ∀ q0 : Fin 10, ∃ t : Fin grid1.N, win1_4.index t = ![q0.val, 0])

/-- Every entry of the array is in some point's block: row r is in block r / 5000. -/
theorem cover1_4_arr (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The combined array after the ten points. -/
theorem final1_4 (c : Dev nD) : (dat1 V c).arrAt 4 cfg1.N = G1_4 V c :=
  (dat1 V c).arrAt_eq_of_cover 4 (G1_4 V c) (fun t _ => flushed1_4_eq V c t) cover1_4_arr

/-! ## Output windows 5 and 6: the running column sums -/

/-- Accumulator 5 after the point at position `n`, at column `q`: the column sums of the combined matrix over the rows of
    the blocks up to `n`. By induction on the point: the first point adds its block's column sums to the zero the
    reset stored, a later point to what the point before left. -/
theorem outsAt1_5_eq (c : Dev nD) : ∀ (n : ℕ) (h : n < cfg1.N) (q : Fin 128),
    outsAt1_5 V c n h (ix2 0 q) = ∑ t ∈ Finset.range (n + 1), ∑ p : Fin 5000, (Cn1 V c (t * 5000 + p.val) q)
  | 0, h, q => by
    show k1_pay4 (F := Ideal) (xb1_0 V c ⟨0, h⟩) (xb1_1 V c ⟨0, h⟩) (xb1_2 V c ⟨0, h⟩) (xb1_3 V c ⟨0, h⟩) (k1_pay2 (F := Ideal)) (ix2 0 q) = _
    refine (k1_pay4_apply (xb1_0 V c ⟨0, h⟩) (xb1_1 V c ⟨0, h⟩) (xb1_2 V c ⟨0, h⟩) (xb1_3 V c ⟨0, h⟩) (k1_pay2 (F := Ideal)) q).trans ?_
    simp only [k1_pay2_apply, zero_add, Finset.sum_range_one]
    refine Finset.sum_congr rfl fun p _ => ?_
    rw [blk1_pay_n V c ⟨0, h⟩ p q]
    first | done | rfl
  | n + 1, h, q => by
    show k1_pay4 (F := Ideal) (xb1_0 V c ⟨n + 1, h⟩) (xb1_1 V c ⟨n + 1, h⟩) (xb1_2 V c ⟨n + 1, h⟩) (xb1_3 V c ⟨n + 1, h⟩) (outsAt1_5 V c n (Nat.lt_of_succ_lt h)) (ix2 0 q) = _
    refine (k1_pay4_apply (xb1_0 V c ⟨n + 1, h⟩) (xb1_1 V c ⟨n + 1, h⟩) (xb1_2 V c ⟨n + 1, h⟩) (xb1_3 V c ⟨n + 1, h⟩) (outsAt1_5 V c n (Nat.lt_of_succ_lt h)) q).trans ?_
    rw [outsAt1_5_eq c n (Nat.lt_of_succ_lt h) q, Finset.sum_range_succ _ (n + 1)]
    congr 1
    refine Finset.sum_congr rfl fun p _ => ?_
    rw [blk1_pay_n V c ⟨n + 1, h⟩ p q]
    first | done | rfl

/-- The array accumulator 5's window ends holding: the column sums of the combined matrix, column by column. -/
abbrev G1_5 (c : Dev nD) : S1x128.Idx → Elt Ideal .f32 := fun i => Cert.Spec.colSum (Cmb1 V c) (i 1)

/-- The one write-back, after the last point, writes it. -/
theorem flushed1_5_eq (c : Dev nD) (t : Fin cfg1.N) (hf : (cfg1.win 5).flush t = true) :
    (dat1 V c).flushed 5 t = ((cfg1.win 5).blk t).view.read (Elt Ideal) (G1_5 V c) := by
  have h9 : t.val = 9 := by have := (flush1_5 t).mp hf; have := tlt1 t; omega
  obtain ⟨e00, e01, e10, e11, e20, e21, e30, e31, e40, e41, e50, e51, e60, e61⟩ := idx_facts1 t
  -- two contents of the one-block array that agree entry by entry: the window's buffer is what it reads of the array
  have key : ∀ (G acc : Vec Ideal S1x128 .f32), (∀ q : Fin 128, acc (ix2 0 q) = G (ix2 0 q)) →
      (cfg1.win 5).cut (grid1.coords t) acc = ((cfg1.win 5).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg1.win 5).blk t).view.emb (ix2 0 q))
    have hemb : ((cfg1.win 5).blk t).view.emb (ix2 0 q) = ix2 0 q := by
      funext a; apply Fin.ext
      match a with
      | ⟨0, _⟩ => show win1_5.index t (0 : Fin 2) * 1 + 1 * 0 = 0; omega
      | ⟨1, _⟩ => show win1_5.index t (1 : Fin 2) * 128 + 1 * q.val = q.val; omega
    rw [hemb]
    exact hacc q
  show (cfg1.win 5).cut (grid1.coords t) ((dat1 V c).after 5 t) = _
  rw [after1_5]
  refine key (G1_5 V c) (outsAt1_5 V c t.val t.isLt) fun q => ?_
  rw [outsAt1_5_eq V c t.val t.isLt q, show t.val + 1 = 10 by omega]
  show _ = ∑ r : Fin 50000, Cmb1 V c r q
  rw [Cert.Spec.sum_blocks, Finset.sum_range]
  refine Finset.sum_congr rfl fun t _ => Finset.sum_congr rfl fun p _ => ?_
  rw [Cn1_of_lt V c (r := t.val * 5000 + p.val) (by have := t.isLt; have := p.isLt; omega) q]
  first | done | rfl

/-- An index of the array is in point `t`'s block iff each coordinate is in the block's range on its axis. -/
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole (Pipeline.arrRef spec1 5)).slice (win1_5.rect t)).set ↔ _
  rw [View.set_slice_whole, Rect.mem_set_unit]
  exact Iff.rfl

/-- The array is its one block, which the last point writes back. -/
theorem cover1_5_arr (i : S1x128.Idx) :
    ∃ t : Fin cfg1.N, (cfg1.win 5).flush t = true ∧ i ∈ ((cfg1.win 5).blk t).view.set := by
  have hi0 : (i 0).val < 1 := (i 0).isLt
  have hi1 : (i 1).val < 128 := (i 1).isLt
  obtain ⟨e00, e01, e10, e11, e20, e21, e30, e31, e40, e41, e50, e51, e60, e61⟩ := idx_facts1 t1_9
  refine ⟨t1_9, (flush1_5 t1_9).mpr rfl, ?_⟩
  rw [mem_blk1_5]
  intro a
  match a with
  | ⟨0, _⟩ => show win1_5.index t1_9 (0 : Fin 2) * 1 ≤ (i 0).val ∧ (i 0).val < win1_5.index t1_9 (0 : Fin 2) * 1 + 1; omega
  | ⟨1, _⟩ => show win1_5.index t1_9 (1 : Fin 2) * 128 ≤ (i 1).val ∧ (i 1).val < win1_5.index t1_9 (1 : Fin 2) * 128 + 128; omega

/-- The accumulator's array after the ten points. -/
theorem final1_5 (c : Dev nD) : (dat1 V c).arrAt 5 cfg1.N = G1_5 V c :=
  (dat1 V c).arrAt_eq_of_cover 5 (G1_5 V c) (flushed1_5_eq V c) cover1_5_arr

/-- Accumulator 6 after the point at position `n`, at column `q`: the column sums of squares of the combined matrix over the rows of
    the blocks up to `n`. By induction on the point: the first point adds its block's column sums to the zero the
    reset stored, a later point to what the point before left. -/
theorem outsAt1_6_eq (c : Dev nD) : ∀ (n : ℕ) (h : n < cfg1.N) (q : Fin 128),
    outsAt1_6 V c n h (ix2 0 q) = ∑ t ∈ Finset.range (n + 1), ∑ p : Fin 5000, (Cn1 V c (t * 5000 + p.val) q) * (Cn1 V c (t * 5000 + p.val) q)
  | 0, h, q => by
    show k1_pay5 (F := Ideal) (xb1_0 V c ⟨0, h⟩) (xb1_1 V c ⟨0, h⟩) (xb1_2 V c ⟨0, h⟩) (xb1_3 V c ⟨0, h⟩) (k1_pay3 (F := Ideal)) (ix2 0 q) = _
    refine (k1_pay5_apply (xb1_0 V c ⟨0, h⟩) (xb1_1 V c ⟨0, h⟩) (xb1_2 V c ⟨0, h⟩) (xb1_3 V c ⟨0, h⟩) (k1_pay3 (F := Ideal)) q).trans ?_
    simp only [k1_pay3_apply, zero_add, Finset.sum_range_one]
    refine Finset.sum_congr rfl fun p _ => ?_
    rw [blk1_pay_n V c ⟨0, h⟩ p q]
    first | done | rfl
  | n + 1, h, q => by
    show k1_pay5 (F := Ideal) (xb1_0 V c ⟨n + 1, h⟩) (xb1_1 V c ⟨n + 1, h⟩) (xb1_2 V c ⟨n + 1, h⟩) (xb1_3 V c ⟨n + 1, h⟩) (outsAt1_6 V c n (Nat.lt_of_succ_lt h)) (ix2 0 q) = _
    refine (k1_pay5_apply (xb1_0 V c ⟨n + 1, h⟩) (xb1_1 V c ⟨n + 1, h⟩) (xb1_2 V c ⟨n + 1, h⟩) (xb1_3 V c ⟨n + 1, h⟩) (outsAt1_6 V c n (Nat.lt_of_succ_lt h)) q).trans ?_
    rw [outsAt1_6_eq c n (Nat.lt_of_succ_lt h) q, Finset.sum_range_succ _ (n + 1)]
    congr 1
    refine Finset.sum_congr rfl fun p _ => ?_
    rw [blk1_pay_n V c ⟨n + 1, h⟩ p q]
    first | done | rfl

/-- The array accumulator 6's window ends holding: the column sums of squares of the combined matrix, column by column. -/
abbrev G1_6 (c : Dev nD) : S1x128.Idx → Elt Ideal .f32 := fun i => Cert.Spec.colSumSq (Cmb1 V c) (i 1)

/-- The one write-back, after the last point, writes it. -/
theorem flushed1_6_eq (c : Dev nD) (t : Fin cfg1.N) (hf : (cfg1.win 6).flush t = true) :
    (dat1 V c).flushed 6 t = ((cfg1.win 6).blk t).view.read (Elt Ideal) (G1_6 V c) := by
  have h9 : t.val = 9 := by have := (flush1_6 t).mp hf; have := tlt1 t; omega
  obtain ⟨e00, e01, e10, e11, e20, e21, e30, e31, e40, e41, e50, e51, e60, e61⟩ := idx_facts1 t
  -- two contents of the one-block array that agree entry by entry: the window's buffer is what it reads of the array
  have key : ∀ (G acc : Vec Ideal S1x128 .f32), (∀ q : Fin 128, acc (ix2 0 q) = G (ix2 0 q)) →
      (cfg1.win 6).cut (grid1.coords t) acc = ((cfg1.win 6).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg1.win 6).blk t).view.emb (ix2 0 q))
    have hemb : ((cfg1.win 6).blk t).view.emb (ix2 0 q) = ix2 0 q := by
      funext a; apply Fin.ext
      match a with
      | ⟨0, _⟩ => show win1_6.index t (0 : Fin 2) * 1 + 1 * 0 = 0; omega
      | ⟨1, _⟩ => show win1_6.index t (1 : Fin 2) * 128 + 1 * q.val = q.val; omega
    rw [hemb]
    exact hacc q
  show (cfg1.win 6).cut (grid1.coords t) ((dat1 V c).after 6 t) = _
  rw [after1_6]
  refine key (G1_6 V c) (outsAt1_6 V c t.val t.isLt) fun q => ?_
  rw [outsAt1_6_eq V c t.val t.isLt q, show t.val + 1 = 10 by omega]
  show _ = ∑ r : Fin 50000, Cmb1 V c r q * Cmb1 V c r q
  rw [Cert.Spec.sum_blocks, Finset.sum_range]
  refine Finset.sum_congr rfl fun t _ => Finset.sum_congr rfl fun p _ => ?_
  rw [Cn1_of_lt V c (r := t.val * 5000 + p.val) (by have := t.isLt; have := p.isLt; omega) q]
  first | done | rfl

/-- An index of the array is in point `t`'s block iff each coordinate is in the block's range on its axis. -/
theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole (Pipeline.arrRef spec1 6)).slice (win1_6.rect t)).set ↔ _
  rw [View.set_slice_whole, Rect.mem_set_unit]
  exact Iff.rfl

/-- The array is its one block, which the last point writes back. -/
theorem cover1_6_arr (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨e00, e01, e10, e11, e20, e21, e30, e31, e40, e41, e50, e51, e60, e61⟩ := idx_facts1 t1_9
  refine ⟨t1_9, (flush1_6 t1_9).mpr rfl, ?_⟩
  rw [mem_blk1_6]
  intro a
  match a with
  | ⟨0, _⟩ => show win1_6.index t1_9 (0 : Fin 2) * 1 ≤ (i 0).val ∧ (i 0).val < win1_6.index t1_9 (0 : Fin 2) * 1 + 1; omega
  | ⟨1, _⟩ => show win1_6.index t1_9 (1 : Fin 2) * 128 ≤ (i 1).val ∧ (i 1).val < win1_6.index t1_9 (1 : Fin 2) * 128 + 128; omega

/-- The accumulator's array after the ten points. -/
theorem final1_6 (c : Dev nD) : (dat1 V c).arrAt 6 cfg1.N = G1_6 V c :=
  (dat1 V c).arrAt_eq_of_cover 6 (G1_6 V c) (flushed1_6_eq V c) cover1_6_arr

/-! ## The three arrays, entry by entry -/

/-- Entry (r, j) of the combined array after the region. -/
theorem arrAt1_4 (c : Dev nD) (r : Fin 50000) (j : Fin 128) :
    (dat1 (F := Ideal) V c).arrAt 4 cfg1.N (ix2 r j)
      = Cert.Spec.comb (fun r j => V c (Pipeline.arrRef spec1 0) (ix2 r j)) (fun r j => V c (Pipeline.arrRef spec1 1) (ix2 r j)) (fun r => V c (Pipeline.arrRef spec1 2) (ix2 r 0)) (fun j => V c (Pipeline.arrRef spec1 3) (ix2 0 j)) r j := by
  rw [final1_4]

/-- Column j of the column sums' array after the region. -/
theorem arrAt1_5 (c : Dev nD) (j : Fin 128) :
    (dat1 (F := Ideal) V c).arrAt 5 cfg1.N (ix2 0 j)
      = Cert.Spec.colSum (Cert.Spec.comb (fun r j => V c (Pipeline.arrRef spec1 0) (ix2 r j)) (fun r j => V c (Pipeline.arrRef spec1 1) (ix2 r j)) (fun r => V c (Pipeline.arrRef spec1 2) (ix2 r 0)) (fun j => V c (Pipeline.arrRef spec1 3) (ix2 0 j))) j := by
  rw [final1_5]

/-- Column j of the column sums of squares' array after the region. -/
theorem arrAt1_6 (c : Dev nD) (j : Fin 128) :
    (dat1 (F := Ideal) V c).arrAt 6 cfg1.N (ix2 0 j)
      = Cert.Spec.colSumSq (Cert.Spec.comb (fun r j => V c (Pipeline.arrRef spec1 0) (ix2 r j)) (fun r j => V c (Pipeline.arrRef spec1 1) (ix2 r j)) (fun r => V c (Pipeline.arrRef spec1 2) (ix2 r 0)) (fun j => V c (Pipeline.arrRef spec1 3) (ix2 0 j))) j := by
  rw [final1_6]

end Region1

end Cert.KernelIdeal.HandV

end
-- ==== Proof.KI.V2.lean ====
import proofs.«430760_j5652176962022_1_alg».proof.Proof.KI.R2
import proofs.«430760_j5652176962022_1_alg».proof.Proof.KI.Mm
import proofs.«430760_j5652176962022_1_alg».proof.Proof.Spec
import Idealize.ShloMosaic.Lib.Pipeline.Value
import Idealize.ShloMosaic.Lib.ValueLayout

/-!
  What a normalise-rectify-multiply layer's output array holds after its ten grid points, entry by entry: row r,
  column j of the product of the batch-normalised, rectified combined features with the weight matrix. Each grid
  point writes back one block of 5000 rows; the body's store is the block product on the matrix unit of the
  normalised block, which over the extended reals is the plain sum over the 128 columns; the statistics, scale and
  shift are one row each, read whole at every point; the ten blocks tile the 50000 rows.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region2
variable (V : (c : Dev nD) → (b : Ref sig .tc) → Buf (Elt Ideal) ((c : Thread nD τ).loc b))

theorem zero_off2 : (![0, 0] : Fin 2 → Nat) = fun _ => 0 := funext fun a => by fin_cases a <;> rfl

/-- The body's payload at entry (p, q) of the block: the block of rows is normalised by the per-column mean and
    variance, scaled, shifted and clamped at zero, column by column (each [1, 128] row of statistics is read at its
    one row); the narrowing of the operands is the identity on extended reals, and the product into the zero
    accumulator is the sum over the contracted column. -/
theorem pay2_apply (x0 : Vec Ideal S5000x128 .f32) (x1 x2 x3 x4 : Vec Ideal S1x128 .f32) (x5 : Vec Ideal S128x128 .f32)
    (p : Fin 5000) (q : Fin 128) :
    k2_pay1 (F := Ideal) x0 x1 x2 x3 x4 x5 (ix2 p q)
      = ∑ k : Fin 128, max ((x0 (ix2 p k) - x1 (ix2 (0 : Fin 1) k)) * Ideal.rsqrt (x2 (ix2 (0 : Fin 1) k) + Cert.Spec.epsF) * x3 (ix2 (0 : Fin 1) k)
          + x4 (ix2 (0 : Fin 1) k)) 0 * x5 (ix2 k q) := by
  unfold k2_pay1
  rw [matmul_blk_apply]
  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply,
    shapeCast_self, shapeCast_self, shapeCast_self, shapeCast_self, shapeCast_self]
  show max ((x0 (ix2 p k) - x1 (ix2 (0 : Fin 1) k)) * Ideal.rsqrt (x2 (ix2 (0 : Fin 1) k) + Ideal.ofBits .f32 0x3727C5AC#32) * x3 (ix2 (0 : Fin 1) k)
      + x4 (ix2 (0 : Fin 1) k)) (Ideal.ofBits .f32 0x00000000#32) * x5 (ix2 k q) = _
  rw [Ideal.ofBits_zero_f32]
  rfl

/-- The array the output window ends holding: the product of the normalised, rectified features with the weights,
    entry by entry. -/
abbrev G2 (c : Dev nD) : S50000x128.Idx → Elt Ideal .f32 := fun i =>
  Cert.Spec.lin (Cert.Spec.bnRelu (fun r j => V c (Pipeline.arrRef spec2 0) (ix2 r j)) (fun j => V c (Pipeline.arrRef spec2 1) (ix2 (0 : Fin 1) j)) (fun j => V c (Pipeline.arrRef spec2 2) (ix2 (0 : Fin 1) j)) (fun j => V c (Pipeline.arrRef spec2 3) (ix2 (0 : Fin 1) j)) (fun j => V c (Pipeline.arrRef spec2 4) (ix2 (0 : Fin 1) j))) (fun k j => V c (Pipeline.arrRef spec2 5) (ix2 k j)) (i 0) (i 1)

/-- The printed index maps, decided over the grid: the feature block and the output block are block `t` of the rows;
    the four rows of statistics and the weight matrix are each their one block. -/
theorem idx_facts2 : ∀ t : Fin cfg2.N, win2_0.index t (0 : Fin 2) = win2_6.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) ≤ 9
    ∧ win2_6.index t (1 : Fin 2) = 0 :=
  (by decide +kernel : ∀ t : Fin grid2.N, _)

/-- Every block of rows is some point's. -/
theorem idx_onto2 : ∀ q0 : Fin 10, ∃ t : Fin cfg2.N, win2_6.index t = ![q0.val, 0] :=
  (by decide +kernel : ∀ q0 : Fin 10, ∃ t : Fin grid2.N, win2_6.index t = ![q0.val, 0])

set_option maxHeartbeats 2000000 in
/-- What point `t` writes back is block `t` of `G2`. -/
theorem flushed2_6_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero zero_off2]
  simp only [View.ld_unit_zero (S := S5000x128) zero_off2, View.ld_unit_zero (S := S1x128) zero_off2, View.ld_unit_zero (S := S128x128) zero_off2]
  obtain ⟨e0, e1, e2, e3, e4, e5, e6, e7, e8, e9, e10, e11, e12, e13⟩ := idx_facts2 t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = G2 V c (((cfg2.win 6).blk t).view.emb (ix2 p q))
  rw [pay2_apply]
  show _ = ∑ k : Fin 128, _
  refine Finset.sum_congr rfl fun k _ => ?_
  have h0 : ((cfg2.win 0).blk t).view.emb (ix2 p k) = ix2 ((((cfg2.win 6).blk t).view.emb (ix2 p q)) 0) k := by
    funext a; apply Fin.ext
    match a with
    | ⟨0, _⟩ => show win2_0.index t (0 : Fin 2) * 5000 + 1 * p.val = win2_6.index t (0 : Fin 2) * 5000 + 1 * p.val; omega
    | ⟨1, _⟩ => show win2_0.index t (1 : Fin 2) * 128 + 1 * k.val = k.val; omega
  have a0 : iblk2 V c 0 t (ix2 p k) = V c (Pipeline.arrRef spec2 0) (ix2 ((((cfg2.win 6).blk t).view.emb (ix2 p q)) 0) k) :=
    congrArg (V c (Pipeline.arrRef spec2 0)) h0
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have a1 : iblk2 V c 1 t (ix2 (0 : Fin 1) k) = V c (Pipeline.arrRef spec2 1) (ix2 (0 : Fin 1) k) :=
    congrArg (V c (Pipeline.arrRef spec2 1)) h1
  have h2 : ((cfg2.win 2).blk t).view.emb (ix2 (0 : Fin 1) k) = ix2 (0 : Fin 1) k := by
    funext a; apply Fin.ext
    match a with
    | ⟨0, _⟩ => show win2_2.index t (0 : Fin 2) * 1 + 1 * 0 = 0; omega
    | ⟨1, _⟩ => show win2_2.index t (1 : Fin 2) * 128 + 1 * k.val = k.val; omega
  have a2 : iblk2 V c 2 t (ix2 (0 : Fin 1) k) = V c (Pipeline.arrRef spec2 2) (ix2 (0 : Fin 1) k) :=
    congrArg (V c (Pipeline.arrRef spec2 2)) h2
  have h3 : ((cfg2.win 3).blk t).view.emb (ix2 (0 : Fin 1) k) = ix2 (0 : Fin 1) k := by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  have a3 : iblk2 V c 3 t (ix2 (0 : Fin 1) k) = V c (Pipeline.arrRef spec2 3) (ix2 (0 : Fin 1) k) :=
    congrArg (V c (Pipeline.arrRef spec2 3)) h3
  have h4 : ((cfg2.win 4).blk t).view.emb (ix2 (0 : Fin 1) k) = ix2 (0 : Fin 1) k := by
    funext a; apply Fin.ext
    match a with
    | ⟨0, _⟩ => show win2_4.index t (0 : Fin 2) * 1 + 1 * 0 = 0; omega
    | ⟨1, _⟩ => show win2_4.index t (1 : Fin 2) * 128 + 1 * k.val = k.val; omega
  have a4 : iblk2 V c 4 t (ix2 (0 : Fin 1) k) = V c (Pipeline.arrRef spec2 4) (ix2 (0 : Fin 1) k) :=
    congrArg (V c (Pipeline.arrRef spec2 4)) h4
  have h5 : ((cfg2.win 5).blk t).view.emb (ix2 k q) = ix2 k ((((cfg2.win 6).blk t).view.emb (ix2 p q)) 1) := by
    funext a; apply Fin.ext
    match a with
    | ⟨0, _⟩ => show win2_5.index t (0 : Fin 2) * 128 + 1 * k.val = k.val; omega
    | ⟨1, _⟩ => show win2_5.index t (1 : Fin 2) * 128 + 1 * q.val = win2_6.index t (1 : Fin 2) * 128 + 1 * q.val; omega
  have a5 : iblk2 V c 5 t (ix2 k q) = V c (Pipeline.arrRef spec2 5) (ix2 k ((((cfg2.win 6).blk t).view.emb (ix2 p q)) 1)) :=
    congrArg (V c (Pipeline.arrRef spec2 5)) h5
  rw [a0, a1, a2, a3, a4, a5]
  rfl

/-- An index of the array is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every entry of the array is in some point's block: row r is in block r / 5000. -/
theorem cover2_6_arr (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the ten points is `G2`. -/
theorem final2_6 (c : Dev nD) : (dat2 V c).arrAt 6 cfg2.N = G2 V c :=
  (dat2 V c).arrAt_eq_of_cover 6 (G2 V c) (fun t _ => flushed2_6_eq V c t) cover2_6_arr

/-- Entry (r, j) of the output array after the region: row r of the normalised, rectified features times column j
    of the weights. -/
theorem arrAt2_6 (c : Dev nD) (r : Fin 50000) (j : Fin 128) :
    (dat2 (F := Ideal) V c).arrAt 6 cfg2.N (ix2 r j)
      = Cert.Spec.lin (Cert.Spec.bnRelu (fun r j => V c (Pipeline.arrRef spec2 0) (ix2 r j)) (fun j => V c (Pipeline.arrRef spec2 1) (ix2 (0 : Fin 1) j)) (fun j => V c (Pipeline.arrRef spec2 2) (ix2 (0 : Fin 1) j)) (fun j => V c (Pipeline.arrRef spec2 3) (ix2 (0 : Fin 1) j)) (fun j => V c (Pipeline.arrRef spec2 4) (ix2 (0 : Fin 1) j))) (fun k j => V c (Pipeline.arrRef spec2 5) (ix2 k j)) r j := by
  rw [final2_6]

end Region2

end Cert.KernelIdeal.HandV

end
-- ==== Proof.KI.V3.lean ====
import proofs.«430760_j5652176962022_1_alg».proof.Proof.KI.R3
import proofs.«430760_j5652176962022_1_alg».proof.Proof.Spec
import proofs.«430760_j5652176962022_1_alg».proof.Proof.Alg
import Idealize.ShloMosaic.Lib.Pipeline.Value
import Idealize.ShloMosaic.Lib.ValueIdx
import Idealize.ShloMosaic.PureOps.Ideal.Laws
import Mathlib.Algebra.BigOperators.Intervals

/-!
  What the combine-and-statistics region's three output arrays hold after its ten grid points, entry by entry, for
  any contents the region finds: the combined matrix c = agg + h · dinv + b row by row (each point writes back its
  block of 5000 rows), and its column sums and column sums of squares (two accumulators carried across the points:
  zeroed at the first point, each point adding its block's column sums, written back after the last; ten sums over
  5000 rows are the sum over the 50000 rows).
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region3
variable (V : (c : Dev nD) → (b : Ref sig .tc) → Buf (Elt Ideal) ((c : Thread nD τ).loc b))

/-! ## The body's payloads at an entry -/

/-- The combined block at entry (p, q): the aggregated message plus the feature weighted by the row's inverse degree
    plus the column's bias. -/
theorem k3_pay1_apply (x0 x1 : Vec Ideal S5000x128 .f32) (x2 : Vec Ideal S5000x1 .f32) (x3 : Vec Ideal S1x128 .f32)
    (p : Fin 5000) (q : Fin 128) :
    k3_pay1 (F := Ideal) x0 x1 x2 x3 (ix2 p q) = x1 (ix2 p q) + x0 (ix2 p q) * x2 (ix2 p 0) + x3 (ix2 0 q) := by
  unfold k3_pay1
  simp only [shapeCast_self]
  have e2 : broadcastTo S5000x128 x2 broadcasts_S5000x1_S5000x128 (ix2 p q) = x2 (ix2 p 0) :=
    broadcastTo_apply x2 _ (ix2 p q) (ix2 p 0) fun a => by
      match a with
      | ⟨0, _⟩ => rfl
      | ⟨1, _⟩ => rfl
  have e3 : broadcastTo S5000x128 x3 broadcasts_S1x128_S5000x128 (ix2 p q) = x3 (ix2 0 q) :=
    broadcastTo_apply x3 _ (ix2 p q) (ix2 0 q) fun a => by
      match a with
      | ⟨0, _⟩ => rfl
      | ⟨1, _⟩ => rfl
  show x1 (ix2 p q) + x0 (ix2 p q) * broadcastTo S5000x128 x2 broadcasts_S5000x1_S5000x128 (ix2 p q)
      + broadcastTo S5000x128 x3 broadcasts_S1x128_S5000x128 (ix2 p q) = _
  rw [e2, e3]

/-- The reset values are zero. -/
theorem k3_pay2_apply (q : Fin 128) : k3_pay2 (F := Ideal) (ix2 0 q) = 0 := by
  unfold k3_pay2
  show Ideal.ofBits .f32 0x00000000#32 = 0
  exact Ideal.ofBits_zero_f32

theorem k3_pay3_apply (q : Fin 128) : k3_pay3 (F := Ideal) (ix2 0 q) = 0 := by
  unfold k3_pay3
  show Ideal.ofBits .f32 0x00000000#32 = 0
  exact Ideal.ofBits_zero_f32

/-- A block's column sums laid out as one row: at column q the sum over the block's 5000 rows. -/
private theorem colsum_blk_apply (src : FVec Ideal S5000x128 .f32) (q : Fin 128) :
    shapeCast S1x128 (multiReduction (F := Ideal) .add [0] S128 src 0x00000000#32 reduces_S5000x128_S128 (.inl rfl) rfl)
        shapeCasts_S128_S1x128 (ix2 0 q)
      = ∑ p : Fin 5000, src (ix2 p q) := by
  refine (shapeCast_addUnit_apply ![128] _ shapeCasts_S128_S1x128 (ix2 0 q)).trans ?_
  refine (Ideal.multiReduction_add_single src 0x00000000#32 reduces_S5000x128_S128 (.inl rfl) rfl _).trans ?_
  refine Finset.sum_congr rfl fun p _ => congrArg src ?_
  funext a; apply Fin.ext
  match a with
  | ⟨0, _⟩ => rfl
  | ⟨1, _⟩ => rfl

/-- The running column sum after a point: what it was plus the block's column sum. -/
theorem k3_pay4_apply (x0 x1 : Vec Ideal S5000x128 .f32) (x2 : Vec Ideal S5000x1 .f32) (x3 : Vec Ideal S1x128 .f32)
    (acc : Vec Ideal S1x128 .f32) (q : Fin 128) :
    k3_pay4 (F := Ideal) x0 x1 x2 x3 acc (ix2 0 q)
      = acc (ix2 0 q) + ∑ p : Fin 5000, k3_pay1 (F := Ideal) x0 x1 x2 x3 (ix2 p q) := by
  unfold k3_pay4
  simp only [shapeCast_self]
  show acc (ix2 0 q) + shapeCast S1x128 (multiReduction (F := Ideal) .add [0] S128 (k3_pay1 (F := Ideal) x0 x1 x2 x3) 0x00000000#32 reduces_S5000x128_S128 (.inl rfl) rfl)
        shapeCasts_S128_S1x128 (ix2 0 q) = _
  rw [colsum_blk_apply]

/-- The running column sum of squares after a point. -/
theorem k3_pay5_apply (x0 x1 : Vec Ideal S5000x128 .f32) (x2 : Vec Ideal S5000x1 .f32) (x3 : Vec Ideal S1x128 .f32)
    (acc : Vec Ideal S1x128 .f32) (q : Fin 128) :
    k3_pay5 (F := Ideal) x0 x1 x2 x3 acc (ix2 0 q)
      = acc (ix2 0 q) + ∑ p : Fin 5000, k3_pay1 (F := Ideal) x0 x1 x2 x3 (ix2 p q) * k3_pay1 (F := Ideal) x0 x1 x2 x3 (ix2 p q) := by
  unfold k3_pay5
  simp only [shapeCast_self]
  show acc (ix2 0 q) + shapeCast S1x128 (multiReduction (F := Ideal) .add [0] S128 (mulf (k3_pay1 (F := Ideal) x0 x1 x2 x3) (k3_pay1 (F := Ideal) x0 x1 x2 x3)) 0x00000000#32 reduces_S5000x128_S128 (.inl rfl) rfl)
        shapeCasts_S128_S1x128 (ix2 0 q) = _
  rw [colsum_blk_apply]
  first | done | rfl

/-! ## The input blocks, read where the arrays hold them -/

/-- The printed index maps, decided over the grid: the row-blocked windows are at block `t` of the rows, the bias and
    the two accumulators at their one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The grid has ten points. -/
theorem tlt3 (t : Fin cfg3.N) : t.val < 10 := lt_of_lt_of_eq t.isLt (show cfg3.N = 10 from N_3)

/-- Row p of block t is row 5000 t + p of the matrix. -/
def rowOf3 (t : Fin cfg3.N) (p : Fin 5000) : Fin 50000 := ⟨t.val * 5000 + p.val, by have := tlt3 t; have := p.isLt; omega⟩

/-- The input windows' blocks at a point, at their literal types. -/
abbrev xb3_0 (c : Dev nD) (t : Fin cfg3.N) : Vec Ideal S5000x128 .f32 := iblk3 V c 0 t
abbrev xb3_1 (c : Dev nD) (t : Fin cfg3.N) : Vec Ideal S5000x128 .f32 := iblk3 V c 1 t
abbrev xb3_2 (c : Dev nD) (t : Fin cfg3.N) : Vec Ideal S5000x1 .f32 := iblk3 V c 2 t
abbrev xb3_3 (c : Dev nD) (t : Fin cfg3.N) : Vec Ideal S1x128 .f32 := iblk3 V c 3 t

theorem xb3_0_apply (c : Dev nD) (t : Fin cfg3.N) (p : Fin 5000) (q : Fin 128) :
    xb3_0 V c t (ix2 p q) = V c (Pipeline.arrRef spec3 0) (ix2 (rowOf3 t p) q) := by
  obtain ⟨e00, e01, e10, e11, e20, e21, e30, e31, e40, e41, e50, e51, e60, e61⟩ := idx_facts3 t
  have h : ((cfg3.win 0).blk t).view.emb (ix2 p q) = ix2 (rowOf3 t p) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  exact congrArg (V c (Pipeline.arrRef spec3 0)) h

theorem xb3_1_apply (c : Dev nD) (t : Fin cfg3.N) (p : Fin 5000) (q : Fin 128) :
    xb3_1 V c t (ix2 p q) = V c (Pipeline.arrRef spec3 1) (ix2 (rowOf3 t p) q) := by
  obtain ⟨e00, e01, e10, e11, e20, e21, e30, e31, e40, e41, e50, e51, e60, e61⟩ := idx_facts3 t
  have h : ((cfg3.win 1).blk t).view.emb (ix2 p q) = ix2 (rowOf3 t p) q := by
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  exact congrArg (V c (Pipeline.arrRef spec3 1)) h

theorem xb3_2_apply (c : Dev nD) (t : Fin cfg3.N) (p : Fin 5000) :
    xb3_2 V c t (ix2 p 0) = V c (Pipeline.arrRef spec3 2) (ix2 (rowOf3 t p) 0) := by
  obtain ⟨e00, e01, e10, e11, e20, e21, e30, e31, e40, e41, e50, e51, e60, e61⟩ := idx_facts3 t
  have h : ((cfg3.win 2).blk t).view.emb (ix2 p 0) = ix2 (rowOf3 t p) 0 := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  exact congrArg (V c (Pipeline.arrRef spec3 2)) h

theorem xb3_3_apply (c : Dev nD) (t : Fin cfg3.N) (q : Fin 128) :
    xb3_3 V c t (ix2 0 q) = V c (Pipeline.arrRef spec3 3) (ix2 0 q) := by
  obtain ⟨e00, e01, e10, e11, e20, e21, e30, e31, e40, e41, e50, e51, e60, e61⟩ := idx_facts3 t
  have h : ((cfg3.win 3).blk t).view.emb (ix2 0 q) = ix2 0 q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  exact congrArg (V c (Pipeline.arrRef spec3 3)) h

/-! ## The combined matrix -/

/-- The combined matrix of the arrays the region finds. -/
abbrev Cmb3 (c : Dev nD) : Cert.Spec.Mat 50000 128 :=
  Cert.Spec.comb (fun r j => V c (Pipeline.arrRef spec3 0) (ix2 r j)) (fun r j => V c (Pipeline.arrRef spec3 1) (ix2 r j)) (fun r => V c (Pipeline.arrRef spec3 2) (ix2 r 0)) (fun j => V c (Pipeline.arrRef spec3 3) (ix2 0 j))

/-- The body's combined block at point `t`, entry (p, q), is the combined matrix at row 5000 t + p. -/
theorem blk3_pay (c : Dev nD) (t : Fin cfg3.N) (p : Fin 5000) (q : Fin 128) :
    k3_pay1 (F := Ideal) (xb3_0 V c t) (xb3_1 V c t) (xb3_2 V c t) (xb3_3 V c t) (ix2 p q) = Cmb3 V c (rowOf3 t p) q := by
  refine (k3_pay1_apply (xb3_0 V c t) (xb3_1 V c t) (xb3_2 V c t) (xb3_3 V c t) p q).trans ?_
  rw [xb3_0_apply V c t p q, xb3_1_apply V c t p q, xb3_2_apply V c t p, xb3_3_apply V c t q]
  first | done | rfl

/-- The combined matrix by a natural-number row (zero past the last row), so that partial sums over the blocks
    can be written over a range of naturals. -/
def Cn3 (c : Dev nD) (r : ℕ) (q : Fin 128) : EReal := if h : r < 50000 then Cmb3 V c ⟨r, h⟩ q else 0

theorem Cn3_of_lt (c : Dev nD) {r : ℕ} (h : r < 50000) (q : Fin 128) : Cn3 V c r q = Cmb3 V c ⟨r, h⟩ q := dif_pos h

theorem blk3_pay_n (c : Dev nD) (t : Fin cfg3.N) (p : Fin 5000) (q : Fin 128) :
    k3_pay1 (F := Ideal) (xb3_0 V c t) (xb3_1 V c t) (xb3_2 V c t) (xb3_3 V c t) (ix2 p q) = Cn3 V c (t.val * 5000 + p.val) q :=
  (blk3_pay V c t p q).trans (Cn3_of_lt V c (rowOf3 t p).isLt q).symm

/-! ## Output window 4: the combined matrix, block by block -/

/-- The array the window ends holding. -/
abbrev G3_4 (c : Dev nD) : S50000x128.Idx → Elt Ideal .f32 := fun i => Cmb3 V c (i 0) (i 1)

/-- What point `t` writes back is block `t` of it. -/
theorem flushed3_4_eq (c : Dev nD) (t : Fin cfg3.N) :
    (dat3 V c).flushed 4 t = ((cfg3.win 4).blk t).view.read (Elt Ideal) (G3_4 V c) := by
  show (cfg3.win 4).cut (grid3.coords t) ((dat3 V c).after 4 t) = _
  rw [after3_4]
  obtain ⟨e00, e01, e10, e11, e20, e21, e30, e31, e40, e41, e50, e51, e60, e61⟩ := idx_facts3 t
  funext j
  obtain ⟨p, q, rfl⟩ : ∃ (p : Fin 5000) (q : Fin 128), j = ix2 p q := ⟨j 0, j 1, eq_ix2 j⟩
  show k3_pay1 (F := Ideal) (xb3_0 V c t) (xb3_1 V c t) (xb3_2 V c t) (xb3_3 V c t) (ix2 p q) = G3_4 V c (((cfg3.win 4).blk t).view.emb (ix2 p q))
  have hemb : ((cfg3.win 4).blk t).view.emb (ix2 p q) = ix2 (rowOf3 t p) q := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * q.val = q.val; omega
  rw [hemb]
  exact blk3_pay V c t p q

/-- An index of the array is in point `t`'s block iff each coordinate is in the block's range on its axis. -/
theorem mem_blk3_4 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole (Pipeline.arrRef spec3 4)).slice (win3_4.rect t)).set ↔ _
  rw [View.set_slice_whole, Rect.mem_set_unit]
  exact Iff.rfl

/-- Every block of rows is some point's. -/
theorem idx_onto3_4 : ∀ q0 : Fin 10, ∃ t : Fin cfg3.N, win3_4.index t = ![q0.val, 0] :=
  (by decide +kernel : ∀ q0 : Fin 10, ∃ t : Fin grid3.N, win3_4.index t = ![q0.val, 0])

/-- Every entry of the array is in some point's block: row r is in block r / 5000. -/
theorem cover3_4_arr (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto3_4 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The combined array after the ten points. -/
theorem final3_4 (c : Dev nD) : (dat3 V c).arrAt 4 cfg3.N = G3_4 V c :=
  (dat3 V c).arrAt_eq_of_cover 4 (G3_4 V c) (fun t _ => flushed3_4_eq V c t) cover3_4_arr

/-! ## Output windows 5 and 6: the running column sums -/

/-- Accumulator 5 after the point at position `n`, at column `q`: the column sums of the combined matrix over the rows of
    the blocks up to `n`. By induction on the point: the first point adds its block's column sums to the zero the
    reset stored, a later point to what the point before left. -/
theorem outsAt3_5_eq (c : Dev nD) : ∀ (n : ℕ) (h : n < cfg3.N) (q : Fin 128),
    outsAt3_5 V c n h (ix2 0 q) = ∑ t ∈ Finset.range (n + 1), ∑ p : Fin 5000, (Cn3 V c (t * 5000 + p.val) q)
  | 0, h, q => by
    show k3_pay4 (F := Ideal) (xb3_0 V c ⟨0, h⟩) (xb3_1 V c ⟨0, h⟩) (xb3_2 V c ⟨0, h⟩) (xb3_3 V c ⟨0, h⟩) (k3_pay2 (F := Ideal)) (ix2 0 q) = _
    refine (k3_pay4_apply (xb3_0 V c ⟨0, h⟩) (xb3_1 V c ⟨0, h⟩) (xb3_2 V c ⟨0, h⟩) (xb3_3 V c ⟨0, h⟩) (k3_pay2 (F := Ideal)) q).trans ?_
    simp only [k3_pay2_apply, zero_add, Finset.sum_range_one]
    refine Finset.sum_congr rfl fun p _ => ?_
    rw [blk3_pay_n V c ⟨0, h⟩ p q]
    first | done | rfl
  | n + 1, h, q => by
    show k3_pay4 (F := Ideal) (xb3_0 V c ⟨n + 1, h⟩) (xb3_1 V c ⟨n + 1, h⟩) (xb3_2 V c ⟨n + 1, h⟩) (xb3_3 V c ⟨n + 1, h⟩) (outsAt3_5 V c n (Nat.lt_of_succ_lt h)) (ix2 0 q) = _
    refine (k3_pay4_apply (xb3_0 V c ⟨n + 1, h⟩) (xb3_1 V c ⟨n + 1, h⟩) (xb3_2 V c ⟨n + 1, h⟩) (xb3_3 V c ⟨n + 1, h⟩) (outsAt3_5 V c n (Nat.lt_of_succ_lt h)) q).trans ?_
    rw [outsAt3_5_eq c n (Nat.lt_of_succ_lt h) q, Finset.sum_range_succ _ (n + 1)]
    congr 1
    refine Finset.sum_congr rfl fun p _ => ?_
    rw [blk3_pay_n V c ⟨n + 1, h⟩ p q]
    first | done | rfl

/-- The array accumulator 5's window ends holding: the column sums of the combined matrix, column by column. -/
abbrev G3_5 (c : Dev nD) : S1x128.Idx → Elt Ideal .f32 := fun i => Cert.Spec.colSum (Cmb3 V c) (i 1)

/-- The one write-back, after the last point, writes it. -/
theorem flushed3_5_eq (c : Dev nD) (t : Fin cfg3.N) (hf : (cfg3.win 5).flush t = true) :
    (dat3 V c).flushed 5 t = ((cfg3.win 5).blk t).view.read (Elt Ideal) (G3_5 V c) := by
  have h9 : t.val = 9 := by have := (flush3_5 t).mp hf; have := tlt3 t; omega
  obtain ⟨e00, e01, e10, e11, e20, e21, e30, e31, e40, e41, e50, e51, e60, e61⟩ := idx_facts3 t
  -- two contents of the one-block array that agree entry by entry: the window's buffer is what it reads of the array
  have key : ∀ (G acc : Vec Ideal S1x128 .f32), (∀ q : Fin 128, acc (ix2 0 q) = G (ix2 0 q)) →
      (cfg3.win 5).cut (grid3.coords t) acc = ((cfg3.win 5).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg3.win 5).blk t).view.emb (ix2 0 q))
    have hemb : ((cfg3.win 5).blk t).view.emb (ix2 0 q) = ix2 0 q := by
      funext a; apply Fin.ext
      match a with
      | ⟨0, _⟩ => show win3_5.index t (0 : Fin 2) * 1 + 1 * 0 = 0; omega
      | ⟨1, _⟩ => show win3_5.index t (1 : Fin 2) * 128 + 1 * q.val = q.val; omega
    rw [hemb]
    exact hacc q
  show (cfg3.win 5).cut (grid3.coords t) ((dat3 V c).after 5 t) = _
  rw [after3_5]
  refine key (G3_5 V c) (outsAt3_5 V c t.val t.isLt) fun q => ?_
  rw [outsAt3_5_eq V c t.val t.isLt q, show t.val + 1 = 10 by omega]
  show _ = ∑ r : Fin 50000, Cmb3 V c r q
  rw [Cert.Spec.sum_blocks, Finset.sum_range]
  refine Finset.sum_congr rfl fun t _ => Finset.sum_congr rfl fun p _ => ?_
  rw [Cn3_of_lt V c (r := t.val * 5000 + p.val) (by have := t.isLt; have := p.isLt; omega) q]
  first | done | rfl

/-- An index of the array is in point `t`'s block iff each coordinate is in the block's range on its axis. -/
theorem mem_blk3_5 (t : Fin cfg3.N) (i : S1x128.Idx) :
    i ∈ ((cfg3.win 5).blk t).view.set ↔ ∀ a : Fin 2, win3_5.index t a * S1x128.size a ≤ (i a).val ∧ (i a).val < win3_5.index t a * S1x128.size a + S1x128.size a := by
  show i ∈ ((View.whole (Pipeline.arrRef spec3 5)).slice (win3_5.rect t)).set ↔ _
  rw [View.set_slice_whole, Rect.mem_set_unit]
  exact Iff.rfl

/-- The array is its one block, which the last point writes back. -/
theorem cover3_5_arr (i : S1x128.Idx) :
    ∃ t : Fin cfg3.N, (cfg3.win 5).flush t = true ∧ i ∈ ((cfg3.win 5).blk t).view.set := by
  have hi0 : (i 0).val < 1 := (i 0).isLt
  have hi1 : (i 1).val < 128 := (i 1).isLt
  obtain ⟨e00, e01, e10, e11, e20, e21, e30, e31, e40, e41, e50, e51, e60, e61⟩ := idx_facts3 t3_9
  refine ⟨t3_9, (flush3_5 t3_9).mpr rfl, ?_⟩
  rw [mem_blk3_5]
  intro a
  match a with
  | ⟨0, _⟩ => show win3_5.index t3_9 (0 : Fin 2) * 1 ≤ (i 0).val ∧ (i 0).val < win3_5.index t3_9 (0 : Fin 2) * 1 + 1; omega
  | ⟨1, _⟩ => show win3_5.index t3_9 (1 : Fin 2) * 128 ≤ (i 1).val ∧ (i 1).val < win3_5.index t3_9 (1 : Fin 2) * 128 + 128; omega

/-- The accumulator's array after the ten points. -/
theorem final3_5 (c : Dev nD) : (dat3 V c).arrAt 5 cfg3.N = G3_5 V c :=
  (dat3 V c).arrAt_eq_of_cover 5 (G3_5 V c) (flushed3_5_eq V c) cover3_5_arr

/-- Accumulator 6 after the point at position `n`, at column `q`: the column sums of squares of the combined matrix over the rows of
    the blocks up to `n`. By induction on the point: the first point adds its block's column sums to the zero the
    reset stored, a later point to what the point before left. -/
theorem outsAt3_6_eq (c : Dev nD) : ∀ (n : ℕ) (h : n < cfg3.N) (q : Fin 128),
    outsAt3_6 V c n h (ix2 0 q) = ∑ t ∈ Finset.range (n + 1), ∑ p : Fin 5000, (Cn3 V c (t * 5000 + p.val) q) * (Cn3 V c (t * 5000 + p.val) q)
  | 0, h, q => by
    show k3_pay5 (F := Ideal) (xb3_0 V c ⟨0, h⟩) (xb3_1 V c ⟨0, h⟩) (xb3_2 V c ⟨0, h⟩) (xb3_3 V c ⟨0, h⟩) (k3_pay3 (F := Ideal)) (ix2 0 q) = _
    refine (k3_pay5_apply (xb3_0 V c ⟨0, h⟩) (xb3_1 V c ⟨0, h⟩) (xb3_2 V c ⟨0, h⟩) (xb3_3 V c ⟨0, h⟩) (k3_pay3 (F := Ideal)) q).trans ?_
    simp only [k3_pay3_apply, zero_add, Finset.sum_range_one]
    refine Finset.sum_congr rfl fun p _ => ?_
    rw [blk3_pay_n V c ⟨0, h⟩ p q]
    first | done | rfl
  | n + 1, h, q => by
    show k3_pay5 (F := Ideal) (xb3_0 V c ⟨n + 1, h⟩) (xb3_1 V c ⟨n + 1, h⟩) (xb3_2 V c ⟨n + 1, h⟩) (xb3_3 V c ⟨n + 1, h⟩) (outsAt3_6 V c n (Nat.lt_of_succ_lt h)) (ix2 0 q) = _
    refine (k3_pay5_apply (xb3_0 V c ⟨n + 1, h⟩) (xb3_1 V c ⟨n + 1, h⟩) (xb3_2 V c ⟨n + 1, h⟩) (xb3_3 V c ⟨n + 1, h⟩) (outsAt3_6 V c n (Nat.lt_of_succ_lt h)) q).trans ?_
    rw [outsAt3_6_eq c n (Nat.lt_of_succ_lt h) q, Finset.sum_range_succ _ (n + 1)]
    congr 1
    refine Finset.sum_congr rfl fun p _ => ?_
    rw [blk3_pay_n V c ⟨n + 1, h⟩ p q]
    first | done | rfl

/-- The array accumulator 6's window ends holding: the column sums of squares of the combined matrix, column by column. -/
abbrev G3_6 (c : Dev nD) : S1x128.Idx → Elt Ideal .f32 := fun i => Cert.Spec.colSumSq (Cmb3 V c) (i 1)

/-- The one write-back, after the last point, writes it. -/
theorem flushed3_6_eq (c : Dev nD) (t : Fin cfg3.N) (hf : (cfg3.win 6).flush t = true) :
    (dat3 V c).flushed 6 t = ((cfg3.win 6).blk t).view.read (Elt Ideal) (G3_6 V c) := by
  have h9 : t.val = 9 := by have := (flush3_6 t).mp hf; have := tlt3 t; omega
  obtain ⟨e00, e01, e10, e11, e20, e21, e30, e31, e40, e41, e50, e51, e60, e61⟩ := idx_facts3 t
  -- two contents of the one-block array that agree entry by entry: the window's buffer is what it reads of the array
  have key : ∀ (G acc : Vec Ideal S1x128 .f32), (∀ q : Fin 128, acc (ix2 0 q) = G (ix2 0 q)) →
      (cfg3.win 6).cut (grid3.coords t) acc = ((cfg3.win 6).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg3.win 6).blk t).view.emb (ix2 0 q))
    have hemb : ((cfg3.win 6).blk t).view.emb (ix2 0 q) = ix2 0 q := by
      funext a; apply Fin.ext
      match a with
      | ⟨0, _⟩ => show win3_6.index t (0 : Fin 2) * 1 + 1 * 0 = 0; omega
      | ⟨1, _⟩ => show win3_6.index t (1 : Fin 2) * 128 + 1 * q.val = q.val; omega
    rw [hemb]
    exact hacc q
  show (cfg3.win 6).cut (grid3.coords t) ((dat3 V c).after 6 t) = _
  rw [after3_6]
  refine key (G3_6 V c) (outsAt3_6 V c t.val t.isLt) fun q => ?_
  rw [outsAt3_6_eq V c t.val t.isLt q, show t.val + 1 = 10 by omega]
  show _ = ∑ r : Fin 50000, Cmb3 V c r q * Cmb3 V c r q
  rw [Cert.Spec.sum_blocks, Finset.sum_range]
  refine Finset.sum_congr rfl fun t _ => Finset.sum_congr rfl fun p _ => ?_
  rw [Cn3_of_lt V c (r := t.val * 5000 + p.val) (by have := t.isLt; have := p.isLt; omega) q]
  first | done | rfl

/-- An index of the array is in point `t`'s block iff each coordinate is in the block's range on its axis. -/
theorem mem_blk3_6 (t : Fin cfg3.N) (i : S1x128.Idx) :
    i ∈ ((cfg3.win 6).blk t).view.set ↔ ∀ a : Fin 2, win3_6.index t a * S1x128.size a ≤ (i a).val ∧ (i a).val < win3_6.index t a * S1x128.size a + S1x128.size a := by
  show i ∈ ((View.whole (Pipeline.arrRef spec3 6)).slice (win3_6.rect t)).set ↔ _
  rw [View.set_slice_whole, Rect.mem_set_unit]
  exact Iff.rfl

/-- The array is its one block, which the last point writes back. -/
theorem cover3_6_arr (i : S1x128.Idx) :
    ∃ t : Fin cfg3.N, (cfg3.win 6).flush t = true ∧ i ∈ ((cfg3.win 6).blk t).view.set := by
  have hi0 : (i 0).val < 1 := (i 0).isLt
  have hi1 : (i 1).val < 128 := (i 1).isLt
  obtain ⟨e00, e01, e10, e11, e20, e21, e30, e31, e40, e41, e50, e51, e60, e61⟩ := idx_facts3 t3_9
  refine ⟨t3_9, (flush3_6 t3_9).mpr rfl, ?_⟩
  rw [mem_blk3_6]
  intro a
  match a with
  | ⟨0, _⟩ => show win3_6.index t3_9 (0 : Fin 2) * 1 ≤ (i 0).val ∧ (i 0).val < win3_6.index t3_9 (0 : Fin 2) * 1 + 1; omega
  | ⟨1, _⟩ => show win3_6.index t3_9 (1 : Fin 2) * 128 ≤ (i 1).val ∧ (i 1).val < win3_6.index t3_9 (1 : Fin 2) * 128 + 128; omega

/-- The accumulator's array after the ten points. -/
theorem final3_6 (c : Dev nD) : (dat3 V c).arrAt 6 cfg3.N = G3_6 V c :=
  (dat3 V c).arrAt_eq_of_cover 6 (G3_6 V c) (flushed3_6_eq V c) cover3_6_arr

/-! ## The three arrays, entry by entry -/

/-- Entry (r, j) of the combined array after the region. -/
theorem arrAt3_4 (c : Dev nD) (r : Fin 50000) (j : Fin 128) :
    (dat3 (F := Ideal) V c).arrAt 4 cfg3.N (ix2 r j)
      = Cert.Spec.comb (fun r j => V c (Pipeline.arrRef spec3 0) (ix2 r j)) (fun r j => V c (Pipeline.arrRef spec3 1) (ix2 r j)) (fun r => V c (Pipeline.arrRef spec3 2) (ix2 r 0)) (fun j => V c (Pipeline.arrRef spec3 3) (ix2 0 j)) r j := by
  rw [final3_4]

/-- Column j of the column sums' array after the region. -/
theorem arrAt3_5 (c : Dev nD) (j : Fin 128) :
    (dat3 (F := Ideal) V c).arrAt 5 cfg3.N (ix2 0 j)
      = Cert.Spec.colSum (Cert.Spec.comb (fun r j => V c (Pipeline.arrRef spec3 0) (ix2 r j)) (fun r j => V c (Pipeline.arrRef spec3 1) (ix2 r j)) (fun r => V c (Pipeline.arrRef spec3 2) (ix2 r 0)) (fun j => V c (Pipeline.arrRef spec3 3) (ix2 0 j))) j := by
  rw [final3_5]

/-- Column j of the column sums of squares' array after the region. -/
theorem arrAt3_6 (c : Dev nD) (j : Fin 128) :
    (dat3 (F := Ideal) V c).arrAt 6 cfg3.N (ix2 0 j)
      = Cert.Spec.colSumSq (Cert.Spec.comb (fun r j => V c (Pipeline.arrRef spec3 0) (ix2 r j)) (fun r j => V c (Pipeline.arrRef spec3 1) (ix2 r j)) (fun r => V c (Pipeline.arrRef spec3 2) (ix2 r 0)) (fun j => V c (Pipeline.arrRef spec3 3) (ix2 0 j))) j := by
  rw [final3_6]

end Region3

end Cert.KernelIdeal.HandV

end
-- ==== Proof.KI.V4.lean ====
import proofs.«430760_j5652176962022_1_alg».proof.Proof.KI.R4
import proofs.«430760_j5652176962022_1_alg».proof.Proof.KI.Mm
import proofs.«430760_j5652176962022_1_alg».proof.Proof.Spec
import Idealize.ShloMosaic.Lib.Pipeline.Value
import Idealize.ShloMosaic.Lib.ValueLayout

/-!
  What a normalise-rectify-multiply layer's output array holds after its ten grid points, entry by entry: row r,
  column j of the product of the batch-normalised, rectified combined features with the weight matrix. Each grid
  point writes back one block of 5000 rows; the body's store is the block product on the matrix unit of the
  normalised block, which over the extended reals is the plain sum over the 128 columns; the statistics, scale and
  shift are one row each, read whole at every point; the ten blocks tile the 50000 rows.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region4
variable (V : (c : Dev nD) → (b : Ref sig .tc) → Buf (Elt Ideal) ((c : Thread nD τ).loc b))

theorem zero_off4 : (![0, 0] : Fin 2 → Nat) = fun _ => 0 := funext fun a => by fin_cases a <;> rfl

/-- The body's payload at entry (p, q) of the block: the block of rows is normalised by the per-column mean and
    variance, scaled, shifted and clamped at zero, column by column (each [1, 128] row of statistics is read at its
    one row); the narrowing of the operands is the identity on extended reals, and the product into the zero
    accumulator is the sum over the contracted column. -/
theorem pay4_apply (x0 : Vec Ideal S5000x128 .f32) (x1 x2 x3 x4 : Vec Ideal S1x128 .f32) (x5 : Vec Ideal S128x128 .f32)
    (p : Fin 5000) (q : Fin 128) :
    k4_pay1 (F := Ideal) x0 x1 x2 x3 x4 x5 (ix2 p q)
      = ∑ k : Fin 128, max ((x0 (ix2 p k) - x1 (ix2 (0 : Fin 1) k)) * Ideal.rsqrt (x2 (ix2 (0 : Fin 1) k) + Cert.Spec.epsF) * x3 (ix2 (0 : Fin 1) k)
          + x4 (ix2 (0 : Fin 1) k)) 0 * x5 (ix2 k q) := by
  unfold k4_pay1
  rw [matmul_blk_apply]
  refine Finset.sum_congr rfl fun k _ => ?_
  rw [truncf_apply, truncf_apply, maximumf_apply, addf_apply, mulf_apply, mulf_apply, subf_apply,
    broadcastTo_1b_ab_apply, broadcastTo_1b_ab_apply, broadcastTo_1b_ab_apply, broadcastTo_1b_ab_apply,
    shapeCast_self, shapeCast_self, shapeCast_self, shapeCast_self, shapeCast_self]
  show max ((x0 (ix2 p k) - x1 (ix2 (0 : Fin 1) k)) * Ideal.rsqrt (x2 (ix2 (0 : Fin 1) k) + Ideal.ofBits .f32 0x3727C5AC#32) * x3 (ix2 (0 : Fin 1) k)
      + x4 (ix2 (0 : Fin 1) k)) (Ideal.ofBits .f32 0x00000000#32) * x5 (ix2 k q) = _
  rw [Ideal.ofBits_zero_f32]
  rfl

/-- The array the output window ends holding: the product of the normalised, rectified features with the weights,
    entry by entry. -/
abbrev G4 (c : Dev nD) : S50000x128.Idx → Elt Ideal .f32 := fun i =>
  Cert.Spec.lin (Cert.Spec.bnRelu (fun r j => V c (Pipeline.arrRef spec4 0) (ix2 r j)) (fun j => V c (Pipeline.arrRef spec4 1) (ix2 (0 : Fin 1) j)) (fun j => V c (Pipeline.arrRef spec4 2) (ix2 (0 : Fin 1) j)) (fun j => V c (Pipeline.arrRef spec4 3) (ix2 (0 : Fin 1) j)) (fun j => V c (Pipeline.arrRef spec4 4) (ix2 (0 : Fin 1) j))) (fun k j => V c (Pipeline.arrRef spec4 5) (ix2 k j)) (i 0) (i 1)

/-- The printed index maps, decided over the grid: the feature block and the output block are block `t` of the rows;
    the four rows of statistics and the weight matrix are each their one block. -/
theorem idx_facts4 : ∀ t : Fin cfg4.N, win4_0.index t (0 : Fin 2) = win4_6.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) ≤ 9
    ∧ win4_6.index t (1 : Fin 2) = 0 :=
  (by decide +kernel : ∀ t : Fin grid4.N, _)

/-- Every block of rows is some point's. -/
theorem idx_onto4 : ∀ q0 : Fin 10, ∃ t : Fin cfg4.N, win4_6.index t = ![q0.val, 0] :=
  (by decide +kernel : ∀ q0 : Fin 10, ∃ t : Fin grid4.N, win4_6.index t = ![q0.val, 0])

set_option maxHeartbeats 2000000 in
/-- What point `t` writes back is block `t` of `G4`. -/
theorem flushed4_6_eq (c : Dev nD) (t : Fin cfg4.N) :
    (dat4 V c).flushed 6 t = ((cfg4.win 6).blk t).view.read (Elt Ideal) (G4 V c) := by
  show (cfg4.win 6).cut (grid4.coords t) ((dat4 V c).after 6 t) = _
  rw [after4_6]
  unfold out4_6
  rw [View.canon_unit_zero zero_off4]
  simp only [View.ld_unit_zero (S := S5000x128) zero_off4, View.ld_unit_zero (S := S1x128) zero_off4, View.ld_unit_zero (S := S128x128) zero_off4]
  obtain ⟨e0, e1, e2, e3, e4, e5, e6, e7, e8, e9, e10, e11, e12, e13⟩ := idx_facts4 t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (ix2 p q)
    = G4 V c (((cfg4.win 6).blk t).view.emb (ix2 p q))
  rw [pay4_apply]
  show _ = ∑ k : Fin 128, _
  refine Finset.sum_congr rfl fun k _ => ?_
  have h0 : ((cfg4.win 0).blk t).view.emb (ix2 p k) = ix2 ((((cfg4.win 6).blk t).view.emb (ix2 p q)) 0) k := by
    funext a; apply Fin.ext
    match a with
    | ⟨0, _⟩ => show win4_0.index t (0 : Fin 2) * 5000 + 1 * p.val = win4_6.index t (0 : Fin 2) * 5000 + 1 * p.val; omega
    | ⟨1, _⟩ => show win4_0.index t (1 : Fin 2) * 128 + 1 * k.val = k.val; omega
  have a0 : iblk4 V c 0 t (ix2 p k) = V c (Pipeline.arrRef spec4 0) (ix2 ((((cfg4.win 6).blk t).view.emb (ix2 p q)) 0) k) :=
    congrArg (V c (Pipeline.arrRef spec4 0)) h0
  have h1 : ((cfg4.win 1).blk t).view.emb (ix2 (0 : Fin 1) k) = ix2 (0 : Fin 1) k := by
    funext a; apply Fin.ext
    match a with
    | ⟨0, _⟩ => show win4_1.index t (0 : Fin 2) * 1 + 1 * 0 = 0; omega
    | ⟨1, _⟩ => show win4_1.index t (1 : Fin 2) * 128 + 1 * k.val = k.val; omega
  have a1 : iblk4 V c 1 t (ix2 (0 : Fin 1) k) = V c (Pipeline.arrRef spec4 1) (ix2 (0 : Fin 1) k) :=
    congrArg (V c (Pipeline.arrRef spec4 1)) h1
  have h2 : ((cfg4.win 2).blk t).view.emb (ix2 (0 : Fin 1) k) = ix2 (0 : Fin 1) k := by
    funext a; apply Fin.ext
    match a with
    | ⟨0, _⟩ => show win4_2.index t (0 : Fin 2) * 1 + 1 * 0 = 0; omega
    | ⟨1, _⟩ => show win4_2.index t (1 : Fin 2) * 128 + 1 * k.val = k.val; omega
  have a2 : iblk4 V c 2 t (ix2 (0 : Fin 1) k) = V c (Pipeline.arrRef spec4 2) (ix2 (0 : Fin 1) k) :=
    congrArg (V c (Pipeline.arrRef spec4 2)) h2
  have h3 : ((cfg4.win 3).blk t).view.emb (ix2 (0 : Fin 1) k) = ix2 (0 : Fin 1) k := by
    funext a; apply Fin.ext
    match a with
    | ⟨0, _⟩ => show win4_3.index t (0 : Fin 2) * 1 + 1 * 0 = 0; omega
    | ⟨1, _⟩ => show win4_3.index t (1 : Fin 2) * 128 + 1 * k.val = k.val; omega
  have a3 : iblk4 V c 3 t (ix2 (0 : Fin 1) k) = V c (Pipeline.arrRef spec4 3) (ix2 (0 : Fin 1) k) :=
    congrArg (V c (Pipeline.arrRef spec4 3)) h3
  have h4 : ((cfg4.win 4).blk t).view.emb (ix2 (0 : Fin 1) k) = ix2 (0 : Fin 1) k := by
    funext a; apply Fin.ext
    match a with
    | ⟨0, _⟩ => show win4_4.index t (0 : Fin 2) * 1 + 1 * 0 = 0; omega
    | ⟨1, _⟩ => show win4_4.index t (1 : Fin 2) * 128 + 1 * k.val = k.val; omega
  have a4 : iblk4 V c 4 t (ix2 (0 : Fin 1) k) = V c (Pipeline.arrRef spec4 4) (ix2 (0 : Fin 1) k) :=
    congrArg (V c (Pipeline.arrRef spec4 4)) h4
  have h5 : ((cfg4.win 5).blk t).view.emb (ix2 k q) = ix2 k ((((cfg4.win 6).blk t).view.emb (ix2 p q)) 1) := by
    funext a; apply Fin.ext
    match a with
    | ⟨0, _⟩ => show win4_5.index t (0 : Fin 2) * 128 + 1 * k.val = k.val; omega
    | ⟨1, _⟩ => show win4_5.index t (1 : Fin 2) * 128 + 1 * q.val = win4_6.index t (1 : Fin 2) * 128 + 1 * q.val; omega
  have a5 : iblk4 V c 5 t (ix2 k q) = V c (Pipeline.arrRef spec4 5) (ix2 k ((((cfg4.win 6).blk t).view.emb (ix2 p q)) 1)) :=
    congrArg (V c (Pipeline.arrRef spec4 5)) h5
  rw [a0, a1, a2, a3, a4, a5]
  rfl

/-- An index of the array is in point `t`'s block iff each coordinate is in the block's range on its axis. -/
theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- Every entry of the array is in some point's block: row r is in block r / 5000. -/
theorem cover4_6_arr (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := idx_onto4 ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk4_6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output array after the ten points is `G4`. -/
theorem final4_6 (c : Dev nD) : (dat4 V c).arrAt 6 cfg4.N = G4 V c :=
  (dat4 V c).arrAt_eq_of_cover 6 (G4 V c) (fun t _ => flushed4_6_eq V c t) cover4_6_arr

/-- Entry (r, j) of the output array after the region: row r of the normalised, rectified features times column j
    of the weights. -/
theorem arrAt4_6 (c : Dev nD) (r : Fin 50000) (j : Fin 128) :
    (dat4 (F := Ideal) V c).arrAt 6 cfg4.N (ix2 r j)
      = Cert.Spec.lin (Cert.Spec.bnRelu (fun r j => V c (Pipeline.arrRef spec4 0) (ix2 r j)) (fun j => V c (Pipeline.arrRef spec4 1) (ix2 (0 : Fin 1) j)) (fun j => V c (Pipeline.arrRef spec4 2) (ix2 (0 : Fin 1) j)) (fun j => V c (Pipeline.arrRef spec4 3) (ix2 (0 : Fin 1) j)) (fun j => V c (Pipeline.arrRef spec4 4) (ix2 (0 : Fin 1) j))) (fun k j => V c (Pipeline.arrRef spec4 5) (ix2 k j)) r j := by
  rw [final4_6]

end Region4

end Cert.KernelIdeal.HandV

end
-- ==== Proof.KI.V5.lean ====
import proofs.«430760_j5652176962022_1_alg».proof.Proof.KI.R5
import proofs.«430760_j5652176962022_1_alg».proof.Proof.Spec
import proofs.«430760_j5652176962022_1_alg».proof.Proof.Alg
import Idealize.ShloMosaic.Lib.Pipeline.Value
import Idealize.ShloMosaic.Lib.ValueIdx
import Idealize.ShloMosaic.PureOps.Ideal.Laws
import Mathlib.Algebra.BigOperators.Intervals

/-!
  What the combine-and-statistics region's three output arrays hold after its ten grid points, entry by entry, for
  any contents the region finds: the combined matrix c = agg + h · dinv + b row by row (each point writes back its
  block of 5000 rows), and its column sums and column sums of squares (two accumulators carried across the points:
  zeroed at the first point, each point adding its block's column sums, written back after the last; ten sums over
  5000 rows are the sum over the 50000 rows).
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

section Region5
variable (V : (c : Dev nD) → (b : Ref sig .tc) → Buf (Elt Ideal) ((c : Thread nD τ).loc b))

/-! ## The body's payloads at an entry -/

/-- The combined block at entry (p, q): the aggregated message plus the feature weighted by the row's inverse degree
    plus the column's bias. -/
theorem k5_pay1_apply (x0 x1 : Vec Ideal S5000x128 .f32) (x2 : Vec Ideal S5000x1 .f32) (x3 : Vec Ideal S1x128 .f32)
    (p : Fin 5000) (q : Fin 128) :
    k5_pay1 (F := Ideal) x0 x1 x2 x3 (ix2 p q) = x1 (ix2 p q) + x0 (ix2 p q) * x2 (ix2 p 0) + x3 (ix2 0 q) := by
  unfold k5_pay1
  simp only [shapeCast_self]
  have e2 : broadcastTo S5000x128 x2 broadcasts_S5000x1_S5000x128 (ix2 p q) = x2 (ix2 p 0) :=
    broadcastTo_apply x2 _ (ix2 p q) (ix2 p 0) fun a => by
      match a with
      | ⟨0, _⟩ => rfl
      | ⟨1, _⟩ => rfl
  have e3 : broadcastTo S5000x128 x3 broadcasts_S1x128_S5000x128 (ix2 p q) = x3 (ix2 0 q) :=
    broadcastTo_apply x3 _ (ix2 p q) (ix2 0 q) fun a => by
      match a with
      | ⟨0, _⟩ => rfl
      | ⟨1, _⟩ => rfl
  show x1 (ix2 p q) + x0 (ix2 p q) * broadcastTo S5000x128 x2 broadcasts_S5000x1_S5000x128 (ix2 p q)
      + broadcastTo S5000x128 x3 broadcasts_S1x128_S5000x128 (ix2 p q) = _
  rw [e2, e3]

/-- The reset values are zero. -/
theorem k5_pay2_apply (q : Fin 128) : k5_pay2 (F := Ideal) (ix2 0 q) = 0 := by
  unfold k5_pay2
  show Ideal.ofBits .f32 0x00000000#32 = 0
  exact Ideal.ofBits_zero_f32

theorem k5_pay3_apply (q : Fin 128) : k5_pay3 (F := Ideal) (ix2 0 q) = 0 := by
  unfold k5_pay3
  show Ideal.ofBits .f32 0x00000000#32 = 0
  exact Ideal.ofBits_zero_f32

/-- A block's column sums laid out as one row: at column q the sum over the block's 5000 rows. -/
private theorem colsum_blk_apply (src : FVec Ideal S5000x128 .f32) (q : Fin 128) :
    shapeCast S1x128 (multiReduction (F := Ideal) .add [0] S128 src 0x00000000#32 reduces_S5000x128_S128 (.inl rfl) rfl)
        shapeCasts_S128_S1x128 (ix2 0 q)
      = ∑ p : Fin 5000, src (ix2 p q) := by
  refine (shapeCast_addUnit_apply ![128] _ shapeCasts_S128_S1x128 (ix2 0 q)).trans ?_
  refine (Ideal.multiReduction_add_single src 0x00000000#32 reduces_S5000x128_S128 (.inl rfl) rfl _).trans ?_
  refine Finset.sum_congr rfl fun p _ => congrArg src ?_
  funext a; apply Fin.ext
  match a with
  | ⟨0, _⟩ => rfl
  | ⟨1, _⟩ => rfl

/-- The running column sum after a point: what it was plus the block's column sum. -/
theorem k5_pay4_apply (x0 x1 : Vec Ideal S5000x128 .f32) (x2 : Vec Ideal S5000x1 .f32) (x3 : Vec Ideal S1x128 .f32)
    (acc : Vec Ideal S1x128 .f32) (q : Fin 128) :
    k5_pay4 (F := Ideal) x0 x1 x2 x3 acc (ix2 0 q)
      = acc (ix2 0 q) + ∑ p : Fin 5000, k5_pay1 (F := Ideal) x0 x1 x2 x3 (ix2 p q) := by
  unfold k5_pay4
  simp only [shapeCast_self]
  show acc (ix2 0 q) + shapeCast S1x128 (multiReduction (F := Ideal) .add [0] S128 (k5_pay1 (F := Ideal) x0 x1 x2 x3) 0x00000000#32 reduces_S5000x128_S128 (.inl rfl) rfl)
        shapeCasts_S128_S1x128 (ix2 0 q) = _
  rw [colsum_blk_apply]

/-- The running column sum of squares after a point. -/
theorem k5_pay5_apply (x0 x1 : Vec Ideal S5000x128 .f32) (x2 : Vec Ideal S5000x1 .f32) (x3 : Vec Ideal S1x128 .f32)
    (acc : Vec Ideal S1x128 .f32) (q : Fin 128) :
    k5_pay5 (F := Ideal) x0 x1 x2 x3 acc (ix2 0 q)
      = acc (ix2 0 q) + ∑ p : Fin 5000, k5_pay1 (F := Ideal) x0 x1 x2 x3 (ix2 p q) * k5_pay1 (F := Ideal) x0 x1 x2 x3 (ix2 p q) := by
  unfold k5_pay5
  simp only [shapeCast_self]
  show acc (ix2 0 q) + shapeCast S1x128 (multiReduction (F := Ideal) .add [0] S128 (mulf (k5_pay1 (F := Ideal) x0 x1 x2 x3) (k5_pay1 (F := Ideal) x0 x1 x2 x3)) 0x00000000#32 reduces_S5000x128_S128 (.inl rfl) rfl)
        shapeCasts_S128_S1x128 (ix2 0 q) = _
  rw [colsum_blk_apply]
  first | done | rfl

/-! ## The input blocks, read where the arrays hold them -/

/-- The printed index maps, decided over the grid: the row-blocked windows are at block `t` of the rows, the bias and
    the two accumulators at their one block. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- The grid has ten points. -/
theorem tlt5 (t : Fin cfg5.N) : t.val < 10 := lt_of_lt_of_eq t.isLt (show cfg5.N = 10 from N_5)

/-- Row p of block t is row 5000 t + p of the matrix. -/
def rowOf5 (t : Fin cfg5.N) (p : Fin 5000) : Fin 50000 := ⟨t.val * 5000 + p.val, by have := tlt5 t; have := p.isLt; omega⟩

/-- The input windows' blocks at a point, at their literal types. -/
abbrev xb5_0 (c : Dev nD) (t : Fin cfg5.N) : Vec Ideal S5000x128 .f32 := iblk5 V c 0 t
abbrev xb5_1 (c : Dev nD) (t : Fin cfg5.N) : Vec Ideal S5000x128 .f32 := iblk5 V c 1 t
abbrev xb5_2 (c : Dev nD) (t : Fin cfg5.N) : Vec Ideal S5000x1 .f32 := iblk5 V c 2 t
abbrev xb5_3 (c : Dev nD) (t : Fin cfg5.N) : Vec Ideal S1x128 .f32 := iblk5 V c 3 t

theorem xb5_0_apply (c : Dev nD) (t : Fin cfg5.N) (p : Fin 5000) (q : Fin 128) :
    xb5_0 V c t (ix2 p q) = V c (Pipeline.arrRef spec5 0) (ix2 (rowOf5 t p) q) := by
  obtain ⟨e00, e01, e10, e11, e20, e21, e30, e31, e40, e41, e50, e51, e60, e61⟩ := idx_facts5 t
  have h : ((cfg5.win 0).blk t).view.emb (ix2 p q) = ix2 (rowOf5 t p) q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  exact congrArg (V c (Pipeline.arrRef spec5 0)) h

theorem xb5_1_apply (c : Dev nD) (t : Fin cfg5.N) (p : Fin 5000) (q : Fin 128) :
    xb5_1 V c t (ix2 p q) = V c (Pipeline.arrRef spec5 1) (ix2 (rowOf5 t p) q) := by
  obtain ⟨e00, e01, e10, e11, e20, e21, e30, e31, e40, e41, e50, e51, e60, e61⟩ := idx_facts5 t
  have h : ((cfg5.win 1).blk t).view.emb (ix2 p q) = ix2 (rowOf5 t p) q := by
    funext a; apply Fin.ext
    match a with
    | ⟨0, _⟩ => show win5_1.index t (0 : Fin 2) * 5000 + 1 * p.val = t.val * 5000 + p.val; omega
    | ⟨1, _⟩ => show win5_1.index t (1 : Fin 2) * 128 + 1 * q.val = q.val; omega
  exact congrArg (V c (Pipeline.arrRef spec5 1)) h

theorem xb5_2_apply (c : Dev nD) (t : Fin cfg5.N) (p : Fin 5000) :
    xb5_2 V c t (ix2 p 0) = V c (Pipeline.arrRef spec5 2) (ix2 (rowOf5 t p) 0) := by
  obtain ⟨e00, e01, e10, e11, e20, e21, e30, e31, e40, e41, e50, e51, e60, e61⟩ := idx_facts5 t
  have h : ((cfg5.win 2).blk t).view.emb (ix2 p 0) = ix2 (rowOf5 t p) 0 := by
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  exact congrArg (V c (Pipeline.arrRef spec5 2)) h

theorem xb5_3_apply (c : Dev nD) (t : Fin cfg5.N) (q : Fin 128) :
    xb5_3 V c t (ix2 0 q) = V c (Pipeline.arrRef spec5 3) (ix2 0 q) := by
  obtain ⟨e00, e01, e10, e11, e20, e21, e30, e31, e40, e41, e50, e51, e60, e61⟩ := idx_facts5 t
  have h : ((cfg5.win 3).blk t).view.emb (ix2 0 q) = ix2 0 q := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  exact congrArg (V c (Pipeline.arrRef spec5 3)) h

/-! ## The combined matrix -/

/-- The combined matrix of the arrays the region finds. -/
abbrev Cmb5 (c : Dev nD) : Cert.Spec.Mat 50000 128 :=
  Cert.Spec.comb (fun r j => V c (Pipeline.arrRef spec5 0) (ix2 r j)) (fun r j => V c (Pipeline.arrRef spec5 1) (ix2 r j)) (fun r => V c (Pipeline.arrRef spec5 2) (ix2 r 0)) (fun j => V c (Pipeline.arrRef spec5 3) (ix2 0 j))

/-- The body's combined block at point `t`, entry (p, q), is the combined matrix at row 5000 t + p. -/
theorem blk5_pay (c : Dev nD) (t : Fin cfg5.N) (p : Fin 5000) (q : Fin 128) :
    k5_pay1 (F := Ideal) (xb5_0 V c t) (xb5_1 V c t) (xb5_2 V c t) (xb5_3 V c t) (ix2 p q) = Cmb5 V c (rowOf5 t p) q := by
  refine (k5_pay1_apply (xb5_0 V c t) (xb5_1 V c t) (xb5_2 V c t) (xb5_3 V c t) p q).trans ?_
  rw [xb5_0_apply V c t p q, xb5_1_apply V c t p q, xb5_2_apply V c t p, xb5_3_apply V c t q]
  first | done | rfl

/-- The combined matrix by a natural-number row (zero past the last row), so that partial sums over the blocks
    can be written over a range of naturals. -/
def Cn5 (c : Dev nD) (r : ℕ) (q : Fin 128) : EReal := if h : r < 50000 then Cmb5 V c ⟨r, h⟩ q else 0

theorem Cn5_of_lt (c : Dev nD) {r : ℕ} (h : r < 50000) (q : Fin 128) : Cn5 V c r q = Cmb5 V c ⟨r, h⟩ q := dif_pos h

theorem blk5_pay_n (c : Dev nD) (t : Fin cfg5.N) (p : Fin 5000) (q : Fin 128) :
    k5_pay1 (F := Ideal) (xb5_0 V c t) (xb5_1 V c t) (xb5_2 V c t) (xb5_3 V c t) (ix2 p q) = Cn5 V c (t.val * 5000 + p.val) q :=
  (blk5_pay V c t p q).trans (Cn5_of_lt V c (rowOf5 t p).isLt q).symm

/-! ## Output window 4: the combined matrix, block by block -/

/-- The array the window ends holding. -/
abbrev G5_4 (c : Dev nD) : S50000x128.Idx → Elt Ideal .f32 := fun i => Cmb5 V c (i 0) (i 1)

/-- What point `t` writes back is block `t` of it. -/
theorem flushed5_4_eq (c : Dev nD) (t : Fin cfg5.N) :
    (dat5 V c).flushed 4 t = ((cfg5.win 4).blk t).view.read (Elt Ideal) (G5_4 V c) := by
  show (cfg5.win 4).cut (grid5.coords t) ((dat5 V c).after 4 t) = _
  rw [after5_4]
  obtain ⟨e00, e01, e10, e11, e20, e21, e30, e31, e40, e41, e50, e51, e60, e61⟩ := idx_facts5 t
  funext j
  obtain ⟨p, q, rfl⟩ : ∃ (p : Fin 5000) (q : Fin 128), j = ix2 p q := ⟨j 0, j 1, eq_ix2 j⟩
  show k5_pay1 (F := Ideal) (xb5_0 V c t) (xb5_1 V c t) (xb5_2 V c t) (xb5_3 V c t) (ix2 p q) = G5_4 V c (((cfg5.win 4).blk t).view.emb (ix2 p q))
  have hemb : ((cfg5.win 4).blk t).view.emb (ix2 p q) = ix2 (rowOf5 t p) q := by
    funext a; apply Fin.ext
    match a with
    | ⟨0, _⟩ => show win5_4.index t (0 : Fin 2) * 5000 + 1 * p.val = t.val * 5000 + p.val; omega
    | ⟨1, _⟩ => show win5_4.index t (1 : Fin 2) * 128 + 1 * q.val = q.val; omega
  rw [hemb]
  exact blk5_pay V c t p q

/-- An index of the array is in point `t`'s block iff each coordinate is in the block's range on its axis. -/
theorem mem_blk5_4 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole (Pipeline.arrRef spec5 4)).slice (win5_4.rect t)).set ↔ _
  rw [View.set_slice_whole, Rect.mem_set_unit]
  exact Iff.rfl

/-- Every block of rows is some point's. -/
theorem idx_onto5_4 : ∀ q0 : Fin 10, ∃ t : Fin cfg5.N, win5_4.index t = ![q0.val, 0] :=
  (by decide +kernel : ∀ q0 : Fin 10, ∃ t : Fin grid5.N, win5_4.index t = ![q0.val, 0])

/-- Every entry of the array is in some point's block: row r is in block r / 5000. -/
theorem cover5_4_arr (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := idx_onto5_4 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The combined array after the ten points. -/
theorem final5_4 (c : Dev nD) : (dat5 V c).arrAt 4 cfg5.N = G5_4 V c :=
  (dat5 V c).arrAt_eq_of_cover 4 (G5_4 V c) (fun t _ => flushed5_4_eq V c t) cover5_4_arr

/-! ## Output windows 5 and 6: the running column sums -/

/-- Accumulator 5 after the point at position `n`, at column `q`: the column sums of the combined matrix over the rows of
    the blocks up to `n`. By induction on the point: the first point adds its block's column sums to the zero the
    reset stored, a later point to what the point before left. -/
theorem outsAt5_5_eq (c : Dev nD) : ∀ (n : ℕ) (h : n < cfg5.N) (q : Fin 128),
    outsAt5_5 V c n h (ix2 0 q) = ∑ t ∈ Finset.range (n + 1), ∑ p : Fin 5000, (Cn5 V c (t * 5000 + p.val) q)
  | 0, h, q => by
    show k5_pay4 (F := Ideal) (xb5_0 V c ⟨0, h⟩) (xb5_1 V c ⟨0, h⟩) (xb5_2 V c ⟨0, h⟩) (xb5_3 V c ⟨0, h⟩) (k5_pay2 (F := Ideal)) (ix2 0 q) = _
    refine (k5_pay4_apply (xb5_0 V c ⟨0, h⟩) (xb5_1 V c ⟨0, h⟩) (xb5_2 V c ⟨0, h⟩) (xb5_3 V c ⟨0, h⟩) (k5_pay2 (F := Ideal)) q).trans ?_
    simp only [k5_pay2_apply, zero_add, Finset.sum_range_one]
    refine Finset.sum_congr rfl fun p _ => ?_
    rw [blk5_pay_n V c ⟨0, h⟩ p q]
    first | done | rfl
  | n + 1, h, q => by
    show k5_pay4 (F := Ideal) (xb5_0 V c ⟨n + 1, h⟩) (xb5_1 V c ⟨n + 1, h⟩) (xb5_2 V c ⟨n + 1, h⟩) (xb5_3 V c ⟨n + 1, h⟩) (outsAt5_5 V c n (Nat.lt_of_succ_lt h)) (ix2 0 q) = _
    refine (k5_pay4_apply (xb5_0 V c ⟨n + 1, h⟩) (xb5_1 V c ⟨n + 1, h⟩) (xb5_2 V c ⟨n + 1, h⟩) (xb5_3 V c ⟨n + 1, h⟩) (outsAt5_5 V c n (Nat.lt_of_succ_lt h)) q).trans ?_
    rw [outsAt5_5_eq c n (Nat.lt_of_succ_lt h) q, Finset.sum_range_succ _ (n + 1)]
    congr 1
    refine Finset.sum_congr rfl fun p _ => ?_
    rw [blk5_pay_n V c ⟨n + 1, h⟩ p q]
    first | done | rfl

/-- The array accumulator 5's window ends holding: the column sums of the combined matrix, column by column. -/
abbrev G5_5 (c : Dev nD) : S1x128.Idx → Elt Ideal .f32 := fun i => Cert.Spec.colSum (Cmb5 V c) (i 1)

/-- The one write-back, after the last point, writes it. -/
theorem flushed5_5_eq (c : Dev nD) (t : Fin cfg5.N) (hf : (cfg5.win 5).flush t = true) :
    (dat5 V c).flushed 5 t = ((cfg5.win 5).blk t).view.read (Elt Ideal) (G5_5 V c) := by
  have h9 : t.val = 9 := by have := (flush5_5 t).mp hf; have := tlt5 t; omega
  obtain ⟨e00, e01, e10, e11, e20, e21, e30, e31, e40, e41, e50, e51, e60, e61⟩ := idx_facts5 t
  -- two contents of the one-block array that agree entry by entry: the window's buffer is what it reads of the array
  have key : ∀ (G acc : Vec Ideal S1x128 .f32), (∀ q : Fin 128, acc (ix2 0 q) = G (ix2 0 q)) →
      (cfg5.win 5).cut (grid5.coords t) acc = ((cfg5.win 5).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg5.win 5).blk t).view.emb (ix2 0 q))
    have hemb : ((cfg5.win 5).blk t).view.emb (ix2 0 q) = ix2 0 q := by
      funext a; apply Fin.ext
      match a with
      | ⟨0, _⟩ => show win5_5.index t (0 : Fin 2) * 1 + 1 * 0 = 0; omega
      | ⟨1, _⟩ => show win5_5.index t (1 : Fin 2) * 128 + 1 * q.val = q.val; omega
    rw [hemb]
    exact hacc q
  show (cfg5.win 5).cut (grid5.coords t) ((dat5 V c).after 5 t) = _
  rw [after5_5]
  refine key (G5_5 V c) (outsAt5_5 V c t.val t.isLt) fun q => ?_
  rw [outsAt5_5_eq V c t.val t.isLt q, show t.val + 1 = 10 by omega]
  show _ = ∑ r : Fin 50000, Cmb5 V c r q
  rw [Cert.Spec.sum_blocks, Finset.sum_range]
  refine Finset.sum_congr rfl fun t _ => Finset.sum_congr rfl fun p _ => ?_
  rw [Cn5_of_lt V c (r := t.val * 5000 + p.val) (by have := t.isLt; have := p.isLt; omega) q]
  first | done | rfl

/-- An index of the array is in point `t`'s block iff each coordinate is in the block's range on its axis. -/
theorem mem_blk5_5 (t : Fin cfg5.N) (i : S1x128.Idx) :
    i ∈ ((cfg5.win 5).blk t).view.set ↔ ∀ a : Fin 2, win5_5.index t a * S1x128.size a ≤ (i a).val ∧ (i a).val < win5_5.index t a * S1x128.size a + S1x128.size a := by
  show i ∈ ((View.whole (Pipeline.arrRef spec5 5)).slice (win5_5.rect t)).set ↔ _
  rw [View.set_slice_whole, Rect.mem_set_unit]
  exact Iff.rfl

/-- The array is its one block, which the last point writes back. -/
theorem cover5_5_arr (i : S1x128.Idx) :
    ∃ t : Fin cfg5.N, (cfg5.win 5).flush t = true ∧ i ∈ ((cfg5.win 5).blk t).view.set := by
  have hi0 : (i 0).val < 1 := (i 0).isLt
  have hi1 : (i 1).val < 128 := (i 1).isLt
  obtain ⟨e00, e01, e10, e11, e20, e21, e30, e31, e40, e41, e50, e51, e60, e61⟩ := idx_facts5 t5_9
  refine ⟨t5_9, (flush5_5 t5_9).mpr rfl, ?_⟩
  rw [mem_blk5_5]
  intro a
  match a with
  | ⟨0, _⟩ => show win5_5.index t5_9 (0 : Fin 2) * 1 ≤ (i 0).val ∧ (i 0).val < win5_5.index t5_9 (0 : Fin 2) * 1 + 1; omega
  | ⟨1, _⟩ => show win5_5.index t5_9 (1 : Fin 2) * 128 ≤ (i 1).val ∧ (i 1).val < win5_5.index t5_9 (1 : Fin 2) * 128 + 128; omega

/-- The accumulator's array after the ten points. -/
theorem final5_5 (c : Dev nD) : (dat5 V c).arrAt 5 cfg5.N = G5_5 V c :=
  (dat5 V c).arrAt_eq_of_cover 5 (G5_5 V c) (flushed5_5_eq V c) cover5_5_arr

/-- Accumulator 6 after the point at position `n`, at column `q`: the column sums of squares of the combined matrix over the rows of
    the blocks up to `n`. By induction on the point: the first point adds its block's column sums to the zero the
    reset stored, a later point to what the point before left. -/
theorem outsAt5_6_eq (c : Dev nD) : ∀ (n : ℕ) (h : n < cfg5.N) (q : Fin 128),
    outsAt5_6 V c n h (ix2 0 q) = ∑ t ∈ Finset.range (n + 1), ∑ p : Fin 5000, (Cn5 V c (t * 5000 + p.val) q) * (Cn5 V c (t * 5000 + p.val) q)
  | 0, h, q => by
    show k5_pay5 (F := Ideal) (xb5_0 V c ⟨0, h⟩) (xb5_1 V c ⟨0, h⟩) (xb5_2 V c ⟨0, h⟩) (xb5_3 V c ⟨0, h⟩) (k5_pay3 (F := Ideal)) (ix2 0 q) = _
    refine (k5_pay5_apply (xb5_0 V c ⟨0, h⟩) (xb5_1 V c ⟨0, h⟩) (xb5_2 V c ⟨0, h⟩) (xb5_3 V c ⟨0, h⟩) (k5_pay3 (F := Ideal)) q).trans ?_
    simp only [k5_pay3_apply, zero_add, Finset.sum_range_one]
    refine Finset.sum_congr rfl fun p _ => ?_
    rw [blk5_pay_n V c ⟨0, h⟩ p q]
    first | done | rfl
  | n + 1, h, q => by
    show k5_pay5 (F := Ideal) (xb5_0 V c ⟨n + 1, h⟩) (xb5_1 V c ⟨n + 1, h⟩) (xb5_2 V c ⟨n + 1, h⟩) (xb5_3 V c ⟨n + 1, h⟩) (outsAt5_6 V c n (Nat.lt_of_succ_lt h)) (ix2 0 q) = _
    refine (k5_pay5_apply (xb5_0 V c ⟨n + 1, h⟩) (xb5_1 V c ⟨n + 1, h⟩) (xb5_2 V c ⟨n + 1, h⟩) (xb5_3 V c ⟨n + 1, h⟩) (outsAt5_6 V c n (Nat.lt_of_succ_lt h)) q).trans ?_
    rw [outsAt5_6_eq c n (Nat.lt_of_succ_lt h) q, Finset.sum_range_succ _ (n + 1)]
    congr 1
    refine Finset.sum_congr rfl fun p _ => ?_
    rw [blk5_pay_n V c ⟨n + 1, h⟩ p q]
    first | done | rfl

/-- The array accumulator 6's window ends holding: the column sums of squares of the combined matrix, column by column. -/
abbrev G5_6 (c : Dev nD) : S1x128.Idx → Elt Ideal .f32 := fun i => Cert.Spec.colSumSq (Cmb5 V c) (i 1)

/-- The one write-back, after the last point, writes it. -/
theorem flushed5_6_eq (c : Dev nD) (t : Fin cfg5.N) (hf : (cfg5.win 6).flush t = true) :
    (dat5 V c).flushed 6 t = ((cfg5.win 6).blk t).view.read (Elt Ideal) (G5_6 V c) := by
  have h9 : t.val = 9 := by have := (flush5_6 t).mp hf; have := tlt5 t; omega
  obtain ⟨e00, e01, e10, e11, e20, e21, e30, e31, e40, e41, e50, e51, e60, e61⟩ := idx_facts5 t
  -- two contents of the one-block array that agree entry by entry: the window's buffer is what it reads of the array
  have key : ∀ (G acc : Vec Ideal S1x128 .f32), (∀ q : Fin 128, acc (ix2 0 q) = G (ix2 0 q)) →
      (cfg5.win 6).cut (grid5.coords t) acc = ((cfg5.win 6).blk t).view.read (Elt Ideal) G := by
    intro G acc hacc
    funext j
    obtain ⟨p0, q, rfl⟩ : ∃ (p0 : Fin 1) (q : Fin 128), j = ix2 p0 q := ⟨j 0, j 1, eq_ix2 j⟩
    obtain rfl : p0 = 0 := Subsingleton.elim _ _
    show acc (ix2 0 q) = G (((cfg5.win 6).blk t).view.emb (ix2 0 q))
    have hemb : ((cfg5.win 6).blk t).view.emb (ix2 0 q) = ix2 0 q := by
      funext a; apply Fin.ext
      match a with
      | ⟨0, _⟩ => show win5_6.index t (0 : Fin 2) * 1 + 1 * 0 = 0; omega
      | ⟨1, _⟩ => show win5_6.index t (1 : Fin 2) * 128 + 1 * q.val = q.val; omega
    rw [hemb]
    exact hacc q
  show (cfg5.win 6).cut (grid5.coords t) ((dat5 V c).after 6 t) = _
  rw [after5_6]
  refine key (G5_6 V c) (outsAt5_6 V c t.val t.isLt) fun q => ?_
  rw [outsAt5_6_eq V c t.val t.isLt q, show t.val + 1 = 10 by omega]
  show _ = ∑ r : Fin 50000, Cmb5 V c r q * Cmb5 V c r q
  rw [Cert.Spec.sum_blocks, Finset.sum_range]
  refine Finset.sum_congr rfl fun t _ => Finset.sum_congr rfl fun p _ => ?_
  rw [Cn5_of_lt V c (r := t.val * 5000 + p.val) (by have := t.isLt; have := p.isLt; omega) q]
  first | done | rfl

/-- An index of the array is in point `t`'s block iff each coordinate is in the block's range on its axis. -/
theorem mem_blk5_6 (t : Fin cfg5.N) (i : S1x128.Idx) :
    i ∈ ((cfg5.win 6).blk t).view.set ↔ ∀ a : Fin 2, win5_6.index t a * S1x128.size a ≤ (i a).val ∧ (i a).val < win5_6.index t a * S1x128.size a + S1x128.size a := by
  show i ∈ ((View.whole (Pipeline.arrRef spec5 6)).slice (win5_6.rect t)).set ↔ _
  rw [View.set_slice_whole, Rect.mem_set_unit]
  exact Iff.rfl

/-- The array is its one block, which the last point writes back. -/
theorem cover5_6_arr (i : S1x128.Idx) :
    ∃ t : Fin cfg5.N, (cfg5.win 6).flush t = true ∧ i ∈ ((cfg5.win 6).blk t).view.set := by
  have hi0 : (i 0).val < 1 := (i 0).isLt
  have hi1 : (i 1).val < 128 := (i 1).isLt
  obtain ⟨e00, e01, e10, e11, e20, e21, e30, e31, e40, e41, e50, e51, e60, e61⟩ := idx_facts5 t5_9
  refine ⟨t5_9, (flush5_6 t5_9).mpr rfl, ?_⟩
  rw [mem_blk5_6]
  intro a
  match a with
  | ⟨0, _⟩ => show win5_6.index t5_9 (0 : Fin 2) * 1 ≤ (i 0).val ∧ (i 0).val < win5_6.index t5_9 (0 : Fin 2) * 1 + 1; omega
  | ⟨1, _⟩ => show win5_6.index t5_9 (1 : Fin 2) * 128 ≤ (i 1).val ∧ (i 1).val < win5_6.index t5_9 (1 : Fin 2) * 128 + 128; omega

/-- The accumulator's array after the ten points. -/
theorem final5_6 (c : Dev nD) : (dat5 V c).arrAt 6 cfg5.N = G5_6 V c :=
  (dat5 V c).arrAt_eq_of_cover 6 (G5_6 V c) (flushed5_6_eq V c) cover5_6_arr

/-! ## The three arrays, entry by entry -/

/-- Entry (r, j) of the combined array after the region. -/
theorem arrAt5_4 (c : Dev nD) (r : Fin 50000) (j : Fin 128) :
    (dat5 (F := Ideal) V c).arrAt 4 cfg5.N (ix2 r j)
      = Cert.Spec.comb (fun r j => V c (Pipeline.arrRef spec5 0) (ix2 r j)) (fun r j => V c (Pipeline.arrRef spec5 1) (ix2 r j)) (fun r => V c (Pipeline.arrRef spec5 2) (ix2 r 0)) (fun j => V c (Pipeline.arrRef spec5 3) (ix2 0 j)) r j := by
  rw [final5_4]

/-- Column j of the column sums' array after the region. -/
theorem arrAt5_5 (c : Dev nD) (j : Fin 128) :
    (dat5 (F := Ideal) V c).arrAt 5 cfg5.N (ix2 0 j)
      = Cert.Spec.colSum (Cert.Spec.comb (fun r j => V c (Pipeline.arrRef spec5 0) (ix2 r j)) (fun r j => V c (Pipeline.arrRef spec5 1) (ix2 r j)) (fun r => V c (Pipeline.arrRef spec5 2) (ix2 r 0)) (fun j => V c (Pipeline.arrRef spec5 3) (ix2 0 j))) j := by
  rw [final5_5]

/-- Column j of the column sums of squares' array after the region. -/
theorem arrAt5_6 (c : Dev nD) (j : Fin 128) :
    (dat5 (F := Ideal) V c).arrAt 6 cfg5.N (ix2 0 j)
      = Cert.Spec.colSumSq (Cert.Spec.comb (fun r j => V c (Pipeline.arrRef spec5 0) (ix2 r j)) (fun r j => V c (Pipeline.arrRef spec5 1) (ix2 r j)) (fun r => V c (Pipeline.arrRef spec5 2) (ix2 r 0)) (fun j => V c (Pipeline.arrRef spec5 3) (ix2 0 j))) j := by
  rw [final5_6]

end Region5

end Cert.KernelIdeal.HandV

end
-- ==== Proof.KI.V6p.lean ====
import proofs.«430760_j5652176962022_1_alg».proof.Proof.Gen.KernelIdeal.Skeleton
import proofs.«430760_j5652176962022_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The pooling kernel's stored values at one entry, over the extended reals.
  The accumulate step adds, to the running [256, 128] pool, the product of the transposed one-hot matrix of the
  block's graph ids (entry (q, g) is 1 when row q's id is g, else 0) with the normalised, rectified block of rows:
  at (g, j) the sum over the block's rows q whose id is g of the activation at (q, j). The head step is the
  two-layer perceptron on the pooled rows. The store-back is the identity and the reset is zero.
-/

noncomputable section

namespace Cert.KernelIdeal.HandV

open Cert.KernelIdeal Cert.KernelIdeal.Gen
open Idealize.ShloMosaic Idealize.ShloMosaic.TcCoe Idealize.SL.Sem Idealize.ShloMosaic.ValueIdx

/-! ## Layout and words -/

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot word as a float: comparing two 32-bit words for equality, widening the bit and converting it gives
    1 when they are equal and 0 otherwise. -/
theorem onehot_word (a b : BitVec 32) :
    FloatOps.sitofp (F := Ideal) .f32 ((IntOp.cmpi .eq a b).setWidth 32) = if b = a then (1 : EReal) else 0 := by
  show ((((BitVec.ofBool (a == b)).setWidth 32).toInt : ℝ) : EReal) = _
  by_cases h : b = a
  · subst h
    rw [if_pos rfl, beq_self_eq_true]
    show (((1 : ℤ) : ℝ) : EReal) = 1
    rw [Int.cast_one, EReal.coe_one]
  · rw [if_neg h, beq_eq_false_iff_ne.mpr (fun e => h e.symm)]
    show (((0 : ℤ) : ℝ) : EReal) = 0
    rw [Int.cast_zero, EReal.coe_zero]

/-! ## The three products on the matrix unit, read at an entry -/

/-- The transposed product's left operand is read at the contraction coordinate as its row … -/
theorem pool_lhs_0 (i : S256x128.Idx) (q : dot_S5000x256_S5000x128_S256x128_0_0_1_1_n_n.contr.Idx) :
    (dot_S5000x256_S5000x128_S256x128_0_0_1_1_n_n.lhsIdx i q 0).val = (q ⟨0, by decide⟩).val :=
  dot_S5000x256_S5000x128_S256x128_0_0_1_1_n_n.lhsIdx_val_of_single rfl i q
/-- … and at the result's row as its column; -/
theorem pool_lhs_1 (i : S256x128.Idx) (q : dot_S5000x256_S5000x128_S256x128_0_0_1_1_n_n.contr.Idx) :
    (dot_S5000x256_S5000x128_S256x128_0_0_1_1_n_n.lhsIdx i q 1).val = (i 0).val := by
  unfold DotDims.lhsIdx
  rw [dif_neg (show ¬(1 : Fin S5000x256.rank) ∈ dot_S5000x256_S5000x128_S256x128_0_0_1_1_n_n.lhsBatch by decide), dif_pos (show (1 : Fin S5000x256.rank) ∈ dot_S5000x256_S5000x128_S256x128_0_0_1_1_n_n.lhsNonContracting by decide)]
  rfl
/-- the right operand at the contraction coordinate as its row … -/
theorem pool_rhs_0 (i : S256x128.Idx) (q : dot_S5000x256_S5000x128_S256x128_0_0_1_1_n_n.contr.Idx) :
    (dot_S5000x256_S5000x128_S256x128_0_0_1_1_n_n.rhsIdx i q 0).val = (q ⟨0, by decide⟩).val :=
  dot_S5000x256_S5000x128_S256x128_0_0_1_1_n_n.rhsIdx_val_of_single rfl i q
/-- … and at the result's column. -/
theorem pool_rhs_1 (i : S256x128.Idx) (q : dot_S5000x256_S5000x128_S256x128_0_0_1_1_n_n.contr.Idx) :
    (dot_S5000x256_S5000x128_S256x128_0_0_1_1_n_n.rhsIdx i q 1).val = (i 1).val := by
  unfold DotDims.rhsIdx
  rw [dif_neg (show ¬(1 : Fin S5000x128.rank) ∈ dot_S5000x256_S5000x128_S256x128_0_0_1_1_n_n.rhsBatch by decide), dif_pos (show (1 : Fin S5000x128.rank) ∈ dot_S5000x256_S5000x128_S256x128_0_0_1_1_n_n.rhsNonContracting by decide)]
  rfl

/-- The product contracting the ROWS of both operands, into the zero accumulator, at entry (g, j): the sum over the
    5000 rows q of a (q, g) · b (q, j). -/
theorem pool_apply {φ₁ φ₂ : FTy} (a : FVec Ideal S5000x256 φ₁) (b : FVec Ideal S5000x128 φ₂) (g : Fin 256) (j : Fin 128) :
    matmul dot_S5000x256_S5000x128_S256x128_0_0_1_1_n_n none a b (constant (F := Ideal) S256x128 .f32 0x00000000#32) (ix2 g j)
      = ∑ q : Fin 5000, a (ix2 q g) * b (ix2 q j) := by
  show FloatOps.matmul dot_S5000x256_S5000x128_S256x128_0_0_1_1_n_n none a b (constant (F := Ideal) S256x128 .f32 0x00000000#32) (ix2 g j) = _
  rw [Ideal.matmul_constant_zero_apply, ← Equiv.sum_comp (ValueIdx.contrEquiv1 dot_S5000x256_S5000x128_S256x128_0_0_1_1_n_n 5000 rfl rfl).symm]
  refine Finset.sum_congr rfl fun k _ => ?_
  have hk := ValueIdx.contrEquiv1_symm_val dot_S5000x256_S5000x128_S256x128_0_0_1_1_n_n 5000 rfl rfl k
  have el : dot_S5000x256_S5000x128_S256x128_0_0_1_1_n_n.lhsIdx (ix2 g j) ((ValueIdx.contrEquiv1 dot_S5000x256_S5000x128_S256x128_0_0_1_1_n_n 5000 rfl rfl).symm k) = ix2 k g := funext fun a => Fin.ext (by
    match a with
    | ⟨0, _⟩ => exact (pool_lhs_0 _ _).trans hk
    | ⟨1, _⟩ => exact pool_lhs_1 _ _)
  have er : dot_S5000x256_S5000x128_S256x128_0_0_1_1_n_n.rhsIdx (ix2 g j) ((ValueIdx.contrEquiv1 dot_S5000x256_S5000x128_S256x128_0_0_1_1_n_n 5000 rfl rfl).symm k) = ix2 k j := funext fun a => Fin.ext (by
    match a with
    | ⟨0, _⟩ => exact (pool_rhs_0 _ _).trans hk
    | ⟨1, _⟩ => exact pool_rhs_1 _ _)
  rw [el, er]

/-- The left operand is read at the result's row … -/
theorem head1_lhs_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- … and at the contraction coordinate as its column; -/
theorem head1_lhs_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- the right operand at the contraction coordinate as its row … -/
theorem head1_rhs_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- … and at the result's column. -/
theorem head1_rhs_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The first head layer's product into the zero accumulator at entry (p, q): the sum over k of a (p, k) · b (k, q). -/
theorem head1_apply {φ₁ φ₂ : FTy} (a : FVec Ideal S256x128 φ₁) (b : FVec Ideal S128x128 φ₂) (p : Fin 256) (q : Fin 128) :
    matmul dot_S256x128_S128x128_S256x128_1_0_0_1_n_n none a b (constant (F := Ideal) S256x128 .f32 0x00000000#32) (ix2 p q)
      = ∑ k : Fin 128, a (ix2 p k) * b (ix2 k q) := by
  show FloatOps.matmul dot_S256x128_S128x128_S256x128_1_0_0_1_n_n none a b (constant (F := Ideal) S256x128 .f32 0x00000000#32) (ix2 p q) = _
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p q) ((ValueIdx.contrEquiv1 dot_S256x128_S128x128_S256x128_1_0_0_1_n_n 128 rfl rfl).symm k) = ix2 p k := funext fun a => Fin.ext (by
    match a with
    | ⟨0, _⟩ => exact head1_lhs_0 _ _
    | ⟨1, _⟩ => exact (head1_lhs_1 _ _).trans hk)
  have er : dot_S256x128_S128x128_S256x128_1_0_0_1_n_n.rhsIdx (ix2 p q) ((ValueIdx.contrEquiv1 dot_S256x128_S128x128_S256x128_1_0_0_1_n_n 128 rfl rfl).symm k) = ix2 k q := funext fun a => Fin.ext (by
    match a with
    | ⟨0, _⟩ => exact (head1_rhs_0 _ _).trans hk
    | ⟨1, _⟩ => exact head1_rhs_1 _ _)
  rw [el, er]

/-- The left operand is read at the result's row … -/
theorem head2_lhs_0 (i : S256x1.Idx) (q : dot_S256x128_S128x1_S256x1_1_0_0_1_n_n.contr.Idx) :
    (dot_S256x128_S128x1_S256x1_1_0_0_1_n_n.lhsIdx i q 0).val = (i 0).val := by
  unfold DotDims.lhsIdx
  rw [dif_neg (show ¬(0 : Fin S256x128.rank) ∈ dot_S256x128_S128x1_S256x1_1_0_0_1_n_n.lhsBatch by decide), dif_pos (show (0 : Fin S256x128.rank) ∈ dot_S256x128_S128x1_S256x1_1_0_0_1_n_n.lhsNonContracting by decide)]
  rfl
/-- … and at the contraction coordinate as its column; -/
theorem head2_lhs_1 (i : S256x1.Idx) (q : dot_S256x128_S128x1_S256x1_1_0_0_1_n_n.contr.Idx) :
    (dot_S256x128_S128x1_S256x1_1_0_0_1_n_n.lhsIdx i q 1).val = (q ⟨0, by decide⟩).val :=
  dot_S256x128_S128x1_S256x1_1_0_0_1_n_n.lhsIdx_val_of_single rfl i q
/-- the right operand at the contraction coordinate as its row … -/
theorem head2_rhs_0 (i : S256x1.Idx) (q : dot_S256x128_S128x1_S256x1_1_0_0_1_n_n.contr.Idx) :
    (dot_S256x128_S128x1_S256x1_1_0_0_1_n_n.rhsIdx i q 0).val = (q ⟨0, by decide⟩).val :=
  dot_S256x128_S128x1_S256x1_1_0_0_1_n_n.rhsIdx_val_of_single rfl i q
/-- … and at the result's column. -/
theorem head2_rhs_1 (i : S256x1.Idx) (q : dot_S256x128_S128x1_S256x1_1_0_0_1_n_n.contr.Idx) :
    (dot_S256x128_S128x1_S256x1_1_0_0_1_n_n.rhsIdx i q 1).val = (i 1).val := by
  unfold DotDims.rhsIdx
  rw [dif_neg (show ¬(1 : Fin S128x1.rank) ∈ dot_S256x128_S128x1_S256x1_1_0_0_1_n_n.rhsBatch by decide), dif_pos (show (1 : Fin S128x1.rank) ∈ dot_S256x128_S128x1_S256x1_1_0_0_1_n_n.rhsNonContracting by decide)]
  rfl

/-- The second head layer's product into the zero accumulator at entry (p, q): the sum over k of a (p, k) · b (k, q). -/
theorem head2_apply {φ₁ φ₂ : FTy} (a : FVec Ideal S256x128 φ₁) (b : FVec Ideal S128x1 φ₂) (p : Fin 256) (q : Fin 1) :
    matmul dot_S256x128_S128x1_S256x1_1_0_0_1_n_n none a b (constant (F := Ideal) S256x1 .f32 0x00000000#32) (ix2 p q)
      = ∑ k : Fin 128, a (ix2 p k) * b (ix2 k q) := by
  show FloatOps.matmul dot_S256x128_S128x1_S256x1_1_0_0_1_n_n none a b (constant (F := Ideal) S256x1 .f32 0x00000000#32) (ix2 p q) = _
  rw [Ideal.matmul_constant_zero_apply, ← Equiv.sum_comp (ValueIdx.contrEquiv1 dot_S256x128_S128x1_S256x1_1_0_0_1_n_n 128 rfl rfl).symm]
  refine Finset.sum_congr rfl fun k _ => ?_
  have hk := ValueIdx.contrEquiv1_symm_val dot_S256x128_S128x1_S256x1_1_0_0_1_n_n 128 rfl rfl k
  have el : dot_S256x128_S128x1_S256x1_1_0_0_1_n_n.lhsIdx (ix2 p q) ((ValueIdx.contrEquiv1 dot_S256x128_S128x1_S256x1_1_0_0_1_n_n 128 rfl rfl).symm k) = ix2 p k := funext fun a => Fin.ext (by
    match a with
    | ⟨0, _⟩ => exact head2_lhs_0 _ _
    | ⟨1, _⟩ => exact (head2_lhs_1 _ _).trans hk)
  have er : dot_S256x128_S128x1_S256x1_1_0_0_1_n_n.rhsIdx (ix2 p q) ((ValueIdx.contrEquiv1 dot_S256x128_S128x1_S256x1_1_0_0_1_n_n 128 rfl rfl).symm k) = ix2 k q := funext fun a => Fin.ext (by
    match a with
    | ⟨0, _⟩ => exact (head2_rhs_0 _ _).trans hk
    | ⟨1, _⟩ => exact head2_rhs_1 _ _)
  rw [el, er]

/-! ## The payloads -/

/-- The store-back writes the accumulated pool as it is. -/
theorem pay6_store_eq {F : FTy → Type} [FloatOps F] (v : FVec F S256x128 .f32) : k6_pay1 v = v := by
  unfold k6_pay1
  exact shapeCast_self _ _

/-- The reset writes zero everywhere. -/
theorem pay6_reset_apply (i : S256x128.Idx) : k6_pay3 (F := Ideal) i = 0 := by
  unfold k6_pay3
  rw [shapeCast_self]
  show Ideal.ofBits .f32 0x00000000#32 = 0
  exact Ideal.ofBits_zero_f32

/-- The accumulate step at entry (g, j): the running pool there plus, over the block's rows q whose graph id is g,
    the normalised, rectified activation at (q, j). -/
theorem pay6_acc_apply (x0 : Vec Ideal S5000x128 .f32) (x1 x2 x3 x4 : Vec Ideal S1x128 .f32) (x5 : Vec Ideal S5000x1 .i32)
    (acc : Vec Ideal S256x128 .f32) (g : Fin 256) (j : Fin 128) :
    k6_pay4 (F := Ideal) x0 x1 x2 x3 x4 x5 acc (ix2 g j)
      = acc (ix2 g j) + ∑ q : Fin 5000, (if x5 (ix2 q (0 : Fin 1)) = BitVec.ofNat 32 g.val then
          max ((x0 (ix2 q j) - x1 (ix2 (0 : Fin 1) j)) * Ideal.rsqrt (x2 (ix2 (0 : Fin 1) j) + Cert.Spec.epsF) * x3 (ix2 (0 : Fin 1) j) + x4 (ix2 (0 : Fin 1) j)) 0 else 0) := by
  unfold k6_pay4
  rw [addf_apply, pool_apply]
  congr 1
  refine Finset.sum_congr rfl fun q _ => ?_
  rw [truncf_apply, truncf_apply, maximumf_apply, addf_apply, mulf_apply, mulf_apply, subf_apply,
    broadcastTo_1b_ab_apply, broadcastTo_1b_ab_apply, broadcastTo_1b_ab_apply, broadcastTo_1b_ab_apply,
    shapeCast_self, shapeCast_self, shapeCast_self, shapeCast_self, shapeCast_self, shapeCast_self]
  have hoh : (sitofp .f32 (extui 32 (cmpi .eq (iota .tc S5000x256 32 [1] iota_S5000x256_d1_w32) (broadcastTo S5000x256 x5 broadcasts_S5000x1_S5000x256)) natLt_1_32) : FVec Ideal S5000x256 .f32) (ix2 q g)
      = if x5 (ix2 q (0 : Fin 1)) = BitVec.ofNat 32 g.val then (1 : EReal) else 0 := by
    show FloatOps.sitofp (F := Ideal) .f32 ((IntOp.cmpi .eq (iota .tc S5000x256 32 [1] iota_S5000x256_d1_w32 (ix2 q g)) (broadcastTo S5000x256 x5 broadcasts_S5000x1_S5000x256 (ix2 q g))).setWidth 32) = _
    rw [iota_single_apply, broadcastTo_a1_ab_apply, onehot_word]
  rw [hoh]
  show (if x5 (ix2 q (0 : Fin 1)) = BitVec.ofNat 32 g.val then (1 : EReal) else 0)
      * max ((x0 (ix2 q j) - x1 (ix2 (0 : Fin 1) j)) * Ideal.rsqrt (x2 (ix2 (0 : Fin 1) j) + Ideal.ofBits .f32 0x3727C5AC#32) * x3 (ix2 (0 : Fin 1) j) + x4 (ix2 (0 : Fin 1) j)) (Ideal.ofBits .f32 0x00000000#32) = _
  rw [Ideal.ofBits_zero_f32]
  by_cases h : x5 (ix2 q (0 : Fin 1)) = BitVec.ofNat 32 g.val
  · rw [if_pos h, if_pos h, one_mul]
    rfl
  · rw [if_neg h, if_neg h, zero_mul]

/-- The head step at row g: the two-layer perceptron on the pooled row — the first layer's 128 sums plus bias,
    clamped at zero, times the second layer's column, plus its bias. -/
theorem pay6_head_apply (scr : Vec Ideal S256x128 .f32) (Wm1 : Vec Ideal S128x128 .f32) (bm1 : Vec Ideal S1x128 .f32)
    (Wm2 : Vec Ideal S128x1 .f32) (bm2 : Vec Ideal S1x1 .f32) (g : Fin 256) :
    k6_pay2 (F := Ideal) scr Wm1 bm1 Wm2 bm2 (ix2 g (0 : Fin 1))
      = Cert.Spec.mlp (fun g j => scr (ix2 g j)) (fun j k => Wm1 (ix2 j k)) (fun k => bm1 (ix2 (0 : Fin 1) k))
          (fun k => Wm2 (ix2 k (0 : Fin 1))) (bm2 (ix2 (0 : Fin 1) (0 : Fin 1))) g := by
  unfold k6_pay2
  rw [addf_apply, head2_apply, broadcastTo_1b_ab_apply, shapeCast_self]
  show _ = (∑ k : Fin 128, _) + _
  congr 1
  · refine Finset.sum_congr rfl fun k _ => ?_
    rw [truncf_apply, truncf_apply, maximumf_apply, addf_apply, head1_apply, broadcastTo_1b_ab_apply, broadcast_apply]
    show max ((∑ j : Fin 128, scr (ix2 g j) * Wm1 (ix2 j k)) + bm1 (ix2 (0 : Fin 1) k)) (Ideal.ofBits .f32 0x00000000#32) * Wm2 (ix2 k (0 : Fin 1)) = _
    rw [Ideal.ofBits_zero_f32]
  · rw [shapeCast_self]

end Cert.KernelIdeal.HandV

end
-- ==== Proof.KI.V6.lean ====
import proofs.«430760_j5652176962022_1_alg».proof.Proof.KI.R6
import proofs.«430760_j5652176962022_1_alg».proof.Proof.KI.V6p
import proofs.«430760_j5652176962022_1_alg».proof.Proof.Spec
import proofs.«430760_j5652176962022_1_alg».proof.Proof.Alg
import Idealize.ShloMosaic.Lib.Pipeline.Value
import Idealize.ShloMosaic.Lib.ValueLayout

/-!
  What the pooling layer's output array holds after its ten grid points, entry by entry: the two-layer head on the
  sum pooling by graph of the batch-normalised, rectified features. The pooled sums are carried from point to point:
  point t adds, at entry (g, j), the activations at column j of those of its 5000 nodes t · 5000 + q whose graph id is
  g, onto what the points before it left (zero before the first). By induction over the points the sums after point n
  are the contributions of the nodes of points 0 … n; after the last point that is the sum over all 50000 nodes, the
  ten blocks of 5000 tiling them. The output window is written back at the last point only, its one block the whole
  array, and what is written is the head on those sums.
-/

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The two-layer head at one row depends on its arguments only through that row's pooled sums and the weights' entries. -/
theorem mlp_ext {G : Nat} {p p' : Cert.Spec.Mat G 128} {W W' : Cert.Spec.Mat 128 128} {b b' w w' : Fin 128 → EReal}
    {s s' : EReal} (g : Fin G) (hp : ∀ j, p g j = p' g j) (hW : ∀ j k, W j k = W' j k) (hb : ∀ k, b k = b' k)
    (hw : ∀ k, w k = w' k) (hs : s = s') : Cert.Spec.mlp p W b w s g = Cert.Spec.mlp p' W' b' w' s' g := by
  unfold Cert.Spec.mlp
  rw [hs]
  congr 1
  refine Finset.sum_congr rfl fun k _ => ?_
  have hsum : (∑ j : Fin 128, p g j * W j k) = ∑ j : Fin 128, p' g j * W' j k :=
    Finset.sum_congr rfl fun j _ => by rw [hp j, hW j k]
  rw [hsum, hb k, hw k]

section Region6
variable (V : (c : Dev nD) → (b : Ref sig .tc) → Buf (Elt Ideal) ((c : Thread nD τ).loc b))

/-- The normalised, rectified features, by node and column. -/
abbrev act6 (c : Dev nD) : Cert.Spec.Mat 50000 128 :=
  Cert.Spec.bnRelu (fun r j => V c (Pipeline.arrRef spec6 0) (ix2 r j)) (fun j => V c (Pipeline.arrRef spec6 1) (ix2 (0 : Fin 1) j)) (fun j => V c (Pipeline.arrRef spec6 2) (ix2 (0 : Fin 1) j)) (fun j => V c (Pipeline.arrRef spec6 3) (ix2 (0 : Fin 1) j)) (fun j => V c (Pipeline.arrRef spec6 4) (ix2 (0 : Fin 1) j))

/-- The graph id of each node. -/
abbrev bat6 (c : Dev nD) : Fin 50000 → BitVec 32 := fun r => V c (Pipeline.arrRef spec6 5) (ix2 r (0 : Fin 1))

/-- Node r's contribution to the pooled entry (g, j): its activation at column j when its graph id is g, else zero
    (and zero past the last node). -/
def term6 (c : Dev nD) (g : Fin 256) (j : Fin 128) (r : ℕ) : EReal :=
  if h : r < 50000 then (if bat6 V c ⟨r, h⟩ = BitVec.ofNat 32 g.val then act6 V c ⟨r, h⟩ j else 0) else 0

/-- The printed index maps, decided over the ten points: the feature block and the id block are block t of the rows;
    every other window is its one block. -/
theorem idx_facts6 : ∀ t : Fin cfg6.N, t.val < 10
    ∧ win6_0.index t (0 : Fin 2) = t.val
    ∧ win6_0.index t (1 : Fin 2) = 0
    ∧ win6_5.index t (0 : Fin 2) = t.val
    ∧ win6_5.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = 0
    ∧ win6_10.index t (1 : Fin 2) = 0 :=
  (by decide +kernel : ∀ t : Fin grid6.N, _)

/-- Row q of the feature block at point t is node t · 5000 + q. -/
theorem blk6_0 (c : Dev nD) (t : Fin cfg6.N) (q : Fin 5000) (j : Fin 128) (h : t.val * 5000 + q.val < 50000) :
    iblk6 V c 0 t (ix2 q j) = V c (Pipeline.arrRef spec6 0) (ix2 (⟨t.val * 5000 + q.val, h⟩ : Fin 50000) j) := by
  have e := idx_facts6 t
  have hh : ((cfg6.win 0).blk t).view.emb (ix2 q j) = ix2 (⟨t.val * 5000 + q.val, h⟩ : Fin 50000) j := by
    funext a; apply Fin.ext
    match a with
    | ⟨0, _⟩ => show win6_0.index t (0 : Fin 2) * 5000 + 1 * q.val = t.val * 5000 + q.val; omega
    | ⟨1, _⟩ => show win6_0.index t (1 : Fin 2) * 128 + 1 * j.val = j.val; omega
  exact congrArg (V c (Pipeline.arrRef spec6 0)) hh

/-- Row q of the id block at point t is node t · 5000 + q. -/
theorem blk6_5 (c : Dev nD) (t : Fin cfg6.N) (q : Fin 5000) (h : t.val * 5000 + q.val < 50000) :
    iblk6 V c 5 t (ix2 q (0 : Fin 1)) = V c (Pipeline.arrRef spec6 5) (ix2 (⟨t.val * 5000 + q.val, h⟩ : Fin 50000) (0 : Fin 1)) := by
  have e := idx_facts6 t
  have hh : ((cfg6.win 5).blk t).view.emb (ix2 q (0 : Fin 1)) = ix2 (⟨t.val * 5000 + q.val, h⟩ : Fin 50000) (0 : Fin 1) := by
    funext a; apply Fin.ext
    match a with
    | ⟨0, _⟩ => show win6_5.index t (0 : Fin 2) * 5000 + 1 * q.val = t.val * 5000 + q.val; omega
    | ⟨1, _⟩ => show win6_5.index t (1 : Fin 2) * 1 + 1 * 0 = 0; omega
  exact congrArg (V c (Pipeline.arrRef spec6 5)) hh

/-- Window 1's one row, read at column k. -/
theorem blk6_1 (c : Dev nD) (t : Fin cfg6.N) (k : Fin 128) :
    iblk6 V c 1 t (ix2 (0 : Fin 1) k) = V c (Pipeline.arrRef spec6 1) (ix2 (0 : Fin 1) k) := by
  have e := idx_facts6 t
  have hh : ((cfg6.win 1).blk t).view.emb (ix2 (0 : Fin 1) k) = ix2 (0 : Fin 1) k := by
    funext a; apply Fin.ext
    match a with
    | ⟨0, _⟩ => show win6_1.index t (0 : Fin 2) * 1 + 1 * 0 = 0; omega
    | ⟨1, _⟩ => show win6_1.index t (1 : Fin 2) * 128 + 1 * k.val = k.val; omega
  exact congrArg (V c (Pipeline.arrRef spec6 1)) hh

/-- Window 2's one row, read at column k. -/
theorem blk6_2 (c : Dev nD) (t : Fin cfg6.N) (k : Fin 128) :
    iblk6 V c 2 t (ix2 (0 : Fin 1) k) = V c (Pipeline.arrRef spec6 2) (ix2 (0 : Fin 1) k) := by
  have e := idx_facts6 t
  have hh : ((cfg6.win 2).blk t).view.emb (ix2 (0 : Fin 1) k) = ix2 (0 : Fin 1) k := by
    funext a; apply Fin.ext
    match a with
    | ⟨0, _⟩ => show win6_2.index t (0 : Fin 2) * 1 + 1 * 0 = 0; omega
    | ⟨1, _⟩ => show win6_2.index t (1 : Fin 2) * 128 + 1 * k.val = k.val; omega
  exact congrArg (V c (Pipeline.arrRef spec6 2)) hh

/-- Window 3's one row, read at column k. -/
theorem blk6_3 (c : Dev nD) (t : Fin cfg6.N) (k : Fin 128) :
    iblk6 V c 3 t (ix2 (0 : Fin 1) k) = V c (Pipeline.arrRef spec6 3) (ix2 (0 : Fin 1) k) := by
  have e := idx_facts6 t
  have hh : ((cfg6.win 3).blk t).view.emb (ix2 (0 : Fin 1) k) = ix2 (0 : Fin 1) k := by
    funext a; apply Fin.ext
    match a with
    | ⟨0, _⟩ => show win6_3.index t (0 : Fin 2) * 1 + 1 * 0 = 0; omega
    | ⟨1, _⟩ => show win6_3.index t (1 : Fin 2) * 128 + 1 * k.val = k.val; omega
  exact congrArg (V c (Pipeline.arrRef spec6 3)) hh

/-- Window 4's one row, read at column k. -/
theorem blk6_4 (c : Dev nD) (t : Fin cfg6.N) (k : Fin 128) :
    iblk6 V c 4 t (ix2 (0 : Fin 1) k) = V c (Pipeline.arrRef spec6 4) (ix2 (0 : Fin 1) k) := by
  have e := idx_facts6 t
  have hh : ((cfg6.win 4).blk t).view.emb (ix2 (0 : Fin 1) k) = ix2 (0 : Fin 1) k := by
    funext a; apply Fin.ext
    match a with
    | ⟨0, _⟩ => show win6_4.index t (0 : Fin 2) * 1 + 1 * 0 = 0; omega
    | ⟨1, _⟩ => show win6_4.index t (1 : Fin 2) * 128 + 1 * k.val = k.val; omega
  exact congrArg (V c (Pipeline.arrRef spec6 4)) hh

/-- Window 7's one row, read at column k. -/
theorem blk6_7 (c : Dev nD) (t : Fin cfg6.N) (k : Fin 128) :
    iblk6 V c 7 t (ix2 (0 : Fin 1) k) = V c (Pipeline.arrRef spec6 7) (ix2 (0 : Fin 1) k) := by
  have e := idx_facts6 t
  have hh : ((cfg6.win 7).blk t).view.emb (ix2 (0 : Fin 1) k) = ix2 (0 : Fin 1) k := by
    funext a; apply Fin.ext
    match a with
    | ⟨0, _⟩ => show win6_7.index t (0 : Fin 2) * 1 + 1 * 0 = 0; omega
    | ⟨1, _⟩ => show win6_7.index t (1 : Fin 2) * 128 + 1 * k.val = k.val; omega
  exact congrArg (V c (Pipeline.arrRef spec6 7)) hh

/-- The first head layer's weights, read whole. -/
theorem blk6_6 (c : Dev nD) (t : Fin cfg6.N) (j k : Fin 128) :
    iblk6 V c 6 t (ix2 j k) = V c (Pipeline.arrRef spec6 6) (ix2 j k) := by
  have e := idx_facts6 t
  have hh : ((cfg6.win 6).blk t).view.emb (ix2 j k) = ix2 j k := by
    funext a; apply Fin.ext
    match a with
    | ⟨0, _⟩ => show win6_6.index t (0 : Fin 2) * 128 + 1 * j.val = j.val; omega
    | ⟨1, _⟩ => show win6_6.index t (1 : Fin 2) * 128 + 1 * k.val = k.val; omega
  exact congrArg (V c (Pipeline.arrRef spec6 6)) hh

/-- The second head layer's column, read whole. -/
theorem blk6_8 (c : Dev nD) (t : Fin cfg6.N) (k : Fin 128) :
    iblk6 V c 8 t (ix2 k (0 : Fin 1)) = V c (Pipeline.arrRef spec6 8) (ix2 k (0 : Fin 1)) := by
  have e := idx_facts6 t
  have hh : ((cfg6.win 8).blk t).view.emb (ix2 k (0 : Fin 1)) = ix2 k (0 : Fin 1) := by
    funext a; apply Fin.ext
    match a with
    | ⟨0, _⟩ => show win6_8.index t (0 : Fin 2) * 128 + 1 * k.val = k.val; omega
    | ⟨1, _⟩ => show win6_8.index t (1 : Fin 2) * 1 + 1 * 0 = 0; omega
  exact congrArg (V c (Pipeline.arrRef spec6 8)) hh

/-- The second head layer's bias, its one entry. -/
theorem blk6_9 (c : Dev nD) (t : Fin cfg6.N) :
    iblk6 V c 9 t (ix2 (0 : Fin 1) (0 : Fin 1)) = V c (Pipeline.arrRef spec6 9) (ix2 (0 : Fin 1) (0 : Fin 1)) := by
  have e := idx_facts6 t
  have hh : ((cfg6.win 9).blk t).view.emb (ix2 (0 : Fin 1) (0 : Fin 1)) = ix2 (0 : Fin 1) (0 : Fin 1) := by
    funext a; apply Fin.ext
    match a with
    | ⟨0, _⟩ => show win6_9.index t (0 : Fin 2) * 1 + 1 * 0 = 0; omega
    | ⟨1, _⟩ => show win6_9.index t (1 : Fin 2) * 1 + 1 * 0 = 0; omega
  exact congrArg (V c (Pipeline.arrRef spec6 9)) hh

/-- ONE POINT. The accumulation at point t over pooled sums `acc`, at entry (g, j): `acc` there plus the contributions
    of the point's 5000 nodes t · 5000 + q. -/
theorem acc6_point (c : Dev nD) (t : Fin cfg6.N) (acc : Vec Ideal S256x128 .f32) (g : Fin 256) (j : Fin 128) :
    k6_pay1 (k6_pay4 (F := Ideal) (iblk6 V c 0 t) (iblk6 V c 1 t) (iblk6 V c 2 t) (iblk6 V c 3 t) (iblk6 V c 4 t) (iblk6 V c 5 t) acc) (ix2 g j)
      = acc (ix2 g j) + ∑ q : Fin 5000, term6 V c g j (t.val * 5000 + q.val) := by
  have ht : t.val < 10 := (idx_facts6 t).1
  rw [pay6_store_eq, pay6_acc_apply]
  congr 1
  refine Finset.sum_congr rfl fun q _ => ?_
  have h : t.val * 5000 + q.val < 50000 := by have := q.isLt; omega
  rw [blk6_5 V c t q h, blk6_0 V c t q j h, blk6_1 V c t j, blk6_2 V c t j, blk6_3 V c t j, blk6_4 V c t j]
  unfold term6
  rw [dif_pos h]
  rfl

/-- THE POOLED SUMS AFTER POINT n, at entry (g, j): the contributions of the nodes of points 0 … n. -/
theorem scrAt6_apply (c : Dev nD) (g : Fin 256) (j : Fin 128) : ∀ (n : ℕ) (hn : n < cfg6.N),
    scrAt6 V c n hn (ix2 g j) = ∑ t ∈ Finset.range (n + 1), ∑ q : Fin 5000, term6 V c g j (t * 5000 + q.val)
  | 0, hn => by
    rw [scrAt6_zero, sout6_eq, acc6_point V c ⟨0, hn⟩, zero6_eq, pay6_reset_apply, zero_add, Finset.sum_range_one]
  | n + 1, hn => by
    rw [Finset.sum_range_succ (fun t => ∑ q : Fin 5000, term6 V c g j (t * 5000 + q.val)) (n + 1), scrAt6_succ, sout6_eq,
      acc6_point V c ⟨n + 1, hn⟩, scrAt6_apply c g j n (Nat.lt_of_succ_lt hn)]

/-- After the last point the pooled sums are the sum pooling by graph of the activations. -/
theorem pool6_apply (c : Dev nD) (t : Fin cfg6.N) (h9 : t.val = 9) (g : Fin 256) (j : Fin 128) :
    scrAt6 V c t.val t.isLt (ix2 g j) = Cert.Spec.pool (G := 256) (act6 V c) (bat6 V c) g j := by
  rw [scrAt6_apply V c g j t.val t.isLt, h9]
  show ∑ t ∈ Finset.range 10, ∑ q : Fin 5000, term6 V c g j (t * 5000 + q.val)
    = ∑ r : Fin 50000, if bat6 V c r = BitVec.ofNat 32 g.val then act6 V c r j else 0
  rw [Cert.Spec.sum_blocks, Finset.sum_range]
  refine Finset.sum_congr rfl fun t _ => Finset.sum_congr rfl fun q _ => ?_
  have h : t.val * 5000 + q.val < 50000 := by have := t.isLt; have := q.isLt; omega
  unfold term6
  rw [dif_pos h]

/-- The array the output window ends holding: the two-layer head on the pooled rows. -/
abbrev G6 (c : Dev nD) : S256x1.Idx → Elt Ideal .f32 := fun i =>
  Cert.Spec.mlp (Cert.Spec.pool (G := 256) (act6 V c) (bat6 V c)) (fun j k => V c (Pipeline.arrRef spec6 6) (ix2 j k)) (fun k => V c (Pipeline.arrRef spec6 7) (ix2 (0 : Fin 1) k)) (fun k => V c (Pipeline.arrRef spec6 8) (ix2 k (0 : Fin 1))) (V c (Pipeline.arrRef spec6 9) (ix2 (0 : Fin 1) (0 : Fin 1))) (i 0)

set_option maxHeartbeats 2000000 in
/-- What the last point writes back is `G6` (the output window's one block is the whole array). -/
theorem flushed6_10_eq (c : Dev nD) (t : Fin cfg6.N) (hf : (cfg6.win 10).flush t = true) :
    (dat6 V c).flushed 10 t = ((cfg6.win 10).blk t).view.read (Elt Ideal) (G6 V c) := by
  have e := idx_facts6 t
  have h9 : t.val = 9 := by have := (flush6_10 t).1 hf; omega
  show (cfg6.win 10).cut (grid6.coords t) ((dat6 V c).after 10 t) = _
  rw [after6_10, out6_10_eq]
  funext i
  obtain ⟨g, z, rfl⟩ : ∃ (g : Fin 256) (z : Fin 1), i = ix2 g z := ⟨i 0, i 1, eq_ix2 i⟩
  have hz : z = 0 := Subsingleton.elim _ _
  subst hz
  show k6_pay2 (F := Ideal) (scrAt6 V c t.val t.isLt) (iblk6 V c 6 t) (iblk6 V c 7 t) (iblk6 V c 8 t) (iblk6 V c 9 t) (ix2 g (0 : Fin 1))
    = G6 V c (((cfg6.win 10).blk t).view.emb (ix2 g (0 : Fin 1)))
  rw [pay6_head_apply]
  have hemb : ((cfg6.win 10).blk t).view.emb (ix2 g (0 : Fin 1)) = ix2 g (0 : Fin 1) := by
    funext a; apply Fin.ext
    match a with
    | ⟨0, _⟩ => show win6_10.index t (0 : Fin 2) * 256 + 1 * g.val = g.val; omega
    | ⟨1, _⟩ => show win6_10.index t (1 : Fin 2) * 1 + 1 * 0 = 0; omega
  rw [hemb]
  exact mlp_ext g (fun j => pool6_apply V c t h9 g j) (fun j k => blk6_6 V c t j k) (fun k => blk6_7 V c t k)
    (fun k => blk6_8 V c t k) (blk6_9 V c t)

/-- An index of the array is in point t's block iff each coordinate is in the block's range on its axis. -/
theorem mem_blk6_10 (t : Fin cfg6.N) (i : S256x1.Idx) :
    i ∈ ((cfg6.win 10).blk t).view.set ↔ ∀ a : Fin 2, win6_10.index t a * S256x1.size a ≤ (i a).val ∧ (i a).val < win6_10.index t a * S256x1.size a + S256x1.size a := by
  show i ∈ ((View.whole (Pipeline.arrRef spec6 10)).slice (win6_10.rect t)).set ↔ _
  rw [View.set_slice_whole, Rect.mem_set_unit]
  exact Iff.rfl

/-- Every entry of the output array is in the last point's block. -/
theorem cover6_10_arr (i : S256x1.Idx) :
    ∃ t : Fin cfg6.N, (cfg6.win 10).flush t = true ∧ i ∈ ((cfg6.win 10).blk t).view.set := by
  have hi0 : (i 0).val < 256 := (i 0).isLt
  have hi1 : (i 1).val < 1 := (i 1).isLt
  have e := idx_facts6 ⟨9, by decide⟩
  refine ⟨⟨9, by decide⟩, (flush6_10 _).2 rfl, ?_⟩
  rw [mem_blk6_10]
  intro a
  match a with
  | ⟨0, _⟩ => show win6_10.index ⟨9, _⟩ (0 : Fin 2) * 256 ≤ (i 0).val ∧ (i 0).val < win6_10.index ⟨9, _⟩ (0 : Fin 2) * 256 + 256; omega
  | ⟨1, _⟩ => show win6_10.index ⟨9, _⟩ (1 : Fin 2) * 1 ≤ (i 1).val ∧ (i 1).val < win6_10.index ⟨9, _⟩ (1 : Fin 2) * 1 + 1; omega

/-- The output array after the ten points is `G6`. -/
theorem final6_10 (c : Dev nD) : (dat6 V c).arrAt 10 cfg6.N = G6 V c :=
  (dat6 V c).arrAt_eq_of_cover 10 (G6 V c) (fun t hf => flushed6_10_eq V c t hf) cover6_10_arr

/-- Entry g of the output array after the region: the two-layer head on the pooled row g of the normalised, rectified
    features. -/
theorem arrAt6_10 (c : Dev nD) (g : Fin 256) :
    (dat6 (F := Ideal) V c).arrAt 10 cfg6.N (ix2 g (0 : Fin 1))
      = Cert.Spec.mlp (Cert.Spec.pool (G := 256) (Cert.Spec.bnRelu (fun r j => V c (Pipeline.arrRef spec6 0) (ix2 r j)) (fun j => V c (Pipeline.arrRef spec6 1) (ix2 (0 : Fin 1) j)) (fun j => V c (Pipeline.arrRef spec6 2) (ix2 (0 : Fin 1) j)) (fun j => V c (Pipeline.arrRef spec6 3) (ix2 (0 : Fin 1) j)) (fun j => V c (Pipeline.arrRef spec6 4) (ix2 (0 : Fin 1) j))) (fun r => V c (Pipeline.arrRef spec6 5) (ix2 r (0 : Fin 1)))) (fun j k => V c (Pipeline.arrRef spec6 6) (ix2 j k)) (fun k => V c (Pipeline.arrRef spec6 7) (ix2 (0 : Fin 1) k)) (fun k => V c (Pipeline.arrRef spec6 8) (ix2 k (0 : Fin 1))) (V c (Pipeline.arrRef spec6 9) (ix2 (0 : Fin 1) (0 : Fin 1))) g := by
  rw [final6_10]

end Region6

end Cert.KernelIdeal.HandV

end
-- ==== Proof.KI.KReg.lean ====
/-
  Each region's output arrays in the specification's words, from what its input arrays hold. Where the arrays a region
  reads are known by row and column (a matrix, a row of 128 entries, a column of 50000), the arrays it writes are the
  specification's function of those: the dense layer, the combine with its two running column sums, the normalise,
  clamp and dense layer, and the pooled two-layer head.
-/
import proofs.«430760_j5652176962022_1_alg».proof.Proof.KI.V0
import proofs.«430760_j5652176962022_1_alg».proof.Proof.KI.V1
import proofs.«430760_j5652176962022_1_alg».proof.Proof.KI.V2
import proofs.«430760_j5652176962022_1_alg».proof.Proof.KI.V3
import proofs.«430760_j5652176962022_1_alg».proof.Proof.KI.V4
import proofs.«430760_j5652176962022_1_alg».proof.Proof.KI.V5
import proofs.«430760_j5652176962022_1_alg».proof.Proof.KI.V6
import proofs.«430760_j5652176962022_1_alg».proof.Proof.Spec
import Idealize.ShloMosaic.Lib.ValueIdx

noncomputable section

namespace Cert.KernelIdeal.HandV

open Cert.KernelIdeal Cert.KernelIdeal.Gen Cert.KernelIdeal.Hand
open Idealize.ShloMosaic Idealize.ShloMosaic.TcCoe Idealize.ShloMosaic.ValueIdx

section Regions
variable (V : (c : Dev nD) → (b : Ref sig .tc) → Buf (Elt Ideal) ((c : Thread nD τ).loc b))

/-- The first dense layer, from what its two input arrays hold by row and column. -/
theorem reg0_lin (c : Dev nD) (x : Cert.Spec.Mat 50000 128) (Wt : Cert.Spec.Mat 128 128)
    (hx : ∀ r k, V c main_arg0 (ix2 r k) = x r k) (hW : ∀ k j, V c main_arg3 (ix2 k j) = Wt k j)
    (r : Fin 50000) (j : Fin 128) :
    (dat0 (F := Ideal) V c).arrAt 2 cfg0.N (ix2 r j) = Cert.Spec.lin x Wt r j := by
  rw [arrAt0_2]
  have e1 : (fun r k => V c (Pipeline.arrRef spec0 0) (ix2 r k)) = x := funext fun r => funext fun k => hx r k
  have e2 : (fun k j => V c (Pipeline.arrRef spec0 1) (ix2 k j)) = Wt := funext fun k => funext fun j => hW k j
  rw [e1, e2]

/-- The first combine, from what its four input arrays hold: the aggregated messages, the self loop weighted by the
    inverse degree, the bias. -/
theorem reg1_comb (c : Dev nD) (h agg : Cert.Spec.Mat 50000 128) (dinv : Fin 50000 → EReal) (b : Fin 128 → EReal)
    (hh : ∀ r j, V c main_v47 (ix2 r j) = h r j) (hagg : ∀ r j, V c main_v60 (ix2 r j) = agg r j)
    (hd : ∀ r, V c main_v35 (ix2 r 0) = dinv r) (hb : ∀ j, V c main_v36 (ix2 0 j) = b j) (r : Fin 50000) (j : Fin 128) :
    (dat1 (F := Ideal) V c).arrAt 4 cfg1.N (ix2 r j) = Cert.Spec.comb h agg dinv b r j := by
  rw [arrAt1_4]
  have e0 : (fun r j => V c (Pipeline.arrRef spec1 0) (ix2 r j)) = h := funext fun r => funext fun j => hh r j
  have e1 : (fun r j => V c (Pipeline.arrRef spec1 1) (ix2 r j)) = agg := funext fun r => funext fun j => hagg r j
  have e2 : (fun r => V c (Pipeline.arrRef spec1 2) (ix2 r 0)) = dinv := funext hd
  have e3 : (fun j => V c (Pipeline.arrRef spec1 3) (ix2 0 j)) = b := funext hb
  rw [e0, e1, e2, e3]

/-- The first combine's running column sums, after all ten points. -/
theorem reg1_sum (c : Dev nD) (h agg : Cert.Spec.Mat 50000 128) (dinv : Fin 50000 → EReal) (b : Fin 128 → EReal)
    (hh : ∀ r j, V c main_v47 (ix2 r j) = h r j) (hagg : ∀ r j, V c main_v60 (ix2 r j) = agg r j)
    (hd : ∀ r, V c main_v35 (ix2 r 0) = dinv r) (hb : ∀ j, V c main_v36 (ix2 0 j) = b j) (j : Fin 128) :
    (dat1 (F := Ideal) V c).arrAt 5 cfg1.N (ix2 0 j) = Cert.Spec.colSum (Cert.Spec.comb h agg dinv b) j := by
  rw [arrAt1_5]
  have e0 : (fun r j => V c (Pipeline.arrRef spec1 0) (ix2 r j)) = h := funext fun r => funext fun j => hh r j
  have e1 : (fun r j => V c (Pipeline.arrRef spec1 1) (ix2 r j)) = agg := funext fun r => funext fun j => hagg r j
  have e2 : (fun r => V c (Pipeline.arrRef spec1 2) (ix2 r 0)) = dinv := funext hd
  have e3 : (fun j => V c (Pipeline.arrRef spec1 3) (ix2 0 j)) = b := funext hb
  rw [e0, e1, e2, e3]

/-- The first combine's running column sums of squares, after all ten points. -/
theorem reg1_sumSq (c : Dev nD) (h agg : Cert.Spec.Mat 50000 128) (dinv : Fin 50000 → EReal) (b : Fin 128 → EReal)
    (hh : ∀ r j, V c main_v47 (ix2 r j) = h r j) (hagg : ∀ r j, V c main_v60 (ix2 r j) = agg r j)
    (hd : ∀ r, V c main_v35 (ix2 r 0) = dinv r) (hb : ∀ j, V c main_v36 (ix2 0 j) = b j) (j : Fin 128) :
    (dat1 (F := Ideal) V c).arrAt 6 cfg1.N (ix2 0 j) = Cert.Spec.colSumSq (Cert.Spec.comb h agg dinv b) j := by
  rw [arrAt1_6]
  have e0 : (fun r j => V c (Pipeline.arrRef spec1 0) (ix2 r j)) = h := funext fun r => funext fun j => hh r j
  have e1 : (fun r j => V c (Pipeline.arrRef spec1 1) (ix2 r j)) = agg := funext fun r => funext fun j => hagg r j
  have e2 : (fun r => V c (Pipeline.arrRef spec1 2) (ix2 r 0)) = dinv := funext hd
  have e3 : (fun j => V c (Pipeline.arrRef spec1 3) (ix2 0 j)) = b := funext hb
  rw [e0, e1, e2, e3]

/-- The first normalise, clamp and dense layer, from what its six input arrays hold. -/
theorem reg2_lin (c : Dev nD) (cm : Cert.Spec.Mat 50000 128) (mean var g be : Fin 128 → EReal)
    (hc : ∀ r j, V c main_v61_0 (ix2 r j) = cm r j) (hm : ∀ j, V c main_v63 (ix2 0 j) = mean j) (hv : ∀ j, V c main_v67 (ix2 0 j) = var j)
    (hg : ∀ j, V c main_v37 (ix2 0 j) = g j) (hbe : ∀ j, V c main_v38 (ix2 0 j) = be j)
    (Wt : Cert.Spec.Mat 128 128) (hW : ∀ k j, V c main_arg7 (ix2 k j) = Wt k j) (r : Fin 50000) (j : Fin 128) :
    (dat2 (F := Ideal) V c).arrAt 6 cfg2.N (ix2 r j) = Cert.Spec.lin (Cert.Spec.bnRelu cm mean var g be) Wt r j := by
  rw [arrAt2_6]
  have e0 : (fun r j => V c (Pipeline.arrRef spec2 0) (ix2 r j)) = cm := funext fun r => funext fun j => hc r j
  have e1 : (fun j => V c (Pipeline.arrRef spec2 1) (ix2 0 j)) = mean := funext hm
  have e2 : (fun j => V c (Pipeline.arrRef spec2 2) (ix2 0 j)) = var := funext hv
  have e3 : (fun j => V c (Pipeline.arrRef spec2 3) (ix2 0 j)) = g := funext hg
  have e4 : (fun j => V c (Pipeline.arrRef spec2 4) (ix2 0 j)) = be := funext hbe
  have e5 : (fun k j => V c (Pipeline.arrRef spec2 5) (ix2 k j)) = Wt := funext fun k => funext fun j => hW k j
  rw [e0, e1, e2, e3, e4, e5]

/-- The second combine, from what its four input arrays hold: the aggregated messages, the self loop weighted by the
    inverse degree, the bias. -/
theorem reg3_comb (c : Dev nD) (h agg : Cert.Spec.Mat 50000 128) (dinv : Fin 50000 → EReal) (b : Fin 128 → EReal)
    (hh : ∀ r j, V c main_v68 (ix2 r j) = h r j) (hagg : ∀ r j, V c main_v81 (ix2 r j) = agg r j)
    (hd : ∀ r, V c main_v35 (ix2 r 0) = dinv r) (hb : ∀ j, V c main_v39 (ix2 0 j) = b j) (r : Fin 50000) (j : Fin 128) :
    (dat3 (F := Ideal) V c).arrAt 4 cfg3.N (ix2 r j) = Cert.Spec.comb h agg dinv b r j := by
  rw [arrAt3_4]
  have e0 : (fun r j => V c (Pipeline.arrRef spec3 0) (ix2 r j)) = h := funext fun r => funext fun j => hh r j
  have e1 : (fun r j => V c (Pipeline.arrRef spec3 1) (ix2 r j)) = agg := funext fun r => funext fun j => hagg r j
  have e2 : (fun r => V c (Pipeline.arrRef spec3 2) (ix2 r 0)) = dinv := funext hd
  have e3 : (fun j => V c (Pipeline.arrRef spec3 3) (ix2 0 j)) = b := funext hb
  rw [e0, e1, e2, e3]

/-- The second combine's running column sums, after all ten points. -/
theorem reg3_sum (c : Dev nD) (h agg : Cert.Spec.Mat 50000 128) (dinv : Fin 50000 → EReal) (b : Fin 128 → EReal)
    (hh : ∀ r j, V c main_v68 (ix2 r j) = h r j) (hagg : ∀ r j, V c main_v81 (ix2 r j) = agg r j)
    (hd : ∀ r, V c main_v35 (ix2 r 0) = dinv r) (hb : ∀ j, V c main_v39 (ix2 0 j) = b j) (j : Fin 128) :
    (dat3 (F := Ideal) V c).arrAt 5 cfg3.N (ix2 0 j) = Cert.Spec.colSum (Cert.Spec.comb h agg dinv b) j := by
  rw [arrAt3_5]
  have e0 : (fun r j => V c (Pipeline.arrRef spec3 0) (ix2 r j)) = h := funext fun r => funext fun j => hh r j
  have e1 : (fun r j => V c (Pipeline.arrRef spec3 1) (ix2 r j)) = agg := funext fun r => funext fun j => hagg r j
  have e2 : (fun r => V c (Pipeline.arrRef spec3 2) (ix2 r 0)) = dinv := funext hd
  have e3 : (fun j => V c (Pipeline.arrRef spec3 3) (ix2 0 j)) = b := funext hb
  rw [e0, e1, e2, e3]

/-- The second combine's running column sums of squares, after all ten points. -/
theorem reg3_sumSq (c : Dev nD) (h agg : Cert.Spec.Mat 50000 128) (dinv : Fin 50000 → EReal) (b : Fin 128 → EReal)
    (hh : ∀ r j, V c main_v68 (ix2 r j) = h r j) (hagg : ∀ r j, V c main_v81 (ix2 r j) = agg r j)
    (hd : ∀ r, V c main_v35 (ix2 r 0) = dinv r) (hb : ∀ j, V c main_v39 (ix2 0 j) = b j) (j : Fin 128) :
    (dat3 (F := Ideal) V c).arrAt 6 cfg3.N (ix2 0 j) = Cert.Spec.colSumSq (Cert.Spec.comb h agg dinv b) j := by
  rw [arrAt3_6]
  have e0 : (fun r j => V c (Pipeline.arrRef spec3 0) (ix2 r j)) = h := funext fun r => funext fun j => hh r j
  have e1 : (fun r j => V c (Pipeline.arrRef spec3 1) (ix2 r j)) = agg := funext fun r => funext fun j => hagg r j
  have e2 : (fun r => V c (Pipeline.arrRef spec3 2) (ix2 r 0)) = dinv := funext hd
  have e3 : (fun j => V c (Pipeline.arrRef spec3 3) (ix2 0 j)) = b := funext hb
  rw [e0, e1, e2, e3]

/-- The second normalise, clamp and dense layer, from what its six input arrays hold. -/
theorem reg4_lin (c : Dev nD) (cm : Cert.Spec.Mat 50000 128) (mean var g be : Fin 128 → EReal)
    (hc : ∀ r j, V c main_v82_0 (ix2 r j) = cm r j) (hm : ∀ j, V c main_v84 (ix2 0 j) = mean j) (hv : ∀ j, V c main_v88 (ix2 0 j) = var j)
    (hg : ∀ j, V c main_v40 (ix2 0 j) = g j) (hbe : ∀ j, V c main_v41 (ix2 0 j) = be j)
    (Wt : Cert.Spec.Mat 128 128) (hW : ∀ k j, V c main_arg11 (ix2 k j) = Wt k j) (r : Fin 50000) (j : Fin 128) :
    (dat4 (F := Ideal) V c).arrAt 6 cfg4.N (ix2 r j) = Cert.Spec.lin (Cert.Spec.bnRelu cm mean var g be) Wt r j := by
  rw [arrAt4_6]
  have e0 : (fun r j => V c (Pipeline.arrRef spec4 0) (ix2 r j)) = cm := funext fun r => funext fun j => hc r j
  have e1 : (fun j => V c (Pipeline.arrRef spec4 1) (ix2 0 j)) = mean := funext hm
  have e2 : (fun j => V c (Pipeline.arrRef spec4 2) (ix2 0 j)) = var := funext hv
  have e3 : (fun j => V c (Pipeline.arrRef spec4 3) (ix2 0 j)) = g := funext hg
  have e4 : (fun j => V c (Pipeline.arrRef spec4 4) (ix2 0 j)) = be := funext hbe
  have e5 : (fun k j => V c (Pipeline.arrRef spec4 5) (ix2 k j)) = Wt := funext fun k => funext fun j => hW k j
  rw [e0, e1, e2, e3, e4, e5]

/-- The third combine, from what its four input arrays hold: the aggregated messages, the self loop weighted by the
    inverse degree, the bias. -/
theorem reg5_comb (c : Dev nD) (h agg : Cert.Spec.Mat 50000 128) (dinv : Fin 50000 → EReal) (b : Fin 128 → EReal)
    (hh : ∀ r j, V c main_v89 (ix2 r j) = h r j) (hagg : ∀ r j, V c main_v102 (ix2 r j) = agg r j)
    (hd : ∀ r, V c main_v35 (ix2 r 0) = dinv r) (hb : ∀ j, V c main_v42 (ix2 0 j) = b j) (r : Fin 50000) (j : Fin 128) :
    (dat5 (F := Ideal) V c).arrAt 4 cfg5.N (ix2 r j) = Cert.Spec.comb h agg dinv b r j := by
  rw [arrAt5_4]
  have e0 : (fun r j => V c (Pipeline.arrRef spec5 0) (ix2 r j)) = h := funext fun r => funext fun j => hh r j
  have e1 : (fun r j => V c (Pipeline.arrRef spec5 1) (ix2 r j)) = agg := funext fun r => funext fun j => hagg r j
  have e2 : (fun r => V c (Pipeline.arrRef spec5 2) (ix2 r 0)) = dinv := funext hd
  have e3 : (fun j => V c (Pipeline.arrRef spec5 3) (ix2 0 j)) = b := funext hb
  rw [e0, e1, e2, e3]

/-- The third combine's running column sums, after all ten points. -/
theorem reg5_sum (c : Dev nD) (h agg : Cert.Spec.Mat 50000 128) (dinv : Fin 50000 → EReal) (b : Fin 128 → EReal)
    (hh : ∀ r j, V c main_v89 (ix2 r j) = h r j) (hagg : ∀ r j, V c main_v102 (ix2 r j) = agg r j)
    (hd : ∀ r, V c main_v35 (ix2 r 0) = dinv r) (hb : ∀ j, V c main_v42 (ix2 0 j) = b j) (j : Fin 128) :
    (dat5 (F := Ideal) V c).arrAt 5 cfg5.N (ix2 0 j) = Cert.Spec.colSum (Cert.Spec.comb h agg dinv b) j := by
  rw [arrAt5_5]
  have e0 : (fun r j => V c (Pipeline.arrRef spec5 0) (ix2 r j)) = h := funext fun r => funext fun j => hh r j
  have e1 : (fun r j => V c (Pipeline.arrRef spec5 1) (ix2 r j)) = agg := funext fun r => funext fun j => hagg r j
  have e2 : (fun r => V c (Pipeline.arrRef spec5 2) (ix2 r 0)) = dinv := funext hd
  have e3 : (fun j => V c (Pipeline.arrRef spec5 3) (ix2 0 j)) = b := funext hb
  rw [e0, e1, e2, e3]

/-- The third combine's running column sums of squares, after all ten points. -/
theorem reg5_sumSq (c : Dev nD) (h agg : Cert.Spec.Mat 50000 128) (dinv : Fin 50000 → EReal) (b : Fin 128 → EReal)
    (hh : ∀ r j, V c main_v89 (ix2 r j) = h r j) (hagg : ∀ r j, V c main_v102 (ix2 r j) = agg r j)
    (hd : ∀ r, V c main_v35 (ix2 r 0) = dinv r) (hb : ∀ j, V c main_v42 (ix2 0 j) = b j) (j : Fin 128) :
    (dat5 (F := Ideal) V c).arrAt 6 cfg5.N (ix2 0 j) = Cert.Spec.colSumSq (Cert.Spec.comb h agg dinv b) j := by
  rw [arrAt5_6]
  have e0 : (fun r j => V c (Pipeline.arrRef spec5 0) (ix2 r j)) = h := funext fun r => funext fun j => hh r j
  have e1 : (fun r j => V c (Pipeline.arrRef spec5 1) (ix2 r j)) = agg := funext fun r => funext fun j => hagg r j
  have e2 : (fun r => V c (Pipeline.arrRef spec5 2) (ix2 r 0)) = dinv := funext hd
  have e3 : (fun j => V c (Pipeline.arrRef spec5 3) (ix2 0 j)) = b := funext hb
  rw [e0, e1, e2, e3]

/-- The last region, from what its ten input arrays hold: normalise and clamp, add the rows of each graph, the two-layer
    head on each pooled row. -/
theorem reg6_out (c : Dev nD) (cm : Cert.Spec.Mat 50000 128) (mean var g' be : Fin 128 → EReal)
    (hc : ∀ r j, V c main_v103_0 (ix2 r j) = cm r j) (hm : ∀ j, V c main_v105 (ix2 0 j) = mean j) (hv : ∀ j, V c main_v109 (ix2 0 j) = var j)
    (hg : ∀ j, V c main_v43 (ix2 0 j) = g' j) (hbe : ∀ j, V c main_v44 (ix2 0 j) = be j)
    (batch : Fin 50000 → BitVec 32) (hbt : ∀ r, V c main_v4 (ix2 r 0) = batch r)
    (W1 : Cert.Spec.Mat 128 128) (hW1 : ∀ j k, V c main_arg15 (ix2 j k) = W1 j k)
    (b1 : Fin 128 → EReal) (hb1 : ∀ k, V c main_v45 (ix2 0 k) = b1 k)
    (W2 : Fin 128 → EReal) (hW2 : ∀ k, V c main_arg17 (ix2 k 0) = W2 k)
    (b2 : EReal) (hb2 : V c main_v46 (ix2 0 0) = b2) (g : Fin 256) :
    (dat6 (F := Ideal) V c).arrAt 10 cfg6.N (ix2 g 0)
      = Cert.Spec.mlp (Cert.Spec.pool (G := 256) (Cert.Spec.bnRelu cm mean var g' be) batch) W1 b1 W2 b2 g := by
  rw [arrAt6_10]
  have e0 : (fun r j => V c (Pipeline.arrRef spec6 0) (ix2 r j)) = cm := funext fun r => funext fun j => hc r j
  have e1 : (fun j => V c (Pipeline.arrRef spec6 1) (ix2 0 j)) = mean := funext hm
  have e2 : (fun j => V c (Pipeline.arrRef spec6 2) (ix2 0 j)) = var := funext hv
  have e3 : (fun j => V c (Pipeline.arrRef spec6 3) (ix2 0 j)) = g' := funext hg
  have e4 : (fun j => V c (Pipeline.arrRef spec6 4) (ix2 0 j)) = be := funext hbe
  have e5 : (fun r => V c (Pipeline.arrRef spec6 5) (ix2 r 0)) = batch := funext hbt
  have e6 : (fun j k => V c (Pipeline.arrRef spec6 6) (ix2 j k)) = W1 := funext fun j => funext fun k => hW1 j k
  have e7 : (fun k => V c (Pipeline.arrRef spec6 7) (ix2 0 k)) = b1 := funext hb1
  have e8 : (fun k => V c (Pipeline.arrRef spec6 8) (ix2 k 0)) = W2 := funext hW2
  have e9 : V c (Pipeline.arrRef spec6 9) (ix2 0 0) = b2 := hb2
  subst e0 e1 e2 e3 e4 e5 e6 e7 e8 e9
  rfl

end Regions

end Cert.KernelIdeal.HandV

end
-- ==== Proof.Glue.lean ====
/-
  The host chain both programs share, as functions of the edge words: the source and destination rows, the wrap of a
  negative index by the node count, the in-degree plus one, its power −1/2, the edge coefficient (the product of the two
  end points' powers), the inverse degree as a column, and the aggregation of a feature matrix along the edges (gather
  the source rows, scale each by its edge's coefficient, add into the destination rows). Nothing here is opened by the
  comparison of the two programs: both apply exactly these functions.
-/
import proofs.«430760_j5652176962022_1_alg».proof.KernelIdeal
import proofs.«430760_j5652176962022_1_alg».proof.Proof.Gen.KernelIdeal
import Idealize.ShloMosaic.PureOps.Ideal

noncomputable section

namespace Cert.KernelIdeal.Glue

open Cert.KernelIdeal Cert.KernelIdeal.Facts₀ Cert.KernelIdeal.Facts Idealize.ShloMosaic

/-- The source row of the edge list. -/
def srcRow (ei : Vec Ideal S2x800000 .i32) : Vec Ideal S800000 .i32 :=
  fun i => shapeCast S800000 (extractStridedSlice S1x800000 ![0, 0] ei slices_S2x800000_S1x800000_0_0) shapeCasts_S1x800000_S800000 i
/-- The destination row of the edge list. -/
def dstRow (ei : Vec Ideal S2x800000 .i32) : Vec Ideal S800000 .i32 :=
  fun i => shapeCast S800000 (extractStridedSlice S1x800000 ![1, 0] ei slices_S2x800000_S1x800000_1_0) shapeCasts_S1x800000_S800000 i
/-- A negative index counts from the end: add the node count to it. -/
def wrap (v : Vec Ideal S800000 .i32) : Vec Ideal S800000 .i32 :=
  select (cmpi .slt v (broadcastInDim S800000 ![] bcast_S_S800000 (constantI S_ 32 0#32)))
    (addi v (broadcastInDim S800000 ![] bcast_S_S800000 (constantI S_ 32 50000#32))) v
/-- A vector of indices as a column of start indices. -/
def col (v : Vec Ideal S800000 .i32) : Vec Ideal S800000x1 .i32 := broadcastInDim S800000x1 ![0] bcast_S800000_S800000x1_0 v
/-- The in-degree plus the self loop. -/
def deg (ei : Vec Ideal S2x800000 .i32) : FVec Ideal S50000 .f32 :=
  addf (Host.scatterAdd scatter_S50000_S800000x1_S800000_n_0_0_1
      (broadcastInDim S50000 ![] bcast_S_S50000 (constant S_ .f32 0x00000000#32)) (col (wrap (dstRow ei)))
      (broadcastInDim S800000 ![] bcast_S_S800000 (constant S_ .f32 0x3F800000#32)))
    (broadcastInDim S50000 ![] bcast_S_S50000 (constant S_ .f32 0x3F800000#32))
/-- The degree to the power −1/2. -/
def dis (ei : Vec Ideal S2x800000 .i32) : FVec Ideal S50000 .f32 :=
  Host.powf (deg ei) (broadcastInDim S50000 ![] bcast_S_S50000 (constant S_ .f32 0xBF000000#32))
/-- The edge coefficient. -/
def coef (ei : Vec Ideal S2x800000 .i32) : FVec Ideal S800000 .f32 :=
  mulf (Host.gather gather_S50000_S800000x1_S800000_n_0_n_n_0_1_1 (dis ei) (col (wrap (srcRow ei))))
    (Host.gather gather_S50000_S800000x1_S800000_n_0_n_n_0_1_1 (dis ei) (col (wrap (dstRow ei))))
/-- The inverse degree as a column. -/
def dinv (ei : Vec Ideal S2x800000 .i32) : FVec Ideal S50000x1 .f32 :=
  fun i => shapeCast S50000x1 (Host.divf (broadcastInDim S50000 ![] bcast_S_S50000 (constant S_ .f32 0x3F800000#32)) (deg ei)) shapeCasts_S50000_S50000x1 i
/-- The aggregation along the edges. -/
def agg (ei : Vec Ideal S2x800000 .i32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (col (dstRow ei))
    (mulf (Host.gather gather_S50000x128_S800000x1_S800000x128_1_0_n_n_0_1_1128 h (col (wrap (srcRow ei))))
      (broadcastInDim S800000x128 ![0, 1] bcast_S800000x1_S800000x128_0_1 (broadcastInDim S800000x1 ![0] bcast_S800000_S800000x1_0 (coef ei))))

end Cert.KernelIdeal.Glue

end
-- ==== Proof.KI.KH0.lean ====
/-
  What the first host stretch leaves, for any contents it starts from: the edge list's source and destination rows, the
  edge coefficient and the inverse degree are the shared host chain's functions of the edge words; each learned row
  vector laid out as one row reads the vector's entry at its column; the batch words laid out as a column read the
  word at their row; and an array the stretch does not write keeps what it held.
-/
import proofs.«430760_j5652176962022_1_alg».proof.Proof.Glue
import proofs.«430760_j5652176962022_1_alg».proof.Proof.LibAfter
import proofs.«430760_j5652176962022_1_alg».proof.Proof.Gen.KernelIdeal.Launch
import proofs.«430760_j5652176962022_1_alg».proof.Proof.Gen.KernelIdeal.Regions
import Idealize.ShloMosaic.Lib.ValueIdx
import Idealize.ShloMosaic.Lib.ValueLayout
import Idealize.ShloMosaic.Lib.Pipeline.Value

noncomputable section

namespace Cert.KernelIdeal.HandV

open Cert.KernelIdeal Cert.KernelIdeal.Gen Cert.KernelIdeal.Facts₀ Cert.KernelIdeal.Facts
open Idealize.ShloMosaic Idealize.ShloMosaic.TcCoe Idealize.ShloMosaic.StableHlo Idealize.ShloMosaic.ValueIdx

variable (W : Valuation τ sig (Elt Ideal))

/-! ## The shared host chain -/

set_option maxHeartbeats 1600000 in
/-- The source row of the edge list. -/
theorem h0_v1 : StableHlo.after (hostOps0 (F := Ideal)) W main_v1 = Glue.srcRow (W main_arg1) := by
  dsimp only [hostOps0]
  after_results_simp
  rfl

set_option maxHeartbeats 1600000 in
/-- The destination row of the edge list. -/
theorem h0_v3 : StableHlo.after (hostOps0 (F := Ideal)) W main_v3 = Glue.dstRow (W main_arg1) := by
  dsimp only [hostOps0]
  after_results_simp
  rfl

set_option maxHeartbeats 1600000 in
/-- The edge coefficient. -/
theorem h0_v32 : StableHlo.after (hostOps0 (F := Ideal)) W main_v32 = Glue.coef (W main_arg1) := by
  dsimp only [hostOps0]
  after_results_simp
  rfl

set_option maxHeartbeats 1600000 in
/-- The inverse degree as a column. -/
theorem h0_v35 : StableHlo.after (hostOps0 (F := Ideal)) W main_v35 = Glue.dinv (W main_arg1) := by
  dsimp only [hostOps0]
  after_results_simp
  rfl

/-! ## An array the stretch does not write -/

/-- The stretch writes only its own results. -/
theorem h0_keep (r : Ref sig .tc) (h : r ∉ (hostOps0_W : List (Ref sig .tc))) :
    StableHlo.after (hostOps0 (F := Ideal)) W r = W r :=
  StableHlo.after_of_writes_sub hostOps0 W hostOps0_writes h

end Cert.KernelIdeal.HandV

end
-- ==== Proof.KI.KH0R.lean ====
/-
  What the first host stretch leaves of the learned row vectors and the batch words, for any contents it starts from:
  a vector of 128 entries laid out as one row reads, at column j, the vector's entry j; the head's last bias laid out
  as a one-by-one array reads its single entry; the batch words laid out as a column read, at row r, the word of node r.
-/
import proofs.«430760_j5652176962022_1_alg».proof.Proof.LibAfter
import proofs.«430760_j5652176962022_1_alg».proof.Proof.Gen.KernelIdeal.Launch
import Idealize.ShloMosaic.Lib.ValueIdx
import Idealize.ShloMosaic.Lib.ValueLayout
import Idealize.ShloMosaic.Lib.Pipeline.Value

noncomputable section

namespace Cert.KernelIdeal.HandV

open Cert.KernelIdeal Cert.KernelIdeal.Gen Cert.KernelIdeal.Facts₀ Cert.KernelIdeal.Facts
open Idealize.ShloMosaic Idealize.ShloMosaic.TcCoe Idealize.ShloMosaic.StableHlo Idealize.ShloMosaic.ValueIdx

variable (W : Valuation τ sig (Elt Ideal))

set_option maxHeartbeats 1600000 in
/-- The first layer's bias as one row. -/
theorem h0_v36 (u : Fin 1) (j : Fin 128) :
    StableHlo.after (hostOps0 (F := Ideal)) W main_v36 (ix2 u j) = W main_arg4 (ix1 j) := by
  dsimp only [hostOps0]
  after_results_simp
  exact shapeCast_a_1a_apply _ _ u j

set_option maxHeartbeats 1600000 in
/-- The first normalisation's scale as one row. -/
theorem h0_v37 (u : Fin 1) (j : Fin 128) :
    StableHlo.after (hostOps0 (F := Ideal)) W main_v37 (ix2 u j) = W main_arg5 (ix1 j) := by
  dsimp only [hostOps0]
  after_results_simp
  exact shapeCast_a_1a_apply _ _ u j

set_option maxHeartbeats 1600000 in
/-- The first normalisation's shift as one row. -/
theorem h0_v38 (u : Fin 1) (j : Fin 128) :
    StableHlo.after (hostOps0 (F := Ideal)) W main_v38 (ix2 u j) = W main_arg6 (ix1 j) := by
  dsimp only [hostOps0]
  after_results_simp
  exact shapeCast_a_1a_apply _ _ u j

set_option maxHeartbeats 1600000 in
/-- The second layer's bias as one row. -/
theorem h0_v39 (u : Fin 1) (j : Fin 128) :
    StableHlo.after (hostOps0 (F := Ideal)) W main_v39 (ix2 u j) = W main_arg8 (ix1 j) := by
  dsimp only [hostOps0]
  after_results_simp
  exact shapeCast_a_1a_apply _ _ u j

set_option maxHeartbeats 1600000 in
/-- The second normalisation's scale as one row. -/
theorem h0_v40 (u : Fin 1) (j : Fin 128) :
    StableHlo.after (hostOps0 (F := Ideal)) W main_v40 (ix2 u j) = W main_arg9 (ix1 j) := by
  dsimp only [hostOps0]
  after_results_simp
  exact shapeCast_a_1a_apply _ _ u j

set_option maxHeartbeats 1600000 in
/-- The second normalisation's shift as one row. -/
theorem h0_v41 (u : Fin 1) (j : Fin 128) :
    StableHlo.after (hostOps0 (F := Ideal)) W main_v41 (ix2 u j) = W main_arg10 (ix1 j) := by
  dsimp only [hostOps0]
  after_results_simp
  exact shapeCast_a_1a_apply _ _ u j

set_option maxHeartbeats 1600000 in
/-- The third layer's bias as one row. -/
theorem h0_v42 (u : Fin 1) (j : Fin 128) :
    StableHlo.after (hostOps0 (F := Ideal)) W main_v42 (ix2 u j) = W main_arg12 (ix1 j) := by
  dsimp only [hostOps0]
  after_results_simp
  exact shapeCast_a_1a_apply _ _ u j

set_option maxHeartbeats 1600000 in
/-- The third normalisation's scale as one row. -/
theorem h0_v43 (u : Fin 1) (j : Fin 128) :
    StableHlo.after (hostOps0 (F := Ideal)) W main_v43 (ix2 u j) = W main_arg13 (ix1 j) := by
  dsimp only [hostOps0]
  after_results_simp
  exact shapeCast_a_1a_apply _ _ u j

set_option maxHeartbeats 1600000 in
/-- The third normalisation's shift as one row. -/
theorem h0_v44 (u : Fin 1) (j : Fin 128) :
    StableHlo.after (hostOps0 (F := Ideal)) W main_v44 (ix2 u j) = W main_arg14 (ix1 j) := by
  dsimp only [hostOps0]
  after_results_simp
  exact shapeCast_a_1a_apply _ _ u j

set_option maxHeartbeats 1600000 in
/-- The head's first bias as one row. -/
theorem h0_v45 (u : Fin 1) (j : Fin 128) :
    StableHlo.after (hostOps0 (F := Ideal)) W main_v45 (ix2 u j) = W main_arg16 (ix1 j) := by
  dsimp only [hostOps0]
  after_results_simp
  exact shapeCast_a_1a_apply _ _ u j

set_option maxHeartbeats 1600000 in
/-- The head's last bias as a one-by-one array. -/
theorem h0_v46 (u v : Fin 1) :
    StableHlo.after (hostOps0 (F := Ideal)) W main_v46 (ix2 u v) = W main_arg18 (ix1 v) := by
  dsimp only [hostOps0]
  after_results_simp
  exact shapeCast_a_1a_apply _ _ u v

set_option maxHeartbeats 1600000 in
/-- The batch words as a column. -/
theorem h0_v4 (r : Fin 50000) (u : Fin 1) :
    StableHlo.after (hostOps0 (F := Ideal)) W main_v4 (ix2 r u) = W main_arg2 (ix1 r) := by
  dsimp only [hostOps0]
  after_results_simp
  refine shapeCast_apply _ _ _ _ ?_
  have hu : u.val = 0 := by omega
  show ((⟨1, ![50000]⟩ : Shape).rowMajor (ix1 r)).val = ((⟨2, ![50000, 1]⟩ : Shape).rowMajor (ix2 r u)).val
  rw [Shape.rowMajor_val_two, Shape.rowMajor_val_one]
  show r.val = r.val * 1 + u.val
  omega

end Cert.KernelIdeal.HandV

end
-- ==== Proof.Net.lean ====
/-
  The whole network over the specification's functions, with the aggregation along the edges and the inverse degree as
  PARAMETERS (both programs use the same ones). Three convolution layers, each normalised with its own column statistics
  and clamped, then sum pooling by graph and the two-layer head. `netK` spells the variance from the two moments (the
  kernel), `netR` from centred squares (the reference); they differ in nothing else, and pooling into 256 rows read at a
  row below 250 is pooling into 250 rows.
-/
import proofs.«430760_j5652176962022_1_alg».proof.Proof.Spec

noncomputable section

namespace Cert.Spec

/-- The learned parameters, by rows and columns. -/
structure Params where
  W1 : Mat 128 128
  b1 : Fin 128 → EReal
  g1 : Fin 128 → EReal
  be1 : Fin 128 → EReal
  W2 : Mat 128 128
  b2 : Fin 128 → EReal
  g2 : Fin 128 → EReal
  be2 : Fin 128 → EReal
  W3 : Mat 128 128
  b3 : Fin 128 → EReal
  g3 : Fin 128 → EReal
  be3 : Fin 128 → EReal
  Wm1 : Mat 128 128
  bm1 : Fin 128 → EReal
  Wm2 : Fin 128 → EReal
  bm2 : EReal

/-- One layer before normalisation: the dense map, its aggregation along the edges, the self loop and the bias. -/
def layerC (agg : Mat 50000 128 → Mat 50000 128) (dinv : Fin 50000 → EReal) (a : Mat 50000 128) (W : Mat 128 128)
    (b : Fin 128 → EReal) : Mat 50000 128 :=
  comb (lin a W) (agg (lin a W)) dinv b

/-- Normalise with the column mean and the variance from the two moments, then clamp. -/
def actK (c : Mat 50000 128) (g be : Fin 128 → EReal) : Mat 50000 128 := bnRelu c (colMean c) (varMoments c) g be
/-- Normalise with the column mean and the variance from centred squares, then clamp. -/
def actR (c : Mat 50000 128) (g be : Fin 128 → EReal) : Mat 50000 128 := bnRelu c (colMean c) (varCentred c) g be

/-- The three pre-activations, with the activation between layers a parameter. -/
def c1 (agg : Mat 50000 128 → Mat 50000 128) (dinv : Fin 50000 → EReal) (x : Mat 50000 128) (P : Params) : Mat 50000 128 :=
  layerC agg dinv x P.W1 P.b1
def c2 (act : Mat 50000 128 → (Fin 128 → EReal) → (Fin 128 → EReal) → Mat 50000 128)
    (agg : Mat 50000 128 → Mat 50000 128) (dinv : Fin 50000 → EReal) (x : Mat 50000 128) (P : Params) : Mat 50000 128 :=
  layerC agg dinv (act (c1 agg dinv x P) P.g1 P.be1) P.W2 P.b2
def c3 (act : Mat 50000 128 → (Fin 128 → EReal) → (Fin 128 → EReal) → Mat 50000 128)
    (agg : Mat 50000 128 → Mat 50000 128) (dinv : Fin 50000 → EReal) (x : Mat 50000 128) (P : Params) : Mat 50000 128 :=
  layerC agg dinv (act (c2 act agg dinv x P) P.g2 P.be2) P.W3 P.b3

/-- The kernel's network, read at graph `g` of its 256 pooled rows. -/
def netK (agg : Mat 50000 128 → Mat 50000 128) (dinv : Fin 50000 → EReal) (x : Mat 50000 128) (batch : Fin 50000 → BitVec 32)
    (P : Params) (g : Fin 256) : EReal :=
  mlp (pool (G := 256) (actK (c3 actK agg dinv x P) P.g3 P.be3) batch) P.Wm1 P.bm1 P.Wm2 P.bm2 g

/-- The reference's network, at graph `g` of its 250 pooled rows. -/
def netR (agg : Mat 50000 128 → Mat 50000 128) (dinv : Fin 50000 → EReal) (x : Mat 50000 128) (batch : Fin 50000 → BitVec 32)
    (P : Params) (g : Fin 250) : EReal :=
  mlp (pool (G := 250) (actR (c3 actR agg dinv x P) P.g3 P.be3) batch) P.Wm1 P.bm1 P.Wm2 P.bm2 g

end Cert.Spec

end
-- ==== Proof.NetArgs.lean ====
/-
  From the programs' argument arrays to the specification's arguments: a rank-2 array as a matrix by row and column, a
  rank-1 array as a row of entries, the batch words by node, the shared host chain's aggregation and inverse degree as
  maps of matrices, and the learned parameters gathered into one record.
-/
import proofs.«430760_j5652176962022_1_alg».proof.Proof.Net
import proofs.«430760_j5652176962022_1_alg».proof.Proof.Glue
import Idealize.ShloMosaic.Lib.ValueIdx

noncomputable section

namespace Cert.Spec

open Idealize.ShloMosaic Idealize.ShloMosaic.ValueIdx

/-- A rank-2 array read by row and column. -/
def toMat {a b : Nat} (v : (⟨2, ![a, b]⟩ : Shape).Idx → EReal) : Mat a b := fun r j => v (ix2 r j)
/-- A matrix laid out as a rank-2 array. -/
def ofMat {a b : Nat} (M : Mat a b) : (⟨2, ![a, b]⟩ : Shape).Idx → EReal := fun i => M (i 0) (i 1)

theorem toMat_ofMat {a b : Nat} (M : Mat a b) : toMat (ofMat M) = M := rfl
theorem ofMat_toMat {a b : Nat} (v : (⟨2, ![a, b]⟩ : Shape).Idx → EReal) : ofMat (toMat v) = v := by
  funext i; exact congrArg v (eq_ix2 i).symm

/-- A rank-1 array read by position. -/
def rowOf {b : Nat} (v : (⟨1, ![b]⟩ : Shape).Idx → EReal) : Fin b → EReal := fun j => v (ix1 j)
/-- The batch words by node. -/
def batchW (v : (⟨1, ![50000]⟩ : Shape).Idx → BitVec 32) : Fin 50000 → BitVec 32 := fun r => v (ix1 r)

/-- The aggregation along the edges, on matrices. -/
def aggM (ei : Vec Ideal Cert.KernelIdeal.S2x800000 .i32) : Mat 50000 128 → Mat 50000 128 :=
  fun h => toMat (Cert.KernelIdeal.Glue.agg ei (ofMat h))
/-- The inverse degree by node. -/
def dinvM (ei : Vec Ideal Cert.KernelIdeal.S2x800000 .i32) : Fin 50000 → EReal :=
  fun r => Cert.KernelIdeal.Glue.dinv ei (ix2 r 0)

/-- The learned parameters from the sixteen parameter arrays, in the programs' argument order. -/
def paramsOf (W1 : (⟨2, ![128, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 g3 be3 : (⟨1, ![128]⟩ : Shape).Idx → EReal)
    (Wm1 : (⟨2, ![128, 128]⟩ : Shape).Idx → EReal) (bm1 : (⟨1, ![128]⟩ : Shape).Idx → EReal)
    (Wm2 : (⟨2, ![128, 1]⟩ : Shape).Idx → EReal) (bm2 : (⟨1, ![1]⟩ : Shape).Idx → EReal) : Params where
  W1 := toMat W1
  b1 := rowOf b1
  g1 := rowOf g1
  be1 := rowOf be1
  W2 := toMat W2
  b2 := rowOf b2
  g2 := rowOf g2
  be2 := rowOf be2
  W3 := toMat W3
  b3 := rowOf b3
  g3 := rowOf g3
  be3 := rowOf be3
  Wm1 := toMat Wm1
  bm1 := rowOf bm1
  Wm2 := fun k => Wm2 (ix2 k 0)
  bm2 := bm2 (ix1 0)

/-- The kernel's network from the nineteen argument arrays. -/
def netKOf (x : (⟨2, ![50000, 128]⟩ : Shape).Idx → EReal) (ei : Vec Ideal Cert.KernelIdeal.S2x800000 .i32)
    (batch : (⟨1, ![50000]⟩ : Shape).Idx → BitVec 32) (P : Params) (g : Fin 256) : EReal :=
  netK (aggM ei) (dinvM ei) (toMat x) (batchW batch) P g
/-- The reference's network from the nineteen argument arrays. -/
def netROf (x : (⟨2, ![50000, 128]⟩ : Shape).Idx → EReal) (ei : Vec Ideal Cert.KernelIdeal.S2x800000 .i32)
    (batch : (⟨1, ![50000]⟩ : Shape).Idx → BitVec 32) (P : Params) (g : Fin 250) : EReal :=
  netR (aggM ei) (dinvM ei) (toMat x) (batchW batch) P g

end Cert.Spec

end
-- ==== Proof.KI.KHA.lean ====
/-
  What each aggregation stretch leaves, for any contents it starts from whose source row, destination row and edge
  coefficient are the shared host chain's: the chain's aggregation of the array the preceding dense layer wrote. The
  stretch is, operation for operation, the chain's own definition; on matrices it is the specification's aggregation.
-/
import proofs.«430760_j5652176962022_1_alg».proof.Proof.Glue
import proofs.«430760_j5652176962022_1_alg».proof.Proof.NetArgs
import proofs.«430760_j5652176962022_1_alg».proof.Proof.LibAfter
import proofs.«430760_j5652176962022_1_alg».proof.Proof.Gen.KernelIdeal.Launch
import proofs.«430760_j5652176962022_1_alg».proof.Proof.Gen.KernelIdeal.Regions
import Idealize.ShloMosaic.Lib.ValueIdx

noncomputable section

namespace Cert.KernelIdeal.HandV

open Cert.KernelIdeal Cert.KernelIdeal.Gen Cert.KernelIdeal.Facts₀ Cert.KernelIdeal.Facts
open Idealize.ShloMosaic Idealize.ShloMosaic.TcCoe Idealize.ShloMosaic.StableHlo Idealize.ShloMosaic.ValueIdx

variable (W : Valuation τ sig (Elt Ideal))

/-- The shared chain's aggregation read by row and column is the specification's aggregation of the matrix. -/
theorem toMat_agg (ei : Vec Ideal S2x800000 .i32) (v : FVec Ideal S50000x128 .f32) :
    Cert.Spec.toMat (Glue.agg ei v) = Cert.Spec.aggM ei (Cert.Spec.toMat v) := by
  unfold Cert.Spec.aggM
  rw [Cert.Spec.ofMat_toMat]

set_option maxHeartbeats 1600000 in
/-- The first aggregation stretch leaves the shared host chain's aggregation of the dense layer's output: the source
    rows gathered, each scaled by its edge's coefficient, added into the destination rows. -/
theorem agg_of1 (ei : Vec Ideal S2x800000 .i32)
    (h1 : W main_v1 = Glue.srcRow ei) (h3 : W main_v3 = Glue.dstRow ei) (h32 : W main_v32 = Glue.coef ei) :
    StableHlo.after (hostOps1 (F := Ideal)) W main_v60 = Glue.agg ei (W main_v47) := by
  dsimp only [hostOps1]
  after_results_simp
  rw [h1, h3, h32]
  rfl

/-- The first aggregation stretch writes only its own results. -/
theorem h1_keep (r : Ref sig .tc) (h : r ∉ (hostOps1_W : List (Ref sig .tc))) :
    StableHlo.after (hostOps1 (F := Ideal)) W r = W r :=
  StableHlo.after_of_writes_sub hostOps1 W hostOps1_writes h

set_option maxHeartbeats 1600000 in
/-- The second aggregation stretch leaves the shared host chain's aggregation of the dense layer's output: the source
    rows gathered, each scaled by its edge's coefficient, added into the destination rows. -/
theorem agg_of3 (ei : Vec Ideal S2x800000 .i32)
    (h1 : W main_v1 = Glue.srcRow ei) (h3 : W main_v3 = Glue.dstRow ei) (h32 : W main_v32 = Glue.coef ei) :
    StableHlo.after (hostOps3 (F := Ideal)) W main_v81 = Glue.agg ei (W main_v68) := by
  dsimp only [hostOps3]
  after_results_simp
  rw [h1, h3, h32]
  rfl

/-- The second aggregation stretch writes only its own results. -/
theorem h3_keep (r : Ref sig .tc) (h : r ∉ (hostOps3_W : List (Ref sig .tc))) :
    StableHlo.after (hostOps3 (F := Ideal)) W r = W r :=
  StableHlo.after_of_writes_sub hostOps3 W hostOps3_writes h

set_option maxHeartbeats 1600000 in
/-- The third aggregation stretch leaves the shared host chain's aggregation of the dense layer's output: the source
    rows gathered, each scaled by its edge's coefficient, added into the destination rows. -/
theorem agg_of5 (ei : Vec Ideal S2x800000 .i32)
    (h1 : W main_v1 = Glue.srcRow ei) (h3 : W main_v3 = Glue.dstRow ei) (h32 : W main_v32 = Glue.coef ei) :
    StableHlo.after (hostOps5 (F := Ideal)) W main_v102 = Glue.agg ei (W main_v89) := by
  dsimp only [hostOps5]
  after_results_simp
  rw [h1, h3, h32]
  rfl

/-- The third aggregation stretch writes only its own results. -/
theorem h5_keep (r : Ref sig .tc) (h : r ∉ (hostOps5_W : List (Ref sig .tc))) :
    StableHlo.after (hostOps5 (F := Ideal)) W r = W r :=
  StableHlo.after_of_writes_sub hostOps5 W hostOps5_writes h

end Cert.KernelIdeal.HandV

end
-- ==== Proof.KI.KHS.lean ====
/-
  What each statistics stretch leaves, for any contents it starts from: the column mean is the running column sum
  divided by the node count, and the variance is the running sum of squares divided by the node count less the square
  of the mean: the two-moment spelling of the specification, entry by entry. The last stretch cuts the first 250 rows
  out of the 256 pooled ones.
-/
import proofs.«430760_j5652176962022_1_alg».proof.Proof.Glue
import proofs.«430760_j5652176962022_1_alg».proof.Proof.NetArgs
import proofs.«430760_j5652176962022_1_alg».proof.Proof.LibAfter
import proofs.«430760_j5652176962022_1_alg».proof.Proof.Gen.KernelIdeal.Launch
import proofs.«430760_j5652176962022_1_alg».proof.Proof.Gen.KernelIdeal.Regions
import Idealize.ShloMosaic.Lib.ValueIdx
import Idealize.ShloMosaic.Lib.Pipeline.Value

noncomputable section

namespace Cert.KernelIdeal.HandV

open Cert.KernelIdeal Cert.KernelIdeal.Gen Cert.KernelIdeal.Facts₀ Cert.KernelIdeal.Facts
open Idealize.ShloMosaic Idealize.ShloMosaic.TcCoe Idealize.ShloMosaic.StableHlo Idealize.ShloMosaic.ValueIdx

variable (W : Valuation τ sig (Elt Ideal))

/-- After the first statistics stretch the mean row is the running sum over the node count, entry by entry. -/
theorem mean_of2 (i : S1x128.Idx) :
    StableHlo.after (hostOps2 (F := Ideal)) W main_v63 i = Ideal.div (W main_v61_1 i) Cert.Spec.nF := by
  dsimp only [hostOps2]
  after_results
  rfl

/-- After the first statistics stretch the variance row is the mean of squares less the squared mean. -/
theorem var_of2 (i : S1x128.Idx) :
    StableHlo.after (hostOps2 (F := Ideal)) W main_v67 i
      = Ideal.div (W main_v61_2 i) Cert.Spec.nF - Ideal.div (W main_v61_1 i) Cert.Spec.nF * Ideal.div (W main_v61_1 i) Cert.Spec.nF := by
  dsimp only [hostOps2]
  after_results
  rfl

/-- The first statistics stretch writes only its own results. -/
theorem h2_keep (r : Ref sig .tc) (h : r ∉ (hostOps2_W : List (Ref sig .tc))) :
    StableHlo.after (hostOps2 (F := Ideal)) W r = W r :=
  StableHlo.after_of_writes_sub hostOps2 W hostOps2_writes h

/-- After the second statistics stretch the mean row is the running sum over the node count, entry by entry. -/
theorem mean_of4 (i : S1x128.Idx) :
    StableHlo.after (hostOps4 (F := Ideal)) W main_v84 i = Ideal.div (W main_v82_1 i) Cert.Spec.nF := by
  dsimp only [hostOps4]
  after_results
  rfl

/-- After the second statistics stretch the variance row is the mean of squares less the squared mean. -/
theorem var_of4 (i : S1x128.Idx) :
    StableHlo.after (hostOps4 (F := Ideal)) W main_v88 i
      = Ideal.div (W main_v82_2 i) Cert.Spec.nF - Ideal.div (W main_v82_1 i) Cert.Spec.nF * Ideal.div (W main_v82_1 i) Cert.Spec.nF := by
  dsimp only [hostOps4]
  after_results
  rfl

/-- The second statistics stretch writes only its own results. -/
theorem h4_keep (r : Ref sig .tc) (h : r ∉ (hostOps4_W : List (Ref sig .tc))) :
    StableHlo.after (hostOps4 (F := Ideal)) W r = W r :=
  StableHlo.after_of_writes_sub hostOps4 W hostOps4_writes h

/-- After the third statistics stretch the mean row is the running sum over the node count, entry by entry. -/
theorem mean_of6 (i : S1x128.Idx) :
    StableHlo.after (hostOps6 (F := Ideal)) W main_v105 i = Ideal.div (W main_v103_1 i) Cert.Spec.nF := by
  dsimp only [hostOps6]
  after_results
  rfl

/-- After the third statistics stretch the variance row is the mean of squares less the squared mean. -/
theorem var_of6 (i : S1x128.Idx) :
    StableHlo.after (hostOps6 (F := Ideal)) W main_v109 i
      = Ideal.div (W main_v103_2 i) Cert.Spec.nF - Ideal.div (W main_v103_1 i) Cert.Spec.nF * Ideal.div (W main_v103_1 i) Cert.Spec.nF := by
  dsimp only [hostOps6]
  after_results
  rfl

/-- The third statistics stretch writes only its own results. -/
theorem h6_keep (r : Ref sig .tc) (h : r ∉ (hostOps6_W : List (Ref sig .tc))) :
    StableHlo.after (hostOps6 (F := Ideal)) W r = W r :=
  StableHlo.after_of_writes_sub hostOps6 W hostOps6_writes h

/-- The result is the first 250 of the 256 pooled rows. -/
theorem out_of7 (g : Fin 250) (u : Fin 1) :
    StableHlo.after (hostOps7 (F := Ideal)) W main_v111 (ix2 g u) = W main_v110 (ix2 (⟨g.val, by omega⟩ : Fin 256) u) := by
  dsimp only [hostOps7]
  after_results
  refine extractStridedSlice_apply _ _ _ _ _ fun a => ?_
  match a with
  | ⟨0, _⟩ => show g.val = 0 + g.val; omega
  | ⟨1, _⟩ => show u.val = 0 + u.val; omega

/-- The last stretch writes only its own result. -/
theorem h7_keep (r : Ref sig .tc) (h : r ∉ (hostOps7_W : List (Ref sig .tc))) :
    StableHlo.after (hostOps7 (F := Ideal)) W r = W r :=
  StableHlo.after_of_writes_sub hostOps7 W hostOps7_writes h

end Cert.KernelIdeal.HandV

end
-- ==== Proof.KI.KStage.lean ====
/-
  The host stretches between the regions in the specification's words, for any contents they start from. An
  aggregation stretch, started where one array holds a known matrix, leaves the specification's aggregation of that
  matrix. A statistics stretch, started where the two running-sum rows hold the column sums and the column sums of
  squares of a known matrix, leaves that matrix's column mean and its variance from the two moments.
-/
import proofs.«430760_j5652176962022_1_alg».proof.Proof.KI.KHA
import proofs.«430760_j5652176962022_1_alg».proof.Proof.KI.KHS

noncomputable section

namespace Cert.KernelIdeal.HandV

open Cert.KernelIdeal Cert.KernelIdeal.Gen Cert.KernelIdeal.Facts₀ Cert.KernelIdeal.Facts
open Idealize.ShloMosaic Idealize.ShloMosaic.TcCoe Idealize.ShloMosaic.StableHlo Idealize.ShloMosaic.ValueIdx

variable (W : Valuation τ sig (Elt Ideal))

/-- After the first aggregation stretch the aggregated array is, by row and column, the specification's aggregation of
    the matrix the dense layer wrote. -/
theorem stage_agg1 (ei : Vec Ideal S2x800000 .i32)
    (h1 : W main_v1 = Glue.srcRow ei) (h3 : W main_v3 = Glue.dstRow ei) (h32 : W main_v32 = Glue.coef ei)
    (H : Cert.Spec.Mat 50000 128) (hH : ∀ r j, W main_v47 (ix2 r j) = H r j) (r : Fin 50000) (j : Fin 128) :
    StableHlo.after (hostOps1 (F := Ideal)) W main_v60 (ix2 r j) = Cert.Spec.aggM ei H r j := by
  rw [agg_of1 W ei h1 h3 h32]
  have e : Cert.Spec.toMat (W main_v47) = H := funext fun r => funext fun j => hH r j
  show Cert.Spec.toMat (Glue.agg ei (W main_v47)) r j = _
  rw [toMat_agg, e]

/-- After the second aggregation stretch the aggregated array is, by row and column, the specification's aggregation of
    the matrix the dense layer wrote. -/
theorem stage_agg3 (ei : Vec Ideal S2x800000 .i32)
    (h1 : W main_v1 = Glue.srcRow ei) (h3 : W main_v3 = Glue.dstRow ei) (h32 : W main_v32 = Glue.coef ei)
    (H : Cert.Spec.Mat 50000 128) (hH : ∀ r j, W main_v68 (ix2 r j) = H r j) (r : Fin 50000) (j : Fin 128) :
    StableHlo.after (hostOps3 (F := Ideal)) W main_v81 (ix2 r j) = Cert.Spec.aggM ei H r j := by
  rw [agg_of3 W ei h1 h3 h32]
  have e : Cert.Spec.toMat (W main_v68) = H := funext fun r => funext fun j => hH r j
  show Cert.Spec.toMat (Glue.agg ei (W main_v68)) r j = _
  rw [toMat_agg, e]

/-- After the third aggregation stretch the aggregated array is, by row and column, the specification's aggregation of
    the matrix the dense layer wrote. -/
theorem stage_agg5 (ei : Vec Ideal S2x800000 .i32)
    (h1 : W main_v1 = Glue.srcRow ei) (h3 : W main_v3 = Glue.dstRow ei) (h32 : W main_v32 = Glue.coef ei)
    (H : Cert.Spec.Mat 50000 128) (hH : ∀ r j, W main_v89 (ix2 r j) = H r j) (r : Fin 50000) (j : Fin 128) :
    StableHlo.after (hostOps5 (F := Ideal)) W main_v102 (ix2 r j) = Cert.Spec.aggM ei H r j := by
  rw [agg_of5 W ei h1 h3 h32]
  have e : Cert.Spec.toMat (W main_v89) = H := funext fun r => funext fun j => hH r j
  show Cert.Spec.toMat (Glue.agg ei (W main_v89)) r j = _
  rw [toMat_agg, e]

/-- After the first statistics stretch the mean row is the specification's column mean of the combine. -/
theorem stage_mean2 (C : Cert.Spec.Mat 50000 128) (hs : ∀ j, W main_v61_1 (ix2 0 j) = Cert.Spec.colSum C j) (j : Fin 128) :
    StableHlo.after (hostOps2 (F := Ideal)) W main_v63 (ix2 0 j) = Cert.Spec.colMean C j := by
  rw [mean_of2, hs]
  rfl

/-- After the first statistics stretch the variance row is the specification's variance from the two moments. -/
theorem stage_var2 (C : Cert.Spec.Mat 50000 128) (hs : ∀ j, W main_v61_1 (ix2 0 j) = Cert.Spec.colSum C j)
    (hss : ∀ j, W main_v61_2 (ix2 0 j) = Cert.Spec.colSumSq C j) (j : Fin 128) :
    StableHlo.after (hostOps2 (F := Ideal)) W main_v67 (ix2 0 j) = Cert.Spec.varMoments C j := by
  rw [var_of2, hs, hss]
  rfl

/-- After the second statistics stretch the mean row is the specification's column mean of the combine. -/
theorem stage_mean4 (C : Cert.Spec.Mat 50000 128) (hs : ∀ j, W main_v82_1 (ix2 0 j) = Cert.Spec.colSum C j) (j : Fin 128) :
    StableHlo.after (hostOps4 (F := Ideal)) W main_v84 (ix2 0 j) = Cert.Spec.colMean C j := by
  rw [mean_of4, hs]
  rfl

/-- After the second statistics stretch the variance row is the specification's variance from the two moments. -/
theorem stage_var4 (C : Cert.Spec.Mat 50000 128) (hs : ∀ j, W main_v82_1 (ix2 0 j) = Cert.Spec.colSum C j)
    (hss : ∀ j, W main_v82_2 (ix2 0 j) = Cert.Spec.colSumSq C j) (j : Fin 128) :
    StableHlo.after (hostOps4 (F := Ideal)) W main_v88 (ix2 0 j) = Cert.Spec.varMoments C j := by
  rw [var_of4, hs, hss]
  rfl

/-- After the third statistics stretch the mean row is the specification's column mean of the combine. -/
theorem stage_mean6 (C : Cert.Spec.Mat 50000 128) (hs : ∀ j, W main_v103_1 (ix2 0 j) = Cert.Spec.colSum C j) (j : Fin 128) :
    StableHlo.after (hostOps6 (F := Ideal)) W main_v105 (ix2 0 j) = Cert.Spec.colMean C j := by
  rw [mean_of6, hs]
  rfl

/-- After the third statistics stretch the variance row is the specification's variance from the two moments. -/
theorem stage_var6 (C : Cert.Spec.Mat 50000 128) (hs : ∀ j, W main_v103_1 (ix2 0 j) = Cert.Spec.colSum C j)
    (hss : ∀ j, W main_v103_2 (ix2 0 j) = Cert.Spec.colSumSq C j) (j : Fin 128) :
    StableHlo.after (hostOps6 (F := Ideal)) W main_v109 (ix2 0 j) = Cert.Spec.varMoments C j := by
  rw [var_of6, hs, hss]
  rfl

end Cert.KernelIdeal.HandV

end
-- ==== Proof.KI.KVal.lean ====
/-
  The kernel's result in the specification's words. The program alternates host stretches and regions; at each boundary
  the arrays the next item reads are known in the specification's terms: after the first stretch the shared host
  chain's rows, coefficient and inverse degree and the learned rows; after each dense region the layer's product;
  after each aggregation stretch the specification's aggregation of it; after each combine region the pre-activation
  with its column sums and sums of squares; after each statistics stretch its column mean and its variance from the
  two moments; after the last region the pooled head. An array nothing has written since the first region's entry
  still holds what the first stretch left. Chained, the final slice reads the specification's network at graph g.
-/
import proofs.«430760_j5652176962022_1_alg».proof.Proof.KI.Run
import proofs.«430760_j5652176962022_1_alg».proof.Proof.KI.KReg
import proofs.«430760_j5652176962022_1_alg».proof.Proof.KI.KH0
import proofs.«430760_j5652176962022_1_alg».proof.Proof.KI.KH0R
import proofs.«430760_j5652176962022_1_alg».proof.Proof.KI.KStage
import proofs.«430760_j5652176962022_1_alg».proof.Proof.NetArgs

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.StableHlo Idealize.ShloMosaic.ValueIdx

/-! ## Lists of references -/

theorem not_mem_app {b : Ref sig .tc} {l l' : List (Ref sig .tc)} (h : b ∉ l ++ l') : b ∉ l ∧ b ∉ l' :=
  ⟨fun hm => h (List.mem_append_left _ hm), fun hm => h (List.mem_append_right _ hm)⟩
theorem ne_of_not_mem1 {b a : Ref sig .tc} (h : b ∉ [a]) : b ≠ a := List.ne_of_not_mem_cons h
theorem ne_of_not_mem3 {b a0 a1 a2 : Ref sig .tc} (h : b ∉ [a0, a1, a2]) : b ≠ a0 ∧ b ≠ a1 ∧ b ≠ a2 :=
  ⟨List.ne_of_not_mem_cons h, List.ne_of_not_mem_cons (List.not_mem_of_not_mem_cons h),
    List.ne_of_not_mem_cons (List.not_mem_of_not_mem_cons (List.not_mem_of_not_mem_cons h))⟩

/-- The references written between the first region's entry and each later boundary of the program. -/
abbrev wr2 : List (Ref sig .tc) := [main_v47]
abbrev wr3 : List (Ref sig .tc) := wr2 ++ hostOps1_W
abbrev wr4 : List (Ref sig .tc) := wr3 ++ [main_v61_0, main_v61_1, main_v61_2]
abbrev wr5 : List (Ref sig .tc) := wr4 ++ hostOps2_W
abbrev wr6 : List (Ref sig .tc) := wr5 ++ [main_v68]
abbrev wr7 : List (Ref sig .tc) := wr6 ++ hostOps3_W
abbrev wr8 : List (Ref sig .tc) := wr7 ++ [main_v82_0, main_v82_1, main_v82_2]
abbrev wr9 : List (Ref sig .tc) := wr8 ++ hostOps4_W
abbrev wr10 : List (Ref sig .tc) := wr9 ++ [main_v89]
abbrev wr11 : List (Ref sig .tc) := wr10 ++ hostOps5_W
abbrev wr12 : List (Ref sig .tc) := wr11 ++ [main_v103_0, main_v103_1, main_v103_2]
abbrev wr13 : List (Ref sig .tc) := wr12 ++ hostOps6_W

section Chain
variable (m : (ℓ : Loc nD τ sig) → Buf (Elt Ideal) ℓ) (c : Dev nD)

/-! ## A reference nothing has written since the first region's entry still holds what it held there -/

theorem keep2 (b : Ref sig .tc) (h : b ∉ wr2) : U2 m c b = U1 m c b := U2_of m c b (ne_of_not_mem1 h)
theorem keep3 (b : Ref sig .tc) (h : b ∉ wr3) : U3 m c b = U1 m c b :=
  (h1_keep (U2 m c) b (not_mem_app h).2).trans (keep2 m c b (not_mem_app h).1)
theorem keep4 (b : Ref sig .tc) (h : b ∉ wr4) : U4 m c b = U1 m c b :=
  (U4_of m c b (ne_of_not_mem3 (not_mem_app h).2).1 (ne_of_not_mem3 (not_mem_app h).2).2.1 (ne_of_not_mem3 (not_mem_app h).2).2.2).trans
    (keep3 m c b (not_mem_app h).1)
theorem keep5 (b : Ref sig .tc) (h : b ∉ wr5) : U5 m c b = U1 m c b :=
  (h2_keep (U4 m c) b (not_mem_app h).2).trans (keep4 m c b (not_mem_app h).1)
theorem keep6 (b : Ref sig .tc) (h : b ∉ wr6) : U6 m c b = U1 m c b :=
  (U6_of m c b (ne_of_not_mem1 (not_mem_app h).2)).trans (keep5 m c b (not_mem_app h).1)
theorem keep7 (b : Ref sig .tc) (h : b ∉ wr7) : U7 m c b = U1 m c b :=
  (h3_keep (U6 m c) b (not_mem_app h).2).trans (keep6 m c b (not_mem_app h).1)
theorem keep8 (b : Ref sig .tc) (h : b ∉ wr8) : U8 m c b = U1 m c b :=
  (U8_of m c b (ne_of_not_mem3 (not_mem_app h).2).1 (ne_of_not_mem3 (not_mem_app h).2).2.1 (ne_of_not_mem3 (not_mem_app h).2).2.2).trans
    (keep7 m c b (not_mem_app h).1)
theorem keep9 (b : Ref sig .tc) (h : b ∉ wr9) : U9 m c b = U1 m c b :=
  (h4_keep (U8 m c) b (not_mem_app h).2).trans (keep8 m c b (not_mem_app h).1)
theorem keep10 (b : Ref sig .tc) (h : b ∉ wr10) : U10 m c b = U1 m c b :=
  (U10_of m c b (ne_of_not_mem1 (not_mem_app h).2)).trans (keep9 m c b (not_mem_app h).1)
theorem keep11 (b : Ref sig .tc) (h : b ∉ wr11) : U11 m c b = U1 m c b :=
  (h5_keep (U10 m c) b (not_mem_app h).2).trans (keep10 m c b (not_mem_app h).1)
theorem keep12 (b : Ref sig .tc) (h : b ∉ wr12) : U12 m c b = U1 m c b :=
  (U12_of m c b (ne_of_not_mem3 (not_mem_app h).2).1 (ne_of_not_mem3 (not_mem_app h).2).2.1 (ne_of_not_mem3 (not_mem_app h).2).2.2).trans
    (keep11 m c b (not_mem_app h).1)
theorem keep13 (b : Ref sig .tc) (h : b ∉ wr13) : U13 m c b = U1 m c b :=
  (h6_keep (U12 m c) b (not_mem_app h).2).trans (keep12 m c b (not_mem_app h).1)

/-! ## The specification's arguments, read off the launch contents -/

/-- The edge words. -/
abbrev eiK : Vec Ideal S2x800000 .i32 := m ((c : Thread nD τ).loc main_arg1)
/-- The node features by row and column. -/
abbrev XK : Cert.Spec.Mat 50000 128 := Cert.Spec.toMat (m ((c : Thread nD τ).loc main_arg0))
/-- The batch words by node. -/
abbrev BK : Fin 50000 → BitVec 32 := Cert.Spec.batchW (m ((c : Thread nD τ).loc main_arg2))
/-- The learned parameters. -/
abbrev PK : Cert.Spec.Params := Cert.Spec.paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
/-- The aggregation along the edges and the inverse degree. -/
abbrev aggK : Cert.Spec.Mat 50000 128 → Cert.Spec.Mat 50000 128 := Cert.Spec.aggM (eiK m c)
abbrev dinvK : Fin 50000 → EReal := Cert.Spec.dinvM (eiK m c)
/-- The three pre-activations and the three dense layers' outputs. -/
abbrev C1K : Cert.Spec.Mat 50000 128 := Cert.Spec.c1 (aggK m c) (dinvK m c) (XK m c) (PK m c)
abbrev C2K : Cert.Spec.Mat 50000 128 := Cert.Spec.c2 Cert.Spec.actK (aggK m c) (dinvK m c) (XK m c) (PK m c)
abbrev C3K : Cert.Spec.Mat 50000 128 := Cert.Spec.c3 Cert.Spec.actK (aggK m c) (dinvK m c) (XK m c) (PK m c)
abbrev H1K : Cert.Spec.Mat 50000 128 := Cert.Spec.lin (XK m c) (PK m c).W1
abbrev H2K : Cert.Spec.Mat 50000 128 := Cert.Spec.lin (Cert.Spec.actK (C1K m c) (PK m c).g1 (PK m c).be1) (PK m c).W2
abbrev H3K : Cert.Spec.Mat 50000 128 := Cert.Spec.lin (Cert.Spec.actK (C2K m c) (PK m c).g2 (PK m c).be2) (PK m c).W3

/-! ## What the first host stretch leaves, at the launch contents -/

theorem u1_arg (b : Ref sig .tc) (h : b ∉ (hostOps0_W : List (Ref sig .tc))) : U1 m c b = m ((c : Thread nD τ).loc b) :=
  (Gen.V1_of m c b h).trans rfl
theorem u1_v1 : U1 m c main_v1 = Glue.srcRow (eiK m c) := h0_v1 (Gen.V0 m c)
theorem u1_v3 : U1 m c main_v3 = Glue.dstRow (eiK m c) := h0_v3 (Gen.V0 m c)
theorem u1_v32 : U1 m c main_v32 = Glue.coef (eiK m c) := h0_v32 (Gen.V0 m c)
theorem u1_v35 : U1 m c main_v35 = Glue.dinv (eiK m c) := h0_v35 (Gen.V0 m c)
theorem u1_v36 (j : Fin 128) : U1 m c main_v36 (ix2 0 j) = (PK m c).b1 j := h0_v36 (Gen.V0 m c) 0 j
theorem u1_v37 (j : Fin 128) : U1 m c main_v37 (ix2 0 j) = (PK m c).g1 j := h0_v37 (Gen.V0 m c) 0 j
theorem u1_v38 (j : Fin 128) : U1 m c main_v38 (ix2 0 j) = (PK m c).be1 j := h0_v38 (Gen.V0 m c) 0 j
theorem u1_v39 (j : Fin 128) : U1 m c main_v39 (ix2 0 j) = (PK m c).b2 j := h0_v39 (Gen.V0 m c) 0 j
theorem u1_v40 (j : Fin 128) : U1 m c main_v40 (ix2 0 j) = (PK m c).g2 j := h0_v40 (Gen.V0 m c) 0 j
theorem u1_v41 (j : Fin 128) : U1 m c main_v41 (ix2 0 j) = (PK m c).be2 j := h0_v41 (Gen.V0 m c) 0 j
theorem u1_v42 (j : Fin 128) : U1 m c main_v42 (ix2 0 j) = (PK m c).b3 j := h0_v42 (Gen.V0 m c) 0 j
theorem u1_v43 (j : Fin 128) : U1 m c main_v43 (ix2 0 j) = (PK m c).g3 j := h0_v43 (Gen.V0 m c) 0 j
theorem u1_v44 (j : Fin 128) : U1 m c main_v44 (ix2 0 j) = (PK m c).be3 j := h0_v44 (Gen.V0 m c) 0 j
theorem u1_v45 (j : Fin 128) : U1 m c main_v45 (ix2 0 j) = (PK m c).bm1 j := h0_v45 (Gen.V0 m c) 0 j
theorem u1_v46 : U1 m c main_v46 (ix2 0 0) = (PK m c).bm2 := h0_v46 (Gen.V0 m c) 0 0
theorem u1_v4 (r : Fin 50000) : U1 m c main_v4 (ix2 r 0) = BK m c r := h0_v4 (Gen.V0 m c) r 0

/-! ## The first layer -/

theorem l2 (r : Fin 50000) (j : Fin 128) : U2 m c main_v47 (ix2 r j) = H1K m c r j := by
  rw [U2_out0]
  exact reg0_lin (T1 m) c (XK m c) (PK m c).W1
    (fun r k => congrFun (u1_arg m c main_arg0 (by decide)) (ix2 r k))
    (fun k j => congrFun (u1_arg m c main_arg3 (by decide)) (ix2 k j)) r j

theorem l3 (r : Fin 50000) (j : Fin 128) : U3 m c main_v60 (ix2 r j) = aggK m c (H1K m c) r j :=
  stage_agg1 (U2 m c) (eiK m c)
    ((keep2 m c main_v1 (by decide)).trans (u1_v1 m c)) ((keep2 m c main_v3 (by decide)).trans (u1_v3 m c))
    ((keep2 m c main_v32 (by decide)).trans (u1_v32 m c)) (H1K m c) (l2 m c) r j

theorem u3_h (r : Fin 50000) (j : Fin 128) : U3 m c main_v47 (ix2 r j) = H1K m c r j :=
  (congrFun (h1_keep (U2 m c) main_v47 (by decide)) (ix2 r j)).trans (l2 m c r j)
theorem u3_dinv (r : Fin 50000) : U3 m c main_v35 (ix2 r 0) = dinvK m c r :=
  congrFun ((keep3 m c main_v35 (by decide)).trans (u1_v35 m c)) (ix2 r 0)
theorem u3_b (j : Fin 128) : U3 m c main_v36 (ix2 0 j) = (PK m c).b1 j :=
  (congrFun (keep3 m c main_v36 (by decide)) (ix2 0 j)).trans (u1_v36 m c j)

theorem l4_0 (r : Fin 50000) (j : Fin 128) : U4 m c main_v61_0 (ix2 r j) = C1K m c r j := by
  rw [U4_out0]
  exact reg1_comb (T3 m) c (H1K m c) (aggK m c (H1K m c)) (dinvK m c) (PK m c).b1
    (u3_h m c) (l3 m c) (u3_dinv m c) (u3_b m c) r j
theorem l4_1 (j : Fin 128) : U4 m c main_v61_1 (ix2 0 j) = Cert.Spec.colSum (C1K m c) j := by
  rw [U4_out1]
  exact reg1_sum (T3 m) c (H1K m c) (aggK m c (H1K m c)) (dinvK m c) (PK m c).b1
    (u3_h m c) (l3 m c) (u3_dinv m c) (u3_b m c) j
theorem l4_2 (j : Fin 128) : U4 m c main_v61_2 (ix2 0 j) = Cert.Spec.colSumSq (C1K m c) j := by
  rw [U4_out2]
  exact reg1_sumSq (T3 m) c (H1K m c) (aggK m c (H1K m c)) (dinvK m c) (PK m c).b1
    (u3_h m c) (l3 m c) (u3_dinv m c) (u3_b m c) j

theorem l5_mean (j : Fin 128) : U5 m c main_v63 (ix2 0 j) = Cert.Spec.colMean (C1K m c) j :=
  stage_mean2 (U4 m c) (C1K m c) (l4_1 m c) j
theorem l5_var (j : Fin 128) : U5 m c main_v67 (ix2 0 j) = Cert.Spec.varMoments (C1K m c) j :=
  stage_var2 (U4 m c) (C1K m c) (l4_1 m c) (l4_2 m c) j

/-! ## The second layer -/

theorem u5_c (r : Fin 50000) (j : Fin 128) : U5 m c main_v61_0 (ix2 r j) = C1K m c r j :=
  (congrFun (h2_keep (U4 m c) main_v61_0 (by decide)) (ix2 r j)).trans (l4_0 m c r j)
theorem u5_g (j : Fin 128) : U5 m c main_v37 (ix2 0 j) = (PK m c).g1 j :=
  (congrFun (keep5 m c main_v37 (by decide)) (ix2 0 j)).trans (u1_v37 m c j)
theorem u5_be (j : Fin 128) : U5 m c main_v38 (ix2 0 j) = (PK m c).be1 j :=
  (congrFun (keep5 m c main_v38 (by decide)) (ix2 0 j)).trans (u1_v38 m c j)
theorem u5_W (k j : Fin 128) : U5 m c main_arg7 (ix2 k j) = (PK m c).W2 k j :=
  congrFun ((keep5 m c main_arg7 (by decide)).trans (u1_arg m c main_arg7 (by decide))) (ix2 k j)

theorem l6 (r : Fin 50000) (j : Fin 128) : U6 m c main_v68 (ix2 r j) = H2K m c r j := by
  rw [U6_out0]
  exact reg2_lin (T5 m) c (C1K m c) (Cert.Spec.colMean (C1K m c)) (Cert.Spec.varMoments (C1K m c)) (PK m c).g1 (PK m c).be1
    (u5_c m c) (l5_mean m c) (l5_var m c) (u5_g m c) (u5_be m c) (PK m c).W2 (u5_W m c) r j

theorem l7 (r : Fin 50000) (j : Fin 128) : U7 m c main_v81 (ix2 r j) = aggK m c (H2K m c) r j :=
  stage_agg3 (U6 m c) (eiK m c)
    ((keep6 m c main_v1 (by decide)).trans (u1_v1 m c)) ((keep6 m c main_v3 (by decide)).trans (u1_v3 m c))
    ((keep6 m c main_v32 (by decide)).trans (u1_v32 m c)) (H2K m c) (l6 m c) r j

theorem u7_h (r : Fin 50000) (j : Fin 128) : U7 m c main_v68 (ix2 r j) = H2K m c r j :=
  (congrFun (h3_keep (U6 m c) main_v68 (by decide)) (ix2 r j)).trans (l6 m c r j)
theorem u7_dinv (r : Fin 50000) : U7 m c main_v35 (ix2 r 0) = dinvK m c r :=
  congrFun ((keep7 m c main_v35 (by decide)).trans (u1_v35 m c)) (ix2 r 0)
theorem u7_b (j : Fin 128) : U7 m c main_v39 (ix2 0 j) = (PK m c).b2 j :=
  (congrFun (keep7 m c main_v39 (by decide)) (ix2 0 j)).trans (u1_v39 m c j)

theorem l8_0 (r : Fin 50000) (j : Fin 128) : U8 m c main_v82_0 (ix2 r j) = C2K m c r j := by
  rw [U8_out0]
  exact reg3_comb (T7 m) c (H2K m c) (aggK m c (H2K m c)) (dinvK m c) (PK m c).b2
    (u7_h m c) (l7 m c) (u7_dinv m c) (u7_b m c) r j
theorem l8_1 (j : Fin 128) : U8 m c main_v82_1 (ix2 0 j) = Cert.Spec.colSum (C2K m c) j := by
  rw [U8_out1]
  exact reg3_sum (T7 m) c (H2K m c) (aggK m c (H2K m c)) (dinvK m c) (PK m c).b2
    (u7_h m c) (l7 m c) (u7_dinv m c) (u7_b m c) j
theorem l8_2 (j : Fin 128) : U8 m c main_v82_2 (ix2 0 j) = Cert.Spec.colSumSq (C2K m c) j := by
  rw [U8_out2]
  exact reg3_sumSq (T7 m) c (H2K m c) (aggK m c (H2K m c)) (dinvK m c) (PK m c).b2
    (u7_h m c) (l7 m c) (u7_dinv m c) (u7_b m c) j

theorem l9_mean (j : Fin 128) : U9 m c main_v84 (ix2 0 j) = Cert.Spec.colMean (C2K m c) j :=
  stage_mean4 (U8 m c) (C2K m c) (l8_1 m c) j
theorem l9_var (j : Fin 128) : U9 m c main_v88 (ix2 0 j) = Cert.Spec.varMoments (C2K m c) j :=
  stage_var4 (U8 m c) (C2K m c) (l8_1 m c) (l8_2 m c) j

/-! ## The third layer -/

theorem u9_c (r : Fin 50000) (j : Fin 128) : U9 m c main_v82_0 (ix2 r j) = C2K m c r j :=
  (congrFun (h4_keep (U8 m c) main_v82_0 (by decide)) (ix2 r j)).trans (l8_0 m c r j)
theorem u9_g (j : Fin 128) : U9 m c main_v40 (ix2 0 j) = (PK m c).g2 j :=
  (congrFun (keep9 m c main_v40 (by decide)) (ix2 0 j)).trans (u1_v40 m c j)
theorem u9_be (j : Fin 128) : U9 m c main_v41 (ix2 0 j) = (PK m c).be2 j :=
  (congrFun (keep9 m c main_v41 (by decide)) (ix2 0 j)).trans (u1_v41 m c j)
theorem u9_W (k j : Fin 128) : U9 m c main_arg11 (ix2 k j) = (PK m c).W3 k j :=
  congrFun ((keep9 m c main_arg11 (by decide)).trans (u1_arg m c main_arg11 (by decide))) (ix2 k j)

theorem l10 (r : Fin 50000) (j : Fin 128) : U10 m c main_v89 (ix2 r j) = H3K m c r j := by
  rw [U10_out0]
  exact reg4_lin (T9 m) c (C2K m c) (Cert.Spec.colMean (C2K m c)) (Cert.Spec.varMoments (C2K m c)) (PK m c).g2 (PK m c).be2
    (u9_c m c) (l9_mean m c) (l9_var m c) (u9_g m c) (u9_be m c) (PK m c).W3 (u9_W m c) r j

theorem l11 (r : Fin 50000) (j : Fin 128) : U11 m c main_v102 (ix2 r j) = aggK m c (H3K m c) r j :=
  stage_agg5 (U10 m c) (eiK m c)
    ((keep10 m c main_v1 (by decide)).trans (u1_v1 m c)) ((keep10 m c main_v3 (by decide)).trans (u1_v3 m c))
    ((keep10 m c main_v32 (by decide)).trans (u1_v32 m c)) (H3K m c) (l10 m c) r j

theorem u11_h (r : Fin 50000) (j : Fin 128) : U11 m c main_v89 (ix2 r j) = H3K m c r j :=
  (congrFun (h5_keep (U10 m c) main_v89 (by decide)) (ix2 r j)).trans (l10 m c r j)
theorem u11_dinv (r : Fin 50000) : U11 m c main_v35 (ix2 r 0) = dinvK m c r :=
  congrFun ((keep11 m c main_v35 (by decide)).trans (u1_v35 m c)) (ix2 r 0)
theorem u11_b (j : Fin 128) : U11 m c main_v42 (ix2 0 j) = (PK m c).b3 j :=
  (congrFun (keep11 m c main_v42 (by decide)) (ix2 0 j)).trans (u1_v42 m c j)

theorem l12_0 (r : Fin 50000) (j : Fin 128) : U12 m c main_v103_0 (ix2 r j) = C3K m c r j := by
  rw [U12_out0]
  exact reg5_comb (T11 m) c (H3K m c) (aggK m c (H3K m c)) (dinvK m c) (PK m c).b3
    (u11_h m c) (l11 m c) (u11_dinv m c) (u11_b m c) r j
theorem l12_1 (j : Fin 128) : U12 m c main_v103_1 (ix2 0 j) = Cert.Spec.colSum (C3K m c) j := by
  rw [U12_out1]
  exact reg5_sum (T11 m) c (H3K m c) (aggK m c (H3K m c)) (dinvK m c) (PK m c).b3
    (u11_h m c) (l11 m c) (u11_dinv m c) (u11_b m c) j
theorem l12_2 (j : Fin 128) : U12 m c main_v103_2 (ix2 0 j) = Cert.Spec.colSumSq (C3K m c) j := by
  rw [U12_out2]
  exact reg5_sumSq (T11 m) c (H3K m c) (aggK m c (H3K m c)) (dinvK m c) (PK m c).b3
    (u11_h m c) (l11 m c) (u11_dinv m c) (u11_b m c) j

theorem l13_mean (j : Fin 128) : U13 m c main_v105 (ix2 0 j) = Cert.Spec.colMean (C3K m c) j :=
  stage_mean6 (U12 m c) (C3K m c) (l12_1 m c) j
theorem l13_var (j : Fin 128) : U13 m c main_v109 (ix2 0 j) = Cert.Spec.varMoments (C3K m c) j :=
  stage_var6 (U12 m c) (C3K m c) (l12_1 m c) (l12_2 m c) j

/-! ## Pooling and the head -/

theorem u13_c (r : Fin 50000) (j : Fin 128) : U13 m c main_v103_0 (ix2 r j) = C3K m c r j :=
  (congrFun (h6_keep (U12 m c) main_v103_0 (by decide)) (ix2 r j)).trans (l12_0 m c r j)
theorem u13_g (j : Fin 128) : U13 m c main_v43 (ix2 0 j) = (PK m c).g3 j :=
  (congrFun (keep13 m c main_v43 (by decide)) (ix2 0 j)).trans (u1_v43 m c j)
theorem u13_be (j : Fin 128) : U13 m c main_v44 (ix2 0 j) = (PK m c).be3 j :=
  (congrFun (keep13 m c main_v44 (by decide)) (ix2 0 j)).trans (u1_v44 m c j)
theorem u13_bt (r : Fin 50000) : U13 m c main_v4 (ix2 r 0) = BK m c r :=
  (congrFun (keep13 m c main_v4 (by decide)) (ix2 r 0)).trans (u1_v4 m c r)
theorem u13_W1 (j k : Fin 128) : U13 m c main_arg15 (ix2 j k) = (PK m c).Wm1 j k :=
  congrFun ((keep13 m c main_arg15 (by decide)).trans (u1_arg m c main_arg15 (by decide))) (ix2 j k)
theorem u13_b1 (k : Fin 128) : U13 m c main_v45 (ix2 0 k) = (PK m c).bm1 k :=
  (congrFun (keep13 m c main_v45 (by decide)) (ix2 0 k)).trans (u1_v45 m c k)
theorem u13_W2 (k : Fin 128) : U13 m c main_arg17 (ix2 k 0) = (PK m c).Wm2 k :=
  congrFun ((keep13 m c main_arg17 (by decide)).trans (u1_arg m c main_arg17 (by decide))) (ix2 k 0)
theorem u13_b2 : U13 m c main_v46 (ix2 0 0) = (PK m c).bm2 :=
  (congrFun (keep13 m c main_v46 (by decide)) (ix2 0 0)).trans (u1_v46 m c)

theorem l14 (g : Fin 256) :
    U14 m c main_v110 (ix2 g 0) = Cert.Spec.netK (aggK m c) (dinvK m c) (XK m c) (BK m c) (PK m c) g := by
  rw [U14_out0]
  exact reg6_out (T13 m) c (C3K m c) (Cert.Spec.colMean (C3K m c)) (Cert.Spec.varMoments (C3K m c)) (PK m c).g3 (PK m c).be3
    (u13_c m c) (l13_mean m c) (l13_var m c) (u13_g m c) (u13_be m c) (BK m c) (u13_bt m c)
    (PK m c).Wm1 (u13_W1 m c) (PK m c).bm1 (u13_b1 m c) (PK m c).Wm2 (u13_W2 m c) (PK m c).bm2 (u13_b2 m c) g

/-- The kernel's result at graph `g`: the specification's network over the launch contents, read at row `g` of its
    256 pooled rows. -/
theorem kernel_value (g : Fin 250) :
    U15 (F := Ideal) m c main_v111 (ix2 g 0)
      = Cert.Spec.netKOf (m ((c : Thread nD τ).loc main_arg0)) (m ((c : Thread nD τ).loc main_arg1)) (m ((c : Thread nD τ).loc main_arg2))
          (Cert.Spec.paramsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) ⟨g.val, by omega⟩ :=
  (out_of7 (U14 m c) g 0).trans (l14 m c ⟨g.val, by omega⟩)

end Chain

end Cert.KernelIdeal.HandV

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.RefVal.lean ====
/-
  The reference program's result, in the specification's words. The reference spells each of its three graph-convolution
  layers with the same operations in the same order, so its second and third layers are its first layer's function applied
  again; one layer is read index by index: the dense map is a sum over the contracted axis, the combine adds the aggregated
  messages, the self loop weighted by the inverse degree and the bias, the statistics are the column mean and the mean of
  the centred squares, and the activation normalises, scales, shifts and clamps at zero. The degree chain and the
  aggregation along the edges are the functions of the edge words both programs share, and are never opened. Pooling is
  a scatter-add of the node rows at their batch words into zeros, and the head is two dense maps with a clamp between.
-/
import proofs.«430760_j5652176962022_1_alg».proof.Proof.RefRead
import proofs.«430760_j5652176962022_1_alg».proof.Proof.NetArgs
import proofs.«430760_j5652176962022_1_alg».proof.Proof.LibGatherScatter
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo Cert.Spec

/-! ## The shared host chain, carried whole

The reference builds the degree, its inverse and the aggregation along the edges with the same operations, in the same
order and with the same dimension numbers as the functions of the edge words both programs share. -/

theorem deg_eq (x1 : (⟨S2x800000, .i32⟩ : BufTy).Contents (Elt Ideal)) : val_main_v15 (F := Ideal) x1 = Cert.KernelIdeal.Glue.deg x1 := rfl

theorem agg_eq (a : (⟨S50000x128, .f32⟩ : BufTy).Contents (Elt Ideal)) (x1 : (⟨S2x800000, .i32⟩ : BufTy).Contents (Elt Ideal)) (W : (⟨S128x128, .f32⟩ : BufTy).Contents (Elt Ideal)) :
    val_main_v45 (F := Ideal) a x1 W = Cert.KernelIdeal.Glue.agg x1 (val_main_v4 (F := Ideal) a W) := rfl

/-- The reciprocal degree of node `r` is the shared inverse-degree column at row `r`. -/
theorem dinv_at (x1 : (⟨S2x800000, .i32⟩ : BufTy).Contents (Elt Ideal)) (r : Fin 50000) : val_main_v47 (F := Ideal) x1 (ix1 r) = dinvM x1 r := by
  unfold dinvM Cert.KernelIdeal.Glue.dinv
  rw [shapeCast_apply _ _ (ix2 r (0 : Fin 1)) (ix1 r) (by
    rw [Shape.rowMajor_val_one, Shape.rowMajor_val_two]; show r.val = r.val * 1 + 0; omega)]
  rfl

/-! ## The reference's second and third layers are its first layer's function again -/

theorem layer2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) :
    val_main_v157 (F := Ideal) x0 x1 x3 x4 x5 x6 x7 x8 x9 x10
      = val_main_v80 (F := Ideal) (val_main_v80 (F := Ideal) x0 x1 x3 x4 x5 x6) x1 x7 x8 x9 x10 := rfl

theorem layer3_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) :
    val_main_v234 (F := Ideal) x0 x1 x3 x4 x5 x6 x7 x8 x9 x10 x11 x12 x13 x14
      = val_main_v80 (F := Ideal) (val_main_v157 (F := Ideal) x0 x1 x3 x4 x5 x6 x7 x8 x9 x10) x1 x11 x12 x13 x14 := rfl

/-! ## One layer -/

section Layer

variable (a : (⟨S50000x128, .f32⟩ : BufTy).Contents (Elt Ideal)) (x1 : (⟨S2x800000, .i32⟩ : BufTy).Contents (Elt Ideal)) (W : (⟨S128x128, .f32⟩ : BufTy).Contents (Elt Ideal)) (b g be : (⟨S128, .f32⟩ : BufTy).Contents (Elt Ideal))

theorem lidx4 (r : Fin 50000) (j k : Fin 128) : lidx_main_v4 (ix2 r j) k = ix2 r k := by
  funext d; apply Fin.ext; match d with | ⟨0, _⟩ => rfl | ⟨1, _⟩ => rfl
theorem ridx4 (r : Fin 50000) (j k : Fin 128) : ridx_main_v4 (ix2 r j) k = ix2 k j := by
  funext d; apply Fin.ext; match d with | ⟨0, _⟩ => rfl | ⟨1, _⟩ => rfl
theorem idx48_49 (r : Fin 50000) (j : Fin 128) : idx_main_v48 (idx_main_v49 (ix2 r j)) = ix1 r := by
  funext d; apply Fin.ext; match d with | ⟨0, _⟩ => rfl
theorem idx52_53 (r : Fin 50000) (j : Fin 128) : idx_main_v52 (idx_main_v53 (ix2 r j)) = ix1 j := by
  funext d; apply Fin.ext; match d with | ⟨0, _⟩ => rfl
theorem idx55 (j : Fin 128) (k : Fin 50000) : idx_main_v55 (ix1 j) k = ix2 k j := by
  funext d; apply Fin.ext; match d with | ⟨0, _⟩ => rfl | ⟨1, _⟩ => rfl
theorem idx62 (j : Fin 128) (k : Fin 50000) : idx_main_v62 (ix1 j) k = ix2 k j := by
  funext d; apply Fin.ext; match d with | ⟨0, _⟩ => rfl | ⟨1, _⟩ => rfl
theorem idx58_59 (r : Fin 50000) (j : Fin 128) : idx_main_v58 (idx_main_v59 (ix2 r j)) = ix1 j := by
  funext d; apply Fin.ext; match d with | ⟨0, _⟩ => rfl
theorem idx65_66 (r : Fin 50000) (j : Fin 128) : idx_main_v65 (idx_main_v66 (ix2 r j)) = ix1 j := by
  funext d; apply Fin.ext; match d with | ⟨0, _⟩ => rfl
theorem idx71_72 (r : Fin 50000) (j : Fin 128) : idx_main_v71 (idx_main_v72 (ix2 r j)) = ix1 j := by
  funext d; apply Fin.ext; match d with | ⟨0, _⟩ => rfl
theorem idx74_75 (r : Fin 50000) (j : Fin 128) : idx_main_v74 (idx_main_v75 (ix2 r j)) = ix1 j := by
  funext d; apply Fin.ext; match d with | ⟨0, _⟩ => rfl
theorem idx77_78 (r : Fin 50000) (j : Fin 128) : idx_main_v77 (idx_main_v78 (ix2 r j)) = ix1 j := by
  funext d; apply Fin.ext; match d with | ⟨0, _⟩ => rfl

/-- The dense map: row `r` of the input against column `j` of the weights. -/
theorem lin_at (r : Fin 50000) (j : Fin 128) :
    val_main_v4 (F := Ideal) a W (ix2 r j) = lin (toMat a) (toMat W) r j := by
  rw [val_main_v4_apply]
  unfold lin toMat
  refine Finset.sum_congr rfl fun k _ => ?_
  rw [lidx4, ridx4]

theorem lin_eq : val_main_v4 (F := Ideal) a W = ofMat (lin (toMat a) (toMat W)) := by
  funext i
  obtain ⟨p, q, rfl⟩ : ∃ (p : Fin 50000) (q : Fin 128), i = ix2 p q := ⟨i 0, i 1, eq_ix2 i⟩
  exact lin_at a W p q

/-- The pre-activation: the aggregated messages, the self loop weighted by the inverse degree, the bias. -/
theorem pre_at (r : Fin 50000) (j : Fin 128) :
    val_main_v54 (F := Ideal) a x1 W b (ix2 r j)
      = layerC (aggM x1) (dinvM x1) (toMat a) (toMat W) (rowOf b) r j := by
  rw [val_main_v54_apply, val_main_v51_apply, val_main_v50_apply, val_main_v49_apply, val_main_v48_apply,
    val_main_v53_apply, val_main_v52_apply, idx48_49, idx52_53, dinv_at, agg_eq, lin_eq]
  rfl

theorem pre_eq : val_main_v54 (F := Ideal) a x1 W b
    = ofMat (layerC (aggM x1) (dinvM x1) (toMat a) (toMat W) (rowOf b)) := by
  funext i
  obtain ⟨p, q, rfl⟩ : ∃ (p : Fin 50000) (q : Fin 128), i = ix2 p q := ⟨i 0, i 1, eq_ix2 i⟩
  exact pre_at a x1 W b p q

/-- The column mean: the sum over the rows divided by the node count. -/
theorem mean_at (j : Fin 128) :
    val_main_v57 (F := Ideal) a x1 W b (ix1 j) = colMean (toMat (val_main_v54 (F := Ideal) a x1 W b)) j := by
  rw [val_main_v57_apply, val_main_v55_apply, val_main_v56_apply, val_main_cst_12_apply, val_main_cst_13_apply]
  generalize val_main_v54 (F := Ideal) a x1 W b = c
  simp only [idx55, Ideal.hostDivf_def, Ideal.ofBits_def, Ideal.ofBits_zero_f32, zero_add]
  rfl

/-- One centred square. -/
theorem sq_at (r : Fin 50000) (j : Fin 128) :
    val_main_v61 (F := Ideal) a x1 W b (ix2 r j)
      = (toMat (val_main_v54 (F := Ideal) a x1 W b) r j - colMean (toMat (val_main_v54 (F := Ideal) a x1 W b)) j)
        * (toMat (val_main_v54 (F := Ideal) a x1 W b) r j - colMean (toMat (val_main_v54 (F := Ideal) a x1 W b)) j) := by
  rw [val_main_v61_apply, val_main_v60_apply, val_main_v59_apply, val_main_v58_apply, idx58_59, mean_at]
  generalize val_main_v54 (F := Ideal) a x1 W b = c
  rfl

/-- The variance: the mean of the centred squares. -/
theorem var_at (j : Fin 128) :
    val_main_v64 (F := Ideal) a x1 W b (ix1 j) = varCentred (toMat (val_main_v54 (F := Ideal) a x1 W b)) j := by
  rw [val_main_v64_apply, val_main_v62_apply, val_main_v63_apply, val_main_cst_14_apply, val_main_cst_15_apply]
  simp only [idx62, sq_at]
  generalize val_main_v54 (F := Ideal) a x1 W b = c
  rw [Ideal.hostDivf_def, Ideal.ofBits_def, Ideal.ofBits_def, Ideal.ofBits_zero_f32, zero_add]
  rfl

/-- Normalise with the column statistics, scale, shift, clamp at zero. -/
theorem act_at (r : Fin 50000) (j : Fin 128) :
    val_main_v80 (F := Ideal) a x1 W b g be (ix2 r j)
      = bnRelu (toMat (val_main_v54 (F := Ideal) a x1 W b)) (colMean (toMat (val_main_v54 (F := Ideal) a x1 W b)))
          (varCentred (toMat (val_main_v54 (F := Ideal) a x1 W b))) (rowOf g) (rowOf be) r j := by
  rw [val_main_v80_apply, val_main_v79_apply, val_main_v76_apply, val_main_v73_apply, val_main_v67_apply,
    val_main_v66_apply, val_main_v65_apply, val_main_v72_apply, val_main_v71_apply, val_main_v70_apply,
    val_main_v69_apply, val_main_v68_apply, val_main_cst_16_apply, val_main_v75_apply, val_main_v74_apply,
    val_main_v78_apply, val_main_v77_apply, val_main_call0_v0_apply, val_main_call0_cst_apply,
    idx65_66, idx71_72, idx74_75, idx77_78, mean_at, var_at]
  generalize val_main_v54 (F := Ideal) a x1 W b = c
  simp only [Ideal.maximumf_def, Ideal.addf_def, Ideal.mulf_def, Ideal.subf_def, Ideal.hostUnary_rsqrt_def,
    Ideal.ofBits_def, Ideal.ofBits_zero_f32]
  rfl

/-- One whole layer of the reference in the specification's words. -/
theorem layer_eq : val_main_v80 (F := Ideal) a x1 W b g be
    = ofMat (actR (layerC (aggM x1) (dinvM x1) (toMat a) (toMat W) (rowOf b)) (rowOf g) (rowOf be)) := by
  funext i
  obtain ⟨p, q, rfl⟩ : ∃ (p : Fin 50000) (q : Fin 128), i = ix2 p q := ⟨i 0, i 1, eq_ix2 i⟩
  rw [act_at, pre_eq, toMat_ofMat]
  generalize layerC (aggM x1) (dinvM x1) (toMat a) (toMat W) (rowOf b) = C
  rfl

end Layer

/-! ## Pooling by graph and the head -/

/-- A 32-bit word reads signed as a natural number below 250 exactly when it is that number's word. -/
theorem toInt_eq_iff (w : BitVec 32) (n : Nat) (hn : n < 250) : w.toInt = (n : Int) ↔ w = BitVec.ofNat 32 n := by
  constructor
  · intro h
    apply BitVec.eq_of_toNat_eq
    have hc := BitVec.toInt_eq_toNat_cond w
    rw [BitVec.toNat_ofNat]
    have hw := w.isLt
    split at hc <;> omega
  · rintro rfl
    rw [BitVec.toInt_eq_toNat_cond, BitVec.toNat_ofNat]
    split <;> omega

theorem idx236 (e : Fin 50000) : idx_main_v236 (Predicate.ixP e) = ix1 e := by
  funext d; apply Fin.ext; match d with | ⟨0, _⟩ => rfl

/-- The scatter-add over the batch words into zeros: row `g` gathers the rows whose batch word is `g`. -/
theorem pool_at (act : (⟨S50000x128, .f32⟩ : BufTy).Contents (Elt Ideal)) (x2 : (⟨S50000, .i32⟩ : BufTy).Contents (Elt Ideal)) (gI : Fin 250) (j : Fin 128) :
    Host.scatterAdd (F := Ideal) (φ := .f32) scatter_S250x128_S50000x1_S50000x128_1_0_0_1 (val_main_v235 (F := Ideal))
        (val_main_v236 (F := Ideal) x2) act (ix2 gI j)
      = pool (G := 250) (toMat act) (batchW x2) gI j := by
  have h := RowOps.scatterAdd_rows (K := 250) (D := 128) (n := 50000) scatter_S250x128_S50000x1_S50000x128_1_0_0_1 rfl rfl rfl rfl
    (val_main_v235 (F := Ideal)) (val_main_v236 (F := Ideal) x2) act gI j
  refine h.trans ?_
  rw [val_main_v235_apply, val_main_cst_55_apply, Ideal.ofBits_def, Ideal.ofBits_zero_f32, zero_add, Finset.sum_filter]
  unfold Cert.Spec.pool
  refine Finset.sum_congr rfl fun e _ => ?_
  have hl : RowOps.lands (val_main_v236 (F := Ideal) x2) e gI.val ↔ batchW x2 e = BitVec.ofNat 32 gI.val := by
    unfold RowOps.lands
    rw [val_main_v236_apply, idx236]
    exact toInt_eq_iff _ _ gI.isLt
  by_cases hb : batchW x2 e = BitVec.ofNat 32 gI.val
  · rw [if_pos (hl.2 hb), if_pos hb]; rfl
  · rw [if_neg (fun h' => hb (hl.1 h')), if_neg hb]

section Head

variable (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal))
    (x11 : (⟨S128x128, .f32⟩ : BufTy).Contents (Elt Ideal)) (x12 x13 x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x1, .f32⟩ : BufTy).Contents (Elt Ideal)) (x18 : (⟨S1, .f32⟩ : BufTy).Contents (Elt Ideal))

theorem pool_eq : toMat (val_main_v237 (F := Ideal) x0 x1 x2 x3 x4 x5 x6 x7 x8 x9 x10 x11 x12 x13 x14)
    = pool (G := 250) (toMat (val_main_v234 (F := Ideal) x0 x1 x3 x4 x5 x6 x7 x8 x9 x10 x11 x12 x13 x14)) (batchW x2) := by
  funext gI j
  exact pool_at (val_main_v234 (F := Ideal) x0 x1 x3 x4 x5 x6 x7 x8 x9 x10 x11 x12 x13 x14) x2 gI j

theorem lidx238 (gI : Fin 250) (k j : Fin 128) : lidx_main_v238 (ix2 gI k) j = ix2 gI j := by
  funext d; apply Fin.ext; match d with | ⟨0, _⟩ => rfl | ⟨1, _⟩ => rfl
theorem ridx238 (gI : Fin 250) (k j : Fin 128) : ridx_main_v238 (ix2 gI k) j = ix2 j k := by
  funext d; apply Fin.ext; match d with | ⟨0, _⟩ => rfl | ⟨1, _⟩ => rfl
theorem idx239_240 (gI : Fin 250) (k : Fin 128) : idx_main_v239 (idx_main_v240 (ix2 gI k)) = ix1 k := by
  funext d; apply Fin.ext; match d with | ⟨0, _⟩ => rfl
theorem lidx243 (gI : Fin 250) (k : Fin 128) : lidx_main_v243 (ix2 gI (0 : Fin 1)) k = ix2 gI k := by
  funext d; apply Fin.ext; match d with | ⟨0, _⟩ => rfl | ⟨1, _⟩ => rfl
theorem ridx243 (gI : Fin 250) (k : Fin 128) : ridx_main_v243 (ix2 gI (0 : Fin 1)) k = ix2 k (0 : Fin 1) := by
  funext d; apply Fin.ext; match d with | ⟨0, _⟩ => rfl | ⟨1, _⟩ => rfl
theorem idx244_245 (gI : Fin 250) : idx_main_v244 (idx_main_v245 (ix2 gI (0 : Fin 1))) = ix1 (0 : Fin 1) := by
  funext d; apply Fin.ext; match d with | ⟨0, _⟩ => rfl

/-- The two-layer head on pooled row `g`. -/
theorem head_at (gI : Fin 250) :
    val_main_v246 (F := Ideal) x0 x1 x2 x3 x4 x5 x6 x7 x8 x9 x10 x11 x12 x13 x14 x15 x16 x17 x18 (ix2 gI (0 : Fin 1))
      = mlp (toMat (val_main_v237 (F := Ideal) x0 x1 x2 x3 x4 x5 x6 x7 x8 x9 x10 x11 x12 x13 x14)) (toMat x15) (rowOf x16) (fun k => x17 (ix2 k (0 : Fin 1)))
          (x18 (ix1 (0 : Fin 1))) gI := by
  rw [val_main_v246_apply, val_main_v243_apply, val_main_v245_apply, val_main_v244_apply, idx244_245]
  simp only [val_main_v242_apply, val_main_v241_apply, val_main_v238_apply, val_main_v240_apply, val_main_v239_apply,
    val_main_call3_v0_apply, val_main_call3_cst_apply, lidx243, ridx243, lidx238, ridx238, idx239_240,
    Ideal.addf_def, Ideal.maximumf_def, Ideal.ofBits_def, Ideal.ofBits_zero_f32]
  rfl

/-- The reference's whole result at graph `g` is the specification's network of the argument arrays. -/
theorem ref_val (gI : Fin 250) :
    val_main_v246 (F := Ideal) x0 x1 x2 x3 x4 x5 x6 x7 x8 x9 x10 x11 x12 x13 x14 x15 x16 x17 x18 (ix2 gI (0 : Fin 1))
      = netROf x0 x1 x2 (paramsOf x3 x4 x5 x6 x7 x8 x9 x10 x11 x12 x13 x14 x15 x16 x17 x18) gI := by
  rw [head_at, pool_eq, layer3_eq, layer2_eq, layer_eq, layer_eq, layer_eq]
  simp only [toMat_ofMat]
  rfl

end Head

end Cert.ReferenceIdeal.RefValue

end
-- ==== Proof.Bridge.lean ====
/-
  The two spellings of the network agree on real inputs. Each layer's pre-activation is a matrix of real numbers when
  its input is (a dense map, an aggregation that keeps reals real, a real inverse degree and bias), so its variance from
  the two moments IS its variance from centred squares, the two normalisations are one function, and the next layer
  starts from the same real matrix. Pooling into 256 rows and reading a row below 250 is pooling into 250 rows, and the
  head reads one pooled row.
-/
import proofs.«430760_j5652176962022_1_alg».proof.Proof.NetArgs
import proofs.«430760_j5652176962022_1_alg».proof.Proof.Alg

noncomputable section

namespace Cert.Spec

/-- Every learned parameter is a real number. -/
structure Params.Real (P : Params) : Prop where
  W1 : IsReal P.W1
  b1 : IsRealV P.b1
  g1 : IsRealV P.g1
  be1 : IsRealV P.be1
  W2 : IsReal P.W2
  b2 : IsRealV P.b2
  g2 : IsRealV P.g2
  be2 : IsRealV P.be2
  W3 : IsReal P.W3
  b3 : IsRealV P.b3
  g3 : IsRealV P.g3
  be3 : IsRealV P.be3

/-- On a real matrix the two spellings of the normalisation are one function. -/
theorem actK_eq_actR (c : Mat 50000 128) (g be : Fin 128 → EReal) (hc : IsReal c) : actK c g be = actR c g be := by
  unfold actK actR; rw [varMoments_eq_varCentred c hc]

/-- The normalised and clamped matrix is real: the centred variance is a real ≥ 0, so its sum with the positive
    epsilon has a real inverse square root. -/
theorem isReal_actR (c : Mat 50000 128) (g be : Fin 128 → EReal) (hc : IsReal c) (hg : IsRealV g) (hbe : IsRealV be) :
    IsReal (actR c g be) :=
  isReal_bnRelu c (colMean c) (varCentred c) g be hc (isRealV_colMean c hc) (varCentred_nonneg c hc) hg hbe

/-- A layer's pre-activation is real when its input is. -/
theorem isReal_layerC (agg : Mat 50000 128 → Mat 50000 128) (dinv : Fin 50000 → EReal) (a : Mat 50000 128) (W : Mat 128 128)
    (b : Fin 128 → EReal) (hagg : ∀ h, IsReal h → IsReal (agg h)) (hd : IsRealV dinv) (ha : IsReal a) (hW : IsReal W)
    (hb : IsRealV b) : IsReal (layerC agg dinv a W b) :=
  isReal_comb _ _ _ _ (isReal_lin a W ha hW) (hagg _ (isReal_lin a W ha hW)) hd hb

section
variable (agg : Mat 50000 128 → Mat 50000 128) (dinv : Fin 50000 → EReal) (x : Mat 50000 128) (P : Params)
variable (hagg : ∀ h, IsReal h → IsReal (agg h)) (hd : IsRealV dinv) (hx : IsReal x) (hP : P.Real)
include hagg hd hx hP

theorem c1_real : IsReal (c1 agg dinv x P) := isReal_layerC agg dinv x P.W1 P.b1 hagg hd hx hP.W1 hP.b1

theorem c2_eq : c2 actK agg dinv x P = c2 actR agg dinv x P := by
  unfold c2; rw [actK_eq_actR _ _ _ (c1_real agg dinv x P hagg hd hx hP)]

theorem c2_real : IsReal (c2 actR agg dinv x P) :=
  isReal_layerC agg dinv _ P.W2 P.b2 hagg hd (isReal_actR _ _ _ (c1_real agg dinv x P hagg hd hx hP) hP.g1 hP.be1) hP.W2 hP.b2

theorem c3_eq : c3 actK agg dinv x P = c3 actR agg dinv x P := by
  unfold c3; rw [c2_eq agg dinv x P hagg hd hx hP, actK_eq_actR _ _ _ (c2_real agg dinv x P hagg hd hx hP)]

theorem c3_real : IsReal (c3 actR agg dinv x P) :=
  isReal_layerC agg dinv _ P.W3 P.b3 hagg hd (isReal_actR _ _ _ (c2_real agg dinv x P hagg hd hx hP) hP.g2 hP.be2) hP.W3 hP.b3

/-- THE BRIDGE: at a graph below 250 the kernel's network is the reference's. -/
theorem netK_eq_netR (batch : Fin 50000 → BitVec 32) (g : Fin 250) :
    netK agg dinv x batch P ⟨g.val, by omega⟩ = netR agg dinv x batch P g := by
  unfold netK netR
  rw [c3_eq agg dinv x P hagg hd hx hP, actK_eq_actR _ _ _ (c3_real agg dinv x P hagg hd hx hP)]
  rfl

end

end Cert.Spec

end
-- ==== Proof.AggReal.lean ====
/-
  The shared host chain keeps real numbers real. The in-degree plus one is a real number not below one, so its
  reciprocal and its power −1/2 are real; an edge's coefficient is a product of two such powers; the aggregation of a
  real matrix adds, into each entry, finitely many products of a real entry and a real coefficient to zero.
-/
import proofs.«430760_j5652176962022_1_alg».proof.Proof.NetArgs
import proofs.«430760_j5652176962022_1_alg».proof.Proof.LibGatherScatter
import Idealize.ShloMosaic.PureOps.Ideal.Laws

noncomputable section

open scoped BigOperators

namespace Cert.Spec

open Idealize.ShloMosaic Idealize.ShloMosaic.ValueIdx Cert.KernelIdeal Cert.KernelIdeal.Glue

/-- The word of 1.0 denotes 1. -/
theorem ofBits_f32_one : Ideal.ofBits .f32 0x3F800000#32 = 1 := by
  simp [Ideal.ofBits, Ideal.ieee, -EReal.coe_mul]; norm_num

/-- The word of +0.0 denotes 0. -/
theorem ofBits_f32_zero : Ideal.ofBits .f32 0x00000000#32 = 0 := by
  simp [Ideal.ofBits, Ideal.ieee]

/-- The word of −0.5 denotes the real −1/2. -/
theorem ofBits_f32_neg_half : Ideal.ofBits .f32 0xBF000000#32 = ((-(1 / 2) : ℝ) : EReal) := by
  simp [Ideal.ofBits, Ideal.ieee, -EReal.coe_mul]; norm_num

/-- A finite sum of real numbers is a real number. -/
theorem sum_isReal {ι : Type*} (s : Finset ι) (f : ι → EReal) (h : ∀ i ∈ s, ∃ x : ℝ, f i = (x : EReal)) :
    ∃ x : ℝ, ∑ i ∈ s, f i = (x : EReal) := by
  classical
  induction s using Finset.induction_on with
  | empty => exact ⟨0, by simp⟩
  | insert a s ha ih =>
    obtain ⟨x, hx⟩ := h a (Finset.mem_insert_self a s)
    obtain ⟨y, hy⟩ := ih (fun i hi => h i (Finset.mem_insert_of_mem hi))
    exact ⟨x + y, by rw [Finset.sum_insert ha, hx, hy, EReal.coe_add]⟩

/-- A finite sum of ones is a real number that is not negative. -/
theorem sum_ones_nonneg {ι : Type*} (s : Finset ι) (f : ι → EReal) (h : ∀ i ∈ s, f i = 1) :
    ∃ x : ℝ, 0 ≤ x ∧ ∑ i ∈ s, f i = (x : EReal) := by
  classical
  induction s using Finset.induction_on with
  | empty => exact ⟨0, le_refl _, by simp⟩
  | insert a s ha ih =>
    obtain ⟨y, hy0, hy⟩ := ih (fun i hi => h i (Finset.mem_insert_of_mem hi))
    refine ⟨1 + y, by linarith, ?_⟩
    rw [Finset.sum_insert ha, hy, h a (Finset.mem_insert_self a s), EReal.coe_add, EReal.coe_one]

/-- A scatter-add of real updates into a real operand is real at every index. -/
theorem hostScatterAdd_isReal {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  obtain ⟨a, ha⟩ := hx i
  obtain ⟨b, hb⟩ := sum_isReal _ upd (fun j _ => hu j)
  exact ⟨a + b, by rw [ha, hb, EReal.coe_add]⟩

/-- A scatter-add of ones into zeros is, at every index, a real number that is not negative. -/
theorem hostScatterAdd_ones {s si su : Shape} (d : ScatterDims s si su) {w : Nat} (x : s.Idx → EReal) (idx : IVec si w)
    (upd : su.Idx → EReal) (hx : ∀ i, x i = 0) (hu : ∀ j, upd j = 1) (i : s.Idx) :
    ∃ r : ℝ, 0 ≤ r ∧ Ideal.hostScatterAdd d x idx upd i = (r : EReal) := by
  unfold Ideal.hostScatterAdd
  obtain ⟨b, hb0, hb⟩ := sum_ones_nonneg _ upd (fun j _ => hu j)
  exact ⟨b, hb0, by rw [hx i, hb, zero_add]⟩

/-! ## The chain's operations, on vectors of any shape -/

/-- A broadcast of a real vector is real. -/
theorem broadcastInDim_isReal {s t : Shape} (dims : Fin s.rank → Fin t.rank) (hb : s.BroadcastsInDim t dims)
    (x : s.Idx → EReal) (hx : ∀ i, ∃ r : ℝ, x i = (r : EReal)) (j : t.Idx) :
    ∃ r : ℝ, broadcastInDim t dims hb x j = (r : EReal) :=
  hx _

/-- A broadcast of the constant zero is real. -/
theorem broadcast_zero_isReal {s t : Shape} (dims : Fin s.rank → Fin t.rank) (hb : s.BroadcastsInDim t dims) (j : t.Idx) :
    ∃ x : ℝ, broadcastInDim t dims hb (constant (F := Ideal) s .f32 0x00000000#32) j = (x : EReal) :=
  ⟨0, by rw [EReal.coe_zero]; exact ofBits_f32_zero⟩

/-- A gather reads some entry of its operand: real when every entry is. -/
theorem gather_isReal {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- An entrywise product of real vectors is real. -/
theorem mulf_isReal {s : Shape} (x y : FVec Ideal s .f32) (hx : ∀ i, ∃ r : ℝ, x i = (r : EReal))
    (hy : ∀ i, ∃ r : ℝ, y i = (r : EReal)) (i : s.Idx) : ∃ r : ℝ, mulf x y i = (r : EReal) := by
  obtain ⟨a, ha⟩ := hx i
  obtain ⟨b, hb⟩ := hy i
  refine ⟨a * b, ?_⟩
  show x i * y i = _
  rw [ha, hb, EReal.coe_mul]

/-- An entrywise power of real vectors is a real power: real. -/
theorem hostPowf_isReal {s : Shape} (x y : FVec Ideal s .f32) (hx : ∀ i, ∃ r : ℝ, x i = (r : EReal))
    (hy : ∀ i, ∃ r : ℝ, y i = (r : EReal)) (i : s.Idx) : ∃ r : ℝ, Host.powf x y i = (r : EReal) := by
  obtain ⟨a, ha⟩ := hx i
  obtain ⟨b, hb⟩ := hy i
  refine ⟨Real.rpow a b, ?_⟩
  show Ideal.pow (x i) (y i) = _
  rw [ha, hb, Ideal.pow_coe_coe]

/-- One over a real number not below one is real. -/
theorem hostDivf_one_isReal {s : Shape} (one d : FVec Ideal s .f32) (h1 : ∀ i, one i = 1)
    (hd : ∀ i, ∃ r : ℝ, 1 ≤ r ∧ d i = (r : EReal)) (i : s.Idx) : ∃ r : ℝ, Host.divf one d i = (r : EReal) := by
  obtain ⟨a, ha1, ha⟩ := hd i
  have ha0 : a ≠ 0 := by intro h; rw [h] at ha1; linarith
  refine ⟨1 / a, ?_⟩
  show Ideal.div (one i) (d i) = _
  rw [h1 i, ha, Ideal.div_coe ha0, one_mul]

/-- A host scatter-add of real updates into a real operand is real. -/
theorem scatterAdd_isReal {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) :=
  hostScatterAdd_isReal d x idx upd hx hu i

/-- Ones scattered into zeros, plus one: a real number not below one. -/
theorem scatterAdd_ones_add_one {s si su : Shape} {w : Nat} (d : ScatterDims s si su) (x : FVec Ideal s .f32) (idx : IVec si w)
    (upd : FVec Ideal su .f32) (one : FVec Ideal s .f32) (hx : ∀ i, x i = 0) (hu : ∀ j, upd j = 1) (h1 : ∀ i, one i = 1)
    (i : s.Idx) : ∃ r : ℝ, 1 ≤ r ∧ addf (Host.scatterAdd d x idx upd) one i = (r : EReal) := by
  obtain ⟨y, hy0, hy⟩ := hostScatterAdd_ones d x idx upd hx hu i
  refine ⟨y + 1, by linarith, ?_⟩
  show Ideal.hostScatterAdd d x idx upd i + one i = _
  rw [hy, h1 i, EReal.coe_add, EReal.coe_one]

/-! ## The chain -/

/-- The in-degree plus one is a real number not below one. -/
theorem deg_real (ei : Vec Ideal S2x800000 .i32) (i : S50000.Idx) : ∃ x : ℝ, 1 ≤ x ∧ Glue.deg ei i = (x : EReal) := by
  unfold Glue.deg
  exact scatterAdd_ones_add_one _ _ _ _ _ (fun _ => ofBits_f32_zero) (fun _ => ofBits_f32_one) (fun _ => ofBits_f32_one) i

/-- The degree to the power −1/2 is real. -/
theorem dis_real (ei : Vec Ideal S2x800000 .i32) (i : S50000.Idx) : ∃ x : ℝ, Glue.dis ei i = (x : EReal) := by
  unfold Glue.dis
  exact hostPowf_isReal _ _ (fun i => (deg_real ei i).imp fun _ h => h.2) (fun _ => ⟨_, ofBits_f32_neg_half⟩) i

/-- The inverse degree is real at every node. -/
theorem dinvM_real (ei : Vec Ideal S2x800000 .i32) : ∀ r, ∃ x : ℝ, dinvM ei r = (x : EReal) := by
  intro r
  unfold dinvM Glue.dinv shapeCast
  exact hostDivf_one_isReal _ _ (fun _ => ofBits_f32_one) (deg_real ei) _

/-- The edge coefficient is real at every edge. -/
theorem coef_real (ei : Vec Ideal S2x800000 .i32) : ∀ e, ∃ x : ℝ, Glue.coef ei e = (x : EReal) := by
  intro e
  unfold Glue.coef
  exact mulf_isReal _ _ (gather_isReal _ _ _ (dis_real ei)) (gather_isReal _ _ _ (dis_real ei)) e

/-- The aggregation of a real matrix along the edges is a real matrix. -/
theorem aggM_real (ei : Vec Ideal S2x800000 .i32) (h : Mat 50000 128) (hh : IsReal h) : IsReal (aggM ei h) := by
  intro r j
  have hof : ∀ i, ∃ x : ℝ, ofMat h i = (x : EReal) := fun i => hh (i 0) (i 1)
  unfold aggM toMat Glue.agg
  refine scatterAdd_isReal _ _ _ _ (broadcast_zero_isReal _ _) ?_ _
  refine mulf_isReal _ _ ?_ ?_
  · exact gather_isReal _ _ _ hof
  · exact broadcastInDim_isReal _ _ _ (broadcastInDim_isReal _ _ _ (coef_real ei))

end Cert.Spec

end
-- ==== Proof.PreReal.lean ====
/-
  From the precondition to real numbers. The precondition says, of each of the sixteen float arguments, that every
  entry's absolute value is below +∞ (an `all` over the comparisons, the sixteen results joined by `and`). An extended
  real whose absolute value max x (−x) is below +∞ is neither −∞ nor +∞: it is a real number. The two integer arguments
  are not mentioned.
-/
import proofs.«430760_j5652176962022_1_alg».proof.Defs
import proofs.«430760_j5652176962022_1_alg».proof.Proof.Spec
import Idealize.ShloMosaic.Lib.ReduceAll

noncomputable section

namespace Cert.Proof.PreReal

open Idealize.ShloMosaic Idealize.SL.Sem

/-- The word of +∞ denotes ⊤. -/
theorem ofBits_f32_inf : Ideal.ofBits .f32 0x7F800000#32 = ⊤ := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_f32_inf] at h
  have h' : max x (-x) < ⊤ := by
    by_contra hn
    simp [Ideal.cmp, hn] at h
  induction x using EReal.rec with
  | bot => simp at h'
  | coe r => exact ⟨r, rfl⟩
  | top => simp at h'

/-- An `all` over "the absolute value is below +∞" that came out true: every entry is a real number. -/
theorem real_of_all {s t u : Shape} [Subsingleton t.Idx] {axes : List (Fin s.rank)} (a : FVec Ideal s .f32)
    (dims : Fin u.rank → Fin s.rank) (hb : u.BroadcastsInDim s dims) (init : IVec u 1) (hred : s.ReducesTo axes t)
    (hu : 0 < u.numel) (j : t.Idx)
    (e : Host.reduce IntOp.andi (cmpf .olt (Host.absf a) (broadcastInDim s dims hb (constant u .f32 0x7F800000#32))) init hred hu j
      = 1#1) :
    ∀ i, ∃ x : ℝ, a i = (x : EReal) := by
  intro i
  exact real_of_abs_lt_inf (a i) (Host.reduce_andi_all _ init hred hu j e i)

open Cert.KernelIdeal Cert.Pre_finite_inputs in
/-- Under the precondition every entry of every float argument is a real number. -/
theorem pre_real [Cert.Pre_finite_inputs.Facts] (m : (ℓ : Loc nD τ sig) → Buf (Elt Ideal) ℓ) (h : Cert.Pre_KernelIdeal m)
    (c : Dev nD) :
    (∀ i, ∃ x : ℝ, m ((c.tc : Thread nD τ).loc main_arg0) i = (x : EReal))
    ∧ (∀ i, ∃ x : ℝ, m ((c.tc : Thread nD τ).loc main_arg3) i = (x : EReal))
    ∧ (∀ i, ∃ x : ℝ, m ((c.tc : Thread nD τ).loc main_arg4) i = (x : EReal))
    ∧ (∀ i, ∃ x : ℝ, m ((c.tc : Thread nD τ).loc main_arg5) i = (x : EReal))
    ∧ (∀ i, ∃ x : ℝ, m ((c.tc : Thread nD τ).loc main_arg6) i = (x : EReal))
    ∧ (∀ i, ∃ x : ℝ, m ((c.tc : Thread nD τ).loc main_arg7) i = (x : EReal))
    ∧ (∀ i, ∃ x : ℝ, m ((c.tc : Thread nD τ).loc main_arg8) i = (x : EReal))
    ∧ (∀ i, ∃ x : ℝ, m ((c.tc : Thread nD τ).loc main_arg9) i = (x : EReal))
    ∧ (∀ i, ∃ x : ℝ, m ((c.tc : Thread nD τ).loc main_arg10) i = (x : EReal))
    ∧ (∀ i, ∃ x : ℝ, m ((c.tc : Thread nD τ).loc main_arg11) i = (x : EReal))
    ∧ (∀ i, ∃ x : ℝ, m ((c.tc : Thread nD τ).loc main_arg12) i = (x : EReal))
    ∧ (∀ i, ∃ x : ℝ, m ((c.tc : Thread nD τ).loc main_arg13) i = (x : EReal))
    ∧ (∀ i, ∃ x : ℝ, m ((c.tc : Thread nD τ).loc main_arg14) i = (x : EReal))
    ∧ (∀ i, ∃ x : ℝ, m ((c.tc : Thread nD τ).loc main_arg15) i = (x : EReal))
    ∧ (∀ i, ∃ x : ℝ, m ((c.tc : Thread nD τ).loc main_arg16) i = (x : EReal))
    ∧ (∀ i, ∃ x : ℝ, m ((c.tc : Thread nD τ).loc main_arg17) i = (x : EReal))
    ∧ (∀ i, ∃ x : ℝ, m ((c.tc : Thread nD τ).loc main_arg18) i = (x : EReal)) := by
  haveI : Subsingleton Cert.Pre_finite_inputs.S_.Idx := ⟨fun a b => funext fun d => d.elim0⟩
  have h0 := congrFun (h c) ValueIdx.ix0
  dsimp only [Cert.Pre_finite_inputs.fn, fn_part1, fn_part2, fn_part3, fn_part4, andi] at h0
  simp only [IntOp.andi_eq_one] at h0
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩ := h0
  exact ⟨real_of_all _ _ _ _ _ _ _ e0, real_of_all _ _ _ _ _ _ _ e3, real_of_all _ _ _ _ _ _ _ e4, real_of_all _ _ _ _ _ _ _ e5, real_of_all _ _ _ _ _ _ _ e6, real_of_all _ _ _ _ _ _ _ e7, real_of_all _ _ _ _ _ _ _ e8, real_of_all _ _ _ _ _ _ _ e9, real_of_all _ _ _ _ _ _ _ e10, real_of_all _ _ _ _ _ _ _ e11, real_of_all _ _ _ _ _ _ _ e12, real_of_all _ _ _ _ _ _ _ e13, real_of_all _ _ _ _ _ _ _ e14, real_of_all _ _ _ _ _ _ _ e15, real_of_all _ _ _ _ _ _ _ e16, real_of_all _ _ _ _ _ _ _ e17, real_of_all _ _ _ _ _ _ _ e18⟩

end Cert.Proof.PreReal

end
-- ==== Proof.Final.lean ====
/-
  The comparison of the two idealized programs, assembled. The kernel's run ends with its result array at a named
  array, which is the witness; the reference's run ends with its result at its operations' composed value. Index by
  index the first is the specification's network with the variance from the two moments and the second the same
  network with the variance from centred squares, of the same argument arrays (the two memories agree on them). The
  precondition makes every float argument a matrix of real numbers, the shared aggregation and inverse degree keep
  reals real, and on real matrices the two spellings of the variance are one number; pooling into 256 rows read below
  row 250 is pooling into 250 rows.
-/
import proofs.«430760_j5652176962022_1_alg».proof.Defs
import proofs.«430760_j5652176962022_1_alg».proof.Proof.Gen.Kernel
import proofs.«430760_j5652176962022_1_alg».proof.Proof.Gen.KernelIdeal
import proofs.«430760_j5652176962022_1_alg».proof.Proof.Gen.ReferenceIdeal
import proofs.«430760_j5652176962022_1_alg».proof.Proof.Gen.Pre_finite_inputs
import proofs.«430760_j5652176962022_1_alg».proof.Proof.KI.Run
import proofs.«430760_j5652176962022_1_alg».proof.Proof.KI.KVal
import proofs.«430760_j5652176962022_1_alg».proof.Proof.RefVal
import proofs.«430760_j5652176962022_1_alg».proof.Proof.RefRunV
import proofs.«430760_j5652176962022_1_alg».proof.Proof.Bridge
import proofs.«430760_j5652176962022_1_alg».proof.Proof.AggReal
import proofs.«430760_j5652176962022_1_alg».proof.Proof.PreReal
import Idealize.ShloMosaic.Lib.ValueIdx

noncomputable section

namespace Cert.Proof

open Idealize.ShloMosaic Idealize.ShloMosaic.TcCoe Idealize.SL.Sem Idealize.ShloMosaic.ValueIdx

/-- A rank-2 array of real entries is a real matrix. -/
theorem isReal_toMat {a b : Nat} (v : (⟨2, ![a, b]⟩ : Shape).Idx → EReal) (h : ∀ i, ∃ x : ℝ, v i = (x : EReal)) :
    Cert.Spec.IsReal (Cert.Spec.toMat v) := fun r j => h (ix2 r j)

/-- A rank-1 array of real entries is a real row. -/
theorem isRealV_rowOf {b : Nat} (v : (⟨1, ![b]⟩ : Shape).Idx → EReal) (h : ∀ i, ∃ x : ℝ, v i = (x : EReal)) :
    Cert.Spec.IsRealV (Cert.Spec.rowOf v) := fun j => h (ix1 j)

/-- THE COMPARISON. Both idealized programs run; the kernel's result array is the witness, and the reference's result is
    that array: index by index both are the specification's network of the same argument arrays, whose two spellings of
    the variance agree because the precondition makes every float argument a matrix of real numbers. -/
theorem algebraic : Cert.algebraic_KernelIdeal_ReferenceIdeal := by
  intro m g m' g' hpre hagree
  refine ⟨fun c => Cert.KernelIdeal.Hand.U15 (F := Ideal) m c Cert.KernelIdeal.main_v111, Cert.KernelIdeal.Hand.result (F := Ideal) m g, (θ_run _ _ _).mono (fun r h c => ⟨?_, (h c).2⟩) (Cert.ReferenceIdeal.RefRun.run_value m' g')⟩
  show r.2.mem ((c.tc : Thread Cert.ReferenceIdeal.nD Cert.ReferenceIdeal.τ).loc Cert.ReferenceIdeal.main_v246) = Cert.KernelIdeal.Hand.U15 (F := Ideal) m c Cert.KernelIdeal.main_v111
  obtain ⟨a0, a1, a2, a3, a4, a5, a6, a7, a8, a9, a10, a11, a12, a13, a14, a15, a16, a17, a18⟩ := hagree c
  obtain ⟨r0, r3, r4, r5, r6, r7, r8, r9, r10, r11, r12, r13, r14, r15, r16, r17, r18⟩ := PreReal.pre_real m hpre c
  rw [(h c).1, a0, a1, a2, a3, a4, a5, a6, a7, a8, a9, a10, a11, a12, a13, a14, a15, a16, a17, a18]
  refine funext fun i => ?_
  obtain ⟨gI, u, rfl⟩ : ∃ (gI : Fin 250) (u : Fin 1), i = ix2 gI u := ⟨i 0, i 1, eq_ix2 i⟩
  obtain rfl : u = 0 := Subsingleton.elim _ _
  rw [Cert.ReferenceIdeal.RefValue.ref_val, Cert.KernelIdeal.HandV.kernel_value]
  unfold Cert.Spec.netKOf Cert.Spec.netROf
  exact (Cert.Spec.netK_eq_netR _ _ _ _ (fun h hh => Cert.Spec.aggM_real _ h hh) (Cert.Spec.dinvM_real _)
    (isReal_toMat _ r0)
    ⟨isReal_toMat _ r3, isRealV_rowOf _ r4, isRealV_rowOf _ r5, isRealV_rowOf _ r6,
     isReal_toMat _ r7, isRealV_rowOf _ r8, isRealV_rowOf _ r9, isRealV_rowOf _ r10,
     isReal_toMat _ r11, isRealV_rowOf _ r12, isRealV_rowOf _ r13, isRealV_rowOf _ r14⟩ _ gI).symm

end Cert.Proof

end
-- ==== Proof.lean ====
/-
  The five claims of the certificate.

  Both kernel programs run seven kernel regions between stretches of host operations: each region's grid points are
  run one after the other on blocks of 5000 rows (a dense map; the convolution's combine with two running column
  sums; normalisation, clamp and dense map; and, last, pooling by graph accumulated over the points with the two-layer
  head at the final point), nothing faults, and the argument arrays end as launched. The reference is a straight line
  of host operations, run chunk by chunk. The idealization changed nothing (its ledger is empty).

  For the comparison: the kernel's result array is its network over the specification's functions with the batch
  variance spelt from the two moments, (Σ c²)/N − mean²; the reference's is the same network with the variance from
  centred squares, (Σ (c − mean)²)/N. Under the precondition every float argument is an array of real numbers; the
  shared host chain (degrees, edge coefficients, aggregation along the edges) keeps reals real; on real matrices the
  two spellings of the variance are one function, so layer by layer the two networks are one. Pooling into 256 rows
  read below 250 is pooling into 250 rows, and the head reads one pooled row.
-/
import proofs.«430760_j5652176962022_1_alg».proof.Defs
import proofs.«430760_j5652176962022_1_alg».proof.Proof.Gen.Kernel
import proofs.«430760_j5652176962022_1_alg».proof.Proof.Gen.KernelIdeal
import proofs.«430760_j5652176962022_1_alg».proof.Proof.Gen.ReferenceIdeal
import proofs.«430760_j5652176962022_1_alg».proof.Proof.Gen.Pre_finite_inputs
import proofs.«430760_j5652176962022_1_alg».proof.Proof.K.Run
import proofs.«430760_j5652176962022_1_alg».proof.Proof.KI.Run
import proofs.«430760_j5652176962022_1_alg».proof.Proof.RefRunV
import proofs.«430760_j5652176962022_1_alg».proof.Proof.Final
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_k : Cert.frame_Kernel := fun m ρ _ => Cert.Kernel.Hand.frame (F := Bits) m ρ

/-- The same for the idealized kernel program. -/
theorem frame_ki : Cert.frame_KernelIdeal := fun m ρ _ => Cert.KernelIdeal.Hand.frame (F := Ideal) m ρ

/-- The same for the idealized reference: its run with the result dropped. -/
theorem frame_ri : Cert.frame_ReferenceIdeal := fun m ρ _ => Cert.ReferenceIdeal.RefRun.frame_ref m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
